-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x500000 : Shape := ⟨2, ![2, 500000]⟩
abbrev S500000 : Shape := ⟨1, ![500000]⟩
abbrev S500000x2 : Shape := ⟨2, ![500000, 2]⟩
abbrev S500000x3 : Shape := ⟨2, ![500000, 3]⟩
abbrev S2000x128 : Shape := ⟨2, ![2000, 128]⟩
abbrev S2000x3 : Shape := ⟨2, ![2000, 3]⟩
abbrev S50000x2000 : Shape := ⟨2, ![50000, 2000]⟩
abbrev S100x128 : Shape := ⟨2, ![100, 128]⟩
abbrev S386x128 : Shape := ⟨2, ![386, 128]⟩
abbrev S128 : Shape := ⟨1, ![128]⟩
abbrev S128x128 : Shape := ⟨2, ![128, 128]⟩
abbrev S128x1 : Shape := ⟨2, ![128, 1]⟩
abbrev S258x128 : Shape := ⟨2, ![258, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S500000x2 : S_.BroadcastsInDim S500000x2 (![] : Fin 0 → Fin S500000x2.rank)
  reducesTo_S500000x2_S_d0_1 : S500000x2.ReducesTo [0, 1] S_
  bcast_S_S500000x3 : S_.BroadcastsInDim S500000x3 (![] : Fin 0 → Fin S500000x3.rank)
  reducesTo_S500000x3_S_d0_1 : S500000x3.ReducesTo [0, 1] S_
  bcast_S_S2000x128 : S_.BroadcastsInDim S2000x128 (![] : Fin 0 → Fin S2000x128.rank)
  reducesTo_S2000x128_S_d0_1 : S2000x128.ReducesTo [0, 1] S_
  bcast_S_S2000x3 : S_.BroadcastsInDim S2000x3 (![] : Fin 0 → Fin S2000x3.rank)
  reducesTo_S2000x3_S_d0_1 : S2000x3.ReducesTo [0, 1] S_
  bcast_S_S50000x2000 : S_.BroadcastsInDim S50000x2000 (![] : Fin 0 → Fin S50000x2000.rank)
  reducesTo_S50000x2000_S_d0_1 : S50000x2000.ReducesTo [0, 1] S_
  bcast_S_S100x128 : S_.BroadcastsInDim S100x128 (![] : Fin 0 → Fin S100x128.rank)
  reducesTo_S100x128_S_d0_1 : S100x128.ReducesTo [0, 1] S_
  bcast_S_S386x128 : S_.BroadcastsInDim S386x128 (![] : Fin 0 → Fin S386x128.rank)
  reducesTo_S386x128_S_d0_1 : S386x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S258x128 : S_.BroadcastsInDim S258x128 (![] : Fin 0 → Fin S258x128.rank)
  reducesTo_S258x128_S_d0_1 : S258x128.ReducesTo [0, 1] S_
  bcast_S_S2x500000 : S_.BroadcastsInDim S2x500000 (![] : Fin 0 → Fin S2x500000.rank)
  reducesTo_S2x500000_S_d0_1 : S2x500000.ReducesTo [0, 1] S_
  bcast_S_S500000 : S_.BroadcastsInDim S500000 (![] : Fin 0 → Fin S500000.rank)
  reducesTo_S500000_S_d0 : S500000.ReducesTo [0] S_

variable [Facts]

def fn_part6 {F : FTy → Type} [FloatOps F] (main_arg3 : IVec S500000 32) (main_v100 : IVec S_ 1) (main_c_40 : IVec S_ 32) : IVec S_ 1 :=
  let main_v101 : IVec S500000 32 := broadcastInDim S500000 ![] bcast_S_S500000 main_c_40
  let main_v102 : IVec S500000 1 := cmpi .slt main_arg3 main_v101
  let main_c_41 : IVec S_ 1 := constantI S_ 1 1#1
  let main_v103 : IVec S_ 1 := (fun x v => Host.reduce IntOp.andi x v reducesTo_S500000_S_d0 h_S_) main_v102 main_c_41
  let main_v104 : IVec S_ 1 := andi main_v100 main_v103
  main_v104

def fn_part5 {F : FTy → Type} [FloatOps F] (main_arg2 : IVec S2x500000 32) (main_arg3 : IVec S500000 32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_c_34 : IVec S_ 32 := constantI S_ 32 0#32
  let main_v89 : IVec S2x500000 32 := broadcastInDim S2x500000 ![] bcast_S_S2x500000 main_c_34
  let main_v90 : IVec S2x500000 1 := cmpi .sge main_arg2 main_v89
  let main_c_35 : IVec S_ 1 := constantI S_ 1 1#1
  let main_v91 : IVec S_ 1 := (fun x v => Host.reduce IntOp.andi x v reducesTo_S2x500000_S_d0_1 h_S_) main_v90 main_c_35
  let main_v92 : IVec S_ 1 := andi main_v88 main_v91
  let main_c_36 : IVec S_ 32 := constantI S_ 32 50000#32
  let main_v93 : IVec S2x500000 32 := broadcastInDim S2x500000 ![] bcast_S_S2x500000 main_c_36
  let main_v94 : IVec S2x500000 1 := cmpi .slt main_arg2 main_v93
  let main_c_37 : IVec S_ 1 := constantI S_ 1 1#1
  let main_v95 : IVec S_ 1 := (fun x v => Host.reduce IntOp.andi x v reducesTo_S2x500000_S_d0_1 h_S_) main_v94 main_c_37
  let main_v96 : IVec S_ 1 := andi main_v92 main_v95
  let main_c_38 : IVec S_ 32 := constantI S_ 32 0#32
  let main_v97 : IVec S500000 32 := broadcastInDim S500000 ![] bcast_S_S500000 main_c_38
  let main_v98 : IVec S500000 1 := cmpi .sge main_arg3 main_v97
  let main_c_39 : IVec S_ 1 := constantI S_ 1 1#1
  let main_v99 : IVec S_ 1 := (fun x v => Host.reduce IntOp.andi x v reducesTo_S500000_S_d0 h_S_) main_v98 main_c_39
  let main_v100 : IVec S_ 1 := andi main_v96 main_v99
  let main_c_40 : IVec S_ 32 := constantI S_ 32 100#32
  fn_part6 (F := F) main_arg3 main_v100 main_c_40

def fn_part4 {F : FTy → Type} [FloatOps F] (main_arg2 : IVec S2x500000 32) (main_arg3 : IVec S500000 32) (main_arg16 : FVec F S128 .f32) (main_arg17 : FVec F S128x128 .f32) (main_arg18 : FVec F S128 .f32) (main_arg19 : FVec F S128x1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg19
  let main_cst_32 : FVec F S_ .f32 := constant S_ .f32 0x7F800000#32
  fn_part5 (F := F) main_arg2 main_arg3 main_v83 main_v84 main_cst_32

def fn_part3 {F : FTy → Type} [FloatOps F] (main_arg2 : IVec S2x500000 32) (main_arg3 : IVec S500000 32) (main_arg13 : FVec F S128 .f32) (main_arg14 : FVec F S128x1 .f32) (main_arg15 : FVec F S258x128 .f32) (main_arg16 : FVec F S128 .f32) (main_arg17 : FVec F S128x128 .f32) (main_arg18 : FVec F S128 .f32) (main_arg19 : FVec F S128x1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S258x128 .f32 := Host.absf main_arg15
  let main_cst_24 : FVec F S_ .f32 := constant S_ .f32 0x7F800000#32
  let main_v65 : FVec F S258x128 .f32 := broadcastInDim S258x128 ![] bcast_S_S258x128 main_cst_24
  let main_v66 : IVec S258x128 1 := cmpf .olt main_v64 main_v65
  let main_c_25 : IVec S_ 1 := constantI S_ 1 1#1
  let main_v67 : IVec S_ 1 := (fun x v => Host.reduce IntOp.andi x v reducesTo_S258x128_S_d0_1 h_S_) main_v66 main_c_25
  fn_part4 (F := F) main_arg2 main_arg3 main_arg16 main_arg17 main_arg18 main_arg19 main_v63 main_v67

def fn_part2 {F : FTy → Type} [FloatOps F] (main_arg2 : IVec S2x500000 32) (main_arg3 : IVec S500000 32) (main_arg9 : FVec F S100x128 .f32) (main_arg10 : FVec F S386x128 .f32) (main_arg11 : FVec F S128 .f32) (main_arg12 : FVec F S128x128 .f32) (main_arg13 : FVec F S128 .f32) (main_arg14 : FVec F S128x1 .f32) (main_arg15 : FVec F S258x128 .f32) (main_arg16 : FVec F S128 .f32) (main_arg17 : FVec F S128x128 .f32) (main_arg18 : FVec F S128 .f32) (main_arg19 : FVec F S128x1 .f32) (main_v33 : IVec S_ 1) : IVec S_ 1 :=
  let main_v34 : FVec F S100x128 .f32 := Host.absf main_arg9
  let main_cst_12 : FVec F S_ .f32 := constant S_ .f32 0x7F800000#32
  let main_v35 : FVec F S100x128 .f32 := broadcastInDim S100x128 ![] bcast_S_S100x128 main_cst_12
  let main_v36 : IVec S100x128 1 := cmpf .olt main_v34 main_v35
  let main_c_13 : IVec S_ 1 := constantI S_ 1 1#1
  let main_v37 : IVec S_ 1 := (fun x v => Host.reduce IntOp.andi x v reducesTo_S100x128_S_d0_1 h_S_) main_v36 main_c_13
  let main_v38 : IVec S_ 1 := andi main_v33 main_v37
  let main_v39 : FVec F S386x128 .f32 := Host.absf main_arg10
  let main_cst_14 : FVec F S_ .f32 := constant S_ .f32 0x7F800000#32
  let main_v40 : FVec F S386x128 .f32 := broadcastInDim S386x128 ![] bcast_S_S386x128 main_cst_14
  let main_v41 : IVec S386x128 1 := cmpf .olt main_v39 main_v40
  let main_c_15 : IVec S_ 1 := constantI S_ 1 1#1
  let main_v42 : IVec S_ 1 := (fun x v => Host.reduce IntOp.andi x v reducesTo_S386x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_arg16 main_arg17 main_arg18 main_arg19 main_v48 main_v49 main_v50

def fn_part1 {F : FTy → Type} [FloatOps F] (main_arg2 : IVec S2x500000 32) (main_arg3 : IVec S500000 32) (main_arg6 : FVec F S2000x128 .f32) (main_arg7 : FVec F S2000x3 .f32) (main_arg8 : FVec F S50000x2000 .f32) (main_arg9 : FVec F S100x128 .f32) (main_arg10 : FVec F S386x128 .f32) (main_arg11 : FVec F S128 .f32) (main_arg12 : FVec F S128x128 .f32) (main_arg13 : FVec F S128 .f32) (main_arg14 : FVec F S128x1 .f32) (main_arg15 : FVec F S258x128 .f32) (main_arg16 : FVec F S128 .f32) (main_arg17 : FVec F S128x128 .f32) (main_arg18 : FVec F S128 .f32) (main_arg19 : FVec F S128x1 .f32) (main_v13 : IVec S_ 1) (main_v16 : IVec S500000x3 1) : IVec S_ 1 :=
  let main_c_5 : IVec S_ 1 := constantI S_ 1 1#1
  let main_v17 : IVec S_ 1 := (fun x v => Host.reduce IntOp.andi x v reducesTo_S500000x3_S_d0_1 h_S_) main_v16 main_c_5
  let main_v18 : IVec S_ 1 := andi main_v13 main_v17
  let main_v19 : FVec F S2000x128 .f32 := Host.absf main_arg6
  let main_cst_6 : FVec F S_ .f32 := constant S_ .f32 0x7F800000#32
  let main_v20 : FVec F S2000x128 .f32 := broadcastInDim S2000x128 ![] bcast_S_S2000x128 main_cst_6
  let main_v21 : IVec S2000x128 1 := cmpf .olt main_v19 main_v20
  let main_c_7 : IVec S_ 1 := constantI S_ 1 1#1
  let main_v22 : IVec S_ 1 := (fun x v => Host.reduce IntOp.andi x v reducesTo_S2000x128_S_d0_1 h_S_) main_v21 main_c_7
  let main_v23 : IVec S_ 1 := andi main_v18 main_v22
  let main_v24 : FVec F S2000x3 .f32 := Host.absf main_arg7
  let main_cst_8 : FVec F S_ .f32 := constant S_ .f32 0x7F800000#32
  let main_v25 : FVec F S2000x3 .f32 := broadcastInDim S2000x3 ![] bcast_S_S2000x3 main_cst_8
  let main_v26 : IVec S2000x3 1 := cmpf .olt main_v24 main_v25
  let main_c_9 : IVec S_ 1 := constantI S_ 1 1#1
  let main_v27 : IVec S_ 1 := (fun x v => Host.reduce IntOp.andi x v reducesTo_S2000x3_S_d0_1 h_S_) main_v26 main_c_9
  let main_v28 : IVec S_ 1 := andi main_v23 main_v27
  let main_v29 : FVec F S50000x2000 .f32 := Host.absf main_arg8
  let main_cst_10 : FVec F S_ .f32 := constant S_ .f32 0x7F800000#32
  let main_v30 : FVec F S50000x2000 .f32 := broadcastInDim S50000x2000 ![] bcast_S_S50000x2000 main_cst_10
  let main_v31 : IVec S50000x2000 1 := cmpf .olt main_v29 main_v30
  let main_c_11 : IVec S_ 1 := constantI S_ 1 1#1
  let main_v32 : IVec S_ 1 := (fun x v => Host.reduce IntOp.andi x v reducesTo_S50000x2000_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S50000x3 .f32) (main_arg2 : IVec S2x500000 32) (main_arg3 : IVec S500000 32) (main_arg4 : FVec F S500000x2 .f32) (main_arg5 : FVec F S500000x3 .f32) (main_arg6 : FVec F S2000x128 .f32) (main_arg7 : FVec F S2000x3 .f32) (main_arg8 : FVec F S50000x2000 .f32) (main_arg9 : FVec F S100x128 .f32) (main_arg10 : FVec F S386x128 .f32) (main_arg11 : FVec F S128 .f32) (main_arg12 : FVec F S128x128 .f32) (main_arg13 : FVec F S128 .f32) (main_arg14 : FVec F S128x1 .f32) (main_arg15 : FVec F S258x128 .f32) (main_arg16 : FVec F S128 .f32) (main_arg17 : FVec F S128x128 .f32) (main_arg18 : FVec F S128 .f32) (main_arg19 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S500000x2 .f32 := Host.absf main_arg4
  let main_cst_2 : FVec F S_ .f32 := constant S_ .f32 0x7F800000#32
  let main_v10 : FVec F S500000x2 .f32 := broadcastInDim S500000x2 ![] bcast_S_S500000x2 main_cst_2
  let main_v11 : IVec S500000x2 1 := cmpf .olt main_v9 main_v10
  let main_c_3 : IVec S_ 1 := constantI S_ 1 1#1
  let main_v12 : IVec S_ 1 := (fun x v => Host.reduce IntOp.andi x v reducesTo_S500000x2_S_d0_1 h_S_) main_v11 main_c_3
  let main_v13 : IVec S_ 1 := andi main_v8 main_v12
  let main_v14 : FVec F S500000x3 .f32 := Host.absf main_arg5
  let main_cst_4 : FVec F S_ .f32 := constant S_ .f32 0x7F800000#32
  let main_v15 : FVec F S500000x3 .f32 := broadcastInDim S500000x3 ![] bcast_S_S500000x3 main_cst_4
  let main_v16 : IVec S500000x3 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S50000x3 : Shape := ⟨2, ![50000, 3]⟩
abbrev S2x500000 : Shape := ⟨2, ![2, 500000]⟩
abbrev S500000 : Shape := ⟨1, ![500000]⟩
abbrev S500000x2 : Shape := ⟨2, ![500000, 2]⟩
abbrev S500000x3 : Shape := ⟨2, ![500000, 3]⟩
abbrev S2000x128 : Shape := ⟨2, ![2000, 128]⟩
abbrev S2000x3 : Shape := ⟨2, ![2000, 3]⟩
abbrev S50000x2000 : Shape := ⟨2, ![50000, 2000]⟩
abbrev S100x128 : Shape := ⟨2, ![100, 128]⟩
abbrev S386x128 : Shape := ⟨2, ![386, 128]⟩
abbrev S128 : Shape := ⟨1, ![128]⟩
abbrev S128x128 : Shape := ⟨2, ![128, 128]⟩
abbrev S128x1 : Shape := ⟨2, ![128, 1]⟩
abbrev S258x128 : Shape := ⟨2, ![258, 128]⟩
abbrev S1x500000 : Shape := ⟨2, ![1, 500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S2000x131 : Shape := ⟨2, ![2000, 131]⟩
abbrev S2x128 : Shape := ⟨2, ![2, 128]⟩
abbrev S1x128 : Shape := ⟨2, ![1, 128]⟩
abbrev S1000x2000 : Shape := ⟨2, ![1000, 2000]⟩
abbrev S1000x128 : Shape := ⟨2, ![1000, 128]⟩
abbrev S1000x3 : Shape := ⟨2, ![1000, 3]⟩
abbrev S1000x131 : Shape := ⟨2, ![1000, 131]⟩
abbrev S1000 : Shape := ⟨1, ![1000]⟩
abbrev S1000x1 : Shape := ⟨2, ![1000, 1]⟩
abbrev S500000x6 : Shape := ⟨2, ![500000, 6]⟩
abbrev S4096x128 : Shape := ⟨2, ![4096, 128]⟩
abbrev S4096x6 : Shape := ⟨2, ![4096, 6]⟩
abbrev S4096x3 : Shape := ⟨2, ![4096, 3]⟩
abbrev S4096x1 : Shape := ⟨2, ![4096, 1]⟩

abbrev nBuf : Space → Nat
  | .hbm => 113
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x500000, .i32⟩
  | .hbm, ⟨3, _⟩ => ⟨S500000, .i32⟩
  | .hbm, ⟨4, _⟩ => ⟨S500000x2, .f32⟩
  | .hbm, ⟨5, _⟩ => ⟨S500000x3, .f32⟩
  | .hbm, ⟨6, _⟩ => ⟨S2000x128, .f32⟩
  | .hbm, ⟨7, _⟩ => ⟨S2000x3, .f32⟩
  | .hbm, ⟨8, _⟩ => ⟨S50000x2000, .f32⟩
  | .hbm, ⟨9, _⟩ => ⟨S100x128, .f32⟩
  | .hbm, ⟨10, _⟩ => ⟨S386x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S258x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x1, .f32⟩
  | .hbm, ⟨20, _⟩ => ⟨S1x500000, .i32⟩
  | .hbm, ⟨21, _⟩ => ⟨S500000, .i32⟩
  | .hbm, ⟨22, _⟩ => ⟨S1x500000, .i32⟩
  | .hbm, ⟨23, _⟩ => ⟨S500000, .i32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S1, .i32⟩
  | .hbm, ⟨33, _⟩ => ⟨S_, .i32⟩
  | .hbm, ⟨34, _⟩ => ⟨S500000x1, .i32⟩
  | .hbm, ⟨35, _⟩ => ⟨S500000x1, .i1⟩
  | .hbm, ⟨36, _⟩ => ⟨S1x1, .i32⟩
  | .hbm, ⟨37, _⟩ => ⟨S500000x1, .i32⟩
  | .hbm, ⟨38, _⟩ => ⟨S500000x1, .i1⟩
  | .hbm, ⟨39, _⟩ => ⟨S500000x1, .i1⟩
  | .hbm, ⟨40, _⟩ => ⟨S_, .i1⟩
  | .hbm, ⟨41, _⟩ => ⟨S500000, .i1⟩
  | .hbm, ⟨42, _⟩ => ⟨S500000x128, .f32⟩
  | .hbm, ⟨43, _⟩ => ⟨S500000x128, .i1⟩
  | .hbm, ⟨44, _⟩ => ⟨S_, .f32⟩
  | .hbm, ⟨45, _⟩ => ⟨S500000x128, .f32⟩
  | .hbm, ⟨46, _⟩ => ⟨S500000x128, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S1, .i32⟩
  | .hbm, ⟨56, _⟩ => ⟨S_, .i32⟩
  | .hbm, ⟨57, _⟩ => ⟨S500000x1, .i32⟩
  | .hbm, ⟨58, _⟩ => ⟨S500000x1, .i1⟩
  | .hbm, ⟨59, _⟩ => ⟨S1x1, .i32⟩
  | .hbm, ⟨60, _⟩ => ⟨S500000x1, .i32⟩
  | .hbm, ⟨61, _⟩ => ⟨S500000x1, .i1⟩
  | .hbm, ⟨62, _⟩ => ⟨S500000x1, .i1⟩
  | .hbm, ⟨63, _⟩ => ⟨S_, .i1⟩
  | .hbm, ⟨64, _⟩ => ⟨S500000, .i1⟩
  | .hbm, ⟨65, _⟩ => ⟨S500000x128, .f32⟩
  | .hbm, ⟨66, _⟩ => ⟨S500000x128, .i1⟩
  | .hbm, ⟨67, _⟩ => ⟨S_, .f32⟩
  | .hbm, ⟨68, _⟩ => ⟨S500000x128, .f32⟩
  | .hbm, ⟨69, _⟩ => ⟨S500000x128, .f32⟩
  | .hbm, ⟨70, _⟩ => ⟨S2000x131, .f32⟩
  | .hbm, ⟨71, _⟩ => ⟨S2000x131, .bf16⟩
  | .hbm, ⟨72, _⟩ => ⟨S128x128, .f32⟩
  | .hbm, ⟨73, _⟩ => ⟨S128x128, .f32⟩
  | .hbm, ⟨74, _⟩ => ⟨S2x128, .f32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S128x128, .bf16⟩
  | .hbm, ⟨81, _⟩ => ⟨S128x128, .bf16⟩
  | .hbm, ⟨82, _⟩ => ⟨S128x128, .bf16⟩
  | .hbm, ⟨83, _⟩ => ⟨S128x1, .bf16⟩
  | .hbm, ⟨84, _⟩ => ⟨S50000x3, .f32⟩
  | .hbm, ⟨85, _⟩ => ⟨S128x128, .f32⟩
  | .hbm, ⟨86, _⟩ => ⟨S128x128, .f32⟩
  | .hbm, ⟨87, _⟩ => ⟨S2x128, .f32⟩
  | .hbm, ⟨88, _⟩ => ⟨S128x128, .f32⟩
  | .hbm, ⟨89, _⟩ => ⟨S1x128, .f32⟩
  | .hbm, ⟨90, _⟩ => ⟨S1x128, .f32⟩
  | .hbm, ⟨91, _⟩ => ⟨S100x128, .f32⟩
  | .hbm, ⟨92, _⟩ => ⟨S_, .i32⟩
  | .hbm, ⟨93, _⟩ => ⟨S_, .f32⟩
  | .hbm, ⟨94, _⟩ => ⟨S128x128, .f32⟩
  | .hbm, ⟨95, _⟩ => ⟨S128x128, .bf16⟩
  | .hbm, ⟨96, _⟩ => ⟨S128x128, .bf16⟩
  | .hbm, ⟨97, _⟩ => ⟨S128x128, .bf16⟩
  | .hbm, ⟨98, _⟩ => ⟨S128x128, .bf16⟩
  | .hbm, ⟨99, _⟩ => ⟨S128x1, .bf16⟩
  | .hbm, ⟨100, _⟩ => ⟨S500000, .f32⟩
  | .hbm, ⟨101, _⟩ => ⟨S500000x1, .f32⟩
  | .hbm, ⟨102, _⟩ => ⟨S500000x6, .f32⟩
  | .hbm, ⟨103, _⟩ => ⟨S500000x3, .f32⟩
  | .hbm, ⟨104, _⟩ => ⟨S_, .f32⟩
  | .hbm, ⟨105, _⟩ => ⟨S50000x3, .f32⟩
  | .hbm, ⟨106, _⟩ => ⟨S500000x1, .i32⟩
  | .hbm, ⟨107, _⟩ => ⟨S50000x3, .f32⟩
  | .hbm, ⟨108, _⟩ => ⟨S_, .f32⟩
  | .hbm, ⟨109, _⟩ => ⟨S50000x3, .f32⟩
  | .hbm, ⟨110, _⟩ => ⟨S50000x3, .f32⟩
  | .hbm, ⟨111, _⟩ => ⟨S50000x3, .f32⟩
  | .hbm, ⟨112, _⟩ => ⟨S50000x3, .f32⟩
  | .local _ .vmem, ⟨0, _⟩ => ⟨S1000x2000, .f32⟩
  | .local _ .vmem, ⟨1, _⟩ => ⟨S1000x2000, .f32⟩
  | .local _ .vmem, ⟨2, _⟩ => ⟨S2000x131, .bf16⟩
  | .local _ .vmem, ⟨3, _⟩ => ⟨S1000x128, .f32⟩
  | .local _ .vmem, ⟨4, _⟩ => ⟨S1000x128, .f32⟩
  | .local _ .vmem, ⟨5, _⟩ => ⟨S1000x3, .f32⟩
  | .local _ .vmem, ⟨6, _⟩ => ⟨S1000x3, .f32⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S128x1, .bf16⟩
  | .local _ .vmem, ⟨14, _⟩ => ⟨S1000x3, .f32⟩
  | .local _ .vmem, ⟨15, _⟩ => ⟨S1000x3, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x6, .f32⟩
  | .local _ .vmem, ⟨21, _⟩ => ⟨S4096x6, .f32⟩
  | .local _ .vmem, ⟨22, _⟩ => ⟨S128x128, .bf16⟩
  | .local _ .vmem, ⟨23, _⟩ => ⟨S128x128, .bf16⟩
  | .local _ .vmem, ⟨24, _⟩ => ⟨S2x128, .f32⟩
  | .local _ .vmem, ⟨25, _⟩ => ⟨S128x128, .bf16⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S128x1, .bf16⟩
  | .local _ .vmem, ⟨30, _⟩ => ⟨S4096x3, .f32⟩
  | .local _ .vmem, ⟨31, _⟩ => ⟨S4096x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v4 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_cst : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_c : Ref sig .tc := ⟨.hbm, 92, rfl⟩
abbrev main_call2_v0 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_cst_0 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_cst_1 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x131 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x1 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4096x3 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  concatenates_S2000x3_S2000x128_S2000x131_d1 : Shape.Concatenates [S2000x3, S2000x128] S2000x131 1
  bitsLt_bf16_f32 : FTy.bits .bf16 < FTy.bits .f32
  slices_S258x128_S128x128_0_0 : S258x128.Slices ![0, 0] S128x128
  slices_S258x128_S128x128_128_0 : S258x128.Slices ![128, 0] S128x128
  slices_S258x128_S2x128_256_0 : S258x128.Slices ![256, 0] S2x128
  reducesTo_S2x128_S128_d0 : S2x128.ReducesTo [0] S128
  bcast_S128_S1x128_1 : S128.BroadcastsInDim S1x128 (![1] : Fin 1 → Fin S1x128.rank)
  shapeCasts_S128_S1x128 : S128.ShapeCasts S1x128
  inb_S1000x2000_S1000x2000_0_0 : ∀ a, (![0, 0] : Fin 2 → Nat) a + S1000x2000.size a ≤ S1000x2000.size a
  h_S1000x2000 : 0 < S1000x2000.numel
  inb_S2000x131_S2000x131_0_0 : ∀ a, (![0, 0] : Fin 2 → Nat) a + S2000x131.size a ≤ S2000x131.size a
  h_S2000x131 : 0 < S2000x131.numel
  shapeCasts_S2000x131_S2000x131 : S2000x131.ShapeCasts S2000x131
  slices_S1000x131_o0_0_S1000x3 : S1000x131.Slices ![0, 0] S1000x3
  slices_S1000x131_o0_3_S1000x128 : S1000x131.Slices ![0, 3] S1000x128
  inb_S1000x3_S1000x3_0_0 : ∀ a, (![0, 0] : Fin 2 → Nat) a + S1000x3.size a ≤ S1000x3.size a
  h_S1000x3 : 0 < S1000x3.numel
  reduces_S1000x3_S1000 : S1000x3.Reduces [1] S1000
  shapeCasts_S1000_S1000x1 : S1000.ShapeCasts S1000x1
  broadcasts_S1000x1_S1000x3 : S1000x1.Broadcasts S1000x3
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1000x1_S1000x128 : S1000x1.Broadcasts S1000x128
  broadcasts_S1x128_S1000x128 : S1x128.Broadcasts S1000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  slices_S386x128_S128x128_0_0 : S386x128.Slices ![0, 0] S128x128
  slices_S386x128_S128x128_128_0 : S386x128.Slices ![128, 0] S128x128
  slices_S386x128_S2x128_256_0 : S386x128.Slices ![256, 0] S2x128
  slices_S386x128_S128x128_258_0 : S386x128.Slices ![258, 0] S128x128
  pads_S100x128_S128x128_0280_000 : S100x128.Pads (![0, 0] : Fin 2 → Nat) ![28, 0] ![0, 0] S128x128
  shapeCasts_S500000_S500000x1 : S500000.ShapeCasts S500000x1
  concatenates_S500000x2_S500000x3_S500000x1_S500000x6_d1 : Shape.Concatenates [S500000x2, S500000x3, S500000x1] S500000x6 1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x6_S4096x6_0_0 : ∀ a, (![0, 0] : Fin 2 → Nat) a + S4096x6.size a ≤ S4096x6.size a
  h_S4096x6 : 0 < S4096x6.numel
  shapeCasts_S4096x6_S4096x6 : S4096x6.ShapeCasts S4096x6
  slices_S4096x6_o0_0_S4096x1 : S4096x6.Slices ![0, 0] S4096x1
  slices_S4096x6_o0_1_S4096x1 : S4096x6.Slices ![0, 1] S4096x1
  slices_S4096x6_o0_2_S4096x3 : S4096x6.Slices ![0, 2] S4096x3
  slices_S4096x6_o0_5_S4096x1 : S4096x6.Slices ![0, 5] S4096x1
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S2x128_o0_0_S1x128 : S2x128.Slices ![0, 0] S1x128
  slices_S2x128_o1_0_S1x128 : S2x128.Slices ![1, 0] S1x128
  iota_S4096x128_d1_w32 : S4096x128.Iotas .tc 32 [1]
  broadcasts_S4096x1_S4096x128 : S4096x1.Broadcasts S4096x128
  natLt_1_32 : 1 < 32
  broadcasts_S1x128_S4096x128 : S1x128.Broadcasts S4096x128
  broadcasts_S4096x1_S4096x3 : S4096x1.Broadcasts S4096x3
  inb_S4096x3_S4096x3_0_0 : ∀ a, (![0, 0] : Fin 2 → Nat) a + S4096x3.size a ≤ S4096x3.size a
  h_S4096x3 : 0 < S4096x3.numel
  bcast_S_S50000x3 : S_.BroadcastsInDim S50000x3 (![] : Fin 0 → Fin S50000x3.rank)
  gather_S50000x128_S500000x1_S500000x128_1_0_n_n_0_1_1128_wf : GatherDims.WF S50000x128 S500000x1 S500000x128 [1] [0] [] [0] [] 1 ![1, 128]
  dot_S1000x2000_S2000x131_S1000x131_1_0_0_1_n_n_wf : DotDims.WF S1000x2000 S2000x131 S1000x131 [1] [0] [0] [1] [] []
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []
  dot_S100x128_S128x128_S100x128_1_0_0_1_n_n_wf : DotDims.WF S100x128 S128x128 S100x128 [1] [0] [0] [1] [] []
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  scatter_S50000x3_S500000x1_S500000x3_1_0_0_1_wf : ScatterDims.WF S50000x3 S500000x1 S500000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2000.size a ≤ S50000x2000.size a
  hwx0_0 : ∀ i : grid0.Coords, EltTy.bits .f32 = 32 ∨ (Rect.block (s := S50000x2000) S1000x2000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x131.size a ≤ S2000x131.size a
  hwx0_1 : ∀ i : grid0.Coords, EltTy.bits .bf16 = 32 ∨ (Rect.block (s := S2000x131) S2000x131.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x3.size a ≤ S50000x3.size a
  hwx0_3 : ∀ i : grid0.Coords, EltTy.bits .f32 = 32 ∨ (Rect.block (s := S50000x3) S1000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .bf16 = 32 ∨ (Rect.block (s := S128x1) S128x1.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x3.size a ≤ S50000x3.size a
  hwx0_11 : ∀ i : grid0.Coords, EltTy.bits .f32 = 32 ∨ (Rect.block (s := S50000x3) S1000x3.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4096x128.size a < S500000x128.size a
  hwx1_0 : ∀ i : grid1.Coords, EltTy.bits .f32 = 32 ∨ (Rect.unit (s := S500000x128) (fun a => cc1_transform_0 i a * S4096x128.size a) (fun a => (Pipeline.Clip.of (cc1_transform_0 i a) (S4096x128.size a) (S500000x128.size a)).extent (S4096x128.size a)) fun a => Pipeline.Clip.inb (Pipeline.Clip.ok_of (hstart1_0 i a))).WholeWords (EltTy.packing .f32)
  hwxs1_0 : ∀ i : grid1.Coords, EltTy.bits .f32 = 32 ∨ (Rect.unit (s := S4096x128) (fun _ => 0) (fun a => (Pipeline.Clip.of (cc1_transform_0 i a) (S4096x128.size a) (S500000x128.size a)).extent (S4096x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x128.size a < S500000x128.size a
  hwx1_1 : ∀ i : grid1.Coords, EltTy.bits .f32 = 32 ∨ (Rect.unit (s := S500000x128) (fun a => cc1_transform_1 i a * S4096x128.size a) (fun a => (Pipeline.Clip.of (cc1_transform_1 i a) (S4096x128.size a) (S500000x128.size a)).extent (S4096x128.size a)) fun a => Pipeline.Clip.inb (Pipeline.Clip.ok_of (hstart1_1 i a))).WholeWords (EltTy.packing .f32)
  hwxs1_1 : ∀ i : grid1.Coords, EltTy.bits .f32 = 32 ∨ (Rect.unit (s := S4096x128) (fun _ => 0) (fun a => (Pipeline.Clip.of (cc1_transform_1 i a) (S4096x128.size a) (S500000x128.size a)).extent (S4096x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S4096x6.size a < S500000x6.size a
  hwx1_2 : ∀ i : grid1.Coords, EltTy.bits .f32 = 32 ∨ (Rect.unit (s := S500000x6) (fun a => cc1_transform_2 i a * S4096x6.size a) (fun a => (Pipeline.Clip.of (cc1_transform_2 i a) (S4096x6.size a) (S500000x6.size a)).extent (S4096x6.size a)) fun a => Pipeline.Clip.inb (Pipeline.Clip.ok_of (hstart1_2 i a))).WholeWords (EltTy.packing .f32)
  hwxs1_2 : ∀ i : grid1.Coords, EltTy.bits .f32 = 32 ∨ (Rect.unit (s := S4096x6) (fun _ => 0) (fun a => (Pipeline.Clip.of (cc1_transform_2 i a) (S4096x6.size a) (S500000x6.size a)).extent (S4096x6.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x1.size a ≤ S128x1.size a
  hwx1_10 : ∀ i : grid1.Coords, EltTy.bits .bf16 = 32 ∨ (Rect.block (s := S128x1) S128x1.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hstart1_11 : ∀ (i : grid1.Coords) a, cc1_transform_11 i a * S4096x3.size a < S500000x3.size a
  hwx1_11 : ∀ i : grid1.Coords, EltTy.bits .f32 = 32 ∨ (Rect.unit (s := S500000x3) (fun a => cc1_transform_11 i a * S4096x3.size a) (fun a => (Pipeline.Clip.of (cc1_transform_11 i a) (S4096x3.size a) (S500000x3.size a)).extent (S4096x3.size a)) fun a => Pipeline.Clip.inb (Pipeline.Clip.ok_of (hstart1_11 i a))).WholeWords (EltTy.packing .f32)
  hwxs1_11 : ∀ i : grid1.Coords, EltTy.bits .f32 = 32 ∨ (Rect.unit (s := S4096x3) (fun _ => 0) (fun a => (Pipeline.Clip.of (cc1_transform_11 i a) (S4096x3.size a) (S500000x3.size a)).extent (S4096x3.size a)) fun a => (Nat.zero_add _).trans_le (Pipeline.Clip.extent_le (Pipeline.Clip.ok_of (hstart1_11 i a)))).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S1000x2000_S2000x131_S1000x131_1_0_0_1_n_n : DotDims S1000x2000 S2000x131 S1000x131 where
  lhsContracting := [1]
  rhsContracting := [0]
  lhsNonContracting := [0]
  rhsNonContracting := [1]
  lhsBatch := []
  rhsBatch := []
  wf := dot_S1000x2000_S2000x131_S1000x131_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf
def dot_S100x128_S128x128_S100x128_1_0_0_1_n_n : DotDims S100x128 S128x128 S100x128 where
  lhsContracting := [1]
  rhsContracting := [0]
  lhsNonContracting := [0]
  rhsNonContracting := [1]
  lhsBatch := []
  rhsBatch := []
  wf := dot_S100x128_S128x128_S100x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def scatter_S50000x3_S500000x1_S500000x3_1_0_0_1 : ScatterDims S50000x3 S500000x1 S500000x3 where
  updateWindowDims := [1]
  insertedWindowDims := [0]
  scatterDimsToOperandDims := [0]
  indexVectorDim := 1
  wf := scatter_S50000x3_S500000x1_S500000x3_1_0_0_1_wf

abbrev win0_0 : Pipeline.Window sig grid0 :=
  Pipeline.Window.ofSpec (Memref.whole main_arg8) S1000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x131.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S1000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpecClip (Memref.whole main_v4) S4096x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v5) S4096x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v35) S4096x6.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S2x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v25) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S128x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpecClip (Memref.whole main_v36) S4096x3.size cc1_transform_11 reads1_11 true false 2 stage1_11 sem1_11
    hrank1 hreads1_11 hstart1_11 nbuf1_11 (Memref.isWhole_whole _) hwx1_11 hwxs1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x500000 : Shape := ⟨2, ![2, 500000]⟩
abbrev S500000 : Shape := ⟨1, ![500000]⟩
abbrev S500000x2 : Shape := ⟨2, ![500000, 2]⟩
abbrev S500000x3 : Shape := ⟨2, ![500000, 3]⟩
abbrev S2000x128 : Shape := ⟨2, ![2000, 128]⟩
abbrev S2000x3 : Shape := ⟨2, ![2000, 3]⟩
abbrev S50000x2000 : Shape := ⟨2, ![50000, 2000]⟩
abbrev S100x128 : Shape := ⟨2, ![100, 128]⟩
abbrev S386x128 : Shape := ⟨2, ![386, 128]⟩
abbrev S128 : Shape := ⟨1, ![128]⟩
abbrev S128x128 : Shape := ⟨2, ![128, 128]⟩
abbrev S128x1 : Shape := ⟨2, ![128, 1]⟩
abbrev S258x128 : Shape := ⟨2, ![258, 128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S500000x386 : Shape := ⟨2, ![500000, 386]⟩
abbrev S50000x258 : Shape := ⟨2, ![50000, 258]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S50000x3, .f32⟩
  | 2 => ⟨S2x500000, .i32⟩
  | 3 => ⟨S500000, .i32⟩
  | 4 => ⟨S500000x2, .f32⟩
  | 5 => ⟨S500000x3, .f32⟩
  | 6 => ⟨S2000x128, .f32⟩
  | 7 => ⟨S2000x3, .f32⟩
  | 8 => ⟨S50000x2000, .f32⟩
  | 9 => ⟨S100x128, .f32⟩
  | 10 => ⟨S386x128, .f32⟩
  | 11 => ⟨S128, .f32⟩
  | 12 => ⟨S128x128, .f32⟩
  | 13 => ⟨S128, .f32⟩
  | 14 => ⟨S128x1, .f32⟩
  | 15 => ⟨S258x128, .f32⟩
  | 16 => ⟨S128, .f32⟩
  | 17 => ⟨S128x128, .f32⟩
  | 18 => ⟨S128, .f32⟩
  | 19 => ⟨S128x1, .f32⟩
  | 20 => ⟨S1x500000, .i32⟩
  | 21 => ⟨S500000, .i32⟩
  | 22 => ⟨S1x500000, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S50000x3, .f32⟩
  | 34 => ⟨S50000x3, .f32⟩
  | 35 => ⟨S50000x3, .f32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x1, .f32⟩
  | 43 => ⟨S_, .f32⟩
  | 44 => ⟨S50000x1, .f32⟩
  | 45 => ⟨S50000x1, .f32⟩
  | 46 => ⟨S50000x3, .f32⟩
  | 47 => ⟨S50000x3, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S500000x386, .f32⟩
  | 67 => ⟨S50000x128, .f32⟩
  | 68 => ⟨S50000x258, .f32⟩
  | 69 => ⟨S500000x128, .f32⟩
  | 70 => ⟨S1x128, .f32⟩
  | 71 => ⟨S500000x128, .f32⟩
  | 72 => ⟨S500000x128, .f32⟩
  | 73 => ⟨S500000x128, .f32⟩
  | 74 => ⟨S500000x128, .f32⟩
  | 75 => ⟨S_, .f32⟩
  | 76 => ⟨S500000x128, .f32⟩
  | 77 => ⟨S500000x128, .f32⟩
  | 78 => ⟨S_, .f32⟩
  | 79 => ⟨S500000x128, .f32⟩
  | 80 => ⟨S500000x128, .f32⟩
  | 81 => ⟨S500000x128, .f32⟩
  | 82 => ⟨S500000x128, .f32⟩
  | 83 => ⟨S1x128, .f32⟩
  | 84 => ⟨S500000x128, .f32⟩
  | 85 => ⟨S500000x128, .f32⟩
  | 86 => ⟨S500000x128, .f32⟩
  | 87 => ⟨S500000x128, .f32⟩
  | 88 => ⟨S_, .f32⟩
  | 89 => ⟨S500000x128, .f32⟩
  | 90 => ⟨S500000x128, .f32⟩
  | 91 => ⟨S_, .f32⟩
  | 92 => ⟨S500000x128, .f32⟩
  | 93 => ⟨S500000x128, .f32⟩
  | 94 => ⟨S500000x128, .f32⟩
  | 95 => ⟨S500000x1, .f32⟩
  | 96 => ⟨S50000x128, .f32⟩
  | 97 => ⟨S1x128, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S50000x1, .f32⟩
  | 123 => ⟨S500000x1, .f32⟩
  | 124 => ⟨S500000x3, .f32⟩
  | 125 => ⟨S500000x3, .f32⟩
  | 126 => ⟨S_, .f32⟩
  | 127 => ⟨S500000x3, .f32⟩
  | _ => ⟨S50000x128, .f32⟩

abbrev hbmTy0_1 (i : Nat) : BufTy := match i % 128 with
  | 0 => ⟨S500000x3, .f32⟩
  | 1 => ⟨S50000x1, .f32⟩
  | 2 => ⟨S50000x3, .f32⟩
  | 3 => ⟨S50000x3, .f32⟩
  | 4 => ⟨S_, .f32⟩
  | 5 => ⟨S50000x3, .f32⟩
  | 6 => ⟨S50000x3, .f32⟩
  | 7 => ⟨S_, .f32⟩
  | 8 => ⟨S50000x3, .f32⟩
  | 9 => ⟨S500000x1, .i32⟩
  | 10 => ⟨S50000x3, .f32⟩
  | 11 => ⟨S_, .f32⟩
  | 12 => ⟨S50000x3, .f32⟩
  | 13 => ⟨S50000x3, .f32⟩
  | 14 => ⟨S50000x3, .f32⟩
  | 15 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_3 : Ref sig .tc := ⟨.hbm, 48, rfl⟩
abbrev main_v23 : Ref sig .tc := ⟨.hbm, 49, rfl⟩
abbrev main_v24 : Ref sig .tc := ⟨.hbm, 50, rfl⟩
abbrev main_c_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_5 : Ref sig .tc := ⟨.hbm, 57, rfl⟩
abbrev main_v30 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_call2_v0 : Ref sig .tc := ⟨.hbm, 100, rfl⟩
abbrev main_call2_v1 : Ref sig .tc := ⟨.hbm, 101, rfl⟩
abbrev main_call2_cst : Ref sig .tc := ⟨.hbm, 102, rfl⟩
abbrev main_call2_v2 : Ref sig .tc := ⟨.hbm, 103, rfl⟩
abbrev main_call2_v3 : Ref sig .tc := ⟨.hbm, 104, rfl⟩
abbrev main_call2_cst_0 : Ref sig .tc := ⟨.hbm, 105, rfl⟩
abbrev main_call2_v4 : Ref sig .tc := ⟨.hbm, 106, rfl⟩
abbrev main_call2_v5 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_cst_7 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_8 : Ref sig .tc := ⟨.hbm, 132, rfl⟩
abbrev main_v70 : Ref sig .tc := ⟨.hbm, 133, rfl⟩
abbrev main_v71 : Ref sig .tc := ⟨.hbm, 134, rfl⟩
abbrev main_cst_9 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_10 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S50000x3_S50000_d1 : S50000x3.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  concatenates_S500000x128_S500000x128_S500000x2_S500000x128_S500000x386_d1 : Shape.Concatenates [S500000x128, S500000x128, S500000x2, S500000x128] S500000x386 1
  concatenates_S50000x128_S50000x128_S50000x1_S50000x1_S50000x258_d1 : Shape.Concatenates [S50000x128, S50000x128, S50000x1, S50000x1] S50000x258 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S500000x1_S500000x3_0_1 : S500000x1.BroadcastsInDim S500000x3 (![0, 1] : Fin 2 → Fin S500000x3.rank)
  bcast_S_S500000x3 : S_.BroadcastsInDim S500000x3 (![] : Fin 0 → Fin S500000x3.rank)
  bcast_S_S50000x3 : S_.BroadcastsInDim S50000x3 (![] : Fin 0 → Fin S50000x3.rank)
  gather_S100x128_S500000x1_S500000x128_1_0_n_n_0_1_1128_wf : GatherDims.WF S100x128 S500000x1 S500000x128 [1] [0] [] [0] [] 1 ![1, 128]
  dot_S50000x2000_S2000x3_S50000x3_1_0_0_1_n_n_wf : DotDims.WF S50000x2000 S2000x3 S50000x3 [1] [0] [0] [1] [] []
  gather_S50000x128_S500000x1_S500000x128_1_0_n_n_0_1_1128_wf : GatherDims.WF S50000x128 S500000x1 S500000x128 [1] [0] [] [0] [] 1 ![1, 128]
  dot_S50000x2000_S2000x128_S50000x128_1_0_0_1_n_n_wf : DotDims.WF S50000x2000 S2000x128 S50000x128 [1] [0] [0] [1] [] []
  dot_S500000x386_S386x128_S500000x128_1_0_0_1_n_n_wf : DotDims.WF S500000x386 S386x128 S500000x128 [1] [0] [0] [1] [] []
  dot_S500000x128_S128x128_S500000x128_1_0_0_1_n_n_wf : DotDims.WF S500000x128 S128x128 S500000x128 [1] [0] [0] [1] [] []
  dot_S500000x128_S128x1_S500000x1_1_0_0_1_n_n_wf : DotDims.WF S500000x128 S128x1 S500000x1 [1] [0] [0] [1] [] []
  dot_S50000x258_S258x128_S50000x128_1_0_0_1_n_n_wf : DotDims.WF S50000x258 S258x128 S50000x128 [1] [0] [0] [1] [] []
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  scatter_S50000x3_S500000x1_S500000x3_1_0_0_1_wf : ScatterDims.WF S50000x3 S500000x1 S500000x3 [1] [0] [0] 1

variable [Facts₀]

def gather_S100x128_S500000x1_S500000x128_1_0_n_n_0_1_1128 : GatherDims S100x128 S500000x1 S500000x128 where
  offsetDims := [1]
  collapsedSliceDims := [0]
  operandBatchingDims := []
  startIndicesBatchingDims := []
  startIndexMap := [0]
  indexVectorDim := 1
  sliceSizes := ![1, 128]
  wf := gather_S100x128_S500000x1_S500000x128_1_0_n_n_0_1_1128_wf
def dot_S50000x2000_S2000x3_S50000x3_1_0_0_1_n_n : DotDims S50000x2000 S2000x3 S50000x3 where
  lhsContracting := [1]
  rhsContracting := [0]
  lhsNonContracting := [0]
  rhsNonContracting := [1]
  lhsBatch := []
  rhsBatch := []
  wf := dot_S50000x2000_S2000x3_S50000x3_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S50000x2000_S2000x128_S50000x128_1_0_0_1_n_n : DotDims S50000x2000 S2000x128 S50000x128 where
  lhsContracting := [1]
  rhsContracting := [0]
  lhsNonContracting := [0]
  rhsNonContracting := [1]
  lhsBatch := []
  rhsBatch := []
  wf := dot_S50000x2000_S2000x128_S50000x128_1_0_0_1_n_n_wf
def dot_S500000x386_S386x128_S500000x128_1_0_0_1_n_n : DotDims S500000x386 S386x128 S500000x128 where
  lhsContracting := [1]
  rhsContracting := [0]
  lhsNonContracting := [0]
  rhsNonContracting := [1]
  lhsBatch := []
  rhsBatch := []
  wf := dot_S500000x386_S386x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf
def dot_S50000x258_S258x128_S50000x128_1_0_0_1_n_n : DotDims S50000x258 S258x128 S50000x128 where
  lhsContracting := [1]
  rhsContracting := [0]
  lhsNonContracting := [0]
  rhsNonContracting := [1]
  lhsBatch := []
  rhsBatch := []
  wf := dot_S50000x258_S258x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S50000x3_S500000x1_S500000x3_1_0_0_1 : ScatterDims S50000x3 S500000x1 S500000x3 where
  updateWindowDims := [1]
  insertedWindowDims := [0]
  scatterDimsToOperandDims := [0]
  indexVectorDim := 1
  wf := scatter_S50000x3_S500000x1_S500000x3_1_0_0_1_wf

class Facts : Prop extends Facts₀ where

variable [Facts]
-- ==== Proof.K.Body0.lean ====
/- Region 0, the fused fragment kernel on its grid of 50 row blocks: the half of its certificate that speaks of one
   grid point. At a PARAMETER V (the core's buffer contents when the region is entered): the block each of the twelve
   windows holds at a point; what the body leaves in the output window's buffer, as a function of the eleven input
   blocks; the body's triple on whole staging buffers; the pipeline's proof data; and the body obligation at every
   point. Windows 0, 2, 3 (the row blocks of the three row-indexed operands) are fetched at every point; windows 1 and
   4..10 (the whole small operands) are fetched once and stay resident; window 11 (the output rows) is written back at
   every point. -/
import proofs.«426145_j45973329936455_2_alg».proof.Proof.Gen.Kernel.Launch
import proofs.«426145_j45973329936455_2_alg».proof.Proof.Gen.Kernel.Skeleton
import proofs.«426145_j45973329936455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the window was fetched at that
    point or not: where it was not fetched its block index has not moved since the last fetch, so the buffer still
    holds the block of this point. Stated for ANY proof data whose array is V's and whose body leaves the block in
    place; no window of this region is cut and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer is read, and the output written, whole -/

abbrev rA : Rect S1000x2000 := Rect.unit (s := S1000x2000) ![0, 0] S1000x2000.size inb_S1000x2000_S1000x2000_0_0
abbrev rB : Rect S2000x131 := Rect.unit (s := S2000x131) ![0, 0] S2000x131.size inb_S2000x131_S2000x131_0_0
abbrev rH : Rect S1000x128 := Rect.unit (s := S1000x128) ![0, 0] S1000x128.size inb_S1000x128_S1000x128_0_0
abbrev rX : Rect S1000x3 := Rect.unit (s := S1000x3) ![0, 0] S1000x3.size inb_S1000x3_S1000x3_0_0
abbrev rW : Rect S128x128 := Rect.unit (s := S128x128) ![0, 0] S128x128.size inb_S128x128_S128x128_0_0
abbrev rb : Rect S1x128 := Rect.unit (s := S1x128) ![0, 0] S1x128.size inb_S1x128_S1x128_0_0
abbrev rw3 : Rect S128x1 := Rect.unit (s := S128x1) ![0, 0] S128x1.size inb_S128x1_S128x1_0_0

/-! ## What the body leaves in the output window's buffer -/

/-- The output window's staging buffer after the body, from the eleven input blocks: its one store, of the whole
    block. The stored value is the last payload over the three values the first part of the kernel returns (the
    normalised direction, the hidden layer's pre-activation, the bias row), each over the blocks it reads. -/
def out0 (x0 : Vec F S1000x2000 .f32) (x1 : Vec F S2000x131 .bf16) (x2 : Vec F S1000x128 .f32) (x3 : Vec F S1000x3 .f32)
    (x4 x5 : Vec F S128x128 .bf16) (x6 x7 : Vec F S1x128 .f32) (x8 : Vec F S128x128 .bf16) (x9 : Vec F S1x128 .f32)
    (x10 : Vec F S128x1 .bf16) : Vec F S1000x3 .f32 :=
  View.canon [⟨rX, k0_pay1 (k0_pay5 (View.ld x0 rA) (View.ld x1 rB) (View.ld x3 rX))
    (k0_pay6 (View.ld x0 rA) (View.ld x1 rB) (View.ld x3 rX) (View.ld x2 rH) (View.ld x4 rW) (View.ld x5 rW) (View.ld x6 rb))
    (k0_pay7 (View.ld x7 rb)) (View.ld x8 rW) (View.ld x9 rb) (View.ld x10 rw3)⟩]

/-- The one store is of the whole buffer, so it covers it. -/
theorem cover0 (p0 : Vec F S1000x3 .f32) (y : S1000x3.Idx) :
    ∃ pc ∈ ([⟨rX, p0⟩] : List (View.Piece (Elt F) S1000x3 .f32)), y ∈ pc.1.set :=
  View.cover_of_tiled [⟨rX, p0⟩] S1000x3.size (by rfl) y

/-! ## The body's triple -/

set_option maxHeartbeats 4000000 in
/-- The kernel body on whole staging buffers, the inputs' at read contents x0..x10 and the output's at anything, runs
    to the continuation holding the inputs' as they were and the output's at out0 of the inputs'. The body reads every
    input buffer whole, reads the output buffer once (the value is not used), and stores the whole output block. -/
theorem sound_kernel0 (c : Dev nD) (E : Set ℕ) (i : grid0.Coords)
    (arg1 : Memref sig .tc .vmem S1000x2000 .f32) (harg1 : arg1.IsWhole) (arg2 : Memref sig .tc .vmem S2000x131 .bf16) (harg2 : arg2.IsWhole)
    (arg3 : Memref sig .tc .vmem S1000x128 .f32) (harg3 : arg3.IsWhole) (arg4 : Memref sig .tc .vmem S1000x3 .f32) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S128x128 .bf16) (harg9 : arg9.IsWhole) (arg10 : Memref sig .tc .vmem S1x128 .f32) (harg10 : arg10.IsWhole)
    (arg11 : Memref sig .tc .vmem S128x1 .bf16) (harg11 : arg11.IsWhole) (arg12 : Memref sig .tc .vmem S1000x3 .f32) (harg12 : arg12.IsWhole)
    (x0 : Vec F S1000x2000 .f32) (x1 : Vec F S2000x131 .bf16) (x2 : Vec F S1000x128 .f32) (x3 : Vec F S1000x3 .f32)
    (x4 x5 : Vec F S128x128 .bf16) (x6 x7 : Vec F S1x128 .f32) (x8 : Vec F S128x128 .bf16) (x9 : Vec F S1x128 .f32)
    (x10 : Vec F S128x1 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out0 x0 x1 x2 x3 x4 x5 x6 x7 x8 x9 x10)) -∗ K ⟨⟩))
      ⊢ wp frame (wpE (defs₀ (F := F)) Variants.none c none) E
          (cc0__bm_frag_kernel i arg1 harg1 arg2 harg2 arg3 harg3 arg4 harg4 arg5 harg5 arg6 harg6 arg7 harg7 arg8 harg8 arg9 harg9 arg10 harg10 arg11 harg11 arg12 harg12) K := by
  simp only [cc0__bm_frag_kernel_eq_skeleton]; unfold cc0__bm_frag_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0 _)

/-! ## The pipeline's proof data -/

/-- The proof data of the pipeline on core c: the arrays as the region finds them; after the body at point t each
    input's buffer at its block and the output's at out0 of the input blocks; the invariant "the scoped rest and
    the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t =
    out0 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point t: the invariant, what is owed, and each window's current staging buffer
    at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Body1.lean ====
/-
  Region 1 of @main (pipeline 1, the per-edge network on blocks of 4096 rows over arrays of 500000 rows), at the
  contents `V` the region finds in the unscoped buffers. The last block overhangs the arrays' end: windows 0, 1, 2
  (inputs) and window 11 (the output) are cut there, so at the last point only the first 288 rows of their staging
  buffers are moved, and the rest of an input's buffer holds words nothing names. This module states, at any float
  type: each window's block at a point (`iblk1`), the output buffer after the body as a function of what the body
  finds in the eleven input buffers (`out1`), the body's triple at arbitrary found contents (`sound_kernel1`), the
  proof data (`dat1`: after the body an input buffer holds its block, filled out past the array's end with the zero
  word, and the output buffer holds `out1` of those), and the body obligation with the output window forgotten
  (`body_obligation1_fgt`): the input windows are stated on the rows inside the array only, which is all their
  obligation asks, and the output window is handed over and taken back at contents nothing names.
-/
import proofs.«426145_j45973329936455_2_alg».proof.Proof.Gen.Kernel.Launch
import proofs.«426145_j45973329936455_2_alg».proof.Proof.Gen.Kernel.Skeleton
import proofs.«426145_j45973329936455_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it: the block's part inside the array
    (at the last point, for the cut windows, 288 rows). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store are of a whole staging buffer -/

abbrev r1A : Rect S4096x128 := Rect.unit (s := S4096x128) ![0, 0] S4096x128.size inb_S4096x128_S4096x128_0_0
abbrev rS : Rect S4096x6 := Rect.unit (s := S4096x6) ![0, 0] S4096x6.size inb_S4096x6_S4096x6_0_0
abbrev r1W : Rect S128x128 := Rect.unit (s := S128x128) ![0, 0] S128x128.size inb_S128x128_S128x128_0_0
abbrev rP : Rect S2x128 := Rect.unit (s := S2x128) ![0, 0] S2x128.size inb_S2x128_S2x128_0_0
abbrev r1B : Rect S1x128 := Rect.unit (s := S1x128) ![0, 0] S1x128.size inb_S1x128_S1x128_0_0
abbrev rC : Rect S128x1 := Rect.unit (s := S128x1) ![0, 0] S128x1.size inb_S128x1_S128x1_0_0
abbrev rO : Rect S4096x3 := Rect.unit (s := S4096x3) ![0, 0] S4096x3.size inb_S4096x3_S4096x3_0_0

/-! ## What the body leaves in the output window's buffer -/

/-- Window 11's staging buffer after the body, from what the body finds in the eleven input buffers: its one store,
    of the whole buffer, over the payloads of the printed function's skeleton. -/
def out1 (x0 x1 : Vec F S4096x128 .f32) (x2 : Vec F S4096x6 .f32) (x3 x4 : Vec F S128x128 .bf16) (x5 : Vec F S2x128 .f32)
    (x6 : Vec F S128x128 .bf16) (x7 : Vec F S1x128 .f32) (x8 : Vec F S128x128 .bf16) (x9 : Vec F S1x128 .f32)
    (x10 : Vec F S128x1 .bf16) : Vec F S4096x3 .f32 :=
  View.canon [⟨rO, k1_pay1 (k1_pay3 (View.ld x2 rS))
    (k1_pay4 (View.ld x0 r1A) (View.ld x1 r1A) (View.ld x2 rS) (View.ld x3 r1W) (View.ld x4 r1W) (View.ld x5 rP) (View.ld x6 r1W))
    (View.ld x7 r1B) (View.ld x8 r1W) (View.ld x9 r1B) (View.ld x10 rC)⟩]

/-- The one store is of the whole buffer, so it covers it. -/
theorem cover1 (p0 : Vec F S4096x3 .f32) (y : S4096x3.Idx) :
    ∃ pc ∈ ([⟨rO, p0⟩] : List (View.Piece (Elt F) S4096x3 .f32)), y ∈ pc.1.set :=
  View.cover_of_tiled [⟨rO, p0⟩] S4096x3.size (by rfl) y

/-! ## The body's triple -/

set_option maxHeartbeats 4000000 in
/-- The kernel body on whole staging memrefs, the inputs' at whatever contents `xW` the body finds and the output's
    at anything, runs to the continuation holding the inputs' as they were and the output's at `out1` of the inputs':
    the printed function and its printed part are their skeletons, eleven whole loads (and a dead one of the output's
    buffer) and one whole store. -/
theorem sound_kernel1 (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S4096x6 .f32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S2x128 .f32) (harg6 : arg6.IsWhole)
    (arg7 : Memref sig .tc .vmem S128x128 .bf16) (harg7 : arg7.IsWhole) (arg8 : Memref sig .tc .vmem S1x128 .f32) (harg8 : arg8.IsWhole)
    (arg9 : Memref sig .tc .vmem S128x128 .bf16) (harg9 : arg9.IsWhole) (arg10 : Memref sig .tc .vmem S1x128 .f32) (harg10 : arg10.IsWhole)
    (arg11 : Memref sig .tc .vmem S128x1 .bf16) (harg11 : arg11.IsWhole) (arg12 : Memref sig .tc .vmem S4096x3 .f32) (harg12 : arg12.IsWhole)
    (x0 x1 : Vec F S4096x128 .f32) (x2 : Vec F S4096x6 .f32) (x3 x4 : Vec F S128x128 .bf16) (x5 : Vec F S2x128 .f32)
    (x6 : Vec F S128x128 .bf16) (x7 : Vec F S1x128 .f32) (x8 : Vec F S128x128 .bf16) (x9 : Vec F S1x128 .f32)
    (x10 : Vec F S128x1 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out1 x0 x1 x2 x3 x4 x5 x6 x7 x8 x9 x10)) -∗ K ⟨⟩))
      ⊢ wp frame (wpE (defs₀ (F := F)) Variants.none c none) E
          (cc1__atom_mlp_kernel i arg1 harg1 arg2 harg2 arg3 harg3 arg4 harg4 arg5 harg5 arg6 harg6 arg7 harg7 arg8 harg8 arg9 harg9
            arg10 harg10 arg11 harg11 arg12 harg12) K := by
  simp only [cc1__atom_mlp_kernel_eq_skeleton]; unfold cc1__atom_mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1 _)

/-! ## The pipeline's proof data -/

/-- What the proof data says input window 0's buffer holds after the body at point `t`: its block on the rows inside
    the array, the zero word on the rows past the array's end (at the last point; nothing reads them: the window is
    loose, its obligation is stated on the rows inside the array). -/
def in1_0 (c : Dev nD) (t : Fin cfg1.N) : Vec F S4096x128 .f32 :=
  win1_0.fill (grid1.coords t) (fun _ => Scalar.ofBits .f32 0#32) (iblk1 V c 0 t)
/-- Window 1's likewise, -/
def in1_1 (c : Dev nD) (t : Fin cfg1.N) : Vec F S4096x128 .f32 :=
  win1_1.fill (grid1.coords t) (fun _ => Scalar.ofBits .f32 0#32) (iblk1 V c 1 t)
/-- and window 2's. -/
def in1_2 (c : Dev nD) (t : Fin cfg1.N) : Vec F S4096x6 .f32 :=
  win1_2.fill (grid1.coords t) (fun _ => Scalar.ofBits .f32 0#32) (iblk1 V c 2 t)

/-- The proof data of pipeline 1 on core `c`: the arrays as the region finds them (`V`); after the body at point `t`
    each cut input's buffer at its block filled out with the zero word (`in1_W`), each resident input's at its block
    (the whole array), and the output's at `out1` of those; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => in1_0 V c t
    | ⟨1, _⟩ => in1_1 V c t
    | ⟨2, _⟩ => in1_2 V c t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1 (in1_0 V c t) (in1_1 V c t) (in1_2 V c t) (iblk1 V c 3 t) (iblk1 V c 4 t) (iblk1 V c 5 t)
        (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = in1_0 V c t := by dsimp only [dat1]
theorem after1_1 (c : Dev nD) (t : Fin cfg1.N) : (dat1 V c).after 1 t = in1_1 V c t := by dsimp only [dat1]
theorem after1_2 (c : Dev nD) (t : Fin cfg1.N) : (dat1 V c).after 2 t = in1_2 V c t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t =
    out1 (in1_0 V c t) (in1_1 V c t) (in1_2 V c t) (iblk1 V c 3 t) (iblk1 V c 4 t) (iblk1 V c 5 t)
      (iblk1 V c 6 t) (iblk1 V c 7 t) (iblk1 V c 8 t) (iblk1 V c 9 t) (iblk1 V c 10 t) := by dsimp only [dat1]

/-! ## What the body finds -/

/-- A cut input window is fetched at every point: the body finds its block on the rows the fetch fills, and on the
    rest (at the last point, the rows past the array's end) contents `d` nothing names. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

/-- A resident input window (fetched at the first point only, its block the whole array, never cut) holds its block
    at every point: unfetched, the block index has not moved and the body left the block in place. -/
theorem before1_res (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = (dat1 V c).blockOf w t)
    (t : Fin cfg1.N) (d) : (dat1 V c).before w t d = (dat1 V c).fetched w t d :=
  (dat1 V c).before_in_eq_fetched w hw hlive hclip hkeep t d
theorem before1_3 (c : Dev nD) (t : Fin cfg1.N) (d) : (dat1 V c).before 3 t d = iblk1 V c 3 t :=
  (before1_res V c 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  (before1_res V c 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  (before1_res V c 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  (before1_res V c 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  (before1_res V c 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  (before1_res V c 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  (before1_res V c 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  (before1_res V c 10 rfl (fun _ => rfl) (fun _ _ _ => rfl) (fun t => by rw [after1_10]; unfold Dat.blockOf iblk1; rw [A_eq1]; try rfl) t d).trans
    (by unfold Dat.fetched Dat.blockOf iblk1; rw [A_eq1]; try rfl)

/-! ## The body obligation, the output window forgotten -/

/-- The windows the obligation below forgets: the output window. At a float type where `tpu.matmul` is opaque in its
    whole left operand, the output rows inside the array depend on the input rows past the arrays' end, which the
    machine picks, so no contents of the output's buffer can be named; a claim that does not read the output array
    needs none. -/
abbrev fgt1 : Fin cfg1.W → Bool := fun w => decide (w = 11)

/-- What the body is called with at point `t`: each input's buffer at what the pipeline left there, the output's at
    anything, -/
def bodyPre1f (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ X, owns (c : Thread nD τ) (st1_11 t) fullShare X))

/-- and what it returns: a cut input's buffer stated on the rows inside the array (the window is loose), a resident
    input's at its block, the output's at anything. -/
def bodyPost1f (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ (∃ X, owns (c : Thread nD τ) (st1_11 t) fullShare X))

/-- The body at any point: the inputs' buffers hold their blocks, the cut ones' filled out with whatever the fetch
    left past the array's end, so `sound_kernel1` applies at those contents; it hands the inputs back as found, which on
    the rows inside the array is what the proof data says; the invariant and the core's debts pass through unread. -/
theorem sound_body1f (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10,
    show win1_0.cut (grid1.coords t) (in1_0 V c t) = iblk1 V c 0 t from win1_0.cut_fill _ _ _,
    show win1_1.cut (grid1.coords t) (in1_1 V c t) = iblk1 V c 1 t from win1_1.cut_fill _ _ _,
    show win1_2.cut (grid1.coords t) (in1_2 V c t) = iblk1 V c 2 t from win1_2.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X11, H11⟩⟩
  iapply (sound_kernel1 c Set.univ (grid1.coords t) _ _ _ _ _ _ _ _ _ _ _ _ _ _ _ _ _ _ _ _ _ _ _ _
    (win1_0.fill (grid1.coords t) d0 (iblk1 V c 0 t))
    (win1_1.fill (grid1.coords t) d1 (iblk1 V c 1 t))
    (win1_2.fill (grid1.coords t) d2 (iblk1 V c 2 t))
    (iblk1 V c 3 t)
    (iblk1 V c 4 t)
    (iblk1 V c 5 t)
    (iblk1 V c 6 t)
    (iblk1 V c 7 t)
    (iblk1 V c 8 t)
    (iblk1 V c 9 t)
    (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

/-- The library's body obligation, in the form the loop uses (each loose window stated on the rows inside the array),
    with the output window forgotten, at every point. -/
theorem body_obligation1_fgt (c : Dev nD) :
    BodyObligationLoose (dat1 (F := F) V c) (defs₀ (F := F)) Variants.none () Set.univ fgt1 := fun t => by
  rw [bigSep_W1, bigSep_W1]
  exact sound_body1f V c t

end Cert.Kernel.Hand

end
-- ==== Proof.K.FrameBits.lean ====
import proofs.«426145_j45973329936455_2_alg».proof.Proof.Gen.Kernel.Launch
import proofs.«426145_j45973329936455_2_alg».proof.Proof.Gen.Kernel.Skeleton
import proofs.«426145_j45973329936455_2_alg».proof.Proof.Gen.Kernel.Points
import proofs.«426145_j45973329936455_2_alg».proof.Proof.Gen.Kernel.Regions
import proofs.«426145_j45973329936455_2_alg».proof.Proof.K.Body0
import proofs.«426145_j45973329936455_2_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

/-! # The frame of @main with region 1 certified relationally

@main runs ten items: four host stretches, region 0, three host stretches, region 1, a last host stretch. Region 1's
last block is cut at the end of its arrays, so what its body leaves in the output window is not a function fixed
before the run; its proof data is therefore read RELATIONALLY with the output window forgotten, and its exit hands the
output array at SOME contents. Only the last host stretch runs after it, and no later item reads the array under a
branch: the thread states from region 1's exit on are existential in that array's contents. No item writes an
argument array, so each argument is read back through every boundary to its launch contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

/-- The several-regions theorem's parameters: no variant, no level assigned, nothing owed between cores. -/
abbrev fb𝒱 : Variants := Variants.none
abbrev fbL : GSem nD τ sig → Finset Unit := fun _ => ∅
abbrev fblv : GSem nD τ sig → Unit → ℕ := fun _ _ => 0

/-- Region 1's forgotten windows: the output window alone. -/
abbrev outMask : Fin cfg1.W → Bool := fun w => decide (w = 11)

section Run

variable (m : (ℓ : Loc nD τ sig) → Buf (Elt F) ℓ) (outs : Outs (F := F))
variable (d0 : (c : Dev nD) → Dat τ (Elt F) Unit ℕ (UR sig nD τ) ℕ cfg0 c)
variable (d1 : (c : Dev nD) → Dat τ (Elt F) Unit ℕ (UR sig nD τ) ℕ cfg1 c)

/-- Every pipeline's relational proof data: region 0's exact data read relationally, region 1's read relationally with
    its output window forgotten — a literal match, so that the theorem's pinned configuration at a numeral reduces to the
    printed one. -/
def fbRdats : (p : Fin 2) → (c : Dev nD) → RDat τ (Elt F) Unit ℕ (UR sig nD τ) ℕ (Pipeline.pin (pcfgs (F := F)) adm p) c
  | ⟨0, _⟩ => fun c => (d0 c).toR
  | ⟨1, _⟩ => fun c => (d1 c).toRForget outMask

/-- What rides beside the buffers through every segment: the core's generator register at some state and its
    tallies, at nothing owed. -/
abbrev fbR (c : Dev nD) : sProp 𝕄 := iprop((∃ r, prngReg c r) ∗ ∃ W, owes (c : Thread nD τ) (0 : CellTallies nD τ sig Unit) W)

/-- A valuation read at the TensorCore's references. -/
abbrev atTc (V : Valuation τ sig (Elt F)) (c : Dev nD) : (b : Ref sig .tc) → Buf (Elt F) ((c : Thread nD τ).loc b) := fun b => V b

/-- The same proof data as exact data (what the library's lemmas on the arrays' shares and buffers take). -/
def fbDats : (p : Fin 2) → (c : Dev nD) → Dat τ (Elt F) Unit ℕ (UR sig nD τ) ℕ (Pipeline.pin (pcfgs (F := F)) adm p) c
  | ⟨0, _⟩ => fun c => d0 c
  | ⟨1, _⟩ => fun c => d1 c

/-! ## Region 0: exact data, read relationally -/

section Region0

variable (hA0 : ∀ c w, (d0 c).A w = V4 m c (Pipeline.arrRef spec0 w))
  (houts : ∀ c, outs 5 main_v19 c = (d0 c).arrAt 11 cfg0.N)

include hA0 houts in
/-- At region 0's exit each of its arrays holds what the valuation after it says: the output array what the
    write-backs leave (the unknown the valuation is written over), an input array its entry contents. -/
theorem fb_hF0 (c : Dev nD) (w : Fin cfg0.W) : (d0 c).arrAt w cfg0.N = V5 m outs c (Pipeline.arrRef spec0 w) := by
  by_cases hw : w = 11
  · subst hw
    rw [← houts c]
    exact (Function.update_self (f := V4 m c) (Proc.devRef .tc main_v19) (outs 5 main_v19 c)).symm
  · have hin : (cfg0.win w).isOut = false := by revert w; decide
    have hne : Pipeline.arrRef spec0 w ∉ ([main_v19] : List (Ref sig .tc)) := by revert w; decide
    rw [(d0 c).arrAt_in w hin, hA0 c w, V5_of m outs c _ hne]

/-- Off region 0's arrays the valuation after it is the one before it. -/
theorem fb_hrest0 (c : Dev nD) : ∀ b, b ∉ Finset.univ.image (Pipeline.arrRef spec0) → V5 m outs c b = V4 m c b :=
  fun b hb => V5_of m outs c b fun h =>
    hb (Finset.mem_image.mpr ⟨11, Finset.mem_univ _, (List.mem_singleton.mp h).symm⟩)

end Region0

include d1 in
set_option backward.isDefEq.respectTransparency.types false in
/-- Region 0's arrays at what the exact data names after every write-back, beside the unscoped rest as entered, are
    the core's unscoped buffers at the valuation after the region. -/
theorem fb_join0 (hA0 : ∀ c w, (d0 c).A w = V4 m c (Pipeline.arrRef spec0 w)) (hq0 : ∀ c w, (d0 c).q w = fullShare)
    (houts : ∀ c, outs 5 main_v19 c = (d0 c).arrAt 11 cfg0.N) (c : Dev nD) :
    iprop((d0 c).arrays ((d0 c).arrAt · cfg0.N)
        ∗ Pipeline.unscopedRest (Ix := Unit) (Name := ℕ) (U := UR sig nD τ) (Lvl := ℕ) spec0 c (atTc (V4 m c) c))
      ⊢ (StableHlo.held (c : Thread nD τ) (Pipeline.ucRefs τ sig) (V5 m outs c) : sProp 𝕄) := by
  have hjoin := Pipeline.unscopedBufs_of_arrays (p := 0) (pcfgs (F := F)) adm (Ix := Unit) (Name := ℕ) (U := UR sig nD τ) (Lvl := ℕ)
    launch0.win launch0.arr_whole c (fbDats d0 d1) ((fbDats d0 d1 0 c).share_full (hq0 c))
    (atTc (V4 m c) c) (atTc (V5 m outs c) c) ((d0 c).arrAt · cfg0.N) (fb_hF0 m outs d0 hA0 houts c) (fb_hrest0 m outs c)
  rw [Pipeline.unscopedBufs_held] at hjoin
  exact hjoin

set_option backward.isDefEq.respectTransparency.types false in
/-- REGION 0 over the thread state: entered from every unscoped buffer at the valuation before it, left at the one
    after it. Its arrays split out of the unscoped buffers and put back at the exit contents — which the exact data
    names, so the relational exit's "some contents" are those —; the generator register into the class invariant and
    out; nothing owed; no semaphore of the kernel's own. -/
def fbReg0 (hA0 : ∀ c w, (d0 c).A w = V4 m c (Pipeline.arrRef spec0 w))
    (hΦ0 : ∀ c t, (d0 c).Φ t = Pipeline.ΦA spec0 c) (hq0 : ∀ c w, (d0 c).q w = fullShare)
    (howed0 : ∀ c t, (d0 c).owed t = 0) (hrec0 : ∀ c t, (d0 c).recorded t = Set.univ)
    (hb0 : ∀ c, BodyObligation (d0 c) (defs₀ (F := F)) Variants.none () Set.univ)
    (houts : ∀ c, outs 5 main_v19 c = (d0 c).arrAt 11 cfg0.N) :
    Pipeline.RDat.RegionSeg (pcfgs (F := F)) adm (fbRdats d0 d1) () defs₀ fb𝒱 fbL fblv 0 where
  win := launch0.win.to₀
  block_pos := launch0.block_pos
  stage_whole := launch0.stage_whole
  K := PEmpty
  osem k := k.elim
  ho := Pipeline.OwnSemFacts.none _
  hbody c := (hb0 c).toR
  hwaits := Pipeline.RDat.hwaits_of_owed_zero _ _ _ _ fbL fblv 0 fun c t => howed0 c t
  pre c := iprop(StableHlo.held (c : Thread nD τ) (Pipeline.ucRefs τ sig) (V4 m c) ∗ fbR c)
  post c := iprop(StableHlo.held (c : Thread nD τ) (Pipeline.ucRefs τ sig) (V5 m outs c) ∗ fbR c)
  X c := iprop(∃ r, prngReg c r)
  Y c := iprop(∃ r, prngReg c r)
  Z c := Pipeline.unscopedRest (Ix := Unit) (Name := ℕ) (U := UR sig nD τ) (Lvl := ℕ) spec0 c (atTc (V4 m c) c)
  hentry c := by
    rw [Pipeline.ownSems0_none]
    have hsplit := Pipeline.RDat.arrays_of_unscopedBufs (p := 0) (pcfgs (F := F)) adm (fbRdats d0 d1) launch0.win launch0.arr_whole c
      ((fbRdats d0 d1 0 c).share_full (hq0 c)) (atTc (V4 m c) c) (hA0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr
      · ipureintro
        exact fun x _ => Or.inl (by rw [show (fbRdats d0 d1 0 c).recorded 0 = Set.univ from hrec0 c 0]; trivial)
      rw [show (fbRdats d0 d1 0 c).owed 0 = 0 from howed0 c 0]
      iexact HO
    isplitl [Hp]; · iexact Hp
    iexact Hrest
  hin c := by
    rw [show (fbRdats d0 d1 0 c).Φ 0 = Pipeline.ΦA spec0 c from hΦ0 c 0]; unfold Pipeline.ΦA
    iintro ⟨Hp, -, Hr⟩
    isplitl [Hr]; · iexact Hr
    iexact Hp
  hout c := by
    rw [Pipeline.ownSems0_none, show (fbRdats d0 d1 0 c).Φ (Fin.last _) = Pipeline.ΦA spec0 c from hΦ0 c _]; unfold Pipeline.ΦA
    iintro ⟨Hr, Hp⟩
    isplitl [Hp]; · iexact Hp
    isplitr; · iempintro
    iexact Hr
  hexit c := by
    rw [show (fbRdats d0 d1 0 c).arraysAt (Pipeline.pin (pcfgs (F := F)) adm 0).N = ((d0 c).arrays ((d0 c).arrAt · cfg0.N) : sProp 𝕄)
      from (d0 c).toR_arraysAt_eq cfg0.N]
    iintro ⟨Ha, HO, HY, Hrest⟩
    imodintro
    isplitl [Ha Hrest]
    · iapply (fb_join0 m outs d0 d1 hA0 hq0 houts c)
      isplitl [Ha]; · iexact Ha
      iexact Hrest
    isplitl [HY]; · iexact HY
    unfold RDat.owesAt Pipeline.owesWithin
    icases HO with ⟨%W, -, HO⟩; iexists W
    rw [show (fbRdats d0 d1 0 c).owed (Fin.last (Pipeline.pin (pcfgs (F := F)) adm 0).N) = 0 from howed0 c _]
    iexact HO

/-! ## Region 1: exact data read relationally, the output window forgotten -/

/-- The arrays at SOME contents they may hold after the write-backs below n are the arrays at a family of
    contents, each of which the relational data allows. -/
theorem fb_arraysAt_choose {cfg : Cfg sig Λ₀} {c : Dev nD} (rd : RDat τ (Elt F) Unit ℕ (UR sig nD τ) ℕ cfg c) (n : ℕ) :
    (rd.arraysAt n : sProp 𝕄)
      ⊢ iprop(∃ Fs : (w : Fin cfg.W) → Buf (Elt F) ((cfg.win w).arr.view.loc (c : Thread nD τ)),
          ⌜∀ w, rd.ArrAt w n (Fs w)⌝ ∗ rd.arrays Fs) := by
  classical
  unfold RDat.arraysAt RDat.arrays
  iintro Ha
  ihave Ha' := (BI.bigSep_exists_pi Finset.univ (fun w F => iprop(⌜rd.ArrAt w n F⌝
      ∗ (cfg.win w).arr.view.loc (c : Thread nD τ) ↦[(cfg.win w).arr.view.set]{rd.share w} F))) $$ Ha
  icases Ha' with ⟨%Fs, Ha⟩
  ihave Ha2 := (BI.bigSep_pure_sep Finset.univ (fun w => rd.ArrAt w n (Fs w))
      (fun w => (cfg.win w).arr.view.loc (c : Thread nD τ) ↦[(cfg.win w).arr.view.set]{rd.share w} Fs w)) $$ Ha
  icases Ha2 with ⟨%hFs, Ha⟩
  iexists Fs
  isplitr; · ipureintro; exact fun w => hFs w (Finset.mem_univ w)
  iexact Ha

section Region1

variable (hA1 : ∀ c w, (d1 c).A w = V8 m outs c (Pipeline.arrRef spec1 w))

/-- The valuation after region 1 when its output array holds x: the one before it, updated there. -/
abbrev fbV9 (c : Dev nD) (x : Buf (Elt F) ((c : Thread nD τ).loc main_v36)) : Valuation τ sig (Elt F) :=
  Function.update (V8 m outs c) main_v36 x

include hA1 in
/-- Contents the relational data allows in region 1's arrays after every write-back are the valuation before the
    region updated at the output array: an input array is never written (it holds its entry contents), and of the
    output array nothing is asked. -/
theorem fb_hF1 (c : Dev nD) (Fs : (w : Fin cfg1.W) → Buf (Elt F) ((cfg1.win w).arr.view.loc (c : Thread nD τ)))
    (hFs : ∀ w, (fbRdats d0 d1 1 c).ArrAt w cfg1.N (Fs w)) (w : Fin cfg1.W) :
    Fs w = fbV9 m outs c (Fs 11) (Pipeline.arrRef spec1 w) := by
  by_cases hw : w = 11
  · subst hw
    exact (Function.update_self (f := V8 m outs c) (Proc.devRef .tc main_v36) (Fs 11)).symm
  · have hin : (cfg1.win w).isOut = false := by revert w; decide
    have hne : Pipeline.arrRef spec1 w ≠ main_v36 := by revert w; decide
    have h := hFs w
    rw [(fbRdats d0 d1 1 c).ArrAt_in w hin cfg1.N] at h
    rw [h]
    show (d1 c).A w = _
    rw [hA1 c w]
    exact (Function.update_of_ne (StableHlo.devRef_ne_of_ne hne) (Fs 11) (V8 m outs c)).symm

/-- Off region 1's arrays the updated valuation is the one before the region. -/
theorem fb_hrest1 (c : Dev nD) (x : Buf (Elt F) ((c : Thread nD τ).loc main_v36)) :
    ∀ b, b ∉ Finset.univ.image (Pipeline.arrRef spec1) → fbV9 m outs c x b = V8 m outs c b :=
  fun b hb => Function.update_of_ne (StableHlo.devRef_ne_of_ne fun h =>
    hb (Finset.mem_image.mpr ⟨11, Finset.mem_univ _, h.symm⟩)) x (V8 m outs c)

end Region1

include d0 in
set_option backward.isDefEq.respectTransparency.types false in
/-- Region 1's arrays at contents the relational data allows after every write-back, beside the unscoped rest as
    entered, are the core's unscoped buffers at the valuation before the region updated at the output array. -/
theorem fb_join1 (hA1 : ∀ c w, (d1 c).A w = V8 m outs c (Pipeline.arrRef spec1 w)) (hq1 : ∀ c w, (d1 c).q w = fullShare)
    (c : Dev nD) (Fs : (w : Fin cfg1.W) → Buf (Elt F) ((cfg1.win w).arr.view.loc (c : Thread nD τ)))
    (hFs : ∀ w, (fbRdats d0 d1 1 c).ArrAt w cfg1.N (Fs w)) :
    iprop((fbRdats d0 d1 1 c).arrays Fs
        ∗ Pipeline.unscopedRest (Ix := Unit) (Name := ℕ) (U := UR sig nD τ) (Lvl := ℕ) spec1 c (atTc (V8 m outs c) c))
      ⊢ (StableHlo.held (c : Thread nD τ) (Pipeline.ucRefs τ sig) (fbV9 m outs c (Fs 11)) : sProp 𝕄) := by
  have hjoin := Pipeline.unscopedBufs_of_arrays (p := 1) (pcfgs (F := F)) adm (Ix := Unit) (Name := ℕ) (U := UR sig nD τ) (Lvl := ℕ)
    launch1.win launch1.arr_whole c (fbDats d0 d1) ((fbDats d0 d1 1 c).share_full (hq1 c))
    (atTc (V8 m outs c) c) (atTc (fbV9 m outs c (Fs 11)) c) Fs (fb_hF1 m outs d0 d1 hA1 c Fs hFs) (fb_hrest1 m outs c (Fs 11))
  rw [Pipeline.unscopedBufs_held] at hjoin
  exact hjoin

set_option backward.isDefEq.respectTransparency.types false in
/-- REGION 1 over the thread state: entered from every unscoped buffer at the valuation before it, left at that
    valuation updated at the output array by SOME contents. Its arrays split out of the unscoped buffers and put back
    at contents the relational data allows; the generator register into the class invariant and out; nothing owed; no
    semaphore of the kernel's own. -/
def fbReg1 (hA1 : ∀ c w, (d1 c).A w = V8 m outs c (Pipeline.arrRef spec1 w))
    (hΦ1 : ∀ c t, (d1 c).Φ t = Pipeline.ΦA spec1 c) (hq1 : ∀ c w, (d1 c).q w = fullShare)
    (howed1 : ∀ c t, (d1 c).owed t = 0) (hrec1 : ∀ c t, (d1 c).recorded t = Set.univ)
    (hb1 : ∀ c, BodyObligationLoose (d1 c) (defs₀ (F := F)) Variants.none () Set.univ outMask) :
    Pipeline.RDat.RegionSeg (pcfgs (F := F)) adm (fbRdats d0 d1) () defs₀ fb𝒱 fbL fblv 1 where
  win := launch1.win.to₀
  block_pos := launch1.block_pos
  stage_whole := launch1.stage_whole
  K := PEmpty
  osem k := k.elim
  ho := Pipeline.OwnSemFacts.none _
  hbody c := (hb1 c).toRForget
  hwaits := Pipeline.RDat.hwaits_of_owed_zero _ _ _ _ fbL fblv 1 fun c t => howed1 c t
  pre c := iprop(StableHlo.held (c : Thread nD τ) (Pipeline.ucRefs τ sig) (V8 m outs c) ∗ fbR c)
  post c := iprop(∃ x : Buf (Elt F) ((c : Thread nD τ).loc main_v36),
    StableHlo.held (c : Thread nD τ) (Pipeline.ucRefs τ sig) (fbV9 m outs c x) ∗ fbR c)
  X c := iprop(∃ r, prngReg c r)
  Y c := iprop(∃ r, prngReg c r)
  Z c := Pipeline.unscopedRest (Ix := Unit) (Name := ℕ) (U := UR sig nD τ) (Lvl := ℕ) spec1 c (atTc (V8 m outs c) c)
  hentry c := by
    rw [Pipeline.ownSems0_none]
    have hsplit := Pipeline.RDat.arrays_of_unscopedBufs (p := 1) (pcfgs (F := F)) adm (fbRdats d0 d1) launch1.win launch1.arr_whole c
      ((fbRdats d0 d1 1 c).share_full (hq1 c)) (atTc (V8 m outs c) c) (hA1 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr
      · ipureintro
        exact fun x _ => Or.inl (by rw [show (fbRdats d0 d1 1 c).recorded 0 = Set.univ from hrec1 c 0]; trivial)
      rw [show (fbRdats d0 d1 1 c).owed 0 = 0 from howed1 c 0]
      iexact HO
    isplitl [Hp]; · iexact Hp
    iexact Hrest
  hin c := by
    rw [show (fbRdats d0 d1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (fbRdats d0 d1 1 c).Φ (Fin.last _) = Pipeline.ΦA spec1 c from hΦ1 c _]; unfold Pipeline.ΦA
    iintro ⟨Hr, Hp⟩
    isplitl [Hp]; · iexact Hp
    isplitr; · iempintro
    iexact Hr
  hexit c := by
    iintro ⟨Ha, HO, HY, Hrest⟩
    ihave Ha' := (fb_arraysAt_choose (fbRdats d0 d1 1 c) (Pipeline.pin (pcfgs (F := F)) adm 1).N) $$ Ha
    icases Ha' with ⟨%Fs, %hFs, Ha⟩
    imodintro
    iexists (Fs 11)
    isplitl [Ha Hrest]
    · iapply (fb_join1 m outs d0 d1 hA1 hq1 c Fs hFs)
      isplitl [Ha]; · iexact Ha
      iexact Hrest
    isplitl [HY]; · iexact HY
    unfold RDat.owesAt Pipeline.owesWithin
    icases HO with ⟨%W, -, HO⟩; iexists W
    rw [show (fbRdats d0 d1 1 c).owed (Fin.last (Pipeline.pin (pcfgs (F := F)) adm 1).N) = 0 from howed1 c _]
    iexact HO

/-! ## The last host stretch, from SOME contents of region 1's output array -/

/-- The host stretch after region 1 run from the valuation at which region 1's output array holds x. -/
abbrev fbSeg9At (c₀ : Dev nD) (x : Buf (Elt F) ((c₀ : Thread nD τ).loc main_v36)) :
    HostSeg (Ix := Unit) (Name := ℕ) (U := UR sig nD τ) (Lvl := ℕ) (pcfgs (F := F)) defs₀ fb𝒱 fbL fblv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun c' => fbV9 m outs c' x) fbR

set_option backward.isDefEq.respectTransparency.types false in
/-- The host stretch after region 1: from every unscoped buffer at the valuation before region 1 updated at its
    output array by some contents, to the stretch's result from that valuation — the line of operations run at
    whichever contents the array holds. -/
def fbSeg9 : HostSeg (Ix := Unit) (Name := ℕ) (U := UR sig nD τ) (Lvl := ℕ) (pcfgs (F := F)) defs₀ fb𝒱 fbL fblv where
  prog := StableHlo.seq hostOps2
  pre c := iprop(∃ x : Buf (Elt F) ((c : Thread nD τ).loc main_v36),
    StableHlo.held (c : Thread nD τ) (Pipeline.ucRefs τ sig) (fbV9 m outs c x) ∗ fbR c)
  post c := iprop(∃ x : Buf (Elt F) ((c : Thread nD τ).loc main_v36),
    StableHlo.held (c : Thread nD τ) (Pipeline.ucRefs τ sig) (StableHlo.after hostOps2 (fbV9 m outs c x)) ∗ fbR c)
  run c {β} k K := by
    iintro ⟨Hk, Hbd, ⟨%x, Hpre⟩, Hla⟩
    have hrun := (fbSeg9At m outs c x).run c k K
    rw [show (fbSeg9At m outs c x).post c
          = iprop(StableHlo.held (c : Thread nD τ) (Pipeline.ucRefs τ sig) (StableHlo.after hostOps2 (fbV9 m outs c x)) ∗ fbR c) from rfl,
      show (fbSeg9At m outs c x).pre c
          = iprop(StableHlo.held (c : Thread nD τ) (Pipeline.ucRefs τ sig) (fbV9 m outs c x) ∗ fbR c) from rfl,
      show (fbSeg9At m outs c x).prog = StableHlo.seq hostOps2 from rfl] at hrun
    iapply hrun
    isplitl [Hk]
    · iintro ⟨Hbd, Hpost⟩
      iapply Hk
      isplitl [Hbd]; · iexact Hbd
      iexists x; iexact Hpost
    isplitl [Hbd]; · iexact Hbd
    isplitl [Hpre]; · iexact Hpre
    iexact Hla

/-! ## The arguments end as launched -/

/-- The argument arrays. -/
abbrev fbArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- No host stretch writes an argument, no region's changed array is one, and each is an unscoped buffer. -/
theorem fb_args_untouched : ∀ r ∈ fbArgs, r ∉ hostOps0_W ∧ r ∉ hostOps0_1_W ∧ r ∉ hostOps0_2_W ∧ r ∉ hostOps0_3_W
    ∧ r ∉ ([main_v19] : List (Ref sig .tc)) ∧ r ∉ hostOps1_W ∧ r ∉ hostOps1_1_W ∧ r ∉ hostOps1_2_W
    ∧ r ≠ main_v36 ∧ r ∉ hostOps2_W ∧ ¬ (Proc.devRef (τ := τ) .tc r).isScoped := by decide

/-- So an argument is read back through every boundary to its launch contents, whatever region 1's output array
    holds. -/
theorem fb_args_last (c : Dev nD) (x : Buf (Elt F) ((c : Thread nD τ).loc main_v36)) (r : Ref sig .tc) (hr : r ∈ fbArgs) :
    StableHlo.after hostOps2 (fbV9 m outs c x) r = m ((c : Thread nD τ).loc r) := by
  obtain ⟨h1, h2, h3, h4, h5, h6, h7, h8, h9, h10, -⟩ := fb_args_untouched r hr
  exact (StableHlo.after_of_writes_sub hostOps2 _ hostOps2_writes h10).trans <|
    (Function.update_of_ne (StableHlo.devRef_ne_of_ne h9) x (V8 m outs c)).trans <|
    (V8_of m outs c r h8).trans <| (V7_of m outs c r h7).trans <| (V6_of m outs c r h6).trans <|
    (V5_of m outs c r h5).trans <| (V4_of m c r h4).trans <| (V3_of m c r h3).trans <|
    (V2_of m c r h2).trans <| (V1_of m c r h1).trans rfl

/-! ## @main as segments, and the launch -/

/-- @main's ten items as the relational several-regions theorem's segments: the host stretches before region 1's exit over the
    valuations fixed before the run, the regions' records, the last stretch from some contents of region 1's output. -/
abbrev fbSegs (R0 : Pipeline.RDat.RegionSeg (pcfgs (F := F)) adm (fbRdats d0 d1) () defs₀ fb𝒱 fbL fblv 0)
    (R1 : Pipeline.RDat.RegionSeg (pcfgs (F := F)) adm (fbRdats d0 d1) () defs₀ fb𝒱 fbL fblv 1) (c : Dev nD) :
    List (Pipeline.RDat.Seg (pcfgs (F := F)) adm (fbRdats d0 d1) () defs₀ fb𝒱 fbL fblv) :=
  [.host (seg0 m fb𝒱 fbL fblv fun _ => fbR), .host (seg1 m fb𝒱 fbL fblv fun _ => fbR), .host (seg2 m fb𝒱 fbL fblv fun _ => fbR),
    .host (seg3 m fb𝒱 fbL fblv fun _ => fbR), .region R0, .host (seg5 m outs fb𝒱 fbL fblv fun _ => fbR),
    .host (seg6 m outs fb𝒱 fbL fblv fun _ => fbR), .host (seg7 m outs fb𝒱 fbL fblv fun _ => fbR), .region R1, .host (fbSeg9 m outs)]

/-- The last thread state without the tallies: every unscoped buffer at the last stretch's result from some contents
    of region 1's output array, the generator register at some state. -/
abbrev fbTₙ (c : Dev nD) : sProp 𝕄 := iprop(∃ x : Buf (Elt F) ((c : Thread nD τ).loc main_v36),
  StableHlo.held (c : Thread nD τ) (Pipeline.ucRefs τ sig) (StableHlo.after hostOps2 (fbV9 m outs c x)) ∗ ∃ r, prngReg c r)

/-- The last stretch's thread state is the last one beside the core owing nothing. -/
theorem fb_hlast (c : Dev nD) : (fbSeg9 m outs).post c
    ⊢ iprop(fbTₙ m outs c ∗ ∃ W, owes (c : Thread nD τ) (0 : CellTallies nD τ sig Unit) W) := by
  show iprop(∃ x : Buf (Elt F) ((c : Thread nD τ).loc main_v36),
    StableHlo.held (c : Thread nD τ) (Pipeline.ucRefs τ sig) (StableHlo.after hostOps2 (fbV9 m outs c x)) ∗ fbR c) ⊢ _
  iintro ⟨%x, Hh, Hp, HO⟩
  isplitl [Hh Hp]
  · iexists x
    isplitl [Hh]; · iexact Hh
    iexact Hp
  iexact HO

set_option backward.isDefEq.respectTransparency.types false in
/-- THE FRAME of @main at any F, given the two regions' proof data and body obligations: at the compiled mesh, from
    any memory with zero counters, every weakly fair execution of @main on the TensorCores terminates, nothing
    faulting, and every final state has the argument arrays as launched. Region 0's data is exact; region 1's obligation
    is the loose one with the output window forgotten. -/
theorem frame_bits (ρ : Dev nD → PrngReg)
    (hA0 : ∀ c w, (d0 c).A w = V4 m c (Pipeline.arrRef spec0 w))
    (hΦ0 : ∀ c t, (d0 c).Φ t = Pipeline.ΦA spec0 c) (hq0 : ∀ c w, (d0 c).q w = fullShare)
    (howed0 : ∀ c t, (d0 c).owed t = 0) (hrec0 : ∀ c t, (d0 c).recorded t = Set.univ)
    (hb0 : ∀ c, BodyObligation (d0 c) (defs₀ (F := F)) Variants.none () Set.univ)
    (houts : ∀ c, outs 5 main_v19 c = (d0 c).arrAt 11 cfg0.N)
    (hA1 : ∀ c w, (d1 c).A w = V8 m outs c (Pipeline.arrRef spec1 w))
    (hΦ1 : ∀ c t, (d1 c).Φ t = Pipeline.ΦA spec1 c) (hq1 : ∀ c w, (d1 c).q w = fullShare)
    (howed1 : ∀ c t, (d1 c).owed t = 0) (hrec1 : ∀ c t, (d1 c).recorded t = Set.univ)
    (hb1 : ∀ c, BodyObligationLoose (d1 c) (defs₀ (F := F)) Variants.none () Set.univ outMask) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine Pipeline.RDat.θ_run_regions_kit_dev (pcfgs (F := F)) adm (fbRdats d0 d1) () cellOf_inj emb₁ defs₀ fb𝒱 fbL fblv m ρ main
    (fbSegs m outs d0 d1 (fbReg0 m outs d0 d1 hA0 hΦ0 hq0 howed0 hrec0 hb0 houts) (fbReg1 m outs d0 d1 hA1 hΦ1 hq1 howed1 hrec1 hb1))
    (fun c Q => by
      rewrite [main_chain c, Pipeline.RDat.Seg.run_eq_chain,
        show (fbSegs m outs d0 d1 (fbReg0 m outs d0 d1 hA0 hΦ0 hq0 howed0 hrec0 hb0 houts)
            (fbReg1 m outs d0 d1 hA1 hΦ1 hq1 howed1 hrec1 hb1) c).map Pipeline.RDat.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by
      simp only [fbSegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ fbR c)) (Tₙ := fbTₙ m outs)
    (hch := fun c => ⟨.rfl, .rfl, .rfl, .rfl, .rfl, .rfl, .rfl, .rfl, .rfl, .rfl, fb_hlast m outs c⟩)
    (hinit := by
      refine Pipeline.initEach fbL fblv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19))
    (hfin := fun c s' => ?_) (hQ := fun _ h => h)
  iintro ⟨⟨%x, Hh, -⟩, HSI⟩
  unfold StableHlo.held
  ihave Hr := (pointsTo_read_all (Pipeline.ucRefs τ sig) (fun b => ((c : Thread nD τ).1, b))
    (StableHlo.after hostOps2 (fbV9 m outs c x)) s') $$ [Hh HSI]
  · isplitl [Hh] <;> iassumption
  icases Hr with ⟨%h, HSI⟩
  imodintro
  isplitr
  · ipureintro
    have hr : ∀ r ∈ fbArgs, s'.mem.mem ((c.tc : Thread nD τ).loc r) = m ((c.tc : Thread nD τ).loc r) := fun r hr =>
      (h (Proc.devRef .tc r) (Finset.mem_filter.mpr ⟨StableHlo.devRef_mem_tcRefs r, (fb_args_untouched r hr).2.2.2.2.2.2.2.2.2.2⟩)).trans
        (fb_args_last m outs c x r hr)
    exact ⟨hr main_arg0 (by decide), hr main_arg1 (by decide), hr main_arg2 (by decide), hr main_arg3 (by decide), hr main_arg4 (by decide), hr main_arg5 (by decide), hr main_arg6 (by decide), hr main_arg7 (by decide), hr main_arg8 (by decide), hr main_arg9 (by decide), hr main_arg10 (by decide), hr main_arg11 (by decide), hr main_arg12 (by decide), hr main_arg13 (by decide), hr main_arg14 (by decide), hr main_arg15 (by decide), hr main_arg16 (by decide), hr main_arg17 (by decide), hr main_arg18 (by decide), hr main_arg19 (by decide)⟩
  · iexact HSI

end Run

/-! ## The frame, closed: the two regions' proof data and obligations supplied -/

section Closed

variable (m : (ℓ : Loc nD τ sig) → Buf (Elt F) ℓ)

/-- What the regions leave, as the unknowns the valuations are written over: region 0's output array at what its
    exact data names after every write-back (read at every index as the valuation before the region updated there;
    the valuations read it at that array only). -/
def fbOuts : Outs (F := F) := fun _ r c =>
  Function.update (V4 m c) main_v19 ((dat0 (fun c b => V4 m c b) c).arrAt 11 cfg0.N) r

theorem fbOuts_5 (c : Dev nD) : fbOuts m 5 main_v19 c = (dat0 (fun c b => V4 m c b) c).arrAt 11 cfg0.N :=
  Function.update_self (f := V4 m c) (Proc.devRef .tc main_v19) _

/-- THE FRAME of @main at any F: at the compiled mesh, from any memory with zero counters, every weakly fair
    execution of @main on the TensorCores terminates, nothing faulting, and every final state has the argument arrays
    as launched. -/
theorem frame_kernel (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_bits m (fbOuts m) (dat0 (fun c b => V4 m c b)) (dat1 (fun c b => V8 m (fbOuts m) c b)) ρ
    (fun c w => A_eq0 _ c w) (fun _ _ => rfl) (fun _ _ => rfl) (fun _ _ => rfl) (fun _ _ => rfl)
    (fun c => body_obligation0 _ c) (fbOuts_5 m)
    (fun c w => A_eq1 _ c w) (fun _ _ => rfl) (fun _ _ => rfl) (fun _ _ => rfl) (fun _ _ => rfl)
    (fun c => body_obligation1_fgt _ c)

end Closed

/-- info: 'Cert.Kernel.Hand.frame_kernel' depends on axioms: [propext, Classical.choice, Quot.sound] -/
#guard_msgs in #print axioms frame_kernel

end Cert.Kernel.Hand

end
-- ==== Proof.KI.Run.lean ====
import proofs.«426145_j45973329936455_2_alg».proof.Proof.Gen.KernelIdeal.Launch
import proofs.«426145_j45973329936455_2_alg».proof.Proof.Gen.KernelIdeal.Skeleton
import proofs.«426145_j45973329936455_2_alg».proof.Proof.Gen.KernelIdeal.Points
import proofs.«426145_j45973329936455_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

/-! # The run of @main from the two regions' proof data

@main is ten items: four host stretches, kernel region 0, three host stretches, kernel region 1, one host stretch.
Between two items a core holds every unscoped buffer whole at a valuation `V0 … V10` (the launch contents, then each
host stretch applied, then what a region leaves in the one array it may change) beside its generator register at some
state and its dues at nothing.

Given, per region, proof data whose arrays are the region-entry contents, whose invariant is the class's, which holds
every array at the full share, owes nothing and whose body obligation holds, this module builds the two region records
over those thread states and runs @main through them: every weakly fair execution terminates, and the final memory
holds the result `main_v43` at the last valuation and every argument as launched. -/

-- decided memberships over the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf Seg HostSeg RegionSeg)

variable {F : FTy → Type} [FloatOps F]

local notation "𝕄" => MT nD τ sig Unit (Elt F) ℕ (UR sig nD τ) ℕ
-- no core owes another anything: no level is assigned
local notation "𝕃" => (fun _ => ∅ : GSem nD τ sig → Finset Unit)
local notation "𝕧" => (fun _ _ => 0 : GSem nD τ sig → Unit → ℕ)

/-! ## The windows: which array a region may change -/

/-- Every window of region 0 but the last is an input. -/
theorem isIn0 : ∀ w : Fin cfg0.W, w ≠ 11 → (cfg0.win w).isOut = false := by decide
/-- Region 0's last window is over `main_v19`, -/
theorem arr0_out : Pipeline.arrRef spec0 11 = main_v19 := rfl
/-- and no other window of it is. -/
theorem arr0_ne : ∀ w : Fin cfg0.W, w ≠ 11 → Pipeline.arrRef spec0 w ∉ ([main_v19] : List (Ref sig .tc)) := by decide
/-- Every window of region 1 but the last is an input. -/
theorem isIn1 : ∀ w : Fin cfg1.W, w ≠ 11 → (cfg1.win w).isOut = false := by decide
/-- Region 1's last window is over `main_v36`, -/
theorem arr1_out : Pipeline.arrRef spec1 11 = main_v36 := rfl
/-- and no other window of it is. -/
theorem arr1_ne : ∀ w : Fin cfg1.W, w ≠ 11 → Pipeline.arrRef spec1 w ∉ ([main_v36] : List (Ref sig .tc)) := by decide

section Run

variable (m : (ℓ : Loc nD τ sig) → Buf (Elt F) ℓ) (ρ : Dev nD → PrngReg) (outs : Outs (F := F))

/-! ## The valuations around the regions, read at the TensorCore's references -/

/-- Region 0's entry contents. -/
abbrev T4 (c : Dev nD) : (b : Ref sig .tc) → Buf (Elt F) ((c : Thread nD τ).loc b) := fun b => V4 m c b
/-- Region 0's exit contents. -/
abbrev T5 (c : Dev nD) : (b : Ref sig .tc) → Buf (Elt F) ((c : Thread nD τ).loc b) := fun b => V5 m outs c b
/-- Region 1's entry contents. -/
abbrev T8 (c : Dev nD) : (b : Ref sig .tc) → Buf (Elt F) ((c : Thread nD τ).loc b) := fun b => V8 m outs c b
/-- Region 1's exit contents. -/
abbrev T9 (c : Dev nD) : (b : Ref sig .tc) → Buf (Elt F) ((c : Thread nD τ).loc b) := fun b => V9 m outs c b

/-- What rides beside the buffers through every item: the core's generator register at some state (the class
    invariant takes it in and gives it back) and its dues, at nothing. -/
abbrev restR (c : Dev nD) : sProp 𝕄 := iprop((∃ r, prngReg c r) ∗ ∃ W, owes (c : Thread nD τ) (0 : CellTallies nD τ sig Unit) W)

/-! ## What a region leaves in its arrays

An input window's array is never written, so after all the write-backs it holds what the proof data entered with,
which is the entry valuation there, which the exit valuation keeps (it differs from the entry one at the output's
array only). The output window's array holds the folded write-backs, which is what the exit valuation is given there. -/

/-- Region 0: each array after the write-backs is the exit valuation there. -/
theorem exit0 (d0 : (c : Dev nD) → Dat τ (Elt F) Unit ℕ (UR sig nD τ) ℕ cfg0 c)
    (hA0 : ∀ c w, (d0 c).A w = V4 m c (Pipeline.arrRef spec0 w))
    (hout0 : ∀ c, outs 5 main_v19 c = (d0 c).arrAt 11 cfg0.N) (c : Dev nD) (w : Fin cfg0.W) :
    (d0 c).arrAt w cfg0.N = T5 m outs c (Pipeline.arrRef spec0 w) := by
  by_cases hw : w = 11
  · subst hw
    show (d0 c).arrAt 11 cfg0.N
      = Function.update (V4 m c) (Proc.devRef .tc main_v19) (outs 5 main_v19 c) (Proc.devRef .tc main_v19)
    rw [Function.update_self]; exact (hout0 c).symm
  · exact ((d0 c).arrAt_in w (isIn0 w hw) _).trans ((hA0 c w).trans (V5_of m outs c _ (arr0_ne w hw)).symm)

/-- Region 0: every buffer that is no array of it is as entered. -/
theorem rest0 (c : Dev nD) : ∀ b, b ∉ Finset.univ.image (Pipeline.arrRef spec0) → T5 m outs c b = T4 m c b :=
  fun b hb => V5_of m outs c b fun h =>
    hb (Finset.mem_image.mpr ⟨11, Finset.mem_univ _, arr0_out.trans (List.mem_singleton.mp h).symm⟩)

/-- Region 1: each array after the write-backs is the exit valuation there. -/
theorem exit1 (d1 : (c : Dev nD) → Dat τ (Elt F) Unit ℕ (UR sig nD τ) ℕ cfg1 c)
    (hA1 : ∀ c w, (d1 c).A w = V8 m outs c (Pipeline.arrRef spec1 w))
    (hout1 : ∀ c, outs 9 main_v36 c = (d1 c).arrAt 11 cfg1.N) (c : Dev nD) (w : Fin cfg1.W) :
    (d1 c).arrAt w cfg1.N = T9 m outs c (Pipeline.arrRef spec1 w) := by
  by_cases hw : w = 11
  · subst hw
    show (d1 c).arrAt 11 cfg1.N
      = Function.update (V8 m outs c) (Proc.devRef .tc main_v36) (outs 9 main_v36 c) (Proc.devRef .tc main_v36)
    rw [Function.update_self]; exact (hout1 c).symm
  · exact ((d1 c).arrAt_in w (isIn1 w hw) _).trans ((hA1 c w).trans (V9_of m outs c _ (arr1_ne w hw)).symm)

/-- Region 1: every buffer that is no array of it is as entered. -/
theorem rest1 (c : Dev nD) : ∀ b, b ∉ Finset.univ.image (Pipeline.arrRef spec1) → T9 m outs c b = T8 m outs c b :=
  fun b hb => V9_of m outs c b fun h =>
    hb (Finset.mem_image.mpr ⟨11, Finset.mem_univ _, arr1_out.trans (List.mem_singleton.mp h).symm⟩)

/-! ## The proof data family -/

variable (d0 : (c : Dev nD) → Dat τ (Elt F) Unit ℕ (UR sig nD τ) ℕ cfg0 c)
  (d1 : (c : Dev nD) → Dat τ (Elt F) Unit ℕ (UR sig nD τ) ℕ cfg1 c)

/-- Every pipeline's proof data — a literal `match`, so that the family at a numeral reduces to that region's. -/
def pdats : (p : Fin 2) → (c : Dev nD) → Dat τ (Elt F) Unit ℕ (UR sig nD τ) ℕ (Pipeline.pin (pcfgs (F := F)) adm p) c
  | ⟨0, _⟩ => fun c => d0 c
  | ⟨1, _⟩ => fun c => d1 c

/-! ## The regions as segments -/

section Reg0

variable (hA0 : ∀ c w, (d0 c).A w = V4 m c (Pipeline.arrRef spec0 w))
  (hΦ0 : ∀ c t, (d0 c).Φ t = Pipeline.ΦA spec0 c)
  (hq0 : ∀ c w, (d0 c).q w = fullShare)
  (howed0 : ∀ c t, (d0 c).owed t = 0)
  (hrec0 : ∀ c, (d0 c).recorded 0 = Set.univ)
  (hb0 : ∀ c, BodyObligationLoose (d0 c) (defs₀ (F := F)) Variants.none () Set.univ)
  (hout0 : ∀ c, outs 5 main_v19 c = (d0 c).arrAt 11 cfg0.N)

set_option backward.isDefEq.respectTransparency.types false in
/-- REGION 0 over the thread state: entered from every unscoped buffer at `V4`, left at `V5`. Its arrays split
    out of the unscoped buffers and put back at the exit contents; the generator register into the class invariant
    and out; nothing owed; no semaphore of the kernel's own. -/
def reg0 : Pipeline.RegionSeg (pcfgs (F := F)) adm (pdats d0 d1) () defs₀ Variants.none 𝕃 𝕧 0 where
  win := launch0.win.to₀
  block_pos := launch0.block_pos
  stage_whole := launch0.stage_whole
  K := PEmpty
  osem k := k.elim
  ho := Pipeline.OwnSemFacts.none _
  hbody c := hb0 c
  hwaits := Pipeline.hwaits_of_owed_zero _ _ _ _ 𝕃 𝕧 0 fun c t => howed0 c t
  pre c := iprop(StableHlo.held (c : Thread nD τ) (Pipeline.ucRefs τ sig) (V4 m c) ∗ restR c)
  post c := iprop(StableHlo.held (c : Thread nD τ) (Pipeline.ucRefs τ sig) (V5 m outs c) ∗ restR c)
  X c := iprop(∃ r, prngReg c r)
  Y c := iprop(∃ r, prngReg c r)
  Z c := Pipeline.unscopedRest (Ix := Unit) (Name := ℕ) (U := UR sig nD τ) (Lvl := ℕ) spec0 c (T4 m c)
  hentry c := by
    rw [Pipeline.ownSems0_none]
    have hsplit := Pipeline.arrays_of_unscopedBufs (p := 0) (pcfgs (F := F)) adm (pdats d0 d1) launch0.win launch0.arr_whole c
      ((pdats d0 d1 0 c).share_full fun w => hq0 c w) (T4 m c) fun w => hA0 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 0 c).owed 0 = 0 from howed0 c 0]
      icases HO with ⟨%W, HO⟩; iexists W; isplitr
      · ipureintro; exact fun _ _ => Or.inl (by rw [show (pdats d0 d1 0 c).recorded 0 = Set.univ from hrec0 c]; trivial)
      iexact HO
    isplitl [Hp]; · iexact Hp
    iexact Hrest
  hin c := by
    rw [show (pdats d0 d1 0 c).Φ 0 = Pipeline.ΦA spec0 c from hΦ0 c 0]; unfold Pipeline.ΦA
    iintro ⟨Hp, -, Hr⟩
    isplitl [Hr]; · iexact Hr
    iexact Hp
  hout c := by
    rw [Pipeline.ownSems0_none, show (pdats d0 d1 0 c).Φ (Fin.last _) = Pipeline.ΦA spec0 c from hΦ0 c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats d0 d1) ((pdats d0 d1 0 c).share_full fun w => hq0 c w)
      (T4 m c) (T5 m outs c) ((pdats d0 d1 0 c).arrAt · cfg0.N) (exit0 m outs d0 hA0 hout0 c) (rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 0 c).owed (Fin.last _) = 0 from howed0 c (Fin.last _)]
    icases HO with ⟨%W, -, HO⟩; iexists W; iexact HO

end Reg0

section Reg1

variable (hA1 : ∀ c w, (d1 c).A w = V8 m outs c (Pipeline.arrRef spec1 w))
  (hΦ1 : ∀ c t, (d1 c).Φ t = Pipeline.ΦA spec1 c)
  (hq1 : ∀ c w, (d1 c).q w = fullShare)
  (howed1 : ∀ c t, (d1 c).owed t = 0)
  (hrec1 : ∀ c, (d1 c).recorded 0 = Set.univ)
  (hb1 : ∀ c, BodyObligationLoose (d1 c) (defs₀ (F := F)) Variants.none () Set.univ)
  (hout1 : ∀ c, outs 9 main_v36 c = (d1 c).arrAt 11 cfg1.N)

set_option backward.isDefEq.respectTransparency.types false in
/-- REGION 1 over the thread state: entered from every unscoped buffer at `V8`, left at `V9`; as region 0. -/
def reg1 : Pipeline.RegionSeg (pcfgs (F := F)) adm (pdats d0 d1) () defs₀ Variants.none 𝕃 𝕧 1 where
  win := launch1.win.to₀
  block_pos := launch1.block_pos
  stage_whole := launch1.stage_whole
  K := PEmpty
  osem k := k.elim
  ho := Pipeline.OwnSemFacts.none _
  hbody c := hb1 c
  hwaits := Pipeline.hwaits_of_owed_zero _ _ _ _ 𝕃 𝕧 1 fun c t => howed1 c t
  pre c := iprop(StableHlo.held (c : Thread nD τ) (Pipeline.ucRefs τ sig) (V8 m outs c) ∗ restR c)
  post c := iprop(StableHlo.held (c : Thread nD τ) (Pipeline.ucRefs τ sig) (V9 m outs c) ∗ restR c)
  X c := iprop(∃ r, prngReg c r)
  Y c := iprop(∃ r, prngReg c r)
  Z c := Pipeline.unscopedRest (Ix := Unit) (Name := ℕ) (U := UR sig nD τ) (Lvl := ℕ) spec1 c (T8 m outs c)
  hentry c := by
    rw [Pipeline.ownSems0_none]
    have hsplit := Pipeline.arrays_of_unscopedBufs (p := 1) (pcfgs (F := F)) adm (pdats d0 d1) launch1.win launch1.arr_whole c
      ((pdats d0 d1 1 c).share_full fun w => hq1 c w) (T8 m outs c) fun w => hA1 c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats d0 d1 1 c).owed 0 = 0 from howed1 c 0]
      icases HO with ⟨%W, HO⟩; iexists W; isplitr
      · ipureintro; exact fun _ _ => Or.inl (by rw [show (pdats d0 d1 1 c).recorded 0 = Set.univ from hrec1 c]; trivial)
      iexact HO
    isplitl [Hp]; · iexact Hp
    iexact Hrest
  hin c := by
    rw [show (pdats d0 d1 1 c).Φ 0 = Pipeline.ΦA spec1 c from hΦ1 c 0]; unfold Pipeline.ΦA
    iintro ⟨Hp, -, Hr⟩
    isplitl [Hr]; · iexact Hr
    iexact Hp
  hout c := by
    rw [Pipeline.ownSems0_none, show (pdats d0 d1 1 c).Φ (Fin.last _) = Pipeline.ΦA spec1 c from hΦ1 c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats d0 d1) ((pdats d0 d1 1 c).share_full fun w => hq1 c w)
      (T8 m outs c) (T9 m outs c) ((pdats d0 d1 1 c).arrAt · cfg1.N) (exit1 m outs d1 hA1 hout1 c) (rest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats d0 d1 1 c).owed (Fin.last _) = 0 from howed1 c (Fin.last _)]
    icases HO with ⟨%W, -, HO⟩; iexists W; iexact HO

end Reg1

/-! ## @main through the segments -/

variable (hA0 : ∀ c w, (d0 c).A w = V4 m c (Pipeline.arrRef spec0 w))
  (hΦ0 : ∀ c t, (d0 c).Φ t = Pipeline.ΦA spec0 c)
  (hq0 : ∀ c w, (d0 c).q w = fullShare)
  (howed0 : ∀ c t, (d0 c).owed t = 0)
  (hrec0 : ∀ c, (d0 c).recorded 0 = Set.univ)
  (hb0 : ∀ c, BodyObligationLoose (d0 c) (defs₀ (F := F)) Variants.none () Set.univ)
  (hout0 : ∀ c, outs 5 main_v19 c = (d0 c).arrAt 11 cfg0.N)
  (hA1 : ∀ c w, (d1 c).A w = V8 m outs c (Pipeline.arrRef spec1 w))
  (hΦ1 : ∀ c t, (d1 c).Φ t = Pipeline.ΦA spec1 c)
  (hq1 : ∀ c w, (d1 c).q w = fullShare)
  (howed1 : ∀ c t, (d1 c).owed t = 0)
  (hrec1 : ∀ c, (d1 c).recorded 0 = Set.univ)
  (hb1 : ∀ c, BodyObligationLoose (d1 c) (defs₀ (F := F)) Variants.none () Set.univ)
  (hout1 : ∀ c, outs 9 main_v36 c = (d1 c).arrAt 11 cfg1.N)

/-- The rest state between any two items. -/
abbrev restE : Fin 3 → Dev nD → sProp 𝕄 := fun _ c => restR c

include hA0 hΦ0 hq0 howed0 hrec0 hb0 hout0 hA1 hΦ1 hq1 howed1 hrec1 hb1 hout1

set_option backward.isDefEq.respectTransparency.types false in
/-- THE RUN, WITH THE VALUE. At the compiled mesh, from any memory with zero counters, every weakly fair execution of
    @main on the TensorCores terminates, nothing faulting, and every final state holds the result `main_v43` at the
    last valuation and each argument array as launched: the launch over the ten segments, the last thread state read
    against the final state. -/
theorem run_value : θ_run defs (onTc (τ := τ) (main (F := F))) ⟨m, fun _ => 0, ρ⟩ (fun r => ∀ c : Dev nD,
      r.2.mem ((c.tc : Thread nD τ).loc main_v43) = V10 m outs c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine Pipeline.θ_run_regions_kit_dev (pcfgs (F := F)) adm (pdats d0 d1) () cellOf_inj emb₁ defs₀ Variants.none 𝕃 𝕧 m ρ main
    (segs m outs Variants.none 𝕃 𝕧 restE () (pdats d0 d1)
      (reg0 m outs d0 d1 hA0 hΦ0 hq0 howed0 hrec0 hb0 hout0) (reg1 m outs d0 d1 hA1 hΦ1 hq1 howed1 hrec1 hb1 hout1))
    (fun c Q => by
      rewrite [main_chain c, Seg.run_eq_chain,
        show (segs m outs Variants.none 𝕃 𝕧 restE () (pdats d0 d1)
            (reg0 m outs d0 d1 hA0 hΦ0 hq0 howed0 hrec0 hb0 hout0) (reg1 m outs d0 d1 hA1 hΦ1 hq1 howed1 hrec1 hb1 hout1) c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ restR c))
    (Tₙ := fun c => StableHlo.held (c : Thread nD τ) (Pipeline.ucRefs τ sig) (V10 m outs c))
    (hch := fun c => ⟨.rfl, .rfl, .rfl, .rfl, .rfl, .rfl, .rfl, .rfl, .rfl, .rfl,
      sep_mono .rfl (by iintro ⟨-, H⟩; iexact H)⟩)
    (hinit := by
      refine Pipeline.initEach 𝕃 𝕧 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v43) = V10 m outs c main_v43
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)
        ∧ s.mem ((c.tc : Thread nD τ).loc main_arg5) = m ((c.tc : Thread nD τ).loc main_arg5)
        ∧ s.mem ((c.tc : Thread nD τ).loc main_arg6) = m ((c.tc : Thread nD τ).loc main_arg6)
        ∧ s.mem ((c.tc : Thread nD τ).loc main_arg7) = m ((c.tc : Thread nD τ).loc main_arg7)
        ∧ s.mem ((c.tc : Thread nD τ).loc main_arg8) = m ((c.tc : Thread nD τ).loc main_arg8)
        ∧ s.mem ((c.tc : Thread nD τ).loc main_arg9) = m ((c.tc : Thread nD τ).loc main_arg9)
        ∧ s.mem ((c.tc : Thread nD τ).loc main_arg10) = m ((c.tc : Thread nD τ).loc main_arg10)
        ∧ s.mem ((c.tc : Thread nD τ).loc main_arg11) = m ((c.tc : Thread nD τ).loc main_arg11)
        ∧ s.mem ((c.tc : Thread nD τ).loc main_arg12) = m ((c.tc : Thread nD τ).loc main_arg12)
        ∧ s.mem ((c.tc : Thread nD τ).loc main_arg13) = m ((c.tc : Thread nD τ).loc main_arg13)
        ∧ s.mem ((c.tc : Thread nD τ).loc main_arg14) = m ((c.tc : Thread nD τ).loc main_arg14)
        ∧ s.mem ((c.tc : Thread nD τ).loc main_arg15) = m ((c.tc : Thread nD τ).loc main_arg15)
        ∧ s.mem ((c.tc : Thread nD τ).loc main_arg16) = m ((c.tc : Thread nD τ).loc main_arg16)
        ∧ s.mem ((c.tc : Thread nD τ).loc main_arg17) = m ((c.tc : Thread nD τ).loc main_arg17)
        ∧ s.mem ((c.tc : Thread nD τ).loc main_arg18) = m ((c.tc : Thread nD τ).loc main_arg18)
        ∧ s.mem ((c.tc : Thread nD τ).loc main_arg19) = m ((c.tc : Thread nD τ).loc main_arg19))
    (hfin := fun c s' => ?_) (hQ := fun _ h => h)
  -- the end: the result's buffer and each argument's read off the last valuation
  unfold StableHlo.held
  iintro ⟨Hh, HSI⟩
  ihave Hr := (pointsTo_read_all (Pipeline.ucRefs τ sig) (fun b => ((c : Thread nD τ).1, b)) (V10 m outs c) s') $$ [Hh HSI]
  · isplitl [Hh] <;> iassumption
  icases Hr with ⟨%h, HSI⟩
  imodintro
  isplitr
  · ipureintro
    exact ⟨h (Proc.devRef .tc main_v43) (Finset.mem_filter.mpr ⟨StableHlo.devRef_mem_tcRefs main_v43, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c),
        (h (Proc.devRef .tc main_arg10) (Finset.mem_filter.mpr ⟨StableHlo.devRef_mem_tcRefs main_arg10, by decide⟩)).trans (V10_main_arg10 m outs c),
        (h (Proc.devRef .tc main_arg11) (Finset.mem_filter.mpr ⟨StableHlo.devRef_mem_tcRefs main_arg11, by decide⟩)).trans (V10_main_arg11 m outs c),
        (h (Proc.devRef .tc main_arg12) (Finset.mem_filter.mpr ⟨StableHlo.devRef_mem_tcRefs main_arg12, by decide⟩)).trans (V10_main_arg12 m outs c),
        (h (Proc.devRef .tc main_arg13) (Finset.mem_filter.mpr ⟨StableHlo.devRef_mem_tcRefs main_arg13, by decide⟩)).trans (V10_main_arg13 m outs c),
        (h (Proc.devRef .tc main_arg14) (Finset.mem_filter.mpr ⟨StableHlo.devRef_mem_tcRefs main_arg14, by decide⟩)).trans (V10_main_arg14 m outs c),
        (h (Proc.devRef .tc main_arg15) (Finset.mem_filter.mpr ⟨StableHlo.devRef_mem_tcRefs main_arg15, by decide⟩)).trans (V10_main_arg15 m outs c),
        (h (Proc.devRef .tc main_arg16) (Finset.mem_filter.mpr ⟨StableHlo.devRef_mem_tcRefs main_arg16, by decide⟩)).trans (V10_main_arg16 m outs c),
        (h (Proc.devRef .tc main_arg17) (Finset.mem_filter.mpr ⟨StableHlo.devRef_mem_tcRefs main_arg17, by decide⟩)).trans (V10_main_arg17 m outs c),
        (h (Proc.devRef .tc main_arg18) (Finset.mem_filter.mpr ⟨StableHlo.devRef_mem_tcRefs main_arg18, by decide⟩)).trans (V10_main_arg18 m outs c),
        (h (Proc.devRef .tc main_arg19) (Finset.mem_filter.mpr ⟨StableHlo.devRef_mem_tcRefs main_arg19, by decide⟩)).trans (V10_main_arg19 m outs c)⟩
  · iexact HSI

/-- THE FRAME: every weakly fair execution of @main terminates and every final state has the argument arrays as
    launched — the run's post without the result's conjunct. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2)
    (run_value m ρ outs d0 d1 hA0 hΦ0 hq0 howed0 hrec0 hb0 hout0 hA1 hΦ1 hq1 howed1 hrec1 hb1 hout1)

/-! ## The regions' records meet the thread states of the generated conditional frame

With the rest state `restE` between any two items, each record is entered from and left at exactly the thread state
the conditional frame names before and after its region. -/

theorem hpre0 (c : Dev nD) : iprop(StableHlo.held (c : Thread nD τ) (Pipeline.ucRefs τ sig) (V4 m c) ∗ restE (F := F) 0 c)
    ⊢ (reg0 m outs d0 d1 hA0 hΦ0 hq0 howed0 hrec0 hb0 hout0).pre c := .rfl
theorem hpost0 (c : Dev nD) : (reg0 m outs d0 d1 hA0 hΦ0 hq0 howed0 hrec0 hb0 hout0).post c
    ⊢ iprop(StableHlo.held (c : Thread nD τ) (Pipeline.ucRefs τ sig) (V5 m outs c) ∗ restE (F := F) 1 c) := .rfl
theorem hpre1 (c : Dev nD) : iprop(StableHlo.held (c : Thread nD τ) (Pipeline.ucRefs τ sig) (V8 m outs c) ∗ restE (F := F) 1 c)
    ⊢ (reg1 m outs d0 d1 hA1 hΦ1 hq1 howed1 hrec1 hb1 hout1).pre c := .rfl
theorem hpost1 (c : Dev nD) : (reg1 m outs d0 d1 hA1 hΦ1 hq1 howed1 hrec1 hb1 hout1).post c
    ⊢ iprop(StableHlo.held (c : Thread nD τ) (Pipeline.ucRefs τ sig) (V9 m outs c) ∗ restE (F := F) 2 c) := .rfl

end Run

/-! ## Gathering what the regions leave

The valuations are written over one family `outs`, read at two points only: region 0's leaving in `main_v19` and
region 1's in `main_v36`. Region 1's entry contents read the first only, so the second may be chosen after them. -/

section Outs

variable (m : (ℓ : Loc nD τ sig) → Buf (Elt F) ℓ)
  (o5 : (c : Dev nD) → Buf (Elt F) ((c : Thread nD τ).loc main_v19))
  (o9 o9' : (c : Dev nD) → Buf (Elt F) ((c : Thread nD τ).loc main_v36))

/-- The family holding `o5` in `main_v19` and `o9` in `main_v36` (and the launch contents elsewhere, never read). -/
def outsOf : Outs (F := F) := fun _ r c =>
  if h : r = main_v19 then h ▸ o5 c else if h' : r = main_v36 then h' ▸ o9 c else m ((c : Thread nD τ).loc r)

theorem outsOf_v19 (j : ℕ) (c : Dev nD) : outsOf m o5 o9 j main_v19 c = o5 c := by
  unfold outsOf; rw [dif_pos rfl]

theorem outsOf_v36 (j : ℕ) (c : Dev nD) : outsOf m o5 o9 j main_v36 c = o9 c := by
  unfold outsOf; rw [dif_neg (by decide), dif_pos rfl]

/-- Region 1's entry contents do not read what region 1 leaves. -/
theorem V8_outsOf (c : Dev nD) : V8 m (outsOf m o5 o9) c = V8 m (outsOf m o5 o9') c := by
  simp only [V8, V7, V6, V5, outsOf_v19]

end Outs

end Cert.KernelIdeal.Hand

end
-- ==== Proof.KI.Body0.lean ====
/- Region 0, the fused fragment kernel on its grid of 50 row blocks: the half of its certificate that speaks of one
   grid point. At a PARAMETER V (the core's buffer contents when the region is entered): the block each of the twelve
   windows holds at a point; what the body leaves in the output window's buffer, as a function of the eleven input
   blocks; the body's triple on whole staging buffers; the pipeline's proof data; and the body obligation at every
   point. Windows 0, 2, 3 (the row blocks of the three row-indexed operands) are fetched at every point; windows 1 and
   4..10 (the whole small operands) are fetched once and stay resident; window 11 (the output rows) is written back at
   every point. -/
import proofs.«426145_j45973329936455_2_alg».proof.Proof.Gen.KernelIdeal.Launch
import proofs.«426145_j45973329936455_2_alg».proof.Proof.Gen.KernelIdeal.Skeleton
import proofs.«426145_j45973329936455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered: everything below is stated at this parameter
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, whether the window was fetched at that
    point or not: where it was not fetched its block index has not moved since the last fetch, so the buffer still
    holds the block of this point. Stated for ANY proof data whose array is V's and whose body leaves the block in
    place; no window of this region is cut and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer is read, and the output written, whole -/

abbrev rA : Rect S1000x2000 := Rect.unit (s := S1000x2000) ![0, 0] S1000x2000.size inb_S1000x2000_S1000x2000_0_0
abbrev rB : Rect S2000x131 := Rect.unit (s := S2000x131) ![0, 0] S2000x131.size inb_S2000x131_S2000x131_0_0
abbrev rH : Rect S1000x128 := Rect.unit (s := S1000x128) ![0, 0] S1000x128.size inb_S1000x128_S1000x128_0_0
abbrev rX : Rect S1000x3 := Rect.unit (s := S1000x3) ![0, 0] S1000x3.size inb_S1000x3_S1000x3_0_0
abbrev rW : Rect S128x128 := Rect.unit (s := S128x128) ![0, 0] S128x128.size inb_S128x128_S128x128_0_0
abbrev rb : Rect S1x128 := Rect.unit (s := S1x128) ![0, 0] S1x128.size inb_S1x128_S1x128_0_0
abbrev rw3 : Rect S128x1 := Rect.unit (s := S128x1) ![0, 0] S128x1.size inb_S128x1_S128x1_0_0

/-! ## What the body leaves in the output window's buffer -/

/-- The output window's staging buffer after the body, from the eleven input blocks: its one store, of the whole
    block. The stored value is the last payload over the three values the first part of the kernel returns (the
    normalised direction, the hidden layer's pre-activation, the bias row), each over the blocks it reads. -/
def out0 (x0 : Vec F S1000x2000 .f32) (x1 : Vec F S2000x131 .bf16) (x2 : Vec F S1000x128 .f32) (x3 : Vec F S1000x3 .f32)
    (x4 x5 : Vec F S128x128 .bf16) (x6 x7 : Vec F S1x128 .f32) (x8 : Vec F S128x128 .bf16) (x9 : Vec F S1x128 .f32)
    (x10 : Vec F S128x1 .bf16) : Vec F S1000x3 .f32 :=
  View.canon [⟨rX, k0_pay1 (k0_pay5 (View.ld x0 rA) (View.ld x1 rB) (View.ld x3 rX))
    (k0_pay6 (View.ld x0 rA) (View.ld x1 rB) (View.ld x3 rX) (View.ld x2 rH) (View.ld x4 rW) (View.ld x5 rW) (View.ld x6 rb))
    (k0_pay7 (View.ld x7 rb)) (View.ld x8 rW) (View.ld x9 rb) (View.ld x10 rw3)⟩]

/-- The one store is of the whole buffer, so it covers it. -/
theorem cover0 (p0 : Vec F S1000x3 .f32) (y : S1000x3.Idx) :
    ∃ pc ∈ ([⟨rX, p0⟩] : List (View.Piece (Elt F) S1000x3 .f32)), y ∈ pc.1.set :=
  View.cover_of_tiled [⟨rX, p0⟩] S1000x3.size (by rfl) y

/-! ## The body's triple -/

set_option maxHeartbeats 4000000 in
/-- The kernel body on whole staging buffers, the inputs' at read contents x0..x10 and the output's at anything, runs
    to the continuation holding the inputs' as they were and the output's at out0 of the inputs'. The body reads every
    input buffer whole, reads the output buffer once (the value is not used), and stores the whole output block. -/
theorem sound_kernel0 (c : Dev nD) (E : Set ℕ) (i : grid0.Coords)
    (arg1 : Memref sig .tc .vmem S1000x2000 .f32) (harg1 : arg1.IsWhole) (arg2 : Memref sig .tc .vmem S2000x131 .bf16) (harg2 : arg2.IsWhole)
    (arg3 : Memref sig .tc .vmem S1000x128 .f32) (harg3 : arg3.IsWhole) (arg4 : Memref sig .tc .vmem S1000x3 .f32) (harg4 : arg4.IsWhole)
    (arg5 : Memref sig .tc .vmem S128x128 .bf16) (harg5 : arg5.IsWhole) (arg6 : Memref sig .tc .vmem S128x128 .bf16) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S128x128 .bf16) (harg9 : arg9.IsWhole) (arg10 : Memref sig .tc .vmem S1x128 .f32) (harg10 : arg10.IsWhole)
    (arg11 : Memref sig .tc .vmem S128x1 .bf16) (harg11 : arg11.IsWhole) (arg12 : Memref sig .tc .vmem S1000x3 .f32) (harg12 : arg12.IsWhole)
    (x0 : Vec F S1000x2000 .f32) (x1 : Vec F S2000x131 .bf16) (x2 : Vec F S1000x128 .f32) (x3 : Vec F S1000x3 .f32)
    (x4 x5 : Vec F S128x128 .bf16) (x6 x7 : Vec F S1x128 .f32) (x8 : Vec F S128x128 .bf16) (x9 : Vec F S1x128 .f32)
    (x10 : Vec F S128x1 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ owns (c : Thread nD τ) arg11 fullShare x10 ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare x10
            ∗ owns (c : Thread nD τ) arg12 fullShare (out0 x0 x1 x2 x3 x4 x5 x6 x7 x8 x9 x10)) -∗ K ⟨⟩))
      ⊢ wp frame (wpE (defs₀ (F := F)) Variants.none c none) E
          (cc0__bm_frag_kernel i arg1 harg1 arg2 harg2 arg3 harg3 arg4 harg4 arg5 harg5 arg6 harg6 arg7 harg7 arg8 harg8 arg9 harg9 arg10 harg10 arg11 harg11 arg12 harg12) K := by
  simp only [cc0__bm_frag_kernel_eq_skeleton]; unfold cc0__bm_frag_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0 _)

/-! ## The pipeline's proof data -/

/-- The proof data of the pipeline on core c: the arrays as the region finds them; after the body at point t each
    input's buffer at its block and the output's at out0 of the input blocks; the invariant "the scoped rest and
    the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0 (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t =
    out0 (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point t: the invariant, what is owed, and each window's current staging buffer
    at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Body1.lean ====
/-
  Region 1 of @main (pipeline 1, the per-edge network on blocks of 4096 rows over arrays of 500000 rows), at the
  contents `V` the region finds in the unscoped buffers. The last block overhangs the arrays' end: windows 0, 1, 2
  (inputs) and window 11 (the output) are cut there, so at the last point only the first 288 rows of their staging
  buffers are moved, and the rest of an input's buffer holds words nothing names. This module states, at any float
  type: each window's block at a point (`iblk1`), the output buffer after the body as a function of what the body
  finds in the eleven input buffers (`out1`), the body's triple at arbitrary found contents (`sound_kernel1`), the
  proof data (`dat1`: after the body an input buffer holds its block, filled out past the array's end with the zero
  word, and the output buffer holds `out1` of those), and the body obligation with the output window forgotten
  (`body_obligation1_fgt`): the input windows are stated on the rows inside the array only, which is all their
  obligation asks, and the output window is handed over and taken back at contents nothing names.
-/
import proofs.«426145_j45973329936455_2_alg».proof.Proof.Gen.KernelIdeal.Launch
import proofs.«426145_j45973329936455_2_alg».proof.Proof.Gen.KernelIdeal.Skeleton
import proofs.«426145_j45973329936455_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the unscoped buffers' contents when the region is entered
variable (V : (c : Dev nD) → (b : Ref sig .tc) → Buf (Elt F) ((c : Thread nD τ).loc b))

/-! ## The windows' blocks -/

/-- Window `w`'s block at point `t`, read off its array as the region finds it: the block's part inside the array
    (at the last point, for the cut windows, 288 rows). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store are of a whole staging buffer -/

abbrev r1A : Rect S4096x128 := Rect.unit (s := S4096x128) ![0, 0] S4096x128.size inb_S4096x128_S4096x128_0_0
abbrev rS : Rect S4096x6 := Rect.unit (s := S4096x6) ![0, 0] S4096x6.size inb_S4096x6_S4096x6_0_0
abbrev r1W : Rect S128x128 := Rect.unit (s := S128x128) ![0, 0] S128x128.size inb_S128x128_S128x128_0_0
abbrev rP : Rect S2x128 := Rect.unit (s := S2x128) ![0, 0] S2x128.size inb_S2x128_S2x128_0_0
abbrev r1B : Rect S1x128 := Rect.unit (s := S1x128) ![0, 0] S1x128.size inb_S1x128_S1x128_0_0
abbrev rC : Rect S128x1 := Rect.unit (s := S128x1) ![0, 0] S128x1.size inb_S128x1_S128x1_0_0
abbrev rO : Rect S4096x3 := Rect.unit (s := S4096x3) ![0, 0] S4096x3.size inb_S4096x3_S4096x3_0_0

/-! ## What the body leaves in the output window's buffer -/

/-- Window 11's staging buffer after the body, from what the body finds in the eleven input buffers: its one store,
    of the whole buffer, over the payloads of the printed function's skeleton. -/
def out1 (x0 x1 : Vec F S4096x128 .f32) (x2 : Vec F S4096x6 .f32) (x3 x4 : Vec F S128x128 .bf16) (x5 : Vec F S2x128 .f32)
    (x6 : Vec F S128x128 .bf16) (x7 : Vec F S1x128 .f32) (x8 : Vec F S128x128 .bf16) (x9 : Vec F S1x128 .f32)
    (x10 : Vec F S128x1 .bf16) : Vec F S4096x3 .f32 :=
  View.canon [⟨rO, k1_pay1 (k1_pay3 (View.ld x2 rS))
    (k1_pay4 (View.ld x0 r1A) (View.ld x1 r1A) (View.ld x2 rS) (View.ld x3 r1W) (View.ld x4 r1W) (View.ld x5 rP) (View.ld x6 r1W))
    (View.ld x7 r1B) (View.ld x8 r1W) (View.ld x9 r1B) (View.ld x10 rC)⟩]

/-- The one store is of the whole buffer, so it covers it. -/
theorem cover1 (p0 : Vec F S4096x3 .f32) (y : S4096x3.Idx) :
    ∃ pc ∈ ([⟨rO, p0⟩] : List (View.Piece (Elt F) S4096x3 .f32)), y ∈ pc.1.set :=
  View.cover_of_tiled [⟨rO, p0⟩] S4096x3.size (by rfl) y

/-! ## The body's triple -/

set_option maxHeartbeats 4000000 in
/-- The kernel body on whole staging memrefs, the inputs' at whatever contents `xW` the body finds and the output's
    at anything, runs to the continuation holding the inputs' as they were and the output's at `out1` of the inputs':
    the printed function and its printed part are their skeletons, eleven whole loads (and a dead one of the output's
    buffer) and one whole store. -/
theorem sound_kernel1 (c : Dev nD) (E : Set ℕ) (i : grid1.Coords)
    (arg1 : Memref sig .tc .vmem S4096x128 .f32) (harg1 : arg1.IsWhole) (arg2 : Memref sig .tc .vmem S4096x128 .f32) (harg2 : arg2.IsWhole)
    (arg3 : Memref sig .tc .vmem S4096x6 .f32) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S2x128 .f32) (harg6 : arg6.IsWhole)
    (arg7 : Memref sig .tc .vmem S128x128 .bf16) (harg7 : arg7.IsWhole) (arg8 : Memref sig .tc .vmem S1x128 .f32) (harg8 : arg8.IsWhole)
    (arg9 : Memref sig .tc .vmem S128x128 .bf16) (harg9 : arg9.IsWhole) (arg10 : Memref sig .tc .vmem S1x128 .f32) (harg10 : arg10.IsWhole)
    (arg11 : Memref sig .tc .vmem S128x1 .bf16) (harg11 : arg11.IsWhole) (arg12 : Memref sig .tc .vmem S4096x3 .f32) (harg12 : arg12.IsWhole)
    (x0 x1 : Vec F S4096x128 .f32) (x2 : Vec F S4096x6 .f32) (x3 x4 : Vec F S128x128 .bf16) (x5 : Vec F S2x128 .f32)
    (x6 : Vec F S128x128 .bf16) (x7 : Vec F S1x128 .f32) (x8 : Vec F S128x128 .bf16) (x9 : Vec F S1x128 .f32)
    (x10 : Vec F S128x1 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out1 x0 x1 x2 x3 x4 x5 x6 x7 x8 x9 x10)) -∗ K ⟨⟩))
      ⊢ wp frame (wpE (defs₀ (F := F)) Variants.none c none) E
          (cc1__atom_mlp_kernel i arg1 harg1 arg2 harg2 arg3 harg3 arg4 harg4 arg5 harg5 arg6 harg6 arg7 harg7 arg8 harg8 arg9 harg9
            arg10 harg10 arg11 harg11 arg12 harg12) K := by
  simp only [cc1__atom_mlp_kernel_eq_skeleton]; unfold cc1__atom_mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover1 _)

/-! ## The pipeline's proof data -/

/-- What the proof data says input window 0's buffer holds after the body at point `t`: its block on the rows inside
    the array, the zero word on the rows past the array's end (at the last point; nothing reads them: the window is
    loose, its obligation is stated on the rows inside the array). -/
def in1_0 (c : Dev nD) (t : Fin cfg1.N) : Vec F S4096x128 .f32 :=
  win1_0.fill (grid1.coords t) (fun _ => Scalar.ofBits .f32 0#32) (iblk1 V c 0 t)
/-- Window 1's likewise, -/
def in1_1 (c : Dev nD) (t : Fin cfg1.N) : Vec F S4096x128 .f32 :=
  win1_1.fill (grid1.coords t) (fun _ => Scalar.ofBits .f32 0#32) (iblk1 V c 1 t)
/-- and window 2's. -/
def in1_2 (c : Dev nD) (t : Fin cfg1.N) : Vec F S4096x6 .f32 :=
  win1_2.fill (grid1.coords t) (fun _ => Scalar.ofBits .f32 0#32) (iblk1 V c 2 t)

/-- The proof data of pipeline 1 on core `c`: the arrays as the region finds them (`V`); after the body at point `t`
    each cut input's buffer at its block filled out with the zero word (`in1_W`), each resident input's at its block
    (the whole array), and the output's at `out1` of those; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => in1_0 V c t
    | ⟨1, _⟩ => in1_1 V c t
    | ⟨2, _⟩ => in1_2 V c t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1 (in1_0 V c t) (in1_1 V c t) (in1_2 V c t) (iblk1 V c 3 t) (iblk1 V c 4 t) (iblk1 V c 5 t)
        (iblk1 V c 6 t) (iblk1 V c 7 t) (iblk1 V c 8 t) (iblk1 V c 9 t) (iblk1 V c 10 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = in1_0 V c t := by dsimp only [dat1]
theorem after1_1 (c : Dev nD) (t : Fin cfg1.N) : (dat1 V c).after 1 t = in1_1 V c t := by dsimp only [dat1]
theorem after1_2 (c : Dev nD) (t : Fin cfg1.N) : (dat1 V c).after 2 t = in1_2 V c t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t =
    out1 (in1_0 V c t) (in1_1 V c t) (in1_2 V c t) (iblk1 V c 3 t) (iblk1 V c 4 t) (iblk1 V c 5 t)
      (iblk1 V c 6 t) (iblk1 V c 7 t) (iblk1 V c 8 t) (iblk1 V c 9 t) (iblk1 V c 10 t) := by dsimp only [dat1]

/-! ## What the body finds -/

/-- A cut input window is fetched at every point: the body finds its block on the rows the fetch fills, and on the
    rest (at the last point, the rows past the array's end) contents `d` nothing names. -/
theorem before1_0 (c : Dev nD) (t : Fin cfg1.N) (d) :
    (dat1 V c).before 0 t d = win1_0.fill (grid1.coords t) d (iblk1 V c 0 t) := by
  unfold Dat.before; rw [if_pos (fetch1_0 t)]; rfl
theorem before1_1 (c : Dev nD) (t : Fin cfg1.N) (d) :
    (dat1 V c).before 1 t d = win1_1.fill (grid1.coords t) d (iblk1 V c 1 t) := by
  unfold Dat.before; rw [if_pos (fetch1_1 t)]; rfl
theorem before1_2 (c : Dev nD) (t : Fin cfg1.N) (d) :
    (dat1 V c).before 2 t d = win1_2.fill (grid1.coords t) d (iblk1 V c 2 t) := by
  unfold Dat.before; rw [if_pos (fetch1_2 t)]; rfl

/-- A resident input window (fetched at the first point only, its block the whole array, never cut) holds its block
    at every point: unfetched, the block index has not moved and the body left the block in place. -/
theorem before1_res (c : Dev nD) (w : Fin cfg1.W) (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) ((dat1 V c).after w t) = (dat1 V c).blockOf w t)
    (t : Fin cfg1.N) (d) : (dat1 V c).before w t d = (dat1 V c).fetched w t d :=
  (dat1 V c).before_in_eq_fetched w hw hlive hclip hkeep t d
theorem before1_3 (c : Dev nD) (t : Fin cfg1.N) (d) : (dat1 V c).before 3 t d = iblk1 V c 3 t :=
  (before1_res V c 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  (before1_res V c 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  (before1_res V c 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  (before1_res V c 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  (before1_res V c 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  (before1_res V c 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  (before1_res V c 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  (before1_res V c 10 rfl (fun _ => rfl) (fun _ _ _ => rfl) (fun t => by rw [after1_10]; unfold Dat.blockOf iblk1; rw [A_eq1]; try rfl) t d).trans
    (by unfold Dat.fetched Dat.blockOf iblk1; rw [A_eq1]; try rfl)

/-! ## The body obligation, the output window forgotten -/

/-- The windows the obligation below forgets: the output window. At a float type where `tpu.matmul` is opaque in its
    whole left operand, the output rows inside the array depend on the input rows past the arrays' end, which the
    machine picks, so no contents of the output's buffer can be named; a claim that does not read the output array
    needs none. -/
abbrev fgt1 : Fin cfg1.W → Bool := fun w => decide (w = 11)

/-- What the body is called with at point `t`: each input's buffer at what the pipeline left there, the output's at
    anything, -/
def bodyPre1f (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ X, owns (c : Thread nD τ) (st1_11 t) fullShare X))

/-- and what it returns: a cut input's buffer stated on the rows inside the array (the window is loose), a resident
    input's at its block, the output's at anything. -/
def bodyPost1f (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ (∃ X, owns (c : Thread nD τ) (st1_11 t) fullShare X))

/-- The body at any point: the inputs' buffers hold their blocks, the cut ones' filled out with whatever the fetch
    left past the array's end, so `sound_kernel1` applies at those contents; it hands the inputs back as found, which on
    the rows inside the array is what the proof data says; the invariant and the core's debts pass through unread. -/
theorem sound_body1f (c : Dev nD) (t : Fin cfg1.N) :
    bodyPre1f V c t ⊢ wp frame (wpE (defs₀ (F := F)) Variants.none c none) Set.univ (bodyAt1 t) (fun _ => bodyPost1f V c t) := by
  unfold bodyPre1f bodyPost1f bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10,
    show win1_0.cut (grid1.coords t) (in1_0 V c t) = iblk1 V c 0 t from win1_0.cut_fill _ _ _,
    show win1_1.cut (grid1.coords t) (in1_1 V c t) = iblk1 V c 1 t from win1_1.cut_fill _ _ _,
    show win1_2.cut (grid1.coords t) (in1_2 V c t) = iblk1 V c 2 t from win1_2.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X11, H11⟩⟩
  iapply (sound_kernel1 c Set.univ (grid1.coords t) _ _ _ _ _ _ _ _ _ _ _ _ _ _ _ _ _ _ _ _ _ _ _ _
    (win1_0.fill (grid1.coords t) d0 (iblk1 V c 0 t))
    (win1_1.fill (grid1.coords t) d1 (iblk1 V c 1 t))
    (win1_2.fill (grid1.coords t) d2 (iblk1 V c 2 t))
    (iblk1 V c 3 t)
    (iblk1 V c 4 t)
    (iblk1 V c 5 t)
    (iblk1 V c 6 t)
    (iblk1 V c 7 t)
    (iblk1 V c 8 t)
    (iblk1 V c 9 t)
    (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

/-- The library's body obligation, in the form the loop uses (each loose window stated on the rows inside the array),
    with the output window forgotten, at every point. -/
theorem body_obligation1_fgt (c : Dev nD) :
    BodyObligationLoose (dat1 (F := F) V c) (defs₀ (F := F)) Variants.none () Set.univ fgt1 := fun t => by
  rw [bigSep_W1, bigSep_W1]
  exact sound_body1f V c t

end Cert.KernelIdeal.Hand

end
-- ==== Proof.KI.Closed.lean ====
import proofs.«426145_j45973329936455_2_alg».proof.Proof.KI.Run
import proofs.«426145_j45973329936455_2_alg».proof.Proof.KI.Body0
import proofs.«426145_j45973329936455_2_alg».proof.Proof.KI.Body1

/-! # The run of @main at the two regions' own proof data

The valuations between @main's items are written over a family `outs` of what the regions leave, and region 1's
proof data are written over its entry contents, which read what region 0 leaves. Here the family is closed off:
region 0 leaves the folded write-backs of its proof data at the entry contents `V4`; region 1's entry contents are
then known (they read nothing region 1 leaves), so its proof data are, and it leaves their folded write-backs. At
that family the run's hypotheses on the proof data hold by construction, all but region 1's body obligation. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-! ## What the regions leave, in closed form -/

/-- What region 0 leaves in `main_v19`: its output array after every write-back, from the entry contents `V4`. -/
def o5K (c : Dev nD) : Buf (Elt F) ((c : Thread nD τ).loc main_v19) :=
  (dat0 (fun c b => V4 m c b) c).arrAt 11 cfg0.N

/-- Region 1's proof data, at its entry contents written over region 0's leaving alone (the second component of the
    family is never read there: any contents serve). -/
def d1K (c : Dev nD) : Dat τ (Elt F) Unit ℕ (UR sig nD τ) ℕ cfg1 c :=
  dat1 (fun c b => V8 m (outsOf m (o5K m) fun c => m ((c : Thread nD τ).loc main_v36)) c b) c

/-- What region 1 leaves in `main_v36`: its output array after every write-back. -/
def o9K (c : Dev nD) : Buf (Elt F) ((c : Thread nD τ).loc main_v36) :=
  (d1K m c).arrAt 11 cfg1.N

/-- The family of what the regions leave. -/
def outsK : Outs (F := F) := outsOf m (o5K m) (o9K m)

/-- Region 1's entry contents over the closed family are those its proof data were written at. -/
theorem entryK : (fun (c : Dev nD) (b : Ref sig .tc) =>
      V8 m (outsOf m (o5K m) fun c => m ((c : Thread nD τ).loc main_v36)) c b)
    = fun (c : Dev nD) (b : Ref sig .tc) => V8 m (outsK m) c b :=
  funext fun c => funext fun b =>
    congrFun (V8_outsOf m (o5K m) (fun c => m ((c : Thread nD τ).loc main_v36)) (o9K m) c) _

/-- Region 1's proof data are those at the entry contents over the closed family. -/
theorem d1K_eq (c : Dev nD) : d1K m c = dat1 (fun c b => V8 m (outsK m) c b) c :=
  congrArg (fun V => dat1 V c) (entryK m)

/-- The family at `main_v19` is what region 0's proof data leave. -/
theorem outsK_v19 (c : Dev nD) : outsK m 5 main_v19 c = (dat0 (fun c b => V4 m c b) c).arrAt 11 cfg0.N :=
  outsOf_v19 m (o5K m) (o9K m) 5 c

/-- The family at `main_v36` is what region 1's proof data, at the entry contents over the family itself, leave. -/
theorem outsK_v36 (c : Dev nD) :
    outsK m 9 main_v36 c = (dat1 (fun c b => V8 m (outsK m) c b) c).arrAt 11 cfg1.N :=
  (outsOf_v36 m (o5K m) (o9K m) 9 c).trans (congrArg (fun V => (dat1 V c).arrAt 11 cfg1.N) (entryK m))

/-! ## The run -/

/-- THE RUN AT THE REGIONS' OWN PROOF DATA: given region 1's body obligation at its entry contents, every weakly fair
    execution of @main terminates and every final state holds the result `main_v43` at the last valuation over the
    closed family and each argument array as launched. Region 0's body obligation is proved; the proof data's other
    fields hold by their definitions. -/
theorem kernel_run (ρ : Dev nD → PrngReg)
    (hb1 : ∀ c, BodyObligationLoose (dat1 (F := F) (fun c b => V8 m (outsK m) c b) c) (defs₀ (F := F)) Variants.none () Set.univ) :
    θ_run defs (onTc (τ := τ) (main (F := F))) ⟨m, fun _ => 0, ρ⟩ (fun r => ∀ c : Dev nD,
      r.2.mem ((c.tc : Thread nD τ).loc main_v43) = V10 m (outsK m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  run_value m ρ (outsK m) (dat0 (fun c b => V4 m c b)) (dat1 (fun c b => V8 m (outsK m) c b))
    (fun c w => A_eq0 _ c w) (fun _ _ => rfl) (fun _ _ => rfl) (fun _ _ => rfl) (fun _ => rfl)
    (fun c => (body_obligation0 _ c).loose) (outsK_v19 m)
    (fun c w => A_eq1 _ c w) (fun _ _ => rfl) (fun _ _ => rfl) (fun _ _ => rfl) (fun _ => rfl)
    hb1 (outsK_v36 m)

end Cert.KernelIdeal.Hand

end
-- ==== Proof.KI.Body1Exact.lean ====
/-
  Region 1 of @main at the ideal values: the body obligation with NO window forgotten. The body works row by row —
  the products contract the left operand's columns, the broadcasts copy a column across the columns or a row down
  the rows, everything else is element by element — so a row of the output's buffer depends on the same row of the
  three cut inputs' buffers alone (`out1_row`). At the last point the fetches fill rows 0‥287 of those buffers and the
  rest holds words nothing names; the write-back moves rows 0‥287 of the output's buffer; so on the rows moved the
  output is `out1` of the blocks filled out with the zero word, whatever the machine left past the arrays' end, which
  is all the (loose) output window's obligation asks.
-/
import proofs.«426145_j45973329936455_2_alg».proof.Proof.KI.Body1
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## Rows: every operation of the body works row by row -/

/-- Two arrays of rank two agree on row `r`. -/
def RowEq {sz : Fin 2 → ℕ} {α : Type} (r : ℕ) (a b : (⟨2, sz⟩ : Shape).Idx → α) : Prop :=
  ∀ j : (⟨2, sz⟩ : Shape).Idx, (j 0).val = r → a j = b j

namespace RowEq

variable {sz : Fin 2 → ℕ} {α β γ : Type} {r : ℕ}

theorem same (a : (⟨2, sz⟩ : Shape).Idx → α) : RowEq r a a := fun _ _ => rfl

/-- An operation applied element by element keeps rows apart: one operand, -/
theorem map (f : α → β) {a b : (⟨2, sz⟩ : Shape).Idx → α} (h : RowEq r a b) :
    RowEq r (fun i => f (a i)) (fun i => f (b i)) := fun j hj => congrArg f (h j hj)

/-- two operands. -/
theorem map₂ (f : α → β → γ) {a b : (⟨2, sz⟩ : Shape).Idx → α} {a' b' : (⟨2, sz⟩ : Shape).Idx → β}
    (h : RowEq r a b) (h' : RowEq r a' b') : RowEq r (fun i => f (a i) (a' i)) (fun i => f (b i) (b' i)) :=
  fun j hj => by show f (a j) (a' j) = f (b j) (b' j); rw [h j hj, h' j hj]

variable {F : FTy → Type} [FloatOps F] {φ : FTy}

theorem addf {a b a' b' : FVec F ⟨2, sz⟩ φ} (h : RowEq r a b) (h' : RowEq r a' b') :
    RowEq r (Idealize.ShloMosaic.addf a a') (Idealize.ShloMosaic.addf b b') := h.map₂ FloatOps.addf h'
theorem mulf {a b a' b' : FVec F ⟨2, sz⟩ φ} (h : RowEq r a b) (h' : RowEq r a' b') :
    RowEq r (Idealize.ShloMosaic.mulf a a') (Idealize.ShloMosaic.mulf b b') := h.map₂ FloatOps.mulf h'
theorem logistic {a b : FVec F ⟨2, sz⟩ φ} (h : RowEq r a b) :
    RowEq r (Idealize.ShloMosaic.logistic a) (Idealize.ShloMosaic.logistic b) := h.map FloatOps.logistic
theorem tanh {a b : FVec F ⟨2, sz⟩ φ} (h : RowEq r a b) :
    RowEq r (Idealize.ShloMosaic.tanh a) (Idealize.ShloMosaic.tanh b) := h.map FloatOps.tanh
theorem truncf {ψ : FTy} (hψ : ψ.bits < φ.bits) {a b : FVec F ⟨2, sz⟩ φ} (h : RowEq r a b) :
    RowEq r (Idealize.ShloMosaic.truncf ψ a hψ) (Idealize.ShloMosaic.truncf ψ b hψ) := h.map (FloatOps.truncf ψ hψ)
theorem fptosi (w : ℕ) {a b : FVec F ⟨2, sz⟩ φ} (h : RowEq r a b) :
    RowEq r (Idealize.ShloMosaic.fptosi w a) (Idealize.ShloMosaic.fptosi w b) := h.map (FloatOps.fptosi w)
theorem sitofp {w : ℕ} {a b : IVec ⟨2, sz⟩ w} (h : RowEq r a b) :
    RowEq r (Idealize.ShloMosaic.sitofp (F := F) φ a) (Idealize.ShloMosaic.sitofp (F := F) φ b) := h.map (FloatOps.sitofp φ)
theorem extui {w v : ℕ} (hw : w < v) {a b : IVec ⟨2, sz⟩ w} (h : RowEq r a b) :
    RowEq r (Idealize.ShloMosaic.extui v a hw) (Idealize.ShloMosaic.extui v b hw) := h.map fun x => x.setWidth v
theorem cmpi {w : ℕ} (p : CmpIPredicate) {a b a' b' : IVec ⟨2, sz⟩ w} (h : RowEq r a b) (h' : RowEq r a' b') :
    RowEq r (Idealize.ShloMosaic.cmpi p a a') (Idealize.ShloMosaic.cmpi p b b') := h.map₂ (IntOp.cmpi p) h'

/-- A cast to the same shape changes nothing. -/
theorem shapeCast {a b : (⟨2, sz⟩ : Shape).Idx → α} (hs : (⟨2, sz⟩ : Shape).ShapeCasts ⟨2, sz⟩) (h : RowEq r a b) :
    RowEq r (Idealize.ShloMosaic.shapeCast ⟨2, sz⟩ a hs) (Idealize.ShloMosaic.shapeCast ⟨2, sz⟩ b hs) := by
  rw [shapeCast_self, shapeCast_self]; exact h

/-- A slice that starts at row 0 keeps the rows where they are. -/
theorem slice {t : Fin 2 → ℕ} {off : Fin 2 → ℕ} {a b : (⟨2, sz⟩ : Shape).Idx → α}
    (hs : (⟨2, sz⟩ : Shape).Slices off ⟨2, t⟩) (h0 : off 0 = 0) (h : RowEq r a b) :
    RowEq r (extractStridedSlice ⟨2, t⟩ off a hs) (extractStridedSlice ⟨2, t⟩ off b hs) := fun j hj => by
  unfold extractStridedSlice
  refine h _ ?_
  show off 0 + (j _).val = r
  rw [h0, Nat.zero_add]; exact hj

/-- A column copied across the columns keeps the rows where they are. -/
theorem bcastCol {m n : ℕ} {a b : (⟨2, ![m, 1]⟩ : Shape).Idx → α}
    (hb : (⟨2, ![m, 1]⟩ : Shape).Broadcasts ⟨2, ![m, n]⟩) (h : RowEq r a b) :
    RowEq r (broadcastTo ⟨2, ![m, n]⟩ a hb) (broadcastTo ⟨2, ![m, n]⟩ b hb) := fun j hj => by
  have e : ∀ x : (⟨2, ![m, 1]⟩ : Shape).Idx → α,
      broadcastTo ⟨2, ![m, n]⟩ x hb j = x (ix2 (⟨(j 0).val, idx2_lt0 j⟩ : Fin m) (0 : Fin 1)) := fun x =>
    broadcastTo_apply x hb j (ix2 (⟨(j 0).val, idx2_lt0 j⟩ : Fin m) (0 : Fin 1)) fun ax => by
      match ax with
      | ⟨0, _⟩ =>
        show (j 0).val = if m = 1 then 0 else (j 0).val
        split
        · have := idx2_lt0 j; omega
        · rfl
      | ⟨1, _⟩ => rfl
  rw [e a, e b]; exact h _ hj

end RowEq

namespace RowEq

variable {sz : Fin 2 → ℕ} {r : ℕ}

/-- A product's row is made of the left operand's same row: at the ideal values the product read at an index is the
    accumulator there plus the sum over the contracted axis of the operands' products, and the left factors are
    the left operand's entries in the result's row (`hd`). -/
theorem matmulL {szr szo : Fin 2 → ℕ} {φ₁ φ₂ : FTy} (d : DotDims ⟨2, sz⟩ ⟨2, szr⟩ ⟨2, szo⟩)
    (hd : ∀ (j : (⟨2, szo⟩ : Shape).Idx) (k : d.contr.Idx), (d.lhsIdx j k 0).val = (j 0).val)
    (prec : Option ContractPrecision) {a b : FVec Ideal ⟨2, sz⟩ φ₁} (w : FVec Ideal ⟨2, szr⟩ φ₂)
    (acc : FVec Ideal ⟨2, szo⟩ .f32) (h : RowEq r a b) :
    RowEq r (matmul d prec a w acc) (matmul d prec b w acc) := fun j hj => by
  show FloatOps.matmul d prec a w acc j = FloatOps.matmul d prec b w acc j
  rw [Ideal.matmul_apply, Ideal.matmul_apply]
  exact congrArg (acc j + ·) (Finset.sum_congr rfl fun k _ => by rw [h _ ((hd j k).trans hj)])

end RowEq

/-- The body's two products contract the left operand's columns: the left operand is read in the result's row. -/
theorem lhsRow128 (j : S4096x128.Idx) (k : dot_S4096x128_S128x128_S4096x128_1_0_0_1_n_n.contr.Idx) :
    (dot_S4096x128_S128x128_S4096x128_1_0_0_1_n_n.lhsIdx j k 0).val = (j 0).val := rfl
theorem lhsRow1 (j : S4096x1.Idx) (k : dot_S4096x128_S128x1_S4096x1_1_0_0_1_n_n.contr.Idx) :
    (dot_S4096x128_S128x1_S4096x1_1_0_0_1_n_n.lhsIdx j k 0).val = (j 0).val := rfl

/-- One step of the row-by-row argument: the operation at the head of both sides keeps rows apart, or the two sides
    are one term (an operand the inputs' cut rows do not reach: a weight, a bias, an iota). -/
macro "row_step" : tactic => `(tactic| first
  | apply RowEq.addf | apply RowEq.mulf | apply RowEq.logistic | apply RowEq.tanh | apply RowEq.truncf
  | apply RowEq.fptosi | apply RowEq.sitofp | apply RowEq.extui | apply RowEq.cmpi | apply RowEq.shapeCast
  | apply RowEq.slice | apply RowEq.bcastCol | apply RowEq.matmulL
  | assumption
  | exact lhsRow128
  | exact lhsRow1
  | exact broadcasts_S4096x1_S4096x3 | exact broadcasts_S4096x1_S4096x128 | exact slices_S4096x6_o0_2_S4096x3 | exact slices_S4096x6_o0_0_S4096x1 | exact slices_S4096x6_o0_1_S4096x1 | exact slices_S4096x6_o0_5_S4096x1 | exact shapeCasts_S4096x128_S4096x128 | exact shapeCasts_S4096x6_S4096x6 | exact bitsLt_bf16_f32 | exact natLt_1_32
  | rfl
  | exact RowEq.same _)

section Payloads

-- the operations are compared by name here, never unfolded: every step above is decided by the operation at the head
attribute [local irreducible] Idealize.ShloMosaic.addf Idealize.ShloMosaic.mulf Idealize.ShloMosaic.logistic
  Idealize.ShloMosaic.tanh Idealize.ShloMosaic.truncf Idealize.ShloMosaic.fptosi Idealize.ShloMosaic.sitofp
  Idealize.ShloMosaic.extui Idealize.ShloMosaic.cmpi Idealize.ShloMosaic.shapeCast Idealize.ShloMosaic.extractStridedSlice
  Idealize.ShloMosaic.broadcastTo Idealize.ShloMosaic.broadcast Idealize.ShloMosaic.constant Idealize.ShloMosaic.iota
  Idealize.ShloMosaic.Ideal.matmul

theorem rowEq_pay4 {r : ℕ} {x0 x0' x1 x1' : Vec Ideal S4096x128 .f32} {x2 x2' : Vec Ideal S4096x6 .f32}
    (x3 x4 : Vec Ideal S128x128 .bf16) (x5 : Vec Ideal S2x128 .f32) (x6 : Vec Ideal S128x128 .bf16)
    (h0 : RowEq r x0 x0') (h1 : RowEq r x1 x1') (h2 : RowEq r x2 x2') :
    RowEq r (k1_pay4 x0 x1 x2 x3 x4 x5 x6) (k1_pay4 x0' x1' x2' x3 x4 x5 x6) := by
  unfold k1_pay4 k1_pay2
  repeat row_step

theorem rowEq_pay3 {r : ℕ} {x2 x2' : Vec Ideal S4096x6 .f32} (h2 : RowEq r x2 x2') :
    RowEq r (k1_pay3 x2) (k1_pay3 x2') := by
  unfold k1_pay3 k1_pay2
  repeat row_step

theorem rowEq_pay1 {r : ℕ} {a a' : FVec Ideal S4096x3 .f32} {b b' : FVec Ideal S4096x128 .f32}
    (x7 : Vec Ideal S1x128 .f32) (x8 : Vec Ideal S128x128 .bf16) (x9 : Vec Ideal S1x128 .f32) (x10 : Vec Ideal S128x1 .bf16)
    (ha : RowEq r a a') (hb : RowEq r b b') :
    RowEq r (k1_pay1 a b x7 x8 x9 x10) (k1_pay1 a' b' x7 x8 x9 x10) := by
  unfold k1_pay1
  repeat row_step

end Payloads

/-! ## The output's buffer, row by row -/

/-- A row of the output's buffer after the body depends on the same row of the three cut inputs' buffers alone. -/
theorem out1_row {r : ℕ} {x0 x0' x1 x1' : Vec Ideal S4096x128 .f32} {x2 x2' : Vec Ideal S4096x6 .f32}
    (x3 x4 : Vec Ideal S128x128 .bf16) (x5 : Vec Ideal S2x128 .f32) (x6 : Vec Ideal S128x128 .bf16)
    (x7 : Vec Ideal S1x128 .f32) (x8 : Vec Ideal S128x128 .bf16) (x9 : Vec Ideal S1x128 .f32) (x10 : Vec Ideal S128x1 .bf16)
    (h0 : RowEq r x0 x0') (h1 : RowEq r x1 x1') (h2 : RowEq r x2 x2') :
    RowEq r (out1 x0 x1 x2 x3 x4 x5 x6 x7 x8 x9 x10) (out1 x0' x1' x2' x3 x4 x5 x6 x7 x8 x9 x10) := by
  have hz : (![0, 0] : Fin 2 → ℕ) = fun _ => 0 := funext fun a => by fin_cases a <;> rfl
  unfold out1
  rw [View.canon_unit_zero hz, View.canon_unit_zero hz]
  repeat rw [View.ld_unit_zero hz]
  exact rowEq_pay1 x7 x8 x9 x10 (rowEq_pay3 h2) (rowEq_pay4 x3 x4 x5 x6 h0 h1 h2)

/-! ## The cut windows move the same rows, and whole rows -/

theorem xrow_0 (i : grid1.Coords) : win1_0.xsize i 0 = win1_11.xsize i 0 := rfl
theorem xrow_1 (i : grid1.Coords) : win1_1.xsize i 0 = win1_11.xsize i 0 := rfl
theorem xrow_2 (i : grid1.Coords) : win1_2.xsize i 0 = win1_11.xsize i 0 := rfl
theorem xcol_0 (i : grid1.Coords) : win1_0.xsize i 1 = 128 := rfl
theorem xcol_1 (i : grid1.Coords) : win1_1.xsize i 1 = 128 := rfl
theorem xcol_2 (i : grid1.Coords) : win1_2.xsize i 1 = 6 := rfl

/-- Two fillings of window 0's buffer with one block agree on every row the output window's transfer moves: the
    fetch filled that whole row. -/
theorem rowEq_fill_0 {α : Type} (i : grid1.Coords) (d d' : S4096x128.Idx → α) (g : (win1_0.xblock i).Idx → α) {r : ℕ}
    (hr : r < win1_11.xsize i 0) : RowEq r (win1_0.fill i d g) (win1_0.fill i d' g) := fun k hk => by
  have hm : win1_0.moved i k = true := (win1_0.moved_iff i k).mpr fun a => by
    match a with
    | ⟨0, _⟩ => show (k 0).val < win1_11.xsize i 0; rw [hk]; exact hr
    | ⟨1, _⟩ => exact (k 1).isLt
  show (if h : win1_0.moved i k = true then _ else d k) = (if h : win1_0.moved i k = true then _ else d' k)
  rw [dif_pos hm, dif_pos hm]
theorem rowEq_fill_1 {α : Type} (i : grid1.Coords) (d d' : S4096x128.Idx → α) (g : (win1_1.xblock i).Idx → α) {r : ℕ}
    (hr : r < win1_11.xsize i 0) : RowEq r (win1_1.fill i d g) (win1_1.fill i d' g) := fun k hk => by
  have hm : win1_1.moved i k = true := (win1_1.moved_iff i k).mpr fun a => by
    match a with
    | ⟨0, _⟩ => show (k 0).val < win1_11.xsize i 0; rw [hk]; exact hr
    | ⟨1, _⟩ => exact (k 1).isLt
  show (if h : win1_1.moved i k = true then _ else d k) = (if h : win1_1.moved i k = true then _ else d' k)
  rw [dif_pos hm, dif_pos hm]
theorem rowEq_fill_2 {α : Type} (i : grid1.Coords) (d d' : S4096x6.Idx → α) (g : (win1_2.xblock i).Idx → α) {r : ℕ}
    (hr : r < win1_11.xsize i 0) : RowEq r (win1_2.fill i d g) (win1_2.fill i d' g) := fun k hk => by
  have hm : win1_2.moved i k = true := (win1_2.moved_iff i k).mpr fun a => by
    match a with
    | ⟨0, _⟩ => show (k 0).val < win1_11.xsize i 0; rw [hk]; exact hr
    | ⟨1, _⟩ => exact (k 1).isLt
  show (if h : win1_2.moved i k = true then _ else d k) = (if h : win1_2.moved i k = true then _ else d' k)
  rw [dif_pos hm, dif_pos hm]

/-! ## The body obligation at the ideal values -/

-- the unscoped buffers' contents when the region is entered
variable (V : (c : Dev nD) → (b : Ref sig .tc) → Buf (Elt Ideal) ((c : Thread nD τ).loc b))

/-- On the rows the write-back moves, the output's buffer is `out1` of the blocks filled out with the zero word,
    whatever the fetches left in the cut inputs' buffers past the arrays' end. -/
theorem cut_out1 (c : Dev nD) (t : Fin cfg1.N) (d0 d1 : S4096x128.Idx → Elt Ideal .f32) (d2 : S4096x6.Idx → Elt Ideal .f32) :
    win1_11.cut (grid1.coords t) (out1 (win1_0.fill (grid1.coords t) d0 (iblk1 V c 0 t))
        (win1_1.fill (grid1.coords t) d1 (iblk1 V c 1 t))
        (win1_2.fill (grid1.coords t) d2 (iblk1 V c 2 t))
        (iblk1 V c 3 t)
        (iblk1 V c 4 t)
        (iblk1 V c 5 t)
        (iblk1 V c 6 t)
        (iblk1 V c 7 t)
        (iblk1 V c 8 t)
        (iblk1 V c 9 t)
        (iblk1 V c 10 t))
      = win1_11.cut (grid1.coords t) (out1 (in1_0 V c t) (in1_1 V c t) (in1_2 V c t) (iblk1 V c 3 t) (iblk1 V c 4 t) (iblk1 V c 5 t) (iblk1 V c 6 t) (iblk1 V c 7 t) (iblk1 V c 8 t) (iblk1 V c 9 t) (iblk1 V c 10 t)) := by
  funext j
  exact out1_row _ _ _ _ _ _ _ _
    (rowEq_fill_0 (grid1.coords t) d0 _ (iblk1 V c 0 t) (j 0).isLt)
    (rowEq_fill_1 (grid1.coords t) d1 _ (iblk1 V c 1 t) (j 0).isLt)
    (rowEq_fill_2 (grid1.coords t) d2 _ (iblk1 V c 2 t) (j 0).isLt) (win1_11.xinj (grid1.coords t) j) rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns: each cut window's buffer stated on the rows its transfers move, each resident input's at
    its block. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ (∃ d, owns (c : Thread nD τ) (st1_11 t) fullShare (win1_11.fill (grid1.coords t) d (win1_11.cut (grid1.coords t) ((dat1 V c).after 11 t)))))

theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11,
    show win1_0.cut (grid1.coords t) (in1_0 V c t) = iblk1 V c 0 t from win1_0.cut_fill _ _ _,
    show win1_1.cut (grid1.coords t) (in1_1 V c t) = iblk1 V c 1 t from win1_1.cut_fill _ _ _,
    show win1_2.cut (grid1.coords t) (in1_2 V c t) = iblk1 V c 2 t from win1_2.cut_fill _ _ _]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ (grid1.coords t) _ _ _ _ _ _ _ _ _ _ _ _ _ _ _ _ _ _ _ _ _ _ _ _
    (win1_0.fill (grid1.coords t) d0 (iblk1 V c 0 t))
    (win1_1.fill (grid1.coords t) d1 (iblk1 V c 1 t))
    (win1_2.fill (grid1.coords t) d2 (iblk1 V c 2 t))
    (iblk1 V c 3 t)
    (iblk1 V c 4 t)
    (iblk1 V c 5 t)
    (iblk1 V c 6 t)
    (iblk1 V c 7 t)
    (iblk1 V c 8 t)
    (iblk1 V c 9 t)
    (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists (out1 (win1_0.fill (grid1.coords t) d0 (iblk1 V c 0 t))
    (win1_1.fill (grid1.coords t) d1 (iblk1 V c 1 t))
    (win1_2.fill (grid1.coords t) d2 (iblk1 V c 2 t))
    (iblk1 V c 3 t)
    (iblk1 V c 4 t)
    (iblk1 V c 5 t)
    (iblk1 V c 6 t)
    (iblk1 V c 7 t)
    (iblk1 V c 8 t)
    (iblk1 V c 9 t)
    (iblk1 V c 10 t))
  rw [← cut_out1 V c t d0 d1 d2, Window.fill_cut]
  iexact H11

/-- The library's body obligation, in the form the loop uses, nothing forgotten, at every point. -/
theorem body_obligation1 (c : Dev nD) :
    BodyObligationLoose (dat1 (F := Ideal) V c) (defs₀ (F := Ideal)) Variants.none () Set.univ := fun t => by
  rw [bigSep_W1, bigSep_W1]
  exact sound_body1 V c t

end Cert.KernelIdeal.Hand

end
-- ==== Proof.KI.ClosedIdeal.lean ====
import proofs.«426145_j45973329936455_2_alg».proof.Proof.KI.Closed
import proofs.«426145_j45973329936455_2_alg».proof.Proof.KI.Body1Exact

/-! # The run of @main over the exact reals, closed

Over the exact reals region 1's body obligation holds at any entry contents, so the run at the regions' own proof data
needs no hypothesis. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- THE RUN, CLOSED, over the exact reals: region 1's body obligation holds there, so every weakly fair execution of
    @main terminates and every final state holds the result `main_v43` at the last valuation over the closed family
    and each argument array as launched. -/
theorem kernel_run_ideal (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43) = V10 m (outsK m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  kernel_run m ρ fun c => body_obligation1 _ c

end Cert.KernelIdeal.Hand

end
-- ==== Proof.KI.Final0.lean ====
/- Region 0, from blocks to the array: the output array after the region as ONE function G0 of the core's buffer
   contents at the region's entry. The grid's 50 points write back the 50 row blocks of 1000 rows, which tile the
   50000 rows; row r is in the block of point r / 1000, at place r % 1000. Also each input window's block as rows of
   its array: a row-blocked operand's block at point t is rows t * 1000 .. t * 1000 + 999, a resident operand's block
   is its whole array. -/
import proofs.«426145_j45973329936455_2_alg».proof.Proof.KI.Body0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

section Region0
variable (V : (c : Dev nD) → (b : Ref sig .tc) → Buf (Elt F) ((c : Thread nD τ).loc b))

/-! ## The printed index maps, decided once over the grid -/

/-- The row-blocked windows (operands 0, 2, 3 and the output) sit at block row t, block column 0, at point t. -/
theorem idx_rows0 : ∀ t : Fin cfg0.N, win0_0.index t (0 : Fin 2) = t.val ∧ win0_0.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0 :=
  (by decide +kernel : ∀ t : Fin grid0.N, _)

/-- The resident windows (operands 1 and 4..10) sit at block (0, 0) at every point. -/
theorem idx_res0 : ∀ t : Fin cfg0.N, win0_1.index t (0 : Fin 2) = 0 ∧ win0_1.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The output array as one function of the region-entry contents -/

/-- The grid point whose block holds row i 0 of the output: i 0 / 1000. -/
def pt0 (i : S50000x3.Idx) : Fin cfg0.N :=
  ⟨(i 0).val / 1000, by
    show (i 0).val / 1000 < grid0.N
    rw [N_0]
    have h : (i 0).val < 50000 := (i 0).isLt
    omega⟩

theorem pt0_val (i : S50000x3.Idx) : (pt0 i).val = (i 0).val / 1000 := rfl

/-- The place of index i inside its block: row i 0 % 1000, the same column. -/
def loc0 (i : S50000x3.Idx) : S1000x3.Idx :=
  ix2 ⟨(i 0).val % 1000, Nat.mod_lt _ (by decide)⟩ ⟨(i 1).val, (i 1).isLt⟩

/-- The body's output block at point t, from the blocks the twelve windows hold there. -/
def oblk0 (c : Dev nD) (t : Fin cfg0.N) : Vec F S1000x3 .f32 :=
  out0 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)

/-- What the output array ends holding: at index i, the body's output block at the point of row i 0, read at the
    place of i inside it. -/
def G0 (c : Dev nD) : S50000x3.Idx → Elt F .f32 := fun i => oblk0 V c (pt0 i) (loc0 i)

/-- G0 spelled out over the input blocks. -/
theorem G0_apply (c : Dev nD) (i : S50000x3.Idx) : G0 V c i =
    out0 (iblk0 V c 0 (pt0 i)) (iblk0 V c 1 (pt0 i)) (iblk0 V c 2 (pt0 i)) (iblk0 V c 3 (pt0 i)) (iblk0 V c 4 (pt0 i))
      (iblk0 V c 5 (pt0 i)) (iblk0 V c 6 (pt0 i)) (iblk0 V c 7 (pt0 i)) (iblk0 V c 8 (pt0 i)) (iblk0 V c 9 (pt0 i))
      (iblk0 V c 10 (pt0 i)) (loc0 i) := rfl

/-- The output window's block at point t, read off ANY contents g of the output array, is g at the block's places. -/
theorem read_blk11 (t : Fin cfg0.N) (g : S50000x3.Idx → Elt F .f32) (j) :
    ((cfg0.win 11).blk t).view.read (Elt F) g j = g (((cfg0.win 11).blk t).view.emb j) := rfl

/-- The output window is not cut at the array's end: what a write-back moves is the whole buffer. -/
theorem cut_blk11 (t : Fin cfg0.N) (X : Vec F S1000x3 .f32) (j) :
    (cfg0.win 11).cut (grid0.coords t) X j = X j := rfl

/-- WHAT POINT t WRITES BACK is block t of G0: the place j of block t is row t * 1000 + j 0 of the array, whose point
    is t and whose place inside the block is j. -/
theorem flushed0_eq (c : Dev nD) (t : Fin cfg0.N) :
    (dat0 V c).flushed 11 t = ((cfg0.win 11).blk t).view.read (Elt F) (G0 V c) := by
  have ha : (dat0 V c).after 11 t = oblk0 V c t := after0_11 V c t
  show (cfg0.win 11).cut (grid0.coords t) ((dat0 V c).after 11 t) = _
  rw [ha]
  obtain ⟨-, -, -, -, -, -, e0, e1⟩ := idx_rows0 t
  funext j
  have hj0 : (j 0).val < 1000 := (j 0).isLt
  have hj1 : (j 1).val < 3 := (j 1).isLt
  have hpt : pt0 (((cfg0.win 11).blk t).view.emb j) = t := by
    apply Fin.ext
    show (win0_11.index t (0 : Fin 2) * 1000 + 1 * (j 0).val) / 1000 = t.val
    omega
  have hloc : loc0 (((cfg0.win 11).blk t).view.emb j) = j := by
    funext a; apply Fin.ext
    match a with
    | ⟨0, _⟩ => show (win0_11.index t (0 : Fin 2) * 1000 + 1 * (j 0).val) % 1000 = (j 0).val; omega
    | ⟨1, _⟩ => show win0_11.index t (1 : Fin 2) * 3 + 1 * (j 1).val = (j 1).val; omega
  have hR : G0 V c (((cfg0.win 11).blk t).view.emb j) = oblk0 V c t j := by
    unfold G0
    rw [hpt, hloc]
  exact (cut_blk11 t (oblk0 V c t) j).trans (hR.symm.trans (read_blk11 t (G0 V c) j).symm)

/-- An index of the output array is in point t's block iff each coordinate is in the block's range on its axis. -/
theorem mem_blk0 (t : Fin cfg0.N) (i : S50000x3.Idx) :
    i ∈ ((cfg0.win 11).blk t).view.set ↔ ∀ a : Fin 2, win0_11.index t a * S1000x3.size a ≤ (i a).val ∧ (i a).val < win0_11.index t a * S1000x3.size a + S1000x3.size a := by
  show i ∈ ((View.whole main_v19).slice (win0_11.rect t)).set ↔ _
  rw [View.set_slice_whole, Rect.mem_set_unit]
  exact Iff.rfl

/-- Every index of the output array is in the block of the point of its row, and every point writes back. -/
theorem covered0 (i : S50000x3.Idx) :
    ∃ t : Fin cfg0.N, (cfg0.win 11).flush t = true ∧ i ∈ ((cfg0.win 11).blk t).view.set := by
  refine ⟨pt0 i, flush0_11 _, ?_⟩
  rw [mem_blk0]
  obtain ⟨-, -, -, -, -, -, e0, e1⟩ := idx_rows0 (pt0 i)
  have hp := pt0_val i
  have hi0 : (i 0).val < 50000 := (i 0).isLt
  have hi1 : (i 1).val < 3 := (i 1).isLt
  intro a
  match a with
  | ⟨0, _⟩ => show win0_11.index (pt0 i) (0 : Fin 2) * 1000 ≤ (i 0).val ∧ (i 0).val < win0_11.index (pt0 i) (0 : Fin 2) * 1000 + 1000; omega
  | ⟨1, _⟩ => show win0_11.index (pt0 i) (1 : Fin 2) * 3 ≤ (i 1).val ∧ (i 1).val < win0_11.index (pt0 i) (1 : Fin 2) * 3 + 3; omega

/-- THE OUTPUT ARRAY after the region: G0 of the region-entry contents, everywhere. -/
theorem final0 (c : Dev nD) : (dat0 V c).arrAt 11 cfg0.N = G0 V c :=
  (dat0 V c).arrAt_eq_of_cover 11 (G0 V c) (fun t _ => flushed0_eq V c t) covered0

/-! ## The input blocks as rows of the arrays

The row-blocked operands' block at point t is rows t * 1000 .. t * 1000 + 999 of the array; a resident operand's block
is its whole array. So G0 at index (i, j) is the body's output block over blocks whose row i % 1000 is row i of the
arrays. -/

/-- Row t * 1000 + r is a row of a 50000-row array. -/
theorem row_lt0 (t : Fin cfg0.N) (r : Fin 1000) : t.val * 1000 + r.val < 50000 := by
  have h : t.val < grid0.N := t.isLt
  rw [N_0] at h
  have hr := r.isLt
  omega

theorem iblk0_0_apply (c : Dev nD) (t : Fin cfg0.N) (r : Fin 1000) (k : Fin 2000) :
    (iblk0 V c 0 t : Vec F S1000x2000 .f32) (ix2 r k)
      = (V c (Pipeline.arrRef spec0 0) : S50000x2000.Idx → Elt F .f32) (ix2 ⟨t.val * 1000 + r.val, row_lt0 t r⟩ k) := by
  obtain ⟨e0, e1, -⟩ := idx_rows0 t
  show (V c (Pipeline.arrRef spec0 0) : S50000x2000.Idx → Elt F .f32) (((cfg0.win 0).blk t).view.emb (ix2 r k)) = _
  congr 1
  funext a; apply Fin.ext
  match a with
  | ⟨0, _⟩ => show win0_0.index t (0 : Fin 2) * 1000 + 1 * r.val = t.val * 1000 + r.val; omega
  | ⟨1, _⟩ => show win0_0.index t (1 : Fin 2) * 2000 + 1 * k.val = k.val; omega

theorem iblk0_2_apply (c : Dev nD) (t : Fin cfg0.N) (r : Fin 1000) (k : Fin 128) :
    (iblk0 V c 2 t : Vec F S1000x128 .f32) (ix2 r k)
      = (V c (Pipeline.arrRef spec0 2) : S50000x128.Idx → Elt F .f32) (ix2 ⟨t.val * 1000 + r.val, row_lt0 t r⟩ k) := by
  obtain ⟨-, -, e0, e1, -⟩ := idx_rows0 t
  show (V c (Pipeline.arrRef spec0 2) : S50000x128.Idx → Elt F .f32) (((cfg0.win 2).blk t).view.emb (ix2 r k)) = _
  congr 1
  funext a; apply Fin.ext
  match a with
  | ⟨0, _⟩ => show win0_2.index t (0 : Fin 2) * 1000 + 1 * r.val = t.val * 1000 + r.val; omega
  | ⟨1, _⟩ => show win0_2.index t (1 : Fin 2) * 128 + 1 * k.val = k.val; omega

theorem iblk0_3_apply (c : Dev nD) (t : Fin cfg0.N) (r : Fin 1000) (k : Fin 3) :
    (iblk0 V c 3 t : Vec F S1000x3 .f32) (ix2 r k)
      = (V c (Pipeline.arrRef spec0 3) : S50000x3.Idx → Elt F .f32) (ix2 ⟨t.val * 1000 + r.val, row_lt0 t r⟩ k) := by
  obtain ⟨-, -, -, -, e0, e1, -⟩ := idx_rows0 t
  show (V c (Pipeline.arrRef spec0 3) : S50000x3.Idx → Elt F .f32) (((cfg0.win 3).blk t).view.emb (ix2 r k)) = _
  congr 1
  funext a; apply Fin.ext
  match a with
  | ⟨0, _⟩ => show win0_3.index t (0 : Fin 2) * 1000 + 1 * r.val = t.val * 1000 + r.val; omega
  | ⟨1, _⟩ => show win0_3.index t (1 : Fin 2) * 3 + 1 * k.val = k.val; omega

theorem iblk0_1_eq (c : Dev nD) (t : Fin cfg0.N) :
    (iblk0 V c 1 t : Vec F S2000x131 .bf16) = (V c (Pipeline.arrRef spec0 1) : S2000x131.Idx → Elt F .bf16) := by
  obtain ⟨e0, e1, -⟩ := idx_res0 t
  funext j
  show (V c (Pipeline.arrRef spec0 1) : S2000x131.Idx → Elt F .bf16) (((cfg0.win 1).blk t).view.emb j) = _
  congr 1
  funext a; apply Fin.ext
  match a with
  | ⟨0, _⟩ => show win0_1.index t (0 : Fin 2) * 2000 + 1 * (j 0).val = (j 0).val; omega
  | ⟨1, _⟩ => show win0_1.index t (1 : Fin 2) * 131 + 1 * (j 1).val = (j 1).val; omega

theorem iblk0_4_eq (c : Dev nD) (t : Fin cfg0.N) :
    (iblk0 V c 4 t : Vec F S128x128 .bf16) = (V c (Pipeline.arrRef spec0 4) : S128x128.Idx → Elt F .bf16) := by
  obtain ⟨-, -, e0, e1, -⟩ := idx_res0 t
  funext j
  show (V c (Pipeline.arrRef spec0 4) : S128x128.Idx → Elt F .bf16) (((cfg0.win 4).blk t).view.emb j) = _
  congr 1
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

theorem iblk0_5_eq (c : Dev nD) (t : Fin cfg0.N) :
    (iblk0 V c 5 t : Vec F S128x128 .bf16) = (V c (Pipeline.arrRef spec0 5) : S128x128.Idx → Elt F .bf16) := by
  obtain ⟨-, -, -, -, e0, e1, -⟩ := idx_res0 t
  funext j
  show (V c (Pipeline.arrRef spec0 5) : S128x128.Idx → Elt F .bf16) (((cfg0.win 5).blk t).view.emb j) = _
  congr 1
  funext a; apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem iblk0_6_eq (c : Dev nD) (t : Fin cfg0.N) :
    (iblk0 V c 6 t : Vec F S1x128 .f32) = (V c (Pipeline.arrRef spec0 6) : S1x128.Idx → Elt F .f32) := by
  obtain ⟨-, -, -, -, -, -, e0, e1, -⟩ := idx_res0 t
  funext j
  show (V c (Pipeline.arrRef spec0 6) : S1x128.Idx → Elt F .f32) (((cfg0.win 6).blk t).view.emb j) = _
  congr 1
  funext a; apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

theorem iblk0_7_eq (c : Dev nD) (t : Fin cfg0.N) :
    (iblk0 V c 7 t : Vec F S1x128 .f32) = (V c (Pipeline.arrRef spec0 7) : S1x128.Idx → Elt F .f32) := by
  obtain ⟨-, -, -, -, -, -, -, -, e0, e1, -⟩ := idx_res0 t
  funext j
  show (V c (Pipeline.arrRef spec0 7) : S1x128.Idx → Elt F .f32) (((cfg0.win 7).blk t).view.emb j) = _
  congr 1
  funext a; apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

theorem iblk0_8_eq (c : Dev nD) (t : Fin cfg0.N) :
    (iblk0 V c 8 t : Vec F S128x128 .bf16) = (V c (Pipeline.arrRef spec0 8) : S128x128.Idx → Elt F .bf16) := by
  obtain ⟨-, -, -, -, -, -, -, -, -, -, e0, e1, -⟩ := idx_res0 t
  funext j
  show (V c (Pipeline.arrRef spec0 8) : S128x128.Idx → Elt F .bf16) (((cfg0.win 8).blk t).view.emb j) = _
  congr 1
  funext a; apply Fin.ext
  match a with
  | ⟨0, _⟩ => show win0_8.index t (0 : Fin 2) * 128 + 1 * (j 0).val = (j 0).val; omega
  | ⟨1, _⟩ => show win0_8.index t (1 : Fin 2) * 128 + 1 * (j 1).val = (j 1).val; omega

theorem iblk0_9_eq (c : Dev nD) (t : Fin cfg0.N) :
    (iblk0 V c 9 t : Vec F S1x128 .f32) = (V c (Pipeline.arrRef spec0 9) : S1x128.Idx → Elt F .f32) := by
  obtain ⟨-, -, -, -, -, -, -, -, -, -, -, -, e0, e1, -⟩ := idx_res0 t
  funext j
  show (V c (Pipeline.arrRef spec0 9) : S1x128.Idx → Elt F .f32) (((cfg0.win 9).blk t).view.emb j) = _
  congr 1
  funext a; apply Fin.ext
  match a with
  | ⟨0, _⟩ => show win0_9.index t (0 : Fin 2) * 1 + 1 * (j 0).val = (j 0).val; omega
  | ⟨1, _⟩ => show win0_9.index t (1 : Fin 2) * 128 + 1 * (j 1).val = (j 1).val; omega

theorem iblk0_10_eq (c : Dev nD) (t : Fin cfg0.N) :
    (iblk0 V c 10 t : Vec F S128x1 .bf16) = (V c (Pipeline.arrRef spec0 10) : S128x1.Idx → Elt F .bf16) := by
  obtain ⟨-, -, -, -, -, -, -, -, -, -, -, -, -, -, e0, e1⟩ := idx_res0 t
  funext j
  show (V c (Pipeline.arrRef spec0 10) : S128x1.Idx → Elt F .bf16) (((cfg0.win 10).blk t).view.emb j) = _
  congr 1
  funext a; apply Fin.ext
  match a with
  | ⟨0, _⟩ => show win0_10.index t (0 : Fin 2) * 128 + 1 * (j 0).val = (j 0).val; omega
  | ⟨1, _⟩ => show win0_10.index t (1 : Fin 2) * 1 + 1 * (j 1).val = (j 1).val; omega

end Region0

end Cert.KernelIdeal.Hand

end
-- ==== Proof.Spec.lean ====
import Idealize.ShloMosaic.PureOps.Ideal

/-! The two programs as mathematics: the per-node update (a row of the assignment matrix against the
    fragment coordinates and features, a three-layer perceptron with the smooth gate x·(1 + e⁻ˣ)⁻¹, a tanh
    scaling of the normalised coordinate difference) and the per-edge update (the same perceptron over the
    two endpoint features, the edge attributes and the bond embedding, a tanh scaling of the edge's coordinate
    difference), each entry a function of the argument arrays over the extended reals. Sums are finite sums
    in the extended reals; the arrays are curried by row and column. -/

noncomputable section

namespace Cert.Hand.Spec

open Idealize.ShloMosaic

/-- The smooth gate x · (1 / (1 + e⁻ˣ)). -/
def silu (x : EReal) : EReal := x * Ideal.div 1 (1 + Ideal.exp (-x))

/-- The literals both programs carry, as the extended reals their words denote. -/
def eps : EReal := Ideal.ofBits .f32 0x322BCC77#32
def one : EReal := Ideal.ofBits .f32 0x3F800000#32
def ten : EReal := Ideal.ofBits .f32 0x41200000#32

section Frag

variable (h_a : Fin 50000 → Fin 128 → EReal) (x_a : Fin 50000 → Fin 3 → EReal)
  (h_f : Fin 2000 → Fin 128 → EReal) (x_f : Fin 2000 → Fin 3 → EReal) (bm : Fin 50000 → Fin 2000 → EReal)
  (fW1 : Fin 258 → Fin 128 → EReal) (fb1 : Fin 128 → EReal) (fW2 : Fin 128 → Fin 128 → EReal) (fb2 : Fin 128 → EReal)
  (fW3 : Fin 128 → Fin 1 → EReal)

/-- Row i of the assignment matrix against column j of the fragment coordinates. -/
def bmX (i : Fin 50000) (j : Fin 3) : EReal := ∑ k : Fin 2000, bm i k * x_f k j
/-- Row i of the assignment matrix against column j of the fragment features. -/
def bmH (i : Fin 50000) (j : Fin 128) : EReal := ∑ k : Fin 2000, bm i k * h_f k j
/-- The node's coordinate minus its fragments' weighted coordinate. -/
def cd0 (i : Fin 50000) (j : Fin 3) : EReal := x_a i j - bmX x_f bm i j
/-- Its squared length. -/
def radial (i : Fin 50000) : EReal := ∑ j : Fin 3, cd0 x_a x_f bm i j * cd0 x_a x_f bm i j
/-- The difference divided by its length plus one. -/
def cdn (i : Fin 50000) (j : Fin 3) : EReal :=
  Ideal.div (cd0 x_a x_f bm i j) (Ideal.sqrt (radial x_a x_f bm i + eps) + one)
/-- The perceptron's input row: node features, weighted fragment features, the squared length twice. -/
def inpF (i : Fin 50000) (q : Fin 258) : EReal :=
  if h : q.val < 128 then h_a i ⟨q.val, h⟩
  else if h' : q.val < 256 then bmH h_f bm i ⟨q.val - 128, by omega⟩
  else radial x_a x_f bm i
def z1F (i : Fin 50000) (l : Fin 128) : EReal := (∑ q : Fin 258, inpF h_a x_a h_f x_f bm i q * fW1 q l) + fb1 l
def z2F (i : Fin 50000) (k : Fin 128) : EReal :=
  (∑ l : Fin 128, silu (z1F h_a x_a h_f x_f bm fW1 fb1 i l) * fW2 l k) + fb2 k
def mF (i : Fin 50000) : EReal := ∑ k : Fin 128, silu (z2F h_a x_a h_f x_f bm fW1 fb1 fW2 fb2 i k) * fW3 k 0
/-- The per-node update. -/
def transFrag (i : Fin 50000) (j : Fin 3) : EReal :=
  cdn x_a x_f bm i j * Ideal.tanh (mF h_a x_a h_f x_f bm fW1 fb1 fW2 fb2 fW3 i) * ten

end Frag

section Atom

variable (h_a : Fin 50000 → Fin 128 → EReal) (row col : Fin 500000 → Fin 50000) (typ : Fin 500000 → Fin 100)
  (attr : Fin 500000 → Fin 2 → EReal) (cdiff : Fin 500000 → Fin 3 → EReal) (bond : Fin 100 → Fin 128 → EReal)
  (aW1 : Fin 386 → Fin 128 → EReal) (ab1 : Fin 128 → EReal) (aW2 : Fin 128 → Fin 128 → EReal) (ab2 : Fin 128 → EReal)
  (aW3 : Fin 128 → Fin 1 → EReal)

/-- The perceptron's input row of an edge: both endpoints' features, the edge attributes, the bond embedding. -/
def inpA (e : Fin 500000) (q : Fin 386) : EReal :=
  if h : q.val < 128 then h_a (row e) ⟨q.val, h⟩
  else if h' : q.val < 256 then h_a (col e) ⟨q.val - 128, by omega⟩
  else if h'' : q.val < 258 then attr e ⟨q.val - 256, by omega⟩
  else bond (typ e) ⟨q.val - 258, by omega⟩
def z1A (e : Fin 500000) (l : Fin 128) : EReal := (∑ q : Fin 386, inpA h_a row col typ attr bond e q * aW1 q l) + ab1 l
def z2A (e : Fin 500000) (k : Fin 128) : EReal :=
  (∑ l : Fin 128, silu (z1A h_a row col typ attr bond aW1 ab1 e l) * aW2 l k) + ab2 k
def mA (e : Fin 500000) : EReal := ∑ k : Fin 128, silu (z2A h_a row col typ attr bond aW1 ab1 aW2 ab2 e k) * aW3 k 0
/-- The per-edge update. -/
def transAtom (e : Fin 500000) (j : Fin 3) : EReal :=
  cdiff e j * Ideal.tanh (mA h_a row col typ attr bond aW1 ab1 aW2 ab2 aW3 e) * ten

end Atom

end Cert.Hand.Spec

end
-- ==== Proof.KI.Pay0.lean ====
import proofs.«426145_j45973329936455_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«426145_j45973329936455_2_alg».proof.Proof.Spec

/-! The per-node kernel's arithmetic read at an index, at the ideal values. The body multiplies a block of the
    assignment matrix into the fragments' coordinates and features (one product, 131 columns), subtracts the first
    three columns from the node coordinates, normalises that difference by its length plus one, and feeds the node
    features, the remaining 128 columns and the squared length through a three-layer perceptron with the smooth
    gate; the stored value is the normalised difference scaled by ten times the hyperbolic tangent of the
    perceptron's output. Each block product, read at an entry, is the finite sum over the contraction index of
    the operands' products; everything else is entry by entry. -/

set_option maxRecDepth 4096

noncomputable section

namespace Cert.KernelIdeal.Hand

open Cert.KernelIdeal Cert.KernelIdeal.Gen
open Idealize.ShloMosaic Idealize.ShloMosaic.ValueIdx

/-! ## The three block products -/

theorem lhs_bm_0 (i : S1000x131.Idx) (q : dot_S1000x2000_S2000x131_S1000x131_1_0_0_1_n_n.contr.Idx) :
    (dot_S1000x2000_S2000x131_S1000x131_1_0_0_1_n_n.lhsIdx i q 0).val = (i 0).val := by
  unfold DotDims.lhsIdx
  rw [dif_neg (show ¬(0 : Fin S1000x2000.rank) ∈ dot_S1000x2000_S2000x131_S1000x131_1_0_0_1_n_n.lhsBatch by decide), dif_pos (show (0 : Fin S1000x2000.rank) ∈ dot_S1000x2000_S2000x131_S1000x131_1_0_0_1_n_n.lhsNonContracting by decide)]
  rfl
theorem lhs_bm_1 (i : S1000x131.Idx) (q : dot_S1000x2000_S2000x131_S1000x131_1_0_0_1_n_n.contr.Idx) :
    (dot_S1000x2000_S2000x131_S1000x131_1_0_0_1_n_n.lhsIdx i q 1).val = (q ⟨0, by decide⟩).val :=
  dot_S1000x2000_S2000x131_S1000x131_1_0_0_1_n_n.lhsIdx_val_of_single rfl i q
theorem rhs_bm_0 (i : S1000x131.Idx) (q : dot_S1000x2000_S2000x131_S1000x131_1_0_0_1_n_n.contr.Idx) :
    (dot_S1000x2000_S2000x131_S1000x131_1_0_0_1_n_n.rhsIdx i q 0).val = (q ⟨0, by decide⟩).val :=
  dot_S1000x2000_S2000x131_S1000x131_1_0_0_1_n_n.rhsIdx_val_of_single rfl i q
theorem rhs_bm_1 (i : S1000x131.Idx) (q : dot_S1000x2000_S2000x131_S1000x131_1_0_0_1_n_n.contr.Idx) :
    (dot_S1000x2000_S2000x131_S1000x131_1_0_0_1_n_n.rhsIdx i q 1).val = (i 1).val := by
  unfold DotDims.rhsIdx
  rw [dif_neg (show ¬(1 : Fin S2000x131.rank) ∈ dot_S1000x2000_S2000x131_S1000x131_1_0_0_1_n_n.rhsBatch by decide), dif_pos (show (1 : Fin S2000x131.rank) ∈ dot_S1000x2000_S2000x131_S1000x131_1_0_0_1_n_n.rhsNonContracting by decide)]
  rfl
/-- The block product read at an entry: the sum over the contraction index of the operands' products. -/
theorem matmul_bm_apply {φ₁ φ₂ : FTy} (L : FVec Ideal S1000x2000 φ₁) (R : FVec Ideal S2000x131 φ₂) (i : S1000x131.Idx) :
    matmul dot_S1000x2000_S2000x131_S1000x131_1_0_0_1_n_n none L R (constant S1000x131 .f32 0x00000000#32) i
      = ∑ k : Fin 2000, L (ix2 (i 0) k) * R (ix2 k (i 1)) := by
  simp only [matmul]
  rw [Ideal.matmul_constant_zero_apply, ← Equiv.sum_comp (contrEquiv1 dot_S1000x2000_S2000x131_S1000x131_1_0_0_1_n_n 2000 rfl rfl).symm]
  refine Finset.sum_congr rfl fun k _ => ?_
  have hk := contrEquiv1_symm_val dot_S1000x2000_S2000x131_S1000x131_1_0_0_1_n_n 2000 rfl rfl k
  have el : dot_S1000x2000_S2000x131_S1000x131_1_0_0_1_n_n.lhsIdx i ((contrEquiv1 dot_S1000x2000_S2000x131_S1000x131_1_0_0_1_n_n 2000 rfl rfl).symm k) = ix2 (i 0) k := funext fun a => Fin.ext (by
    match a with
    | ⟨0, _⟩ => exact lhs_bm_0 _ _
    | ⟨1, _⟩ => exact (lhs_bm_1 _ _).trans hk)
  have er : dot_S1000x2000_S2000x131_S1000x131_1_0_0_1_n_n.rhsIdx i ((contrEquiv1 dot_S1000x2000_S2000x131_S1000x131_1_0_0_1_n_n 2000 rfl rfl).symm k) = ix2 k (i 1) := funext fun a => Fin.ext (by
    match a with
    | ⟨0, _⟩ => exact (rhs_bm_0 _ _).trans hk
    | ⟨1, _⟩ => exact rhs_bm_1 _ _)
  rw [el, er]; rfl

theorem lhs_hid_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem lhs_hid_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem rhs_hid_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem rhs_hid_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl
/-- The block product read at an entry: the sum over the contraction index of the operands' products. -/
theorem matmul_hid_apply {φ₁ φ₂ : FTy} (L : FVec Ideal S1000x128 φ₁) (R : FVec Ideal S128x128 φ₂) (i : S1000x128.Idx) :
    matmul dot_S1000x128_S128x128_S1000x128_1_0_0_1_n_n none L R (constant S1000x128 .f32 0x00000000#32) i
      = ∑ k : Fin 128, L (ix2 (i 0) k) * R (ix2 k (i 1)) := by
  simp only [matmul]
  rw [Ideal.matmul_constant_zero_apply, ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx i ((contrEquiv1 dot_S1000x128_S128x128_S1000x128_1_0_0_1_n_n 128 rfl rfl).symm k) = ix2 (i 0) k := funext fun a => Fin.ext (by
    match a with
    | ⟨0, _⟩ => exact lhs_hid_0 _ _
    | ⟨1, _⟩ => exact (lhs_hid_1 _ _).trans hk)
  have er : dot_S1000x128_S128x128_S1000x128_1_0_0_1_n_n.rhsIdx i ((contrEquiv1 dot_S1000x128_S128x128_S1000x128_1_0_0_1_n_n 128 rfl rfl).symm k) = ix2 k (i 1) := funext fun a => Fin.ext (by
    match a with
    | ⟨0, _⟩ => exact (rhs_hid_0 _ _).trans hk
    | ⟨1, _⟩ => exact rhs_hid_1 _ _)
  rw [el, er]; rfl

theorem lhs_out_0 (i : S1000x1.Idx) (q : dot_S1000x128_S128x1_S1000x1_1_0_0_1_n_n.contr.Idx) :
    (dot_S1000x128_S128x1_S1000x1_1_0_0_1_n_n.lhsIdx i q 0).val = (i 0).val := by
  unfold DotDims.lhsIdx
  rw [dif_neg (show ¬(0 : Fin S1000x128.rank) ∈ dot_S1000x128_S128x1_S1000x1_1_0_0_1_n_n.lhsBatch by decide), dif_pos (show (0 : Fin S1000x128.rank) ∈ dot_S1000x128_S128x1_S1000x1_1_0_0_1_n_n.lhsNonContracting by decide)]
  rfl
theorem lhs_out_1 (i : S1000x1.Idx) (q : dot_S1000x128_S128x1_S1000x1_1_0_0_1_n_n.contr.Idx) :
    (dot_S1000x128_S128x1_S1000x1_1_0_0_1_n_n.lhsIdx i q 1).val = (q ⟨0, by decide⟩).val :=
  dot_S1000x128_S128x1_S1000x1_1_0_0_1_n_n.lhsIdx_val_of_single rfl i q
theorem rhs_out_0 (i : S1000x1.Idx) (q : dot_S1000x128_S128x1_S1000x1_1_0_0_1_n_n.contr.Idx) :
    (dot_S1000x128_S128x1_S1000x1_1_0_0_1_n_n.rhsIdx i q 0).val = (q ⟨0, by decide⟩).val :=
  dot_S1000x128_S128x1_S1000x1_1_0_0_1_n_n.rhsIdx_val_of_single rfl i q
theorem rhs_out_1 (i : S1000x1.Idx) (q : dot_S1000x128_S128x1_S1000x1_1_0_0_1_n_n.contr.Idx) :
    (dot_S1000x128_S128x1_S1000x1_1_0_0_1_n_n.rhsIdx i q 1).val = (i 1).val := by
  unfold DotDims.rhsIdx
  rw [dif_neg (show ¬(1 : Fin S128x1.rank) ∈ dot_S1000x128_S128x1_S1000x1_1_0_0_1_n_n.rhsBatch by decide), dif_pos (show (1 : Fin S128x1.rank) ∈ dot_S1000x128_S128x1_S1000x1_1_0_0_1_n_n.rhsNonContracting by decide)]
  rfl
/-- The block product read at an entry: the sum over the contraction index of the operands' products. -/
theorem matmul_out_apply {φ₁ φ₂ : FTy} (L : FVec Ideal S1000x128 φ₁) (R : FVec Ideal S128x1 φ₂) (i : S1000x1.Idx) :
    matmul dot_S1000x128_S128x1_S1000x1_1_0_0_1_n_n none L R (constant S1000x1 .f32 0x00000000#32) i
      = ∑ k : Fin 128, L (ix2 (i 0) k) * R (ix2 k (i 1)) := by
  simp only [matmul]
  rw [Ideal.matmul_constant_zero_apply, ← Equiv.sum_comp (contrEquiv1 dot_S1000x128_S128x1_S1000x1_1_0_0_1_n_n 128 rfl rfl).symm]
  refine Finset.sum_congr rfl fun k _ => ?_
  have hk := contrEquiv1_symm_val dot_S1000x128_S128x1_S1000x1_1_0_0_1_n_n 128 rfl rfl k
  have el : dot_S1000x128_S128x1_S1000x1_1_0_0_1_n_n.lhsIdx i ((contrEquiv1 dot_S1000x128_S128x1_S1000x1_1_0_0_1_n_n 128 rfl rfl).symm k) = ix2 (i 0) k := funext fun a => Fin.ext (by
    match a with
    | ⟨0, _⟩ => exact lhs_out_0 _ _
    | ⟨1, _⟩ => exact (lhs_out_1 _ _).trans hk)
  have er : dot_S1000x128_S128x1_S1000x1_1_0_0_1_n_n.rhsIdx i ((contrEquiv1 dot_S1000x128_S128x1_S1000x1_1_0_0_1_n_n 128 rfl rfl).symm k) = ix2 k (i 1) := funext fun a => Fin.ext (by
    match a with
    | ⟨0, _⟩ => exact (rhs_out_0 _ _).trans hk
    | ⟨1, _⟩ => exact rhs_out_1 _ _)
  rw [el, er]; rfl

/-! ## Two layout steps of a row-wise reduction kept as a column -/

/-- A vector cast to one column reads, at (r, 0), the vector at r. -/
theorem shapeCast_a_a1_apply {α : Type} {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- One column spread over many reads, at (p, q), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's values, entry by entry -/

section Payloads

variable (x0 : Vec Ideal S1000x2000 .f32) (x1 : Vec Ideal S2000x131 .bf16) (x2 : Vec Ideal S1000x128 .f32)
  (x3 : Vec Ideal S1000x3 .f32) (x4 x5 : Vec Ideal S128x128 .bf16) (x6 x7 : Vec Ideal S1x128 .f32)
  (x8 : Vec Ideal S128x128 .bf16) (x9 : Vec Ideal S1x128 .f32) (x10 : Vec Ideal S128x1 .bf16)

/-- Row r of the block product against column j of the right operand. -/
def rProd (r : Fin 1000) (j : Fin 131) : EReal := ∑ k : Fin 2000, x0 (ix2 r k) * x1 (ix2 k j)

theorem pay2_apply (r : Fin 1000) (j : Fin 131) : k0_pay2 x0 x1 (ix2 r j) = rProd x0 x1 r j := by
  unfold k0_pay2
  rw [shapeCast_self, matmul_bm_apply]
  rfl

/-- The node's coordinate minus the product's first three columns. -/
def rDiff (r : Fin 1000) (j : Fin 3) : EReal := x3 (ix2 r j) - rProd x0 x1 r ⟨j.val, by omega⟩

theorem pay3_apply (r : Fin 1000) (j : Fin 3) : k0_pay3 x0 x1 x3 (ix2 r j) = rDiff x0 x1 x3 r j := by
  unfold k0_pay3
  rw [subf_apply, slice2_axis1_apply 0 _ _ r j (⟨j.val, by omega⟩ : Fin 131) (Nat.zero_add _).symm, pay2_apply]
  rfl

/-- Its squared length. -/
def rRad (r : Fin 1000) : EReal := ∑ j : Fin 3, rDiff x0 x1 x3 r j * rDiff x0 x1 x3 r j

theorem pay4_apply (r : Fin 1000) (u : Fin 1) : k0_pay4 x0 x1 x3 (ix2 r u) = rRad x0 x1 x3 r := by
  unfold k0_pay4
  rw [shapeCast_a_a1_apply]
  refine (Ideal.multiReduction_add_single _ 0x00000000#32 reduces_S1000x3_S1000 (.inl rfl) rfl (ix1 r)).trans ?_
  show ∑ k : Fin 3, _ = _
  refine Finset.sum_congr rfl fun k _ => ?_
  have hl : reduces_S1000x3_S1000.lift (ix1 r) k = ix2 r k := funext fun a => Fin.ext (by
    match a with
    | ⟨0, _⟩ => rfl
    | ⟨1, _⟩ => rfl)
  rw [hl, mulf_apply, pay3_apply]

/-- The difference divided by its length plus one. -/
def rCdn (r : Fin 1000) (j : Fin 3) : EReal :=
  Ideal.div (rDiff x0 x1 x3 r j) (Ideal.sqrt (rRad x0 x1 x3 r + Cert.Hand.Spec.eps) + Cert.Hand.Spec.one)

theorem pay5_apply (r : Fin 1000) (j : Fin 3) : k0_pay5 x0 x1 x3 (ix2 r j) = rCdn x0 x1 x3 r j := by
  unfold k0_pay5
  rw [divf_apply, pay3_apply, broadcastTo_a1_ab_apply]
  show Ideal.div _ (Ideal.sqrt (k0_pay4 x0 x1 x3 (ix2 r 0) + _) + _) = _
  rw [pay4_apply]
  rfl

/-- The first layer before its bias: node features against the first band of weights, the product's last 128
    columns against the second band, the squared length against the summed last two rows. -/
def rPre1 (r : Fin 1000) (l : Fin 128) : EReal :=
  ((∑ k : Fin 128, x2 (ix2 r k) * x4 (ix2 k l)) + (∑ k : Fin 128, rProd x0 x1 r ⟨k.val + 3, by omega⟩ * x5 (ix2 k l)))
    + rRad x0 x1 x3 r * x6 (ix2 (0 : Fin 1) l)

theorem pay6_apply (r : Fin 1000) (l : Fin 128) : k0_pay6 x0 x1 x3 x2 x4 x5 x6 (ix2 r l) = rPre1 x0 x1 x2 x3 x4 x5 x6 r l := by
  unfold k0_pay6
  rw [addf_apply, addf_apply, mulf_apply, shapeCast_self, shapeCast_self, shapeCast_self, matmul_hid_apply, matmul_hid_apply,
    broadcastTo_a1_ab_apply, broadcastTo_1b_ab_apply, pay4_apply]
  unfold rPre1
  congr 2
  refine Finset.sum_congr rfl fun k _ => ?_
  show extractStridedSlice S1000x128 ![0, 3] (k0_pay2 x0 x1) slices_S1000x131_o0_3_S1000x128 (ix2 r k) * _ = _
  rw [slice2_axis1_apply 3 _ _ r k (⟨k.val + 3, by omega⟩ : Fin 131) (Nat.add_comm _ _), pay2_apply]

theorem pay7_apply (l : Fin 128) : k0_pay7 x7 (ix2 (0 : Fin 1) l) = x7 (ix2 (0 : Fin 1) l) := by
  unfold k0_pay7
  rw [shapeCast_self]

end Payloads

/-- A hyperbolic tangent at an index is the entry's. -/
theorem tanh_apply {s : Shape} {φ : FTy} (a : FVec Ideal s φ) (i : s.Idx) : tanh a i = Ideal.tanh (a i) := rfl
/-- A logistic at an index is the entry's. -/
theorem logistic_apply {s : Shape} {φ : FTy} (a : FVec Ideal s φ) (i : s.Idx) : logistic a i = Ideal.logistic (a i) := rfl

section Tail

variable (v18 : FVec Ideal S1000x3 .f32) (v34 : FVec Ideal S1000x128 .f32) (v36 : FVec Ideal S1x128 .f32)
  (v42 : Vec Ideal S128x128 .bf16) (v45 : Vec Ideal S1x128 .f32) (v52 : Vec Ideal S128x1 .bf16)

/-- The second layer of row r from its first layer before the bias. -/
def tZ2 (r : Fin 1000) (k : Fin 128) : EReal :=
  (∑ l : Fin 128, Cert.Hand.Spec.silu (v34 (ix2 r l) + v36 (ix2 (0 : Fin 1) l)) * v42 (ix2 l k)) + v45 (ix2 (0 : Fin 1) k)
/-- The perceptron's output of row r. -/
def tM (r : Fin 1000) : EReal := ∑ k : Fin 128, Cert.Hand.Spec.silu (tZ2 v34 v36 v42 v45 r k) * v52 (ix2 k (0 : Fin 1))

theorem pay1_apply (r : Fin 1000) (j : Fin 3) :
    k0_pay1 v18 v34 v36 v42 v45 v52 (ix2 r j) = v18 (ix2 r j) * Ideal.tanh (tM v34 v36 v42 v45 v52 r) * Cert.Hand.Spec.ten := by
  unfold k0_pay1
  simp only [mulf_apply, addf_apply, broadcast_apply, broadcastTo_a1_ab_apply, broadcastTo_1b_ab_apply, shapeCast_self,
    tanh_apply, logistic_apply, matmul_out_apply, matmul_hid_apply, truncf_apply]
  rfl

end Tail

/-! ## The stored value of row r -/

section Row

variable (x0 : Vec Ideal S1000x2000 .f32) (x1 : Vec Ideal S2000x131 .bf16) (x2 : Vec Ideal S1000x128 .f32)
  (x3 : Vec Ideal S1000x3 .f32) (x4 x5 : Vec Ideal S128x128 .bf16) (x6 x7 : Vec Ideal S1x128 .f32)
  (x8 : Vec Ideal S128x128 .bf16) (x9 : Vec Ideal S1x128 .f32) (x10 : Vec Ideal S128x1 .bf16)

/-- The first layer of row r. -/
def rZ1 (r : Fin 1000) (l : Fin 128) : EReal := rPre1 x0 x1 x2 x3 x4 x5 x6 r l + x7 (ix2 (0 : Fin 1) l)
/-- The second layer of row r. -/
def rZ2 (r : Fin 1000) (k : Fin 128) : EReal :=
  (∑ l : Fin 128, Cert.Hand.Spec.silu (rZ1 x0 x1 x2 x3 x4 x5 x6 x7 r l) * x8 (ix2 l k)) + x9 (ix2 (0 : Fin 1) k)
/-- The perceptron's output of row r. -/
def rM (r : Fin 1000) : EReal :=
  ∑ k : Fin 128, Cert.Hand.Spec.silu (rZ2 x0 x1 x2 x3 x4 x5 x6 x7 x8 x9 r k) * x10 (ix2 k (0 : Fin 1))

/-- The value the body stores, at row r and axis j: the normalised coordinate difference scaled by the hyperbolic
    tangent of the perceptron's output and by ten. -/
theorem row0 (r : Fin 1000) (j : Fin 3) :
    k0_pay1 (k0_pay5 x0 x1 x3) (k0_pay6 x0 x1 x3 x2 x4 x5 x6) (k0_pay7 x7) x8 x9 x10 (ix2 r j)
      = rCdn x0 x1 x3 r j * Ideal.tanh (rM x0 x1 x2 x3 x4 x5 x6 x7 x8 x9 x10 r) * Cert.Hand.Spec.ten := by
  rw [pay1_apply, pay5_apply]
  unfold tM tZ2
  simp only [pay6_apply, pay7_apply]
  rfl

end Row

end Cert.KernelIdeal.Hand
-- ==== Proof.KI.Host0.lean ====
import proofs.«426145_j45973329936455_2_alg».proof.Proof.Gen.KernelIdeal.Regions
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! What the arrays of the first kernel region's windows hold when the region is entered, as functions of the
    argument arrays. The region's eleven input windows read: three argument arrays as launched (the assignment
    matrix, the node features, the node coordinates); the fragment coordinates and features laid side by side
    (131 columns: three coordinates, then 128 features); the first and the second band of 128 rows of the first
    layer's weights; the sum of its last two rows (the squared length enters the perceptron twice, so its two
    weights act as their sum); the two bias vectors as one-row matrices; the second and third layers' weights.
    A change of float format is the identity on the extended reals, so at the ideal values every window's array is
    read entry by entry off the arguments. -/

set_option maxRecDepth 1092

noncomputable section

namespace Cert.KernelIdeal.Hand

open Cert.KernelIdeal Cert.KernelIdeal.Gen
open Idealize.ShloMosaic Idealize.ShloMosaic.TcCoe Idealize.ShloMosaic.ValueIdx
open Idealize.SL.Sem

/-! ## Arrays no host operation writes -/

section AnyFormat

variable {F : FTy → Type} [FloatOps F] (m : (ℓ : Loc nD τ sig) → Buf (Elt F) ℓ) (c : Dev nD)

/-- A reference none of the first three host stretches writes holds its launch contents after them. -/
theorem V3_unwritten (r : Ref sig .tc) (h0 : r ∉ hostOps0_W) (h1 : r ∉ hostOps0_1_W) (h2 : r ∉ hostOps0_2_W) :
    V3 m c r = m (c, r) := by
  rw [V3_of m c r h2, V2_of m c r h1, V1_of m c r h0]

/-- A reference none of the four host stretches before the first region writes holds its launch contents at the
    region's entry. -/
theorem V4_unwritten (r : Ref sig .tc) (h0 : r ∉ hostOps0_W) (h1 : r ∉ hostOps0_1_W) (h2 : r ∉ hostOps0_2_W)
    (h3 : r ∉ hostOps0_3_W) : V4 m c r = m (c, r) := by
  rw [V4_of m c r h3, V3_unwritten m c r h0 h1 h2]

/-- The assignment matrix is as launched. -/
theorem V4_main_arg8 : V4 m c main_arg8 = m (c, main_arg8) :=
  V4_unwritten m c _ (by decide) (by decide) (by decide) (by decide)
/-- The node features are as launched. -/
theorem V4_main_arg0 : V4 m c main_arg0 = m (c, main_arg0) :=
  V4_unwritten m c _ (by decide) (by decide) (by decide) (by decide)
/-- The node coordinates are as launched. -/
theorem V4_main_arg1 : V4 m c main_arg1 = m (c, main_arg1) :=
  V4_unwritten m c _ (by decide) (by decide) (by decide) (by decide)

/-! ## Arrays the last host stretch writes, as terms over the arguments -/

/-- The fragment coordinates and features side by side, narrowed. -/
theorem V4_main_v7 : V4 m c main_v7 = truncf .bf16 (concatenate S2000x131 1
      [⟨S2000x3, m (c, main_arg7)⟩, ⟨S2000x128, m (c, main_arg6)⟩] concatenates_S2000x3_S2000x128_S2000x131_d1) bitsLt_bf16_f32 := by
  have e : ∀ W : Valuation τ sig (Elt F), StableHlo.after hostOps0_3 W (Proc.devRef .tc main_v7)
      = truncf .bf16 (concatenate S2000x131 1 [⟨S2000x3, W (Proc.devRef .tc main_arg7)⟩, ⟨S2000x128, W (Proc.devRef .tc main_arg6)⟩]
          concatenates_S2000x3_S2000x128_S2000x131_d1) bitsLt_bf16_f32 := by
    intro W; dsimp only [hostOps0_3]; after_results
  refine (e (V3 m c)).trans ?_
  rw [V3_unwritten m c main_arg7 (by decide) (by decide) (by decide), V3_unwritten m c main_arg6 (by decide) (by decide) (by decide)]

/-- The first band of the first layer's weights, narrowed. -/
theorem V4_main_v15 : V4 m c main_v15 = truncf .bf16 (extractStridedSlice S128x128 ![0, 0] (m (c, main_arg15))
      slices_S258x128_S128x128_0_0) bitsLt_bf16_f32 := by
  have e : ∀ W : Valuation τ sig (Elt F), StableHlo.after hostOps0_3 W (Proc.devRef .tc main_v15)
      = truncf .bf16 (extractStridedSlice S128x128 ![0, 0] (W (Proc.devRef .tc main_arg15)) slices_S258x128_S128x128_0_0) bitsLt_bf16_f32 := by
    intro W; dsimp only [hostOps0_3]; after_results
  refine (e (V3 m c)).trans ?_
  rw [V3_unwritten m c main_arg15 (by decide) (by decide) (by decide)]

/-- The second band of the first layer's weights, narrowed. -/
theorem V4_main_v16 : V4 m c main_v16 = truncf .bf16 (extractStridedSlice S128x128 ![128, 0] (m (c, main_arg15))
      slices_S258x128_S128x128_128_0) bitsLt_bf16_f32 := by
  have e : ∀ W : Valuation τ sig (Elt F), StableHlo.after hostOps0_3 W (Proc.devRef .tc main_v16)
      = truncf .bf16 (extractStridedSlice S128x128 ![128, 0] (W (Proc.devRef .tc main_arg15)) slices_S258x128_S128x128_128_0) bitsLt_bf16_f32 := by
    intro W; dsimp only [hostOps0_3]; after_results
  refine (e (V3 m c)).trans ?_
  rw [V3_unwritten m c main_arg15 (by decide) (by decide) (by decide)]

/-- The column sums of the first layer's last two rows of weights, as one row. -/
theorem V4_main_v12 : V4 m c main_v12 = broadcastInDim S1x128 ![1] bcast_S128_S1x128_1
      (Host.reduceAdd (extractStridedSlice S2x128 ![256, 0] (m (c, main_arg15)) slices_S258x128_S2x128_256_0)
        (constant (F := F) S_ .f32 0x00000000#32) reducesTo_S2x128_S128_d0 h_S_) := by
  have e : ∀ W : Valuation τ sig (Elt F), StableHlo.after hostOps0_3 W (Proc.devRef .tc main_v12)
      = broadcastInDim S1x128 ![1] bcast_S128_S1x128_1
          (Host.reduceAdd (extractStridedSlice S2x128 ![256, 0] (W (Proc.devRef .tc main_arg15)) slices_S258x128_S2x128_256_0)
            (constant (F := F) S_ .f32 0x00000000#32) reducesTo_S2x128_S128_d0 h_S_) := by
    intro W; dsimp only [hostOps0_3]; after_results
  refine (e (V3 m c)).trans ?_
  rw [V3_unwritten m c main_arg15 (by decide) (by decide) (by decide)]

/-- The first layer's bias as a one-row matrix. -/
theorem V4_main_v13 : V4 m c main_v13 = shapeCast S1x128 (m (c, main_arg16)) shapeCasts_S128_S1x128 := by
  have e : ∀ W : Valuation τ sig (Elt F), StableHlo.after hostOps0_3 W (Proc.devRef .tc main_v13)
      = shapeCast S1x128 (W (Proc.devRef .tc main_arg16)) shapeCasts_S128_S1x128 := by
    intro W; dsimp only [hostOps0_3]; after_results; rfl
  refine (e (V3 m c)).trans ?_
  rw [V3_unwritten m c main_arg16 (by decide) (by decide) (by decide)]

/-- The second layer's bias as a one-row matrix. -/
theorem V4_main_v14 : V4 m c main_v14 = shapeCast S1x128 (m (c, main_arg18)) shapeCasts_S128_S1x128 := by
  have e : ∀ W : Valuation τ sig (Elt F), StableHlo.after hostOps0_3 W (Proc.devRef .tc main_v14)
      = shapeCast S1x128 (W (Proc.devRef .tc main_arg18)) shapeCasts_S128_S1x128 := by
    intro W; dsimp only [hostOps0_3]; after_results; rfl
  refine (e (V3 m c)).trans ?_
  rw [V3_unwritten m c main_arg18 (by decide) (by decide) (by decide)]

/-- The second layer's weights, narrowed. -/
theorem V4_main_v17 : V4 m c main_v17 = truncf .bf16 (m (c, main_arg17)) bitsLt_bf16_f32 := by
  have e : ∀ W : Valuation τ sig (Elt F), StableHlo.after hostOps0_3 W (Proc.devRef .tc main_v17)
      = truncf .bf16 (W (Proc.devRef .tc main_arg17)) bitsLt_bf16_f32 := by
    intro W; dsimp only [hostOps0_3]; after_results
  refine (e (V3 m c)).trans ?_
  rw [V3_unwritten m c main_arg17 (by decide) (by decide) (by decide)]

/-- The third layer's weights, narrowed. -/
theorem V4_main_v18 : V4 m c main_v18 = truncf .bf16 (m (c, main_arg19)) bitsLt_bf16_f32 := by
  have e : ∀ W : Valuation τ sig (Elt F), StableHlo.after hostOps0_3 W (Proc.devRef .tc main_v18)
      = truncf .bf16 (W (Proc.devRef .tc main_arg19)) bitsLt_bf16_f32 := by
    intro W; dsimp only [hostOps0_3]; after_results
  refine (e (V3 m c)).trans ?_
  rw [V3_unwritten m c main_arg19 (by decide) (by decide) (by decide)]

end AnyFormat

/-! ## The argument arrays, curried, and the windows' arrays read at an index, at the ideal values -/

section AtIdeal

variable (m : (ℓ : Loc nD τ sig) → Buf (Elt Ideal) ℓ) (c : Dev nD)

/-- Core c's node features as launched, by node and feature. -/
def aHa : Fin 50000 → Fin 128 → EReal := fun i k => m (c, main_arg0) (ix2 i k)
/-- Its node coordinates, by node and axis. -/
def aXa : Fin 50000 → Fin 3 → EReal := fun i j => m (c, main_arg1) (ix2 i j)
/-- Its fragment features, by fragment and feature. -/
def aHf : Fin 2000 → Fin 128 → EReal := fun k j => m (c, main_arg6) (ix2 k j)
/-- Its fragment coordinates, by fragment and axis. -/
def aXf : Fin 2000 → Fin 3 → EReal := fun k j => m (c, main_arg7) (ix2 k j)
/-- Its assignment matrix, by node and fragment. -/
def aBm : Fin 50000 → Fin 2000 → EReal := fun i k => m (c, main_arg8) (ix2 i k)
/-- The per-node perceptron's first-layer weights, by input and hidden unit. -/
def aFW1 : Fin 258 → Fin 128 → EReal := fun q l => m (c, main_arg15) (ix2 q l)
/-- Its first-layer bias. -/
def aFb1 : Fin 128 → EReal := fun l => m (c, main_arg16) (ix1 l)
/-- Its second-layer weights. -/
def aFW2 : Fin 128 → Fin 128 → EReal := fun l k => m (c, main_arg17) (ix2 l k)
/-- Its second-layer bias. -/
def aFb2 : Fin 128 → EReal := fun k => m (c, main_arg18) (ix1 k)
/-- Its third-layer weights (one output). -/
def aFW3 : Fin 128 → Fin 1 → EReal := fun k o => m (c, main_arg19) (ix2 k o)

/-- The assignment matrix's window reads the argument. -/
theorem V4_main_arg8_apply (i : Fin 50000) (k : Fin 2000) : V4 m c main_arg8 (ix2 i k) = aBm m c i k := by
  rw [V4_main_arg8]; rfl
/-- The node features' window reads the argument. -/
theorem V4_main_arg0_apply (i : Fin 50000) (k : Fin 128) : V4 m c main_arg0 (ix2 i k) = aHa m c i k := by
  rw [V4_main_arg0]; rfl
/-- The node coordinates' window reads the argument. -/
theorem V4_main_arg1_apply (i : Fin 50000) (j : Fin 3) : V4 m c main_arg1 (ix2 i j) = aXa m c i j := by
  rw [V4_main_arg1]; rfl

/-- Row k of the side-by-side array: its first three entries are the fragment's coordinates … -/
theorem V4_main_v7_coord (k : Fin 2000) (j : Fin 131) (j' : Fin 3) (hj : j'.val = j.val) :
    V4 m c main_v7 (ix2 k j) = aXf m c k j' := by
  rw [V4_main_v7]
  show concatenate S2000x131 1 [⟨S2000x3, m (c, main_arg7)⟩, ⟨S2000x128, m (c, main_arg6)⟩] concatenates_S2000x3_S2000x128_S2000x131_d1 (ix2 k j) = _
  exact concatenate_pair_apply_left (t := S2000x131) (s₁ := S2000x3) (s₂ := S2000x128) 1 _ _ _ (ix2 k j) rfl (ix2 k j') (fun b => by
    match b with
    | ⟨0, _⟩ => rfl
    | ⟨1, _⟩ => exact hj)

/-- … and the 128 after them its features. -/
theorem V4_main_v7_feat (k : Fin 2000) (j : Fin 131) (j' : Fin 128) (hj : j'.val + 3 = j.val) :
    V4 m c main_v7 (ix2 k j) = aHf m c k j' := by
  rw [V4_main_v7]
  show concatenate S2000x131 1 [⟨S2000x3, m (c, main_arg7)⟩, ⟨S2000x128, m (c, main_arg6)⟩] concatenates_S2000x3_S2000x128_S2000x131_d1 (ix2 k j) = _
  exact concatenate_pair_apply_right (t := S2000x131) (s₁ := S2000x3) (s₂ := S2000x128) 1 _ _ _ (ix2 k j) rfl rfl (ix2 k j') (fun b hb => by
    match b with
    | ⟨0, _⟩ => rfl
    | ⟨1, _⟩ => exact absurd rfl hb) hj

/-- The first band of the first layer's weights is rows 0 to 127 of the weights. -/
theorem V4_main_v15_apply (k : Fin 128) (l : Fin 128) (k' : Fin 258) (hk : k'.val = k.val) :
    V4 m c main_v15 (ix2 k l) = aFW1 m c k' l := by
  rw [V4_main_v15]
  show extractStridedSlice S128x128 ![0, 0] (m (c, main_arg15)) slices_S258x128_S128x128_0_0 (ix2 k l) = _
  exact slice2_axis0_apply 0 _ _ k l k' (by omega)

/-- The second band is rows 128 to 255. -/
theorem V4_main_v16_apply (k : Fin 128) (l : Fin 128) (k' : Fin 258) (hk : k'.val = 128 + k.val) :
    V4 m c main_v16 (ix2 k l) = aFW1 m c k' l := by
  rw [V4_main_v16]
  show extractStridedSlice S128x128 ![128, 0] (m (c, main_arg15)) slices_S258x128_S128x128_128_0 (ix2 k l) = _
  exact slice2_axis0_apply 128 _ _ k l k' hk

/-- The one-row array of the last two rows' column sums: row 256 plus row 257 of the weights. -/
theorem V4_main_v12_apply (u : Fin 1) (l : Fin 128) :
    V4 m c main_v12 (ix2 u l) = aFW1 m c (⟨256, by omega⟩ : Fin 258) l + aFW1 m c (⟨257, by omega⟩ : Fin 258) l := by
  rw [V4_main_v12]
  have hred : S2x128.Reduces [0] S128 := by decide
  rw [broadcastInDim_apply _ _ _ (ix2 u l) (ix1 l) (fun a => by match a with | ⟨0, _⟩ => rfl)]
  rw [hostReduceAdd_apply, Ideal.hostReduceAdd_single _ hred]
  show Ideal.ofBits .f32 0x00000000#32 + _ = _
  rw [Ideal.ofBits_zero_f32, zero_add]
  have hl : ∀ k : Fin 2, hred.lift (ix1 l) k = ix2 k l := fun k => funext fun a => Fin.ext (by
    match a with
    | ⟨0, _⟩ => rfl
    | ⟨1, _⟩ => rfl)
  show ∑ k : Fin 2, _ = _
  rw [Fin.sum_univ_two, hl, hl]
  congr 1
  · exact slice2_axis0_apply 256 _ _ (0 : Fin 2) l (⟨256, by omega⟩ : Fin 258) rfl
  · exact slice2_axis0_apply 256 _ _ (1 : Fin 2) l (⟨257, by omega⟩ : Fin 258) rfl

/-- The first layer's bias as a one-row matrix reads the bias. -/
theorem V4_main_v13_apply (u : Fin 1) (l : Fin 128) : V4 m c main_v13 (ix2 u l) = aFb1 m c l := by
  rw [V4_main_v13]
  exact shapeCast_a_1a_apply _ _ u l

/-- The second layer's bias as a one-row matrix reads the bias. -/
theorem V4_main_v14_apply (u : Fin 1) (l : Fin 128) : V4 m c main_v14 (ix2 u l) = aFb2 m c l := by
  rw [V4_main_v14]
  exact shapeCast_a_1a_apply _ _ u l

/-- The second layer's weights' window reads the argument. -/
theorem V4_main_v17_apply (l k : Fin 128) : V4 m c main_v17 (ix2 l k) = aFW2 m c l k := by
  rw [V4_main_v17]; rfl

/-- The third layer's weights' window reads the argument. -/
theorem V4_main_v18_apply (k : Fin 128) (o : Fin 1) : V4 m c main_v18 (ix2 k o) = aFW3 m c k o := by
  rw [V4_main_v18]; rfl

end AtIdeal

end Cert.KernelIdeal.Hand
-- ==== Proof.SpecLemmas.lean ====
import proofs.«426145_j45973329936455_2_alg».proof.Proof.Spec
import Mathlib.Algebra.BigOperators.Fin
import Mathlib.Data.EReal.Operations

/-! The first layer of each perceptron, cut at the seams of its input row. The input row is several arrays laid
    side by side, so the layer's sum over the row's columns is the sum of one sum per array; finite sums in the
    extended reals form a commutative monoid, so the cut needs no finiteness. Where the squared length enters
    twice, its two products are gathered into one product with the sum of the two weights: the extended reals
    distribute multiplication over addition on real numbers, which is where the hypotheses of finiteness enter. -/

noncomputable section

namespace Cert.Hand.Spec

open Idealize.ShloMosaic

/-! ## Real numbers among the extended reals -/

theorem real_add {a b : EReal} (ha : ∃ r : ℝ, a = r) (hb : ∃ r : ℝ, b = r) : ∃ r : ℝ, a + b = r := by
  obtain ⟨a, rfl⟩ := ha; obtain ⟨b, rfl⟩ := hb; exact ⟨a + b, (EReal.coe_add a b).symm⟩

theorem real_sub {a b : EReal} (ha : ∃ r : ℝ, a = r) (hb : ∃ r : ℝ, b = r) : ∃ r : ℝ, a - b = r := by
  obtain ⟨a, rfl⟩ := ha; obtain ⟨b, rfl⟩ := hb; exact ⟨a - b, (EReal.coe_sub a b).symm⟩

theorem real_mul {a b : EReal} (ha : ∃ r : ℝ, a = r) (hb : ∃ r : ℝ, b = r) : ∃ r : ℝ, a * b = r := by
  obtain ⟨a, rfl⟩ := ha; obtain ⟨b, rfl⟩ := hb; exact ⟨a * b, (EReal.coe_mul a b).symm⟩

/-- A finite sum of real numbers, each seen as an extended real, is the real sum seen as an extended real. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are real numbers is a real number. -/
theorem real_sum {ι : Type*} (s : Finset ι) (f : ι → EReal) (h : ∀ i ∈ s, ∃ r : ℝ, f i = r) :
    ∃ r : ℝ, ∑ i ∈ s, f i = r := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- Multiplication distributes over addition on real numbers. -/
theorem mul_add_of_real (x a b : EReal) (hx : ∃ r : ℝ, x = r) (ha : ∃ r : ℝ, a = r) (hb : ∃ r : ℝ, b = r) :
    x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-! ## Sums over the input columns, cut at the seams -/

/-- The two columns that carry the squared length, as a sum over two. -/
theorem sum2_at256 (g : Fin 258 → EReal) :
    ∑ k : Fin 2, g ⟨256 + k.val, by have := k.isLt; omega⟩ = g ⟨256, by omega⟩ + g ⟨257, by omega⟩ := by
  rw [Fin.sum_univ_two]
  rfl

/-- The two edge-attribute columns, as a sum over two. -/
theorem sum2_at256' (g : Fin 386 → EReal) :
    ∑ k : Fin 2, g ⟨256 + k.val, by have := k.isLt; omega⟩ = g ⟨256, by omega⟩ + g ⟨257, by omega⟩ := by
  rw [Fin.sum_univ_two]
  rfl

/-- 258 columns: two runs of 128, then two single columns. -/
theorem sum258_split (g : Fin 258 → EReal) :
    ∑ q, g q = (∑ k : Fin 128, g ⟨k.val, by have := k.isLt; omega⟩
        + ∑ k : Fin 128, g ⟨128 + k.val, by have := k.isLt; omega⟩)
      + (g ⟨256, by omega⟩ + g ⟨257, by omega⟩) := by
  have h1 : ∑ q : Fin 258, g q = ∑ i : Fin 256, g (Fin.castAdd 2 i) + ∑ i : Fin 2, g (Fin.natAdd 256 i) :=
    Fin.sum_univ_add (a := 256) (b := 2) g
  have h2 : ∑ i : Fin 256, g (Fin.castAdd 2 i)
      = ∑ k : Fin 128, g (Fin.castAdd 2 (Fin.castAdd 128 k)) + ∑ k : Fin 128, g (Fin.castAdd 2 (Fin.natAdd 128 k)) :=
    Fin.sum_univ_add (a := 128) (b := 128) fun i => g (Fin.castAdd 2 i)
  rw [h1, h2, Fin.sum_univ_two]
  rfl

/-- 386 columns: the 258 as above, then a run of 128. -/
theorem sum386_split (g : Fin 386 → EReal) :
    ∑ q, g q = ((∑ k : Fin 128, g ⟨k.val, by have := k.isLt; omega⟩
          + ∑ k : Fin 128, g ⟨128 + k.val, by have := k.isLt; omega⟩)
        + (g ⟨256, by omega⟩ + g ⟨257, by omega⟩))
      + ∑ k : Fin 128, g ⟨258 + k.val, by have := k.isLt; omega⟩ := by
  have h1 : ∑ q : Fin 386, g q = ∑ i : Fin 258, g (Fin.castAdd 128 i) + ∑ i : Fin 128, g (Fin.natAdd 258 i) :=
    Fin.sum_univ_add (a := 258) (b := 128) g
  rw [h1, sum258_split fun i => g (Fin.castAdd 128 i)]
  rfl

/-! ## The per-node perceptron's input row, column by column, and its first layer -/

section Frag

variable (h_a : Fin 50000 → Fin 128 → EReal) (x_a : Fin 50000 → Fin 3 → EReal)
  (h_f : Fin 2000 → Fin 128 → EReal) (x_f : Fin 2000 → Fin 3 → EReal) (bm : Fin 50000 → Fin 2000 → EReal)
  (fW1 : Fin 258 → Fin 128 → EReal) (fb1 : Fin 128 → EReal)

/-- The squared length is a real number when the coordinates and the assignment matrix are. -/
theorem radial_real (hx : ∀ i j, ∃ r : ℝ, x_a i j = r) (hf : ∀ k j, ∃ r : ℝ, x_f k j = r)
    (hb : ∀ i k, ∃ r : ℝ, bm i k = r) (i : Fin 50000) : ∃ r : ℝ, radial x_a x_f bm i = r := by
  unfold radial cd0 bmX
  refine real_sum _ _ fun j _ => ?_
  have hd : ∃ r : ℝ, x_a i j - ∑ k : Fin 2000, bm i k * x_f k j = r :=
    real_sub (hx i j) (real_sum _ _ fun k _ => real_mul (hb i k) (hf k j))
  exact real_mul hd hd

theorem inpF_lo (i : Fin 50000) (k : Fin 128) :
    inpF h_a x_a h_f x_f bm i ⟨k.val, by have := k.isLt; omega⟩ = h_a i k := by
  unfold inpF
  rw [dif_pos (show k.val < 128 from k.isLt)]

theorem inpF_mid (i : Fin 50000) (k : Fin 128) :
    inpF h_a x_a h_f x_f bm i ⟨128 + k.val, by have := k.isLt; omega⟩ = bmH h_f bm i k := by
  unfold inpF
  rw [dif_neg (show ¬ 128 + k.val < 128 by omega), dif_pos (show 128 + k.val < 256 by have := k.isLt; omega)]
  exact congrArg (bmH h_f bm i) (Fin.ext (show 128 + k.val - 128 = k.val by omega))

theorem inpF_256 (i : Fin 50000) : inpF h_a x_a h_f x_f bm i ⟨256, by omega⟩ = radial x_a x_f bm i := by
  unfold inpF
  rw [dif_neg (show ¬ 256 < 128 by omega), dif_neg (show ¬ 256 < 256 by omega)]

theorem inpF_257 (i : Fin 50000) : inpF h_a x_a h_f x_f bm i ⟨257, by omega⟩ = radial x_a x_f bm i := by
  unfold inpF
  rw [dif_neg (show ¬ 257 < 128 by omega), dif_neg (show ¬ 257 < 256 by omega)]

/-- The first layer cut at the seams, the squared length's two products kept apart (no finiteness needed). -/
theorem z1F_split' (i : Fin 50000) (l : Fin 128) :
    z1F h_a x_a h_f x_f bm fW1 fb1 i l
      = ((∑ k : Fin 128, h_a i k * fW1 ⟨k.val, by have := k.isLt; omega⟩ l
            + ∑ k : Fin 128, bmH h_f bm i k * fW1 ⟨128 + k.val, by have := k.isLt; omega⟩ l)
          + (radial x_a x_f bm i * fW1 ⟨256, by omega⟩ l + radial x_a x_f bm i * fW1 ⟨257, by omega⟩ l))
        + fb1 l := by
  unfold z1F
  rw [sum258_split]
  simp only [inpF_lo, inpF_mid, inpF_256, inpF_257]

/-- The first layer cut at the seams, the squared length against the sum of its two weights. -/
theorem z1F_split (i : Fin 50000) (l : Fin 128) (hrad : ∃ r : ℝ, radial x_a x_f bm i = r)
    (hW : ∀ q l, ∃ r : ℝ, fW1 q l = r) :
    z1F h_a x_a h_f x_f bm fW1 fb1 i l
      = ((∑ k : Fin 128, h_a i k * fW1 ⟨k.val, by have := k.isLt; omega⟩ l
            + ∑ k : Fin 128, bmH h_f bm i k * fW1 ⟨128 + k.val, by have := k.isLt; omega⟩ l)
          + radial x_a x_f bm i * (fW1 ⟨256, by omega⟩ l + fW1 ⟨257, by omega⟩ l))
        + fb1 l := by
  rw [z1F_split', mul_add_of_real _ _ _ hrad (hW _ _) (hW _ _)]

end Frag

/-! ## The per-edge perceptron's input row, column by column, and its first layer -/

section Atom

variable (h_a : Fin 50000 → Fin 128 → EReal) (row col : Fin 500000 → Fin 50000) (typ : Fin 500000 → Fin 100)
  (attr : Fin 500000 → Fin 2 → EReal) (bond : Fin 100 → Fin 128 → EReal)
  (aW1 : Fin 386 → Fin 128 → EReal) (ab1 : Fin 128 → EReal)

theorem inpA_lo (e : Fin 500000) (k : Fin 128) :
    inpA h_a row col typ attr bond e ⟨k.val, by have := k.isLt; omega⟩ = h_a (row e) k := by
  unfold inpA
  rw [dif_pos (show k.val < 128 from k.isLt)]

theorem inpA_mid (e : Fin 500000) (k : Fin 128) :
    inpA h_a row col typ attr bond e ⟨128 + k.val, by have := k.isLt; omega⟩ = h_a (col e) k := by
  unfold inpA
  rw [dif_neg (show ¬ 128 + k.val < 128 by omega), dif_pos (show 128 + k.val < 256 by have := k.isLt; omega)]
  exact congrArg (h_a (col e)) (Fin.ext (show 128 + k.val - 128 = k.val by omega))

theorem inpA_256 (e : Fin 500000) : inpA h_a row col typ attr bond e ⟨256, by omega⟩ = attr e 0 := by
  unfold inpA
  rw [dif_neg (show ¬ 256 < 128 by omega), dif_neg (show ¬ 256 < 256 by omega), dif_pos (show 256 < 258 by omega)]
  rfl

theorem inpA_257 (e : Fin 500000) : inpA h_a row col typ attr bond e ⟨257, by omega⟩ = attr e 1 := by
  unfold inpA
  rw [dif_neg (show ¬ 257 < 128 by omega), dif_neg (show ¬ 257 < 256 by omega), dif_pos (show 257 < 258 by omega)]
  rfl

theorem inpA_hi (e : Fin 500000) (k : Fin 128) :
    inpA h_a row col typ attr bond e ⟨258 + k.val, by have := k.isLt; omega⟩ = bond (typ e) k := by
  unfold inpA
  rw [dif_neg (show ¬ 258 + k.val < 128 by omega), dif_neg (show ¬ 258 + k.val < 256 by omega),
    dif_neg (show ¬ 258 + k.val < 258 by omega)]
  exact congrArg (bond (typ e)) (Fin.ext (show 258 + k.val - 258 = k.val by omega))

/-- The first layer cut at the seams: source features, target features, the two attributes, the bond embedding. -/
theorem z1A_split (e : Fin 500000) (l : Fin 128) :
    z1A h_a row col typ attr bond aW1 ab1 e l
      = ((((∑ k : Fin 128, h_a (row e) k * aW1 ⟨k.val, by have := k.isLt; omega⟩ l
              + ∑ k : Fin 128, h_a (col e) k * aW1 ⟨128 + k.val, by have := k.isLt; omega⟩ l)
            + attr e 0 * aW1 ⟨256, by omega⟩ l)
          + attr e 1 * aW1 ⟨257, by omega⟩ l)
        + ∑ k : Fin 128, bond (typ e) k * aW1 ⟨258 + k.val, by have := k.isLt; omega⟩ l)
      + ab1 l := by
  unfold z1A
  rw [sum386_split]
  simp only [inpA_lo, inpA_mid, inpA_256, inpA_257, inpA_hi]
  rw [← add_assoc (∑ k : Fin 128, _ + ∑ k : Fin 128, _)]

end Atom

end Cert.Hand.Spec

end
-- ==== Proof.KI.Val0.lean ====
import proofs.«426145_j45973329936455_2_alg».proof.Proof.KI.Pay0
import proofs.«426145_j45973329936455_2_alg».proof.Proof.KI.Host0
import proofs.«426145_j45973329936455_2_alg».proof.Proof.SpecLemmas
import proofs.«426145_j45973329936455_2_alg».proof.Proof.KI.Final0

/-! The first kernel region's output, entry by entry, is the per-node update of the argument arrays. A grid point
    reads one block of a thousand rows of the assignment matrix, the node features and the node coordinates, and
    the whole of every other window; the value it stores at a row is the row formula of the body's arithmetic over
    those blocks. Row by row the blocks hold the arguments' rows and the weight arrays, so the block's product is
    the assignment row against the fragments' coordinates and features, the difference, its squared length and
    the normalised difference are the mathematical ones, and the perceptron's first layer is the sum over the 258
    input columns cut at its seams (128 node features, 128 weighted fragment features, the squared length twice,
    whose two weights the host added beforehand: the squared length and the weights are real numbers, so the
    product distributes). -/

set_option maxRecDepth 4096

noncomputable section

namespace Cert.KernelIdeal.Hand

open Cert.KernelIdeal Cert.KernelIdeal.Gen
open Idealize.ShloMosaic Idealize.ShloMosaic.TcCoe Idealize.ShloMosaic.ValueIdx
open Cert.Hand

/-! ## A block row is the array's row -/

section RowIsSpec

variable (h_a : Fin 50000 → Fin 128 → EReal) (x_a : Fin 50000 → Fin 3 → EReal)
  (h_f : Fin 2000 → Fin 128 → EReal) (x_f : Fin 2000 → Fin 3 → EReal) (bm : Fin 50000 → Fin 2000 → EReal)
  (fW1 : Fin 258 → Fin 128 → EReal) (fb1 : Fin 128 → EReal) (fW2 : Fin 128 → Fin 128 → EReal) (fb2 : Fin 128 → EReal)
  (fW3 : Fin 128 → Fin 1 → EReal)
  (x0 : Vec Ideal S1000x2000 .f32) (x1 : Vec Ideal S2000x131 .bf16) (x2 : Vec Ideal S1000x128 .f32)
  (x3 : Vec Ideal S1000x3 .f32) (x4 x5 : Vec Ideal S128x128 .bf16) (x6 x7 : Vec Ideal S1x128 .f32)
  (x8 : Vec Ideal S128x128 .bf16) (x9 : Vec Ideal S1x128 .f32) (x10 : Vec Ideal S128x1 .bf16)
  (i : Fin 50000) (r : Fin 1000)

/-- The eleven blocks a grid point reads hold, at local row r, node i's rows of the assignment matrix, the node
    features and the node coordinates, and otherwise the fragments' arrays side by side and the weight arrays. -/
structure RowData : Prop where
  hbm : ∀ k : Fin 2000, x0 (ix2 r k) = bm i k
  hxf : ∀ (k : Fin 2000) (j : Fin 3), x1 (ix2 k (⟨j.val, by omega⟩ : Fin 131)) = x_f k j
  hhf : ∀ (k : Fin 2000) (j : Fin 128), x1 (ix2 k (⟨j.val + 3, by omega⟩ : Fin 131)) = h_f k j
  hha : ∀ k : Fin 128, x2 (ix2 r k) = h_a i k
  hxa : ∀ j : Fin 3, x3 (ix2 r j) = x_a i j
  hw1a : ∀ k l : Fin 128, x4 (ix2 k l) = fW1 ⟨k.val, by have := k.isLt; omega⟩ l
  hw1b : ∀ k l : Fin 128, x5 (ix2 k l) = fW1 ⟨128 + k.val, by have := k.isLt; omega⟩ l
  hw1r : ∀ l : Fin 128, x6 (ix2 (0 : Fin 1) l) = fW1 ⟨256, by omega⟩ l + fW1 ⟨257, by omega⟩ l
  hb1 : ∀ l : Fin 128, x7 (ix2 (0 : Fin 1) l) = fb1 l
  hw2 : ∀ l k : Fin 128, x8 (ix2 l k) = fW2 l k
  hb2 : ∀ k : Fin 128, x9 (ix2 (0 : Fin 1) k) = fb2 k
  hw3 : ∀ k : Fin 128, x10 (ix2 k (0 : Fin 1)) = fW3 k 0

variable {h_a x_a h_f x_f bm fW1 fb1 fW2 fb2 fW3 x0 x1 x2 x3 x4 x5 x6 x7 x8 x9 x10 i r}
variable (D : RowData h_a x_a h_f x_f bm fW1 fb1 fW2 fb2 fW3 x0 x1 x2 x3 x4 x5 x6 x7 x8 x9 x10 i r)
include D

theorem rProd_coord (j : Fin 3) : rProd x0 x1 r ⟨j.val, by omega⟩ = Spec.bmX x_f bm i j := by
  unfold rProd Spec.bmX
  exact Finset.sum_congr rfl fun k _ => by rw [D.hbm, D.hxf]

theorem rProd_feat (j : Fin 128) : rProd x0 x1 r ⟨j.val + 3, by omega⟩ = Spec.bmH h_f bm i j := by
  unfold rProd Spec.bmH
  exact Finset.sum_congr rfl fun k _ => by rw [D.hbm, D.hhf]

theorem rDiff_eq (j : Fin 3) : rDiff x0 x1 x3 r j = Spec.cd0 x_a x_f bm i j := by
  unfold rDiff Spec.cd0
  rw [D.hxa, rProd_coord D]

theorem rRad_eq : rRad x0 x1 x3 r = Spec.radial x_a x_f bm i := by
  unfold rRad Spec.radial
  exact Finset.sum_congr rfl fun j _ => by rw [rDiff_eq D]

theorem rCdn_eq (j : Fin 3) : rCdn x0 x1 x3 r j = Spec.cdn x_a x_f bm i j := by
  unfold rCdn Spec.cdn
  rw [rDiff_eq D, rRad_eq D]

theorem rZ1_eq (hxa : ∀ i j, ∃ t : ℝ, x_a i j = t) (hxf : ∀ k j, ∃ t : ℝ, x_f k j = t) (hbm : ∀ i k, ∃ t : ℝ, bm i k = t)
    (hW : ∀ q l, ∃ t : ℝ, fW1 q l = t) (l : Fin 128) :
    rZ1 x0 x1 x2 x3 x4 x5 x6 x7 r l = Spec.z1F h_a x_a h_f x_f bm fW1 fb1 i l := by
  rw [Spec.z1F_split h_a x_a h_f x_f bm fW1 fb1 i l (Spec.radial_real x_a x_f bm hxa hxf hbm i) hW]
  unfold rZ1 rPre1
  rw [rRad_eq D, D.hw1r, D.hb1]
  congr 3
  · exact Finset.sum_congr rfl fun k _ => by rw [D.hha, D.hw1a]
  · exact Finset.sum_congr rfl fun k _ => by rw [rProd_feat D, D.hw1b]

theorem rZ2_eq (hxa : ∀ i j, ∃ t : ℝ, x_a i j = t) (hxf : ∀ k j, ∃ t : ℝ, x_f k j = t) (hbm : ∀ i k, ∃ t : ℝ, bm i k = t)
    (hW : ∀ q l, ∃ t : ℝ, fW1 q l = t) (k : Fin 128) :
    rZ2 x0 x1 x2 x3 x4 x5 x6 x7 x8 x9 r k = Spec.z2F h_a x_a h_f x_f bm fW1 fb1 fW2 fb2 i k := by
  unfold rZ2 Spec.z2F
  rw [D.hb2]
  congr 1
  exact Finset.sum_congr rfl fun l _ => by rw [rZ1_eq D hxa hxf hbm hW, D.hw2]

theorem rM_eq (hxa : ∀ i j, ∃ t : ℝ, x_a i j = t) (hxf : ∀ k j, ∃ t : ℝ, x_f k j = t) (hbm : ∀ i k, ∃ t : ℝ, bm i k = t)
    (hW : ∀ q l, ∃ t : ℝ, fW1 q l = t) :
    rM x0 x1 x2 x3 x4 x5 x6 x7 x8 x9 x10 r = Spec.mF h_a x_a h_f x_f bm fW1 fb1 fW2 fb2 fW3 i := by
  unfold rM Spec.mF
  exact Finset.sum_congr rfl fun k _ => by rw [rZ2_eq D hxa hxf hbm hW, D.hw3]

/-- The value stored at local row r and axis j is the per-node update of node i. -/
theorem row0_spec (hxa : ∀ i j, ∃ t : ℝ, x_a i j = t) (hxf : ∀ k j, ∃ t : ℝ, x_f k j = t) (hbm : ∀ i k, ∃ t : ℝ, bm i k = t)
    (hW : ∀ q l, ∃ t : ℝ, fW1 q l = t) (j : Fin 3) :
    k0_pay1 (k0_pay5 x0 x1 x3) (k0_pay6 x0 x1 x3 x2 x4 x5 x6) (k0_pay7 x7) x8 x9 x10 (ix2 r j)
      = Spec.transFrag h_a x_a h_f x_f bm fW1 fb1 fW2 fb2 fW3 i j := by
  rw [row0, rCdn_eq D, rM_eq D hxa hxf hbm hW]
  rfl

end RowIsSpec

/-! ## The output block is the stored value -/

section Out0

variable {F : FTy → Type} [FloatOps F]

/-- Offsets zero on both axes. -/
theorem zero_off2 : (![0, 0] : Fin 2 → Nat) = fun _ => 0 := funext fun a => by fin_cases a <;> rfl

/-- The body reads every input block whole and stores the output block whole once, so what it leaves in the output
    window's buffer is the stored value over the input blocks themselves. -/
theorem out0_eq (x0 : Vec F S1000x2000 .f32) (x1 : Vec F S2000x131 .bf16) (x2 : Vec F S1000x128 .f32) (x3 : Vec F S1000x3 .f32)
    (x4 x5 : Vec F S128x128 .bf16) (x6 x7 : Vec F S1x128 .f32) (x8 : Vec F S128x128 .bf16) (x9 : Vec F S1x128 .f32)
    (x10 : Vec F S128x1 .bf16) :
    out0 x0 x1 x2 x3 x4 x5 x6 x7 x8 x9 x10
      = k0_pay1 (k0_pay5 x0 x1 x3) (k0_pay6 x0 x1 x3 x2 x4 x5 x6) (k0_pay7 x7) x8 x9 x10 := by
  unfold out0
  rw [View.canon_unit_zero zero_off2]
  simp only [View.ld_unit_zero (S := S1000x2000) zero_off2, View.ld_unit_zero (S := S2000x131) zero_off2,
    View.ld_unit_zero (S := S1000x128) zero_off2, View.ld_unit_zero (S := S1000x3) zero_off2,
    View.ld_unit_zero (S := S128x128) zero_off2, View.ld_unit_zero (S := S1x128) zero_off2,
    View.ld_unit_zero (S := S128x1) zero_off2]

end Out0

/-! ## The region's output array is the per-node update of the arguments -/

section Glue

variable (m : (ℓ : Loc nD τ sig) → Buf (Elt Ideal) ℓ) (c : Dev nD)

/-- The point of node i's block and its local row there: the node's row is row i / 1000 * 1000 + i % 1000. -/
theorem row_of_node (i : Fin 50000) (j : Fin 3) (r : Fin 1000) (hr : r.val = i.val % 1000) :
    (⟨(pt0 (ix2 i j)).val * 1000 + r.val, row_lt0 (pt0 (ix2 i j)) r⟩ : Fin 50000) = i :=
  Fin.ext (by
    show i.val / 1000 * 1000 + r.val = i.val
    rw [hr]; exact Nat.div_add_mod' i.val 1000)

/-- At node i's point the eleven windows' blocks hold, at the node's local row, the node's rows of the arguments and
    the fragments' and the weights' arrays. -/
theorem rowData0 (i : Fin 50000) (j : Fin 3) (r : Fin 1000) (hr : r.val = i.val % 1000) :
    RowData (aHa m c) (aXa m c) (aHf m c) (aXf m c) (aBm m c) (aFW1 m c) (aFb1 m c) (aFW2 m c) (aFb2 m c) (aFW3 m c)
      (iblk0 (fun c b => V4 m c b) c 0 (pt0 (ix2 i j))) (iblk0 (fun c b => V4 m c b) c 1 (pt0 (ix2 i j)))
      (iblk0 (fun c b => V4 m c b) c 2 (pt0 (ix2 i j))) (iblk0 (fun c b => V4 m c b) c 3 (pt0 (ix2 i j)))
      (iblk0 (fun c b => V4 m c b) c 4 (pt0 (ix2 i j))) (iblk0 (fun c b => V4 m c b) c 5 (pt0 (ix2 i j)))
      (iblk0 (fun c b => V4 m c b) c 6 (pt0 (ix2 i j))) (iblk0 (fun c b => V4 m c b) c 7 (pt0 (ix2 i j)))
      (iblk0 (fun c b => V4 m c b) c 8 (pt0 (ix2 i j))) (iblk0 (fun c b => V4 m c b) c 9 (pt0 (ix2 i j)))
      (iblk0 (fun c b => V4 m c b) c 10 (pt0 (ix2 i j))) i r where
  hbm k := by
    rw [iblk0_0_apply, row_of_node i j r hr]
    exact V4_main_arg8_apply m c i k
  hxf k j' := by
    rw [iblk0_1_eq]
    exact V4_main_v7_coord m c k _ j' rfl
  hhf k j' := by
    rw [iblk0_1_eq]
    exact V4_main_v7_feat m c k _ j' rfl
  hha k := by
    rw [iblk0_2_apply, row_of_node i j r hr]
    exact V4_main_arg0_apply m c i k
  hxa j' := by
    rw [iblk0_3_apply, row_of_node i j r hr]
    exact V4_main_arg1_apply m c i j'
  hw1a k l := by
    rw [iblk0_4_eq]
    exact V4_main_v15_apply m c k l _ rfl
  hw1b k l := by
    rw [iblk0_5_eq]
    exact V4_main_v16_apply m c k l _ rfl
  hw1r l := by
    rw [iblk0_6_eq]
    exact V4_main_v12_apply m c 0 l
  hb1 l := by
    rw [iblk0_7_eq]
    exact V4_main_v13_apply m c 0 l
  hw2 l k := by
    rw [iblk0_8_eq]
    exact V4_main_v17_apply m c l k
  hb2 k := by
    rw [iblk0_9_eq]
    exact V4_main_v14_apply m c 0 k
  hw3 k := by
    rw [iblk0_10_eq]
    exact V4_main_v18_apply m c k 0

/-- The first region's output array at node i and axis j is the per-node update of the argument arrays, when the
    node coordinates, the fragment coordinates, the assignment matrix and the first layer's weights are real. -/
theorem val0
    (h1 : ∀ i, ∃ t : ℝ, (m ((c : Thread nD τ).loc main_arg1) : S50000x3.Idx → EReal) i = (t : EReal))
    (h7 : ∀ i, ∃ t : ℝ, (m ((c : Thread nD τ).loc main_arg7) : S2000x3.Idx → EReal) i = (t : EReal))
    (h8 : ∀ i, ∃ t : ℝ, (m ((c : Thread nD τ).loc main_arg8) : S50000x2000.Idx → EReal) i = (t : EReal))
    (h15 : ∀ i, ∃ t : ℝ, (m ((c : Thread nD τ).loc main_arg15) : S258x128.Idx → EReal) i = (t : EReal))
    (i : Fin 50000) (j : Fin 3) :
    G0 (fun c b => V4 m c b) c (ix2 i j)
      = Spec.transFrag (fun i k => (m ((c : Thread nD τ).loc main_arg0) : S50000x128.Idx → EReal) (ix2 i k))
          (fun i k => (m ((c : Thread nD τ).loc main_arg1) : S50000x3.Idx → EReal) (ix2 i k))
          (fun i k => (m ((c : Thread nD τ).loc main_arg6) : S2000x128.Idx → EReal) (ix2 i k))
          (fun i k => (m ((c : Thread nD τ).loc main_arg7) : S2000x3.Idx → EReal) (ix2 i k))
          (fun i k => (m ((c : Thread nD τ).loc main_arg8) : S50000x2000.Idx → EReal) (ix2 i k))
          (fun i k => (m ((c : Thread nD τ).loc main_arg15) : S258x128.Idx → EReal) (ix2 i k))
          (fun k => (m ((c : Thread nD τ).loc main_arg16) : S128.Idx → EReal) (ix1 k))
          (fun i k => (m ((c : Thread nD τ).loc main_arg17) : S128x128.Idx → EReal) (ix2 i k))
          (fun k => (m ((c : Thread nD τ).loc main_arg18) : S128.Idx → EReal) (ix1 k))
          (fun i k => (m ((c : Thread nD τ).loc main_arg19) : S128x1.Idx → EReal) (ix2 i k)) i j := by
  rw [G0_apply, out0_eq]
  exact row0_spec (rowData0 m c i j ⟨i.val % 1000, Nat.mod_lt _ (by decide)⟩ rfl)
    (fun i j => h1 (ix2 i j)) (fun k j => h7 (ix2 k j)) (fun i k => h8 (ix2 i k)) (fun q l => h15 (ix2 q l)) j

end Glue

end Cert.KernelIdeal.Hand
-- ==== Proof.KI.Final1.lean ====
/-
  Region 1 of @main: the output array after the run, and the windows' blocks as rows of the arrays.
  Point `t` of the grid takes rows 4096·t ‥ 4096·t + 4095 of the three row-blocked inputs and of the output (the last
  point, t = 122, only rows 499712 ‥ 499999: 288 rows), and the whole of each resident input. What the write-back at
  `t` moves is the rows inside the array of `out1` of the staged blocks (`blockOut1`); the blocks tile the output
  array's rows, so after the last point the array holds, at row R, row R mod 4096 of `blockOut1` at point R / 4096
  (`G1`, `final1`). The staged blocks themselves are the arrays' rows (`in1_W_apply`) and the resident arrays
  (`iblk1_W_eq`).
-/
import proofs.«426145_j45973329936455_2_alg».proof.Proof.KI.Body1
import Idealize.ShloMosaic.Lib.ValueIdx
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

-- the unscoped buffers' contents when the region is entered
variable (V : (c : Dev nD) → (b : Ref sig .tc) → Buf (Elt F) ((c : Thread nD τ).loc b))

/-! ## The windows' schedule, decided over the grid -/

/-- The row-blocked windows (0, 1, 2 and the output's, 11) take block `t` of rows at point `t` and all the columns;
    their transfers move 4096 rows before the last point and 288 at it, and every column. -/
theorem sched1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_11.index t (0 : Fin 2) = t.val ∧ win1_11.index t (1 : Fin 2) = 0
    ∧ win1_11.xsize (grid1.coords t) (0 : Fin 2) = (if t.val < 122 then 4096 else 288)
    ∧ win1_11.xsize (grid1.coords t) (1 : Fin 2) = 3 :=
  (by decide +kernel : ∀ t : Fin grid1.N, _)

/-- The resident windows' one block is the block at the origin, at every point. -/
theorem sched1r : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-! ## The output array -/

/-- The output's staging buffer after the body at point `t`, as the proof data has it. -/
def blockOut1 (c : Dev nD) (t : Fin cfg1.N) : Vec F S4096x3 .f32 :=
  out1 (in1_0 V c t) (in1_1 V c t) (in1_2 V c t) (iblk1 V c 3 t) (iblk1 V c 4 t) (iblk1 V c 5 t)
    (iblk1 V c 6 t) (iblk1 V c 7 t) (iblk1 V c 8 t) (iblk1 V c 9 t) (iblk1 V c 10 t)

theorem after1_11' (c : Dev nD) (t : Fin cfg1.N) : (dat1 V c).after 11 t = blockOut1 V c t := after1_11 V c t

/-- The point whose block holds row `i 0` of the output array. -/
def ptOf (i : S500000x3.Idx) : Fin cfg1.N :=
  ⟨(i 0).val / 4096, by
    have h : (i 0).val < 500000 := (i 0).isLt
    have hN : cfg1.N = 123 := N_1
    rw [hN]; omega⟩

/-- What the output array holds after the run: at row `R`, row `R mod 4096` of the output's buffer at point
    `R / 4096`. -/
def G1 (c : Dev nD) : S500000x3.Idx → Elt F .f32 := fun i =>
  blockOut1 V c (ptOf i) (ix2 (⟨(i 0).val % 4096, Nat.mod_lt _ (by decide)⟩ : Fin 4096) (⟨(i 1).val, (i 1).isLt⟩ : Fin 3))

theorem G1_apply (c : Dev nD) (i : S500000x3.Idx) : G1 V c i
    = blockOut1 V c (ptOf i) (ix2 (⟨(i 0).val % 4096, Nat.mod_lt _ (by decide)⟩ : Fin 4096) (⟨(i 1).val, (i 1).isLt⟩ : Fin 3)) := by
  unfold G1; rfl

-- the buffer's contents are compared by name below, never computed
attribute [local irreducible] blockOut1 G1 in
/-- WHAT POINT `t` WRITES BACK is block `t` of `G1`: its rows inside the array. -/
theorem flushed1_eq (c : Dev nD) (t : Fin cfg1.N) :
    (dat1 V c).flushed 11 t = ((cfg1.win 11).blk t).view.read (Elt F) (G1 V c) := by
  show (cfg1.win 11).cut (grid1.coords t) ((dat1 V c).after 11 t) = _
  rw [after1_11']
  obtain ⟨-, -, -, -, -, -, e0, e1, ex0, ex1⟩ := sched1 t
  funext j
  have hj0 : (j 0).val < win1_11.xsize (grid1.coords t) (0 : Fin 2) := (j 0).isLt
  have hj1 : (j 1).val < win1_11.xsize (grid1.coords t) (1 : Fin 2) := (j 1).isLt
  have ht : t.val < 123 := by have hN : cfg1.N = 123 := N_1; have := t.isLt; omega
  have hr : (j 0).val < 4096 := by rw [ex0] at hj0; split at hj0 <;> omega
  have hp : ptOf (((cfg1.win 11).blk t).view.emb j) = t := Fin.ext (by
    show (win1_11.index t (0 : Fin 2) * 4096 + 1 * (j 0).val) / 4096 = t.val
    rw [e0]; omega)
  show blockOut1 V c t (win1_11.xinj (grid1.coords t) j) = G1 V c (((cfg1.win 11).blk t).view.emb j)
  rw [G1_apply, hp]
  congr 1
  funext a; apply Fin.ext
  match a with
  | ⟨0, _⟩ =>
    show (j 0).val = (win1_11.index t (0 : Fin 2) * 4096 + 1 * (j 0).val) % 4096
    rw [e0]; omega
  | ⟨1, _⟩ =>
    show (j 1).val = win1_11.index t (1 : Fin 2) * 3 + 1 * (j 1).val
    rw [e1]; omega

/-- An index of the output array is in point `t`'s block iff each coordinate is in the range the transfer moves. -/
theorem mem_blk1 (t : Fin cfg1.N) (i : S500000x3.Idx) :
    i ∈ ((cfg1.win 11).blk t).view.set ↔ ∀ a : Fin 2, win1_11.index t a * S4096x3.size a ≤ (i a).val
      ∧ (i a).val < win1_11.index t a * S4096x3.size a + win1_11.xsize (grid1.coords t) a := by
  show i ∈ ((View.whole main_v36).slice (win1_11.rect t)).set ↔ _
  rw [View.set_slice_whole, Rect.mem_set_unit]
  exact Iff.rfl

/-- The blocks tile the array's rows: row `R` is in the block of point `R / 4096`. -/
theorem cover1_arr (i : S500000x3.Idx) :
    ∃ t : Fin cfg1.N, (cfg1.win 11).flush t = true ∧ i ∈ ((cfg1.win 11).blk t).view.set := by
  refine ⟨ptOf i, flush1_11 _, ?_⟩
  rw [mem_blk1]
  obtain ⟨-, -, -, -, -, -, e0, e1, ex0, ex1⟩ := sched1 (ptOf i)
  have h0 : (i 0).val < 500000 := (i 0).isLt
  have h1 : (i 1).val < 3 := (i 1).isLt
  have hp : (ptOf i).val = (i 0).val / 4096 := rfl
  intro a
  match a with
  | ⟨0, _⟩ =>
    show win1_11.index (ptOf i) (0 : Fin 2) * 4096 ≤ (i 0).val
      ∧ (i 0).val < win1_11.index (ptOf i) (0 : Fin 2) * 4096 + win1_11.xsize (grid1.coords (ptOf i)) (0 : Fin 2)
    rw [e0, ex0, hp]; split <;> omega
  | ⟨1, _⟩ =>
    show win1_11.index (ptOf i) (1 : Fin 2) * 3 ≤ (i 1).val
      ∧ (i 1).val < win1_11.index (ptOf i) (1 : Fin 2) * 3 + win1_11.xsize (grid1.coords (ptOf i)) (1 : Fin 2)
    rw [e1, ex1]; omega

/-- THE OUTPUT ARRAY after the run. -/
theorem final1 (c : Dev nD) : (dat1 V c).arrAt 11 cfg1.N = G1 V c :=
  (dat1 V c).arrAt_eq_of_cover 11 (G1 V c) (fun t _ => flushed1_eq V c t) cover1_arr

/-! ## The staged blocks as rows of the arrays -/

/-- The output's buffer after the body is the printed function's last payload over the others, at what the body
    finds in the input buffers (the one whole store, the eleven whole loads). -/
theorem out1_eq_pay (x0 x1 : Vec F S4096x128 .f32) (x2 : Vec F S4096x6 .f32) (x3 x4 : Vec F S128x128 .bf16) (x5 : Vec F S2x128 .f32)
    (x6 : Vec F S128x128 .bf16) (x7 : Vec F S1x128 .f32) (x8 : Vec F S128x128 .bf16) (x9 : Vec F S1x128 .f32)
    (x10 : Vec F S128x1 .bf16) :
    out1 x0 x1 x2 x3 x4 x5 x6 x7 x8 x9 x10
      = k1_pay1 (k1_pay3 x2) (k1_pay4 x0 x1 x2 x3 x4 x5 x6) x7 x8 x9 x10 := by
  have hz : (![0, 0] : Fin 2 → ℕ) = fun _ => 0 := funext fun a => by fin_cases a <;> rfl
  unfold out1
  rw [View.canon_unit_zero hz]
  repeat rw [View.ld_unit_zero hz]

/-- Row `r` of cut input window 0's staged block at point `t`, when it is inside the array, is row `4096·t + r` of the
    array as the region finds it. -/
theorem in1_0_apply (c : Dev nD) (t : Fin cfg1.N) (r : Fin 4096) (k : Fin 128) (h : t.val * 4096 + r.val < 500000) :
    in1_0 V c t (ix2 r k) = V c (Pipeline.arrRef spec1 0) (ix2 (⟨t.val * 4096 + r.val, h⟩ : Fin 500000) k) := by
  obtain ⟨e0, e1, -, -, -, -, -, -, ex0, -⟩ := sched1 t
  have ht : t.val < 123 := by have hN : cfg1.N = 123 := N_1; have := t.isLt; omega
  have hm : win1_0.moved (grid1.coords t) (ix2 r k) = true := (win1_0.moved_iff _ _).mpr fun a => by
    match a with
    | ⟨0, _⟩ => show r.val < win1_11.xsize (grid1.coords t) (0 : Fin 2); rw [ex0]; split <;> omega
    | ⟨1, _⟩ => exact k.isLt
  unfold in1_0
  show (if hm' : win1_0.moved (grid1.coords t) (ix2 r k) = true then iblk1 V c 0 t _ else _) = _
  rw [dif_pos hm]
  show V c (Pipeline.arrRef spec1 0) (((cfg1.win 0).blk t).view.emb _) = _
  congr 1
  funext a; apply Fin.ext
  match a with
  | ⟨0, _⟩ => show win1_0.index t (0 : Fin 2) * 4096 + 1 * r.val = t.val * 4096 + r.val; rw [e0]; omega
  | ⟨1, _⟩ => show win1_0.index t (1 : Fin 2) * 128 + 1 * k.val = k.val; rw [e1]; omega

/-- Row `r` of cut input window 1's staged block at point `t`, when it is inside the array, is row `4096·t + r` of the
    array as the region finds it. -/
theorem in1_1_apply (c : Dev nD) (t : Fin cfg1.N) (r : Fin 4096) (k : Fin 128) (h : t.val * 4096 + r.val < 500000) :
    in1_1 V c t (ix2 r k) = V c (Pipeline.arrRef spec1 1) (ix2 (⟨t.val * 4096 + r.val, h⟩ : Fin 500000) k) := by
  obtain ⟨-, -, e0, e1, -, -, -, -, ex0, -⟩ := sched1 t
  have ht : t.val < 123 := by have hN : cfg1.N = 123 := N_1; have := t.isLt; omega
  have hm : win1_1.moved (grid1.coords t) (ix2 r k) = true := (win1_1.moved_iff _ _).mpr fun a => by
    match a with
    | ⟨0, _⟩ => show r.val < win1_11.xsize (grid1.coords t) (0 : Fin 2); rw [ex0]; split <;> omega
    | ⟨1, _⟩ => exact k.isLt
  unfold in1_1
  show (if hm' : win1_1.moved (grid1.coords t) (ix2 r k) = true then iblk1 V c 1 t _ else _) = _
  rw [dif_pos hm]
  show V c (Pipeline.arrRef spec1 1) (((cfg1.win 1).blk t).view.emb _) = _
  congr 1
  funext a; apply Fin.ext
  match a with
  | ⟨0, _⟩ => show win1_1.index t (0 : Fin 2) * 4096 + 1 * r.val = t.val * 4096 + r.val; rw [e0]; omega
  | ⟨1, _⟩ => show win1_1.index t (1 : Fin 2) * 128 + 1 * k.val = k.val; rw [e1]; omega

/-- Row `r` of cut input window 2's staged block at point `t`, when it is inside the array, is row `4096·t + r` of the
    array as the region finds it. -/
theorem in1_2_apply (c : Dev nD) (t : Fin cfg1.N) (r : Fin 4096) (k : Fin 6) (h : t.val * 4096 + r.val < 500000) :
    in1_2 V c t (ix2 r k) = V c (Pipeline.arrRef spec1 2) (ix2 (⟨t.val * 4096 + r.val, h⟩ : Fin 500000) k) := by
  obtain ⟨-, -, -, -, e0, e1, -, -, ex0, -⟩ := sched1 t
  have ht : t.val < 123 := by have hN : cfg1.N = 123 := N_1; have := t.isLt; omega
  have hm : win1_2.moved (grid1.coords t) (ix2 r k) = true := (win1_2.moved_iff _ _).mpr fun a => by
    match a with
    | ⟨0, _⟩ => show r.val < win1_11.xsize (grid1.coords t) (0 : Fin 2); rw [ex0]; split <;> omega
    | ⟨1, _⟩ => exact k.isLt
  unfold in1_2
  show (if hm' : win1_2.moved (grid1.coords t) (ix2 r k) = true then iblk1 V c 2 t _ else _) = _
  rw [dif_pos hm]
  show V c (Pipeline.arrRef spec1 2) (((cfg1.win 2).blk t).view.emb _) = _
  congr 1
  funext a; apply Fin.ext
  match a with
  | ⟨0, _⟩ => show win1_2.index t (0 : Fin 2) * 4096 + 1 * r.val = t.val * 4096 + r.val; rw [e0]; omega
  | ⟨1, _⟩ => show win1_2.index t (1 : Fin 2) * 6 + 1 * k.val = k.val; rw [e1]; omega

/-- Resident window 3's block is the whole array, at every point. -/
theorem iblk1_3_eq (c : Dev nD) (t : Fin cfg1.N) : iblk1 V c 3 t = V c (Pipeline.arrRef spec1 3) := by
  obtain ⟨e0, e1, -, -, -, -, -, -, -, -, -, -, -, -, -, -⟩ := sched1r t
  funext j
  show V c (Pipeline.arrRef spec1 3) (((cfg1.win 3).blk t).view.emb j) = V c (Pipeline.arrRef spec1 3) j
  congr 1
  funext a; apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- Resident window 4's block is the whole array, at every point. -/
theorem iblk1_4_eq (c : Dev nD) (t : Fin cfg1.N) : iblk1 V c 4 t = V c (Pipeline.arrRef spec1 4) := by
  obtain ⟨-, -, e0, e1, -, -, -, -, -, -, -, -, -, -, -, -⟩ := sched1r t
  funext j
  show V c (Pipeline.arrRef spec1 4) (((cfg1.win 4).blk t).view.emb j) = V c (Pipeline.arrRef spec1 4) j
  congr 1
  funext a; apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- Resident window 5's block is the whole array, at every point. -/
theorem iblk1_5_eq (c : Dev nD) (t : Fin cfg1.N) : iblk1 V c 5 t = V c (Pipeline.arrRef spec1 5) := by
  obtain ⟨-, -, -, -, e0, e1, -, -, -, -, -, -, -, -, -, -⟩ := sched1r t
  funext j
  show V c (Pipeline.arrRef spec1 5) (((cfg1.win 5).blk t).view.emb j) = V c (Pipeline.arrRef spec1 5) j
  congr 1
  funext a; apply Fin.ext
  match a with
  | ⟨0, _⟩ => show win1_5.index t (0 : Fin 2) * 2 + 1 * (j 0).val = (j 0).val; rw [e0]; omega
  | ⟨1, _⟩ => show win1_5.index t (1 : Fin 2) * 128 + 1 * (j 1).val = (j 1).val; rw [e1]; omega

/-- Resident window 6's block is the whole array, at every point. -/
theorem iblk1_6_eq (c : Dev nD) (t : Fin cfg1.N) : iblk1 V c 6 t = V c (Pipeline.arrRef spec1 6) := by
  obtain ⟨-, -, -, -, -, -, e0, e1, -, -, -, -, -, -, -, -⟩ := sched1r t
  funext j
  show V c (Pipeline.arrRef spec1 6) (((cfg1.win 6).blk t).view.emb j) = V c (Pipeline.arrRef spec1 6) j
  congr 1
  funext a; apply Fin.ext
  match a with
  | ⟨0, _⟩ => show win1_6.index t (0 : Fin 2) * 128 + 1 * (j 0).val = (j 0).val; rw [e0]; omega
  | ⟨1, _⟩ => show win1_6.index t (1 : Fin 2) * 128 + 1 * (j 1).val = (j 1).val; rw [e1]; omega

/-- Resident window 7's block is the whole array, at every point. -/
theorem iblk1_7_eq (c : Dev nD) (t : Fin cfg1.N) : iblk1 V c 7 t = V c (Pipeline.arrRef spec1 7) := by
  obtain ⟨-, -, -, -, -, -, -, -, e0, e1, -, -, -, -, -, -⟩ := sched1r t
  funext j
  show V c (Pipeline.arrRef spec1 7) (((cfg1.win 7).blk t).view.emb j) = V c (Pipeline.arrRef spec1 7) j
  congr 1
  funext a; apply Fin.ext
  match a with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega

/-- Resident window 8's block is the whole array, at every point. -/
theorem iblk1_8_eq (c : Dev nD) (t : Fin cfg1.N) : iblk1 V c 8 t = V c (Pipeline.arrRef spec1 8) := by
  obtain ⟨-, -, -, -, -, -, -, -, -, -, e0, e1, -, -, -, -⟩ := sched1r t
  funext j
  show V c (Pipeline.arrRef spec1 8) (((cfg1.win 8).blk t).view.emb j) = V c (Pipeline.arrRef spec1 8) j
  congr 1
  funext a; apply Fin.ext
  match a with
  | ⟨0, _⟩ => show win1_8.index t (0 : Fin 2) * 128 + 1 * (j 0).val = (j 0).val; rw [e0]; omega
  | ⟨1, _⟩ => show win1_8.index t (1 : Fin 2) * 128 + 1 * (j 1).val = (j 1).val; rw [e1]; omega

/-- Resident window 9's block is the whole array, at every point. -/
theorem iblk1_9_eq (c : Dev nD) (t : Fin cfg1.N) : iblk1 V c 9 t = V c (Pipeline.arrRef spec1 9) := by
  obtain ⟨-, -, -, -, -, -, -, -, -, -, -, -, e0, e1, -, -⟩ := sched1r t
  funext j
  show V c (Pipeline.arrRef spec1 9) (((cfg1.win 9).blk t).view.emb j) = V c (Pipeline.arrRef spec1 9) j
  congr 1
  funext a; apply Fin.ext
  match a with
  | ⟨0, _⟩ => show win1_9.index t (0 : Fin 2) * 1 + 1 * (j 0).val = (j 0).val; rw [e0]; omega
  | ⟨1, _⟩ => show win1_9.index t (1 : Fin 2) * 128 + 1 * (j 1).val = (j 1).val; rw [e1]; omega

/-- Resident window 10's block is the whole array, at every point. -/
theorem iblk1_10_eq (c : Dev nD) (t : Fin cfg1.N) : iblk1 V c 10 t = V c (Pipeline.arrRef spec1 10) := by
  obtain ⟨-, -, -, -, -, -, -, -, -, -, -, -, -, -, e0, e1⟩ := sched1r t
  funext j
  show V c (Pipeline.arrRef spec1 10) (((cfg1.win 10).blk t).view.emb j) = V c (Pipeline.arrRef spec1 10) j
  congr 1
  funext a; apply Fin.ext
  match a with
  | ⟨0, _⟩ => show win1_10.index t (0 : Fin 2) * 128 + 1 * (j 0).val = (j 0).val; rw [e0]; omega
  | ⟨1, _⟩ => show win1_10.index t (1 : Fin 2) * 1 + 1 * (j 1).val = (j 1).val; rw [e1]; omega

end Cert.KernelIdeal.Hand

end
-- ==== Proof.KI.Pay1.lean ====
import proofs.«426145_j45973329936455_2_alg».proof.Proof.Gen.KernelIdeal.Skeleton
import proofs.«426145_j45973329936455_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

/-! The per-edge body's arithmetic, one block row at a time. A block holds 4096 edges. Row r of the result is the
    edge's coordinate difference (columns 2 to 4 of the packed edge array) times the tanh of a three-layer perceptron's
    output times ten. The perceptron's first layer is spelt by its parts: the source features against their weights,
    the target features against theirs, each of the two edge attributes against its weight row, and the row of a
    128-row table picked by the edge's bond type — spelt as the product of a one-hot row (1 in the column whose
    number is the type, 0 elsewhere) with the table — plus the bias. The gate between layers is x times the
    logistic of x. Every matrix product accumulates from zero, so at an index it is a plain finite sum. -/

noncomputable section

namespace Cert.KernelIdeal.Hand

open Cert.KernelIdeal Cert.KernelIdeal.Gen
open Idealize.ShloMosaic Idealize.ShloMosaic.ValueIdx Idealize.ShloMosaic.StableHlo.Predicate Cert.Hand

/-! ## The whole body as one function of the eleven blocks -/

section Generic

variable {F : FTy → Type} [FloatOps F]

/-- The block the body stores, from the eleven blocks it loads. -/
def P1 (x0 x1 : Vec F S4096x128 .f32) (x2 : Vec F S4096x6 .f32) (x3 x4 : Vec F S128x128 .bf16) (x5 : Vec F S2x128 .f32)
    (x6 : Vec F S128x128 .bf16) (x7 : Vec F S1x128 .f32) (x8 : Vec F S128x128 .bf16) (x9 : Vec F S1x128 .f32)
    (x10 : Vec F S128x1 .bf16) : Vec F S4096x3 .f32 :=
  k1_pay1 (k1_pay3 x2) (k1_pay4 x0 x1 x2 x3 x4 x5 x6) x7 x8 x9 x10

end Generic

/-! ## The two matrix products' index maps -/

theorem lhs_ehid_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem lhs_ehid_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_ehid_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_ehid_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The product into a zero accumulator, read at row r, column l: the row of the left factor against the column of the right. -/
theorem matmul_ehid_apply {φ₁ φ₂ : FTy} (L : FVec Ideal S4096x128 φ₁) (R : FVec Ideal S128x128 φ₂) (r : Fin 4096) (l : Fin 128) :
    matmul dot_S4096x128_S128x128_S4096x128_1_0_0_1_n_n none L R (constant S4096x128 .f32 0x00000000#32) (ix2 r l)
      = ∑ k : Fin 128, L (ix2 r k) * R (ix2 k l) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r l) ((contrEquiv1 dot_S4096x128_S128x128_S4096x128_1_0_0_1_n_n 128 rfl rfl).symm k) = ix2 r k :=
    funext fun a => Fin.ext (by
      match a with
      | ⟨0, _⟩ => exact lhs_ehid_0 _ _
      | ⟨1, _⟩ => exact (lhs_ehid_1 _ _).trans hk)
  have er : dot_S4096x128_S128x128_S4096x128_1_0_0_1_n_n.rhsIdx (ix2 r l) ((contrEquiv1 dot_S4096x128_S128x128_S4096x128_1_0_0_1_n_n 128 rfl rfl).symm k) = ix2 k l :=
    funext fun a => Fin.ext (by
      match a with
      | ⟨0, _⟩ => exact (rhs_ehid_0 _ _).trans hk
      | ⟨1, _⟩ => exact rhs_ehid_1 _ _)
  rw [el, er]

theorem lhs_eout_0 (i : S4096x1.Idx) (q : dot_S4096x128_S128x1_S4096x1_1_0_0_1_n_n.contr.Idx) :
    (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide),
    dif_pos (show (0 : Fin S4096x128.rank) ∈ dot_S4096x128_S128x1_S4096x1_1_0_0_1_n_n.lhsNonContracting by decide)]
  rfl
theorem lhs_eout_1 (i : S4096x1.Idx) (q : dot_S4096x128_S128x1_S4096x1_1_0_0_1_n_n.contr.Idx) :
    (dot_S4096x128_S128x1_S4096x1_1_0_0_1_n_n.lhsIdx i q 1).val = (q ⟨0, by decide⟩).val :=
  dot_S4096x128_S128x1_S4096x1_1_0_0_1_n_n.lhsIdx_val_of_single rfl i q
theorem rhs_eout_0 (i : S4096x1.Idx) (q : dot_S4096x128_S128x1_S4096x1_1_0_0_1_n_n.contr.Idx) :
    (dot_S4096x128_S128x1_S4096x1_1_0_0_1_n_n.rhsIdx i q 0).val = (q ⟨0, by decide⟩).val :=
  dot_S4096x128_S128x1_S4096x1_1_0_0_1_n_n.rhsIdx_val_of_single rfl i q
theorem rhs_eout_1 (i : S4096x1.Idx) (q : dot_S4096x128_S128x1_S4096x1_1_0_0_1_n_n.contr.Idx) :
    (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide),
    dif_pos (show (1 : Fin S128x1.rank) ∈ dot_S4096x128_S128x1_S4096x1_1_0_0_1_n_n.rhsNonContracting by decide)]
  rfl

/-- The product into a zero accumulator, read at row r, column u: the row of the left factor against the column of the right. -/
theorem matmul_eout_apply {φ₁ φ₂ : FTy} (L : FVec Ideal S4096x128 φ₁) (R : FVec Ideal S128x1 φ₂) (r : Fin 4096) (u : Fin 1) :
    matmul dot_S4096x128_S128x1_S4096x1_1_0_0_1_n_n none L R (constant S4096x1 .f32 0x00000000#32) (ix2 r u)
      = ∑ k : Fin 128, L (ix2 r k) * R (ix2 k u) := by
  simp only [matmul]
  rw [Ideal.matmul_constant_zero_apply, ← Equiv.sum_comp (contrEquiv1 dot_S4096x128_S128x1_S4096x1_1_0_0_1_n_n 128 rfl rfl).symm]
  refine Finset.sum_congr rfl fun k _ => ?_
  have hk := contrEquiv1_symm_val dot_S4096x128_S128x1_S4096x1_1_0_0_1_n_n 128 rfl rfl k
  have el : dot_S4096x128_S128x1_S4096x1_1_0_0_1_n_n.lhsIdx (ix2 r u) ((contrEquiv1 dot_S4096x128_S128x1_S4096x1_1_0_0_1_n_n 128 rfl rfl).symm k) = ix2 r k :=
    funext fun a => Fin.ext (by
      match a with
      | ⟨0, _⟩ => exact lhs_eout_0 _ _
      | ⟨1, _⟩ => exact (lhs_eout_1 _ _).trans hk)
  have er : dot_S4096x128_S128x1_S4096x1_1_0_0_1_n_n.rhsIdx (ix2 r u) ((contrEquiv1 dot_S4096x128_S128x1_S4096x1_1_0_0_1_n_n 128 rfl rfl).symm k) = ix2 k u :=
    funext fun a => Fin.ext (by
      match a with
      | ⟨0, _⟩ => exact (rhs_eout_0 _ _).trans hk
      | ⟨1, _⟩ => exact rhs_eout_1 _ _)
  rw [el, er]

/-! ## Layout operations of the body, read at an index -/

section Layout

variable {α : Type}

/-- A 1 × 128 row spread down 4096 rows. -/
theorem bcast_row_apply (v : S1x128.Idx → α) (h : S1x128.Broadcasts S4096x128) (r : Fin 4096) (l : Fin 128) :
    broadcastTo S4096x128 v h (ix2 r l) = v (ix2 (0 : Fin 1) l) :=
  broadcastTo_apply v h (ix2 r l) (ix2 (0 : Fin 1) l) (fun a => match a with
    | ⟨0, _⟩ => by show (0 : Nat) = if (1 : Nat) = 1 then 0 else _; rw [if_pos rfl]
    | ⟨1, _⟩ => by show l.val = if (128 : Nat) = 1 then 0 else _; rw [if_neg (by decide)]; rfl)

/-- A 4096 × 1 column spread across 128 columns. -/
theorem bcast_col_apply (v : S4096x1.Idx → α) (h : S4096x1.Broadcasts S4096x128) (r : Fin 4096) (l : Fin 128) :
    broadcastTo S4096x128 v h (ix2 r l) = v (ix2 r (0 : Fin 1)) :=
  broadcastTo_apply v h (ix2 r l) (ix2 r (0 : Fin 1)) (fun a => match a with
    | ⟨0, _⟩ => by show r.val = if (4096 : Nat) = 1 then 0 else _; rw [if_neg (by decide)]; rfl
    | ⟨1, _⟩ => by show (0 : Nat) = if (1 : Nat) = 1 then 0 else _; rw [if_pos rfl])

/-- A 4096 × 1 column spread across 3 columns. -/
theorem bcast_col3_apply (v : S4096x1.Idx → α) (h : S4096x1.Broadcasts S4096x3) (r : Fin 4096) (j : Fin 3) :
    broadcastTo S4096x3 v h (ix2 r j) = v (ix2 r (0 : Fin 1)) :=
  broadcastTo_apply v h (ix2 r j) (ix2 r (0 : Fin 1)) (fun a => match a with
    | ⟨0, _⟩ => by show r.val = if (4096 : Nat) = 1 then 0 else _; rw [if_neg (by decide)]; rfl
    | ⟨1, _⟩ => by show (0 : Nat) = if (1 : Nat) = 1 then 0 else _; rw [if_pos rfl])

/-- One column of the packed 4096 × 6 edge array. -/
theorem slice_col_apply (c : Nat) (hc : c < 6) (x : S4096x6.Idx → α) (h : S4096x6.Slices ![0, c] S4096x1) (r : Fin 4096)
    (u : Fin 1) : extractStridedSlice S4096x1 ![0, c] x h (ix2 r u) = x (ix2 r ⟨c, hc⟩) :=
  extractStridedSlice_apply ![0, c] x h (ix2 r u) (ix2 r ⟨c, hc⟩) (fun a => match a with
    | ⟨0, _⟩ => by show r.val = 0 + r.val; omega
    | ⟨1, _⟩ => by show c = c + u.val; have := u.isLt; omega)

/-- Columns 2, 3, 4 of the packed edge array. -/
theorem slice_cd_apply (x : S4096x6.Idx → α) (h : S4096x6.Slices ![0, 2] S4096x3) (r : Fin 4096) (j : Fin 3) :
    extractStridedSlice S4096x3 ![0, 2] x h (ix2 r j) = x (ix2 r ⟨2 + j.val, by have := j.isLt; omega⟩) :=
  extractStridedSlice_apply ![0, 2] x h (ix2 r j) (ix2 r ⟨2 + j.val, by have := j.isLt; omega⟩) (fun a => match a with
    | ⟨0, _⟩ => by show r.val = 0 + r.val; omega
    | ⟨1, _⟩ => rfl)

/-- One row of the 2 × 128 attribute weights. -/
theorem slice_row_apply (c : Nat) (hc : c < 2) (x : S2x128.Idx → α) (h : S2x128.Slices ![c, 0] S1x128) (u : Fin 1)
    (l : Fin 128) : extractStridedSlice S1x128 ![c, 0] x h (ix2 u l) = x (ix2 ⟨c, hc⟩ l) :=
  extractStridedSlice_apply ![c, 0] x h (ix2 u l) (ix2 ⟨c, hc⟩ l) (fun a => match a with
    | ⟨0, _⟩ => by show c = c + u.val; have := u.isLt; omega
    | ⟨1, _⟩ => by show l.val = 0 + l.val; omega)

end Layout

/-- The column counter: at row r, column t it is the word t. -/
theorem iota_cols_apply (h : S4096x128.Iotas .tc 32 [1]) (r : Fin 4096) (t : Fin 128) :
    iota .tc S4096x128 32 [1] h (ix2 r t) = BitVec.ofNat 32 t.val := by
  unfold iota
  simp only [List.foldl]
  congr 1
  show 0 * 128 + t.val = t.val
  omega

theorem tanh_at {s : Shape} {φ : FTy} (a : FVec Ideal s φ) (i : s.Idx) : tanh a i = Ideal.tanh (a i) := rfl
theorem logistic_at {s : Shape} {φ : FTy} (a : FVec Ideal s φ) (i : s.Idx) : logistic a i = Ideal.logistic (a i) := rfl
theorem fptosi_at {s : Shape} {φ : FTy} (a : FVec Ideal s φ) (i : s.Idx) : fptosi 32 a i = Ideal.fptosi 32 (a i) := rfl
theorem cmpi_at {s : Shape} {w : Nat} (p : CmpIPredicate) (a b : IVec s w) (i : s.Idx) :
    cmpi p a b i = IntOp.cmpi p (a i) (b i) := rfl
theorem sitofp_at {s : Shape} {w : Nat} (a : IVec s w) (i : s.Idx) :
    (sitofp .f32 a : FVec Ideal s .f32) i = (((a i).toInt : ℝ) : EReal) := rfl

/-- The gate: x times the logistic of x is the smooth gate. -/
theorem gate_eq (x : EReal) : x * Ideal.logistic x = Cert.Hand.Spec.silu x := rfl

/-! ## The one-hot row of an edge's bond type -/

/-- A comparison bit widened to a word and read as a signed number: one when the words agree, zero otherwise. -/
theorem hot_val (a b : BitVec 32) :
    ((((IntOp.cmpi .eq a b).setWidth 32).toInt : ℝ) : EReal) = if a = b then 1 else 0 := by
  by_cases h : a = b
  · rw [if_pos h, cmpi_eq_iff.mpr h]
    have : ((1#1 : BitVec 1).setWidth 32).toInt = 1 := by decide
    rw [this]
    simp
  · rw [if_neg h, eq_zero_of_ne_one (mt cmpi_eq_iff.mp h)]
    have : ((0#1 : BitVec 1).setWidth 32).toInt = 0 := by decide
    rw [this]
    simp

/-- A word read as a signed number and truncated back to a word is the word. -/
theorem fptosi_sitofp (v : BitVec 32) : Ideal.fptosi 32 (((v.toInt : ℝ) : EReal)) = v := by
  unfold Ideal.fptosi
  show BitVec.ofInt 32 (max _ (min _ (if (0 : ℝ) ≤ (v.toInt : ℝ) then ⌊(v.toInt : ℝ)⌋ else ⌈(v.toInt : ℝ)⌉))) = v
  rw [Int.floor_intCast, Int.ceil_intCast, ite_self]
  have h1 := BitVec.toInt_lt (x := v)
  have h2 := BitVec.le_toInt (x := v)
  have e : max (-((2 ^ (32 - 1) : Nat) : Int)) (min (((2 ^ (32 - 1) : Nat) : Int) - 1) v.toInt) = v.toInt := by
    norm_num at h1 h2 ⊢
    omega
  rw [e, BitVec.ofInt_toInt]

/-- The same through the float operations' names. -/
theorem fptosi_sitofp' (v : BitVec 32) :
    FloatOps.fptosi (F := Ideal) (φ := .f32) 32 (FloatOps.sitofp (F := Ideal) .f32 v) = v := fptosi_sitofp v

section Edge

variable (x0 x1 : Vec Ideal S4096x128 .f32) (x2 : Vec Ideal S4096x6 .f32) (x3 x4 : Vec Ideal S128x128 .bf16)
  (x5 : Vec Ideal S2x128 .f32) (x6 : Vec Ideal S128x128 .bf16) (x7 : Vec Ideal S1x128 .f32)
  (x8 : Vec Ideal S128x128 .bf16) (x9 : Vec Ideal S1x128 .f32) (x10 : Vec Ideal S128x1 .bf16)

/-- The edge's bond type: column 5 of the packed edge array truncated to a word. -/
def eType (r : Fin 4096) : BitVec 32 := Ideal.fptosi 32 (x2 (ix2 r (5 : Fin 6)))

/-- The one-hot row: one in the column whose number is the bond type, zero elsewhere. -/
def onehot (r : Fin 4096) (t : Fin 128) : EReal := if BitVec.ofNat 32 t.val = eType x2 r then 1 else 0

/-- A one-hot row against a table picks the table's row. -/
theorem onehot_sum (r : Fin 4096) (l : Fin 128) (ht : (eType x2 r).toNat < 128) :
    ∑ t : Fin 128, onehot x2 r t * x6 (ix2 t l) = x6 (ix2 ⟨(eType x2 r).toNat, ht⟩ l) := by
  rw [Finset.sum_eq_single (⟨(eType x2 r).toNat, ht⟩ : Fin 128)]
  · unfold onehot
    have hw : BitVec.ofNat 32 (eType x2 r).toNat = eType x2 r :=
      BitVec.eq_of_toNat_eq (by rw [BitVec.toNat_ofNat]; exact Nat.mod_eq_of_lt (eType x2 r).isLt)
    rw [if_pos hw, one_mul]
  · intro t _ hne
    unfold onehot
    rw [if_neg, zero_mul]
    intro heq
    apply hne
    apply Fin.ext
    have := congrArg BitVec.toNat heq
    rw [BitVec.toNat_ofNat, Nat.mod_eq_of_lt (by have := t.isLt; omega)] at this
    exact this
  · intro h; exact absurd (Finset.mem_univ _) h

/-! ## The payloads at an index -/

/-- The packed edge array passes through its cast unchanged. -/
theorem e_pay2_eq : k1_pay2 x2 = x2 := by
  unfold k1_pay2
  exact shapeCast_self _ _

/-- The edge's coordinate difference: columns 2 to 4 of the packed edge array. -/
theorem e_pay3_apply (r : Fin 4096) (j : Fin 3) :
    k1_pay3 x2 (ix2 r j) = x2 (ix2 r ⟨2 + j.val, by have := j.isLt; omega⟩) := by
  unfold k1_pay3
  rw [e_pay2_eq]
  exact slice_cd_apply x2 _ r j

/-- The first layer without its bias: the five parts, in the order the body adds them. -/
theorem e_pay4_apply (r : Fin 4096) (l : Fin 128) :
    k1_pay4 x0 x1 x2 x3 x4 x5 x6 (ix2 r l)
      = (((∑ k : Fin 128, x0 (ix2 r k) * x3 (ix2 k l) + ∑ k : Fin 128, x1 (ix2 r k) * x4 (ix2 k l))
            + x2 (ix2 r (0 : Fin 6)) * x5 (ix2 (0 : Fin 2) l))
          + x2 (ix2 r (1 : Fin 6)) * x5 (ix2 (1 : Fin 2) l))
        + ∑ t : Fin 128, onehot x2 r t * x6 (ix2 t l) := by
  unfold k1_pay4
  simp only [e_pay2_eq, shapeCast_self]
  simp only [addf_apply, mulf_apply, matmul_ehid_apply, bcast_col_apply, bcast_row_apply,
    slice_col_apply 0 (by decide), slice_col_apply 1 (by decide), slice_row_apply 0 (by decide),
    slice_row_apply 1 (by decide), truncf_apply]
  refine congrArg (_ + ·) (Finset.sum_congr rfl fun t _ => ?_)
  rw [sitofp_at, extui_apply, cmpi_at, iota_cols_apply, bcast_col_apply, fptosi_at, slice_col_apply 5 (by decide),
    hot_val]
  rfl

/-- The rest of the perceptron and the scaling, from the coordinate difference and the first layer without bias. -/
theorem e_pay1_apply (v10 : FVec Ideal S4096x3 .f32) (v41 : FVec Ideal S4096x128 .f32) (r : Fin 4096) (j : Fin 3) :
    k1_pay1 v10 v41 x7 x8 x9 x10 (ix2 r j)
      = v10 (ix2 r j) * Ideal.tanh (∑ k : Fin 128,
          Spec.silu ((∑ l : Fin 128, Spec.silu (v41 (ix2 r l) + x7 (ix2 (0 : Fin 1) l)) * x8 (ix2 l k))
            + x9 (ix2 (0 : Fin 1) k)) * x10 (ix2 k (0 : Fin 1))) * Spec.ten := by
  unfold k1_pay1
  simp only [shapeCast_self]
  simp only [mulf_apply, addf_apply, broadcast_apply, bcast_col3_apply, tanh_at, matmul_eout_apply, matmul_ehid_apply,
    truncf_apply, logistic_at, gate_eq, bcast_row_apply]
  rfl

/-! ## The row formula -/

/-- The first layer before its gate, for the edge in block row r. -/
def eZ1 (r : Fin 4096) (l : Fin 128) : EReal :=
  ((((∑ k : Fin 128, x0 (ix2 r k) * x3 (ix2 k l) + ∑ k : Fin 128, x1 (ix2 r k) * x4 (ix2 k l))
        + x2 (ix2 r (0 : Fin 6)) * x5 (ix2 (0 : Fin 2) l))
      + x2 (ix2 r (1 : Fin 6)) * x5 (ix2 (1 : Fin 2) l))
    + ∑ t : Fin 128, onehot x2 r t * x6 (ix2 t l))
  + x7 (ix2 (0 : Fin 1) l)

/-- The second layer before its gate. -/
def eZ2 (r : Fin 4096) (k : Fin 128) : EReal :=
  (∑ l : Fin 128, Spec.silu (eZ1 x0 x1 x2 x3 x4 x5 x6 x7 r l) * x8 (ix2 l k)) + x9 (ix2 (0 : Fin 1) k)

/-- The perceptron's one output. -/
def eM (r : Fin 4096) : EReal :=
  ∑ k : Fin 128, Spec.silu (eZ2 x0 x1 x2 x3 x4 x5 x6 x7 x8 x9 r k) * x10 (ix2 k (0 : Fin 1))

/-- THE STORED BLOCK at row r, column j: the edge's coordinate difference times the tanh of the perceptron's output
    times ten. -/
theorem P1_apply (r : Fin 4096) (j : Fin 3) :
    P1 x0 x1 x2 x3 x4 x5 x6 x7 x8 x9 x10 (ix2 r j)
      = x2 (ix2 r ⟨2 + j.val, by have := j.isLt; omega⟩) * Ideal.tanh (eM x0 x1 x2 x3 x4 x5 x6 x7 x8 x9 x10 r) * Spec.ten := by
  unfold P1
  rw [e_pay1_apply, e_pay3_apply]
  simp only [e_pay4_apply]
  rfl

end Edge

end Cert.KernelIdeal.Hand

end
-- ==== Proof.KI.Host1.lean ====
import proofs.«426145_j45973329936455_2_alg».proof.Proof.Gen.KernelIdeal.Regions
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

/-! What the second region's input arrays hold when it is entered, entry by entry, as functions of the argument arrays, at
    the ideal values: the two endpoint feature arrays are rows of the node features at the edges' endpoints (every
    endpoint index lying inside the table), the weight arrays are row ranges of the first layer's weights and the other
    layers' weights and biases unchanged. -/

set_option maxRecDepth 1092

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable (m : (ℓ : Loc nD τ sig) → Buf (Elt Ideal) ℓ) (outs : Outs (F := Ideal))

/-! ## The rows of a table at given positions -/

/-- A position below 50000 is not negative: wrapping it by the extent leaves it. -/
theorem wrap_id (a : BitVec 32) (ha : a.toNat < 50000) :
    Scalar.select (IntOp.cmpi .slt a 0#32) (IntOp.addi a 50000#32) a = a := by
  have h : ¬ IntOp.cmpi .slt a 0#32 = 1#1 := fun h =>
    absurd ((Predicate.slt_iff_toNat (a := a) (b := 0#32) (by omega) (by decide)).1 h) (Nat.not_lt_zero _)
  rw [eq_zero_of_ne_one h, select_zero]

/-- A position below 50000 lies between 0 and 49999. -/
theorem in_table (a : BitVec 32) (ha : a.toNat < 50000) :
    IntOp.andi (IntOp.cmpi .sge a 0#32) (IntOp.cmpi .sle a 49999#32) = 1#1 := by
  rw [(Predicate.sge_iff_toNat (a := a) (b := 0#32) (by omega) (by decide)).2 (Nat.zero_le _),
    (Predicate.sle_iff_toNat (a := a) (b := 49999#32) (by omega) (by decide)).2 (by show a.toNat ≤ 49999; omega)]
  rfl

/-- A conjunction of ones, from one, is one. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    show List.foldl _ (IntOp.andi 1#1 (x a)) l = 1#1
    rw [hx a, show IntOp.andi 1#1 1#1 = 1#1 from by decide]; exact ih

/-- The conjunction along any axes of an array of ones is one. -/
theorem reduce_andi_ones {s t u : Shape} {axes : List (Fin s.rank)} (x : IVec s 1) (init : IVec u 1) (h : s.ReducesTo axes t)
    (hu : 0 < u.numel) (hx : ∀ i, x i = 1#1) (hi : ∀ i, init i = 1#1) (j : t.Idx) :
    Host.reduce IntOp.andi x init h hu j = 1#1 := by
  rw [Host.reduce_eq_foldl, hi]
  exact foldl_andi_ones x hx _

/-- The positions, a negative one wrapped by the table's extent. -/
def wrapPos (r : IVec S500000 32) : IVec S500000 32 :=
  select (cmpi .slt r (broadcastInDim S500000 ![] bcast_S_S500000 (constantI S_ 32 0#32)))
    (addi r (broadcastInDim S500000 ![] bcast_S_S500000 (constantI S_ 32 50000#32))) r

/-- The wrapped positions as a column. -/
def posCol (r : IVec S500000 32) : IVec S500000x1 32 := broadcastInDim S500000x1 ![0] bcast_S500000_S500000x1_0 (wrapPos r)

/-- Per position: it lies between 0 and 49999. -/
def inTable (p : IVec S500000x1 32) : IVec S500000 1 :=
  Host.reduce IntOp.andi
    (andi (cmpi .sge p (broadcastInDim S500000x1 ![] bcast_S_S500000x1 (constantI S_ 32 0#32)))
      (cmpi .sle p (broadcastInDim S500000x1 ![0, 1] bcast_S1x1_S500000x1_0_1 (broadcastInDim S1x1 ![1] bcast_S1_S1x1_1 (constantI S1 32 49999#32)))))
    (constantI S_ 1 1#1) reducesTo_S500000x1_S500000_d1 h_S_

/-- The rows of a [50000, 128] table at the positions r: a negative position wrapped by the extent, the row read at the
    clamped position, and the row of a position outside the table replaced by the quiet NaN. -/
def take (x : FVec Ideal S50000x128 .f32) (r : IVec S500000 32) : FVec Ideal S500000x128 .f32 :=
  select (broadcastInDim S500000x128 ![0] bcast_S500000_S500000x128_0 (inTable (posCol r)))
    (Host.gather gather_S50000x128_S500000x1_S500000x128_1_0_n_n_0_1_1128 x (posCol r))
    (broadcastInDim S500000x128 ![] bcast_S_S500000x128 (constant (F := Ideal) S_ .f32 0x7FC00000#32))

theorem wrapPos_apply (r : IVec S500000 32) (hr : ∀ i, (r i).toNat < 50000) (i : S500000.Idx) : wrapPos r i = r i :=
  wrap_id (r i) (hr i)

theorem posCol_apply (r : IVec S500000 32) (hr : ∀ i, (r i).toNat < 50000) (e : Fin 500000) (u : Fin 1) :
    posCol r (ix2 e u) = r (ix1 e) := by
  unfold posCol
  rw [broadcastInDim_apply _ bcast_S500000_S500000x1_0 (wrapPos r) (ix2 e u) (ix1 e) (fun a => match a with
    | ⟨0, _⟩ => by show e.val = if (500000 : Nat) = 1 then 0 else e.val; rw [if_neg (by decide)])]
  exact wrapPos_apply r hr _

theorem inTable_apply (p : IVec S500000x1 32) (hp : ∀ i, (p i).toNat < 50000) (j : S500000.Idx) : inTable p j = 1#1 :=
  reduce_andi_ones _ _ _ _ (fun i => in_table (p i) (hp i)) (fun _ => rfl) j

theorem gather_row_0 (p : IVec S500000x1 32) (j : S500000x128.Idx) :
    (gather_S50000x128_S500000x1_S500000x128_1_0_n_n_0_1_1128.operandIdx j p 0).val = min (p (ix2 (j 0) 0)).toInt.toNat 49999 := by
  have hb : (0 : Fin S50000x128.rank) ∉ gather_S50000x128_S500000x1_S500000x128_1_0_n_n_0_1_1128.operandBatchingDims := by decide
  have hk : (0 : Fin S50000x128.rank) ∉ gather_S50000x128_S500000x1_S500000x128_1_0_n_n_0_1_1128.sKept := by decide
  have hm : (0 : Fin S50000x128.rank) ∈ gather_S50000x128_S500000x1_S500000x128_1_0_n_n_0_1_1128.startIndexMap := by decide
  simp only [GatherDims.operandIdx, GatherDims.batchCoord_eq_zero _ _ _ hb, GatherDims.offCoord_eq_zero _ _ _ hk, Nat.add_zero,
    GatherDims.start, dif_pos hm]
  have es : gather_S50000x128_S500000x1_S500000x128_1_0_n_n_0_1_1128.siIdx j
      ⟨List.idxOf (0 : Fin S50000x128.rank) gather_S50000x128_S500000x1_S500000x128_1_0_n_n_0_1_1128.startIndexMap, List.idxOf_lt_length_iff.2 hm⟩
      = ix2 (j 0) 0 := by
    funext b
    match b with
    | ⟨0, _⟩ => exact Fin.ext rfl
    | ⟨1, _⟩ => exact Fin.ext rfl
  rw [es]; rfl

theorem gather_row_1 (p : IVec S500000x1 32) (j : S500000x128.Idx) :
    (gather_S50000x128_S500000x1_S500000x128_1_0_n_n_0_1_1128.operandIdx j p 1).val = (j 1).val := by
  have hb : (1 : Fin S50000x128.rank) ∉ gather_S50000x128_S500000x1_S500000x128_1_0_n_n_0_1_1128.operandBatchingDims := by decide
  have hk : (1 : Fin S50000x128.rank) ∈ gather_S50000x128_S500000x1_S500000x128_1_0_n_n_0_1_1128.sKept := by decide
  have hm : (1 : Fin S50000x128.rank) ∉ gather_S50000x128_S500000x1_S500000x128_1_0_n_n_0_1_1128.startIndexMap := by decide
  simp only [GatherDims.operandIdx, GatherDims.batchCoord_eq_zero _ _ _ hb, GatherDims.offCoord, dif_pos hk, Nat.add_zero, Nat.zero_add,
    GatherDims.start, dif_neg hm]
  rfl

/-- The gather of rows reads, at (e, k), the table's row at e's position, clamped into the table, at column k. -/
theorem gather_rows_apply (x : FVec Ideal S50000x128 .f32) (p : IVec S500000x1 32) (e : Fin 500000) (k : Fin 128)
    (h : (p (ix2 e 0)).toNat < 50000) :
    Host.gather gather_S50000x128_S500000x1_S500000x128_1_0_n_n_0_1_1128 x p (ix2 e k) = x (ix2 ⟨(p (ix2 e 0)).toNat, h⟩ k) := by
  unfold Host.gather
  refine congrArg x (funext fun a => Fin.ext ?_)
  match a with
  | ⟨0, _⟩ =>
    refine (gather_row_0 p (ix2 e k)).trans ?_
    show min (p (ix2 e 0)).toInt.toNat 49999 = (p (ix2 e 0)).toNat
    rw [Predicate.toInt_eq_toNat_of_lt (by omega), Int.toNat_natCast]
    exact Nat.min_eq_left (by omega)
  | ⟨1, _⟩ => exact gather_row_1 p (ix2 e k)

/-- With every position inside the table, the rows read are the table's rows at the positions. -/
theorem take_apply (x : FVec Ideal S50000x128 .f32) (r : IVec S500000 32) (hr : ∀ i, (r i).toNat < 50000)
    (e : Fin 500000) (k : Fin 128) : take x r (ix2 e k) = x (ix2 ⟨(r (ix1 e)).toNat, hr _⟩ k) := by
  have hp : ∀ i, (posCol r i).toNat < 50000 := fun i => by
    obtain ⟨a, b, rfl⟩ : ∃ (a : Fin 500000) (b : Fin 1), i = ix2 a b := ⟨i 0, i 1, eq_ix2 i⟩
    rw [posCol_apply r hr]; exact hr _
  unfold take
  rw [select_apply, broadcastInDim_apply _ bcast_S500000_S500000x128_0 (inTable (posCol r)) (ix2 e k) (ix1 e) (fun a => match a with
    | ⟨0, _⟩ => by show e.val = if (500000 : Nat) = 1 then 0 else e.val; rw [if_neg (by decide)]),
    inTable_apply _ hp, select_one, gather_rows_apply x (posCol r) e k (hp _)]
  refine congrArg x (congrArg (fun a => ix2 a k) (Fin.ext ?_))
  show (posCol r (ix2 e 0)).toNat = (r (ix1 e)).toNat
  rw [posCol_apply r hr]

/-! ## The arrays at region 1's entry, as terms of the arguments -/

/-- Row 0 of the [2, 500000] index table, as a vector. -/
def pos0 (a2 : IVec S2x500000 32) : IVec S500000 32 :=
  shapeCast S500000 (extractStridedSlice S1x500000 ![0, 0] a2 slices_S2x500000_S1x500000_0_0) shapeCasts_S1x500000_S500000
/-- Row 1 of the [2, 500000] index table, as a vector. -/
def pos1 (a2 : IVec S2x500000 32) : IVec S500000 32 :=
  shapeCast S500000 (extractStridedSlice S1x500000 ![1, 0] a2 slices_S2x500000_S1x500000_1_0) shapeCasts_S1x500000_S500000

theorem pos0_apply (a2 : IVec S2x500000 32) (e : Fin 500000) : pos0 a2 (ix1 e) = a2 (ix2 0 e) := by
  unfold pos0
  rw [shapeCast_1a_a_apply, slice2_axis0_apply 0 a2 slices_S2x500000_S1x500000_0_0 (0 : Fin 1) e (0 : Fin 2) rfl]
theorem pos1_apply (a2 : IVec S2x500000 32) (e : Fin 500000) : pos1 a2 (ix1 e) = a2 (ix2 1 e) := by
  unfold pos1
  rw [shapeCast_1a_a_apply, slice2_axis0_apply 1 a2 slices_S2x500000_S1x500000_1_0 (0 : Fin 1) e (1 : Fin 2) rfl]

/-- An argument array no stretch before region 0's successor writes. -/
theorem V5_arg (c : Dev nD) (r : Ref sig .tc) (h0 : r ∉ hostOps0_W) (h1 : r ∉ hostOps0_1_W) (h2 : r ∉ hostOps0_2_W)
    (h3 : r ∉ hostOps0_3_W) (h4 : r ∉ ([main_v19] : List (Ref sig .tc))) : V5 m outs c r = V0 m c r :=
  (V5_of m outs c r h4).trans <| (V4_of m c r h3).trans <| (V3_of m c r h2).trans <| (V2_of m c r h1).trans (V1_of m c r h0)
theorem V7_arg (c : Dev nD) (r : Ref sig .tc) (h0 : r ∉ hostOps0_W) (h1 : r ∉ hostOps0_1_W) (h2 : r ∉ hostOps0_2_W)
    (h3 : r ∉ hostOps0_3_W) (h4 : r ∉ ([main_v19] : List (Ref sig .tc))) (h5 : r ∉ hostOps1_W) (h6 : r ∉ hostOps1_1_W) :
    V7 m outs c r = V0 m c r :=
  (V7_of m outs c r h6).trans <| (V6_of m outs c r h5).trans (V5_arg m outs c r h0 h1 h2 h3 h4)

theorem V1_rows (c : Dev nD) : (V1 m c main_v1 : S500000.Idx → BitVec 32) = pos0 (V0 m c main_arg2) := by
  show StableHlo.after hostOps0 (V0 m c) (Proc.devRef .tc main_v1) = _
  after_results
  rfl
theorem V1_v3 (c : Dev nD) : (V1 m c main_v3 : S500000.Idx → BitVec 32) = pos1 (V0 m c main_arg2) := by
  show StableHlo.after hostOps0 (V0 m c) (Proc.devRef .tc main_v3) = _
  after_results
  rfl

/-- Contents carried to a buffer's type and back are themselves. -/
theorem ofBuf_toBuf {T : BufTy} (x : TRef sig T) (v : T.Contents (Elt Ideal)) : x.ofBuf (x.toBuf v) = v := by
  obtain ⟨r, h, _, _⟩ := x
  subst h
  rfl

set_option maxHeartbeats 1000000 in
theorem after_take0 (W : Valuation τ sig (Elt Ideal)) :
    (StableHlo.after hostOps0_1 W (Proc.devRef .tc main_v4) : S500000x128.Idx → EReal) = take (W main_arg0) (W main_v1) := by
  after_results_simp
  simp only [↓ofBuf_toBuf]
  simp only [TRef.toBuf, TRef.ofBuf, cast_eq]
  rfl
set_option maxHeartbeats 1000000 in
theorem after_take1 (W : Valuation τ sig (Elt Ideal)) :
    (StableHlo.after hostOps0_2 W (Proc.devRef .tc main_v5) : S500000x128.Idx → EReal) = take (W main_arg0) (W main_v3) := by
  after_results_simp
  simp only [↓ofBuf_toBuf]
  simp only [TRef.toBuf, TRef.ofBuf, cast_eq]
  rfl

theorem v4_eq (c : Dev nD) :
    (V8 m outs c main_v4 : S500000x128.Idx → EReal) = take (V0 m c main_arg0) (pos0 (V0 m c main_arg2)) := by
  rw [V8_of m outs c main_v4 (by decide), V7_of m outs c main_v4 (by decide), V6_of m outs c main_v4 (by decide), V5_of m outs c main_v4 (by decide), V4_of m c main_v4 (by decide), V3_of m c main_v4 (by decide)]
  show StableHlo.after hostOps0_1 (V1 m c) (Proc.devRef .tc main_v4) = _
  rw [after_take0, V1_of m c main_arg0 (by decide), V1_rows]
theorem v5_eq (c : Dev nD) :
    (V8 m outs c main_v5 : S500000x128.Idx → EReal) = take (V0 m c main_arg0) (pos1 (V0 m c main_arg2)) := by
  rw [V8_of m outs c main_v5 (by decide), V7_of m outs c main_v5 (by decide), V6_of m outs c main_v5 (by decide), V5_of m outs c main_v5 (by decide), V4_of m c main_v5 (by decide)]
  show StableHlo.after hostOps0_2 (V2 m c) (Proc.devRef .tc main_v5) = _
  rw [after_take1, V2_of m c main_arg0 (by decide), V1_of m c main_arg0 (by decide), V2_of m c main_v3 (by decide), V1_v3]

/-! ## Each input window's array read at an index -/

/-- The first endpoint's features: row e is the node table's row at the edge's first endpoint. -/
theorem v4_at (c : Dev nD) (hidx : ∀ i, ((V0 m c main_arg2 : S2x500000.Idx → BitVec 32) i).toNat < 50000) (e : Fin 500000) (k : Fin 128) :
    (V8 m outs c main_v4 : S500000x128.Idx → EReal) (ix2 e k)
      = (V0 m c main_arg0 : S50000x128.Idx → EReal) (ix2 ⟨((V0 m c main_arg2 : S2x500000.Idx → BitVec 32) (ix2 0 e)).toNat, hidx _⟩ k) := by
  have hr : ∀ i, (pos0 (V0 m c main_arg2) i).toNat < 50000 := fun i => by
    obtain ⟨a, rfl⟩ : ∃ a : Fin 500000, i = ix1 a := ⟨i 0, eq_ix1 i⟩
    rw [pos0_apply]; exact hidx _
  rw [v4_eq, take_apply _ _ hr]
  refine congrArg _ (congrArg (fun a => ix2 a k) (Fin.ext ?_))
  show (pos0 (V0 m c main_arg2) (ix1 e)).toNat = _
  rw [pos0_apply]
/-- The second endpoint's features. -/
theorem v5_at (c : Dev nD) (hidx : ∀ i, ((V0 m c main_arg2 : S2x500000.Idx → BitVec 32) i).toNat < 50000) (e : Fin 500000) (k : Fin 128) :
    (V8 m outs c main_v5 : S500000x128.Idx → EReal) (ix2 e k)
      = (V0 m c main_arg0 : S50000x128.Idx → EReal) (ix2 ⟨((V0 m c main_arg2 : S2x500000.Idx → BitVec 32) (ix2 1 e)).toNat, hidx _⟩ k) := by
  have hr : ∀ i, (pos1 (V0 m c main_arg2) i).toNat < 50000 := fun i => by
    obtain ⟨a, rfl⟩ : ∃ a : Fin 500000, i = ix1 a := ⟨i 0, eq_ix1 i⟩
    rw [pos1_apply]; exact hidx _
  rw [v5_eq, take_apply _ _ hr]
  refine congrArg _ (congrArg (fun a => ix2 a k) (Fin.ext ?_))
  show (pos1 (V0 m c main_arg2) (ix1 e)).toNat = _
  rw [pos1_apply]

/-- What the stretch before region 1 leaves in the weights' arrays: at the ideal values a narrowing is the identity. -/
theorem after12_v29 (W : Valuation τ sig (Elt Ideal)) :
    (StableHlo.after hostOps1_2 W (Proc.devRef .tc main_v29) : S128x128.Idx → EReal) = (W main_v20 : S128x128.Idx → EReal) := by
  after_results
  rfl
theorem after12_v30 (W : Valuation τ sig (Elt Ideal)) :
    (StableHlo.after hostOps1_2 W (Proc.devRef .tc main_v30) : S128x128.Idx → EReal) = (W main_v21 : S128x128.Idx → EReal) := by
  after_results
  rfl
theorem after12_v31 (W : Valuation τ sig (Elt Ideal)) :
    (StableHlo.after hostOps1_2 W (Proc.devRef .tc main_v31) : S128x128.Idx → EReal) = (W main_arg12 : S128x128.Idx → EReal) := by
  after_results
  rfl
theorem after12_v32 (W : Valuation τ sig (Elt Ideal)) :
    (StableHlo.after hostOps1_2 W (Proc.devRef .tc main_v32) : S128x1.Idx → EReal) = (W main_arg14 : S128x1.Idx → EReal) := by
  after_results
  rfl

theorem after1_v20 (W : Valuation τ sig (Elt Ideal)) :
    (StableHlo.after hostOps1 W (Proc.devRef .tc main_v20) : S128x128.Idx → EReal)
      = extractStridedSlice S128x128 ![0, 0] (W main_arg10 : S386x128.Idx → EReal) slices_S386x128_S128x128_0_0 := by
  after_results
theorem after1_v21 (W : Valuation τ sig (Elt Ideal)) :
    (StableHlo.after hostOps1 W (Proc.devRef .tc main_v21) : S128x128.Idx → EReal)
      = extractStridedSlice S128x128 ![128, 0] (W main_arg10 : S386x128.Idx → EReal) slices_S386x128_S128x128_128_0 := by
  after_results
theorem after1_v22 (W : Valuation τ sig (Elt Ideal)) :
    (StableHlo.after hostOps1 W (Proc.devRef .tc main_v22) : S2x128.Idx → EReal)
      = extractStridedSlice S2x128 ![256, 0] (W main_arg10 : S386x128.Idx → EReal) slices_S386x128_S2x128_256_0 := by
  after_results
theorem after1_v24 (W : Valuation τ sig (Elt Ideal)) :
    (StableHlo.after hostOps1 W (Proc.devRef .tc main_v24) : S1x128.Idx → EReal)
      = shapeCast S1x128 (W main_arg11 : S128.Idx → EReal) shapeCasts_S128_S1x128 := by
  after_results
  rfl
theorem after1_v25 (W : Valuation τ sig (Elt Ideal)) :
    (StableHlo.after hostOps1 W (Proc.devRef .tc main_v25) : S1x128.Idx → EReal)
      = shapeCast S1x128 (W main_arg13 : S128.Idx → EReal) shapeCasts_S128_S1x128 := by
  after_results
  rfl

/-- The first layer's weights against the first endpoint's features: rows 0 to 127. -/
theorem v29_at (c : Dev nD) (k l : Fin 128) :
    (V8 m outs c main_v29 : S128x128.Idx → EReal) (ix2 k l) = (V0 m c main_arg10 : S386x128.Idx → EReal) (ix2 ⟨k.val, by omega⟩ l) := by
  show (StableHlo.after hostOps1_2 (V7 m outs c) (Proc.devRef .tc main_v29) : S128x128.Idx → EReal) (ix2 k l) = _
  rw [after12_v29, V7_of m outs c main_v20 (by decide)]
  show (StableHlo.after hostOps1 (V5 m outs c) (Proc.devRef .tc main_v20) : S128x128.Idx → EReal) (ix2 k l) = _
  rw [after1_v20, V5_arg m outs c main_arg10 (by decide) (by decide) (by decide) (by decide) (by decide)]
  exact slice2_axis0_apply 0 _ _ k l ⟨k.val, by omega⟩ (by simp)
/-- Against the second endpoint's features: rows 128 to 255. -/
theorem v30_at (c : Dev nD) (k l : Fin 128) :
    (V8 m outs c main_v30 : S128x128.Idx → EReal) (ix2 k l) = (V0 m c main_arg10 : S386x128.Idx → EReal) (ix2 ⟨128 + k.val, by omega⟩ l) := by
  show (StableHlo.after hostOps1_2 (V7 m outs c) (Proc.devRef .tc main_v30) : S128x128.Idx → EReal) (ix2 k l) = _
  rw [after12_v30, V7_of m outs c main_v21 (by decide)]
  show (StableHlo.after hostOps1 (V5 m outs c) (Proc.devRef .tc main_v21) : S128x128.Idx → EReal) (ix2 k l) = _
  rw [after1_v21, V5_arg m outs c main_arg10 (by decide) (by decide) (by decide) (by decide) (by decide)]
  exact slice2_axis0_apply 128 _ _ k l ⟨128 + k.val, by omega⟩ rfl
/-- Against the two edge attributes: rows 256 and 257. -/
theorem v22_at (c : Dev nD) (q : Fin 2) (l : Fin 128) :
    (V8 m outs c main_v22 : S2x128.Idx → EReal) (ix2 q l) = (V0 m c main_arg10 : S386x128.Idx → EReal) (ix2 ⟨256 + q.val, by omega⟩ l) := by
  rw [V8_of m outs c main_v22 (by decide), V7_of m outs c main_v22 (by decide)]
  show (StableHlo.after hostOps1 (V5 m outs c) (Proc.devRef .tc main_v22) : S2x128.Idx → EReal) (ix2 q l) = _
  rw [after1_v22, V5_arg m outs c main_arg10 (by decide) (by decide) (by decide) (by decide) (by decide)]
  exact slice2_axis0_apply 256 _ _ q l ⟨256 + q.val, by omega⟩ rfl
/-- The first layer's bias, as a row. -/
theorem v24_at (c : Dev nD) (u : Fin 1) (l : Fin 128) :
    (V8 m outs c main_v24 : S1x128.Idx → EReal) (ix2 u l) = (V0 m c main_arg11 : S128.Idx → EReal) (ix1 l) := by
  rw [V8_of m outs c main_v24 (by decide), V7_of m outs c main_v24 (by decide)]
  show (StableHlo.after hostOps1 (V5 m outs c) (Proc.devRef .tc main_v24) : S1x128.Idx → EReal) (ix2 u l) = _
  rw [after1_v24, V5_arg m outs c main_arg11 (by decide) (by decide) (by decide) (by decide) (by decide)]
  exact shapeCast_a_1a_apply _ _ u l
/-- The second layer's bias, as a row. -/
theorem v25_at (c : Dev nD) (u : Fin 1) (l : Fin 128) :
    (V8 m outs c main_v25 : S1x128.Idx → EReal) (ix2 u l) = (V0 m c main_arg13 : S128.Idx → EReal) (ix1 l) := by
  rw [V8_of m outs c main_v25 (by decide), V7_of m outs c main_v25 (by decide)]
  show (StableHlo.after hostOps1 (V5 m outs c) (Proc.devRef .tc main_v25) : S1x128.Idx → EReal) (ix2 u l) = _
  rw [after1_v25, V5_arg m outs c main_arg13 (by decide) (by decide) (by decide) (by decide) (by decide)]
  exact shapeCast_a_1a_apply _ _ u l
/-- The second layer's weights. -/
theorem v31_eq (c : Dev nD) : (V8 m outs c main_v31 : S128x128.Idx → EReal) = (V0 m c main_arg12 : S128x128.Idx → EReal) := by
  show (StableHlo.after hostOps1_2 (V7 m outs c) (Proc.devRef .tc main_v31) : S128x128.Idx → EReal) = _
  rw [after12_v31, V7_arg m outs c main_arg12 (by decide) (by decide) (by decide) (by decide) (by decide) (by decide) (by decide)]
/-- The third layer's weights. -/
theorem v32_eq (c : Dev nD) : (V8 m outs c main_v32 : S128x1.Idx → EReal) = (V0 m c main_arg14 : S128x1.Idx → EReal) := by
  show (StableHlo.after hostOps1_2 (V7 m outs c) (Proc.devRef .tc main_v32) : S128x1.Idx → EReal) = _
  rw [after12_v32, V7_arg m outs c main_arg14 (by decide) (by decide) (by decide) (by decide) (by decide) (by decide) (by decide)]

end Cert.KernelIdeal.Hand
-- ==== Proof.KI.Host1b.lean ====
/- Two of the arrays region 1 reads, as functions of the launch contents, at the ideal reals: the edge-feature array
   (the concatenation, along the feature axis, of the edge attributes, the coordinate differences and the edge type
   read as a real number) and the bond table the kernel looks the edge type up in (the bond embedding times rows
   258..385 of the first layer's weights, padded from 100 to 128 rows). Each is read index by index: a concatenation
   at an index is the piece whose span holds the index's coordinate on the joined axis; a padding at an index inside
   the operand is the operand there; a matrix product at an index is the sum over the contracted axis. -/
import proofs.«426145_j45973329936455_2_alg».proof.Proof.Gen.KernelIdeal.Regions
import Idealize.ShloMosaic.Lib.StableHlo.Run
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«426145_j45973329936455_2_alg».proof.Proof.KI.Host1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open scoped BigOperators

/-! ## A three-operand operation's result, each operand at its own reference -/

section Nary3
variable {nD : Nat} {τ : Topo} {sig : RefSig} {Val : EltTy → Type} {x a b y : Ref sig .tc}

/-- The result of an operation over a LITERAL family of three references, with each operand's contents read at its
    own reference (rather than at the family applied to a bound index), so that the operands' own contents can go on
    being rewritten. -/
theorem nary3_result
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

end Nary3

/-! ## The two arrays the bond table is made of, by coordinates at the reals -/

/-- The bond embedding's launch contents: row t, column k. -/
def aBond (m : (ℓ : Loc nD τ sig) → Buf (Elt Ideal) ℓ) (c : Dev nD) : Fin 100 → Fin 128 → EReal :=
  fun t k => (V0 m c main_arg9 : S100x128.Idx → EReal) (ix2 t k)
/-- The first layer's weights' launch contents: row q, column l. -/
def aW1 (m : (ℓ : Loc nD τ sig) → Buf (Elt Ideal) ℓ) (c : Dev nD) : Fin 386 → Fin 128 → EReal :=
  fun q l => (V0 m c main_arg10 : S386x128.Idx → EReal) (ix2 q l)

section Host1
variable (m : (ℓ : Loc nD τ sig) → Buf (Elt Ideal) ℓ) (outs : Outs (F := Ideal)) (c : Dev nD)

/-! ## The launch contents of the arguments these arrays are made of, at their literal types -/

/-- The edge types (32-bit words). -/
abbrev arg3 : S500000.Idx → BitVec 32 := V0 m c main_arg3
/-- The edge attributes. -/
abbrev arg4 : S500000x2.Idx → EReal := V0 m c main_arg4
/-- The edges' coordinate differences. -/
abbrev arg5 : S500000x3.Idx → EReal := V0 m c main_arg5
/-- The bond embedding. -/
abbrev arg9 : S100x128.Idx → EReal := V0 m c main_arg9
/-- The first layer's weights. -/
abbrev arg10 : S386x128.Idx → EReal := V0 m c main_arg10

/-! ## The arguments these arrays are made of reach region 1's entry as launched -/

theorem arg3_at7 : V7 m outs c main_arg3 = V0 m c main_arg3 :=
  (V7_of m outs c main_arg3 (by decide)).trans <| (V6_of m outs c main_arg3 (by decide)).trans <| (V5_of m outs c main_arg3 (by decide)).trans <| (V4_of m c main_arg3 (by decide)).trans <| (V3_of m c main_arg3 (by decide)).trans <| (V2_of m c main_arg3 (by decide)).trans <| V1_of m c main_arg3 (by decide)
theorem arg4_at7 : V7 m outs c main_arg4 = V0 m c main_arg4 :=
  (V7_of m outs c main_arg4 (by decide)).trans <| (V6_of m outs c main_arg4 (by decide)).trans <| (V5_of m outs c main_arg4 (by decide)).trans <| (V4_of m c main_arg4 (by decide)).trans <| (V3_of m c main_arg4 (by decide)).trans <| (V2_of m c main_arg4 (by decide)).trans <| V1_of m c main_arg4 (by decide)
theorem arg5_at7 : V7 m outs c main_arg5 = V0 m c main_arg5 :=
  (V7_of m outs c main_arg5 (by decide)).trans <| (V6_of m outs c main_arg5 (by decide)).trans <| (V5_of m outs c main_arg5 (by decide)).trans <| (V4_of m c main_arg5 (by decide)).trans <| (V3_of m c main_arg5 (by decide)).trans <| (V2_of m c main_arg5 (by decide)).trans <| V1_of m c main_arg5 (by decide)
theorem arg9_at5 : V5 m outs c main_arg9 = V0 m c main_arg9 :=
  (V5_of m outs c main_arg9 (by decide)).trans <| (V4_of m c main_arg9 (by decide)).trans <| (V3_of m c main_arg9 (by decide)).trans <| (V2_of m c main_arg9 (by decide)).trans <| V1_of m c main_arg9 (by decide)
theorem arg10_at5 : V5 m outs c main_arg10 = V0 m c main_arg10 :=
  (V5_of m outs c main_arg10 (by decide)).trans <| (V4_of m c main_arg10 (by decide)).trans <| (V3_of m c main_arg10 (by decide)).trans <| (V2_of m c main_arg10 (by decide)).trans <| V1_of m c main_arg10 (by decide)

/-! ## The edge-feature array -/

/-- The stretch of host operations before region 1 that ends in the concatenation, from ANY contents W: the
    edge-feature array it leaves is the three operands joined along the feature axis, the third the edge type read as a
    real number and given a unit feature axis. -/
theorem v35_of (W : Valuation τ sig (Elt Ideal)) : StableHlo.after hostOps1_2 W (Proc.devRef .tc main_v35) =
    concatenate S500000x6 1 [⟨S500000x2, W main_arg4⟩, ⟨S500000x3, W main_arg5⟩,
      ⟨S500000x1, shapeCast S500000x1 (sitofp (F := Ideal) .f32 (W main_arg3)) Facts₀.shapeCasts_S500000_S500000x1⟩]
      Facts₀.concatenates_S500000x2_S500000x3_S500000x1_S500000x6_d1 := by
  simp only [StableHlo.after_cons, StableHlo.after_nil]
  rw [nary3_result]
  repeat (first
    | rw [StableHlo.unary_result] | rw [StableHlo.reshape_result]
    | (rw [StableHlo.unary_result_ne]; rotate_left; decide)
    | (rw [StableHlo.reshape_result_ne]; rotate_left; decide))
  rfl

/-- The edge-feature array at region 1's entry, over the launch contents. -/
theorem v35_eq : V8 m outs c main_v35 =
    concatenate S500000x6 1 [⟨S500000x2, V0 m c main_arg4⟩, ⟨S500000x3, V0 m c main_arg5⟩,
      ⟨S500000x1, shapeCast S500000x1 (sitofp (F := Ideal) .f32 (V0 m c main_arg3)) Facts₀.shapeCasts_S500000_S500000x1⟩]
      Facts₀.concatenates_S500000x2_S500000x3_S500000x1_S500000x6_d1 := by
  rw [← arg4_at7 m outs c, ← arg5_at7 m outs c, ← arg3_at7 m outs c]
  exact v35_of (V7 m outs c)

/-- Features 0 and 1 of edge e are its two attributes. -/
theorem v35_attr (e : Fin 500000) (q : Fin 2) :
    (V8 m outs c main_v35 : S500000x6.Idx → EReal) (ix2 e ⟨q.val, by omega⟩) = (V0 m c main_arg4 : S500000x2.Idx → EReal) (ix2 e q) := by
  rw [v35_eq]
  exact concatenate_apply_piece (t := S500000x6) (1 : Fin 2) [⟨S500000x2, _⟩, ⟨S500000x3, _⟩, ⟨S500000x1, _⟩] _ (ix2 e ⟨q.val, by omega⟩)
    0 (by show (0 : ℕ) < 3; decide) S500000x2 _ rfl rfl 0 rfl (ix2 e q)
    (fun b hb => by match b with
      | ⟨0, _⟩ => rfl
      | ⟨1, _⟩ => exact absurd rfl hb)
    (Nat.zero_add _)

/-- Features 2, 3, 4 of edge e are its three coordinate differences. -/
theorem v35_cdiff (e : Fin 500000) (j : Fin 3) :
    (V8 m outs c main_v35 : S500000x6.Idx → EReal) (ix2 e ⟨2 + j.val, by omega⟩) = (V0 m c main_arg5 : S500000x3.Idx → EReal) (ix2 e j) := by
  rw [v35_eq]
  exact concatenate_apply_piece (t := S500000x6) (1 : Fin 2) [⟨S500000x2, _⟩, ⟨S500000x3, _⟩, ⟨S500000x1, _⟩] _ (ix2 e ⟨2 + j.val, by omega⟩)
    1 (by show (1 : ℕ) < 3; decide) S500000x3 _ rfl rfl 2 rfl (ix2 e j)
    (fun b hb => by match b with
      | ⟨0, _⟩ => rfl
      | ⟨1, _⟩ => exact absurd rfl hb)
    rfl

/-- Feature 5 of edge e is its type, a 32-bit word, read signed as a real number. -/
theorem v35_type (e : Fin 500000) :
    (V8 m outs c main_v35 : S500000x6.Idx → EReal) (ix2 e ⟨5, by omega⟩)
      = ((((V0 m c main_arg3 : S500000.Idx → BitVec 32) (ix1 e)).toInt : ℝ) : EReal) := by
  rw [v35_eq]
  rw [concatenate_apply_piece (t := S500000x6) (1 : Fin 2) [⟨S500000x2, _⟩, ⟨S500000x3, _⟩, ⟨S500000x1, _⟩] _ (ix2 e ⟨5, by omega⟩)
    2 (by show (2 : ℕ) < 3; decide) S500000x1 _ rfl rfl 5 rfl (ix2 e ⟨0, by omega⟩)
    (fun b hb => by match b with
      | ⟨0, _⟩ => rfl
      | ⟨1, _⟩ => exact absurd rfl hb)
    rfl]
  rw [shapeCast_apply _ Facts₀.shapeCasts_S500000_S500000x1 (ix2 e ⟨0, by omega⟩) (ix1 e)
    (by rewrite [Shape.rowMajor_val_one, Shape.rowMajor_val_two]; show e.val = e.val * 1 + 0; omega)]
  rfl

/-! ## The bond table -/

/-! The operand indices of the 100 x 128 by 128 x 128 product at output index i and contraction index q: (i 0, q) on
    the left, (q, i 1) on the right. -/
theorem bond_lhs0 (i : S100x128.Idx) (q : dot_S100x128_S128x128_S100x128_1_0_0_1_n_n.contr.Idx) : (dot_S100x128_S128x128_S100x128_1_0_0_1_n_n.lhsIdx i q 0).val = (i 0).val := by
  unfold DotDims.lhsIdx
  rw [dif_neg (show ¬(0 : Fin S100x128.rank) ∈ dot_S100x128_S128x128_S100x128_1_0_0_1_n_n.lhsBatch by decide), dif_pos (show (0 : Fin S100x128.rank) ∈ dot_S100x128_S128x128_S100x128_1_0_0_1_n_n.lhsNonContracting by decide)]
  rfl
theorem bond_lhs1 (i : S100x128.Idx) (q : dot_S100x128_S128x128_S100x128_1_0_0_1_n_n.contr.Idx) : (dot_S100x128_S128x128_S100x128_1_0_0_1_n_n.lhsIdx i q 1).val = (q ⟨0, by decide⟩).val :=
  dot_S100x128_S128x128_S100x128_1_0_0_1_n_n.lhsIdx_val_of_single rfl i q
theorem bond_rhs0 (i : S100x128.Idx) (q : dot_S100x128_S128x128_S100x128_1_0_0_1_n_n.contr.Idx) : (dot_S100x128_S128x128_S100x128_1_0_0_1_n_n.rhsIdx i q 0).val = (q ⟨0, by decide⟩).val :=
  dot_S100x128_S128x128_S100x128_1_0_0_1_n_n.rhsIdx_val_of_single rfl i q
theorem bond_rhs1 (i : S100x128.Idx) (q : dot_S100x128_S128x128_S100x128_1_0_0_1_n_n.contr.Idx) : (dot_S100x128_S128x128_S100x128_1_0_0_1_n_n.rhsIdx i q 1).val = (i 1).val := by
  unfold DotDims.rhsIdx
  rw [dif_neg (show ¬(1 : Fin S128x128.rank) ∈ dot_S100x128_S128x128_S100x128_1_0_0_1_n_n.rhsBatch by decide), dif_pos (show (1 : Fin S128x128.rank) ∈ dot_S100x128_S128x128_S100x128_1_0_0_1_n_n.rhsNonContracting by decide)]
  rfl

/-- The product at an index, at the ideal reals: the sum over the contracted axis. -/
theorem dot_bond_apply (x : FVec Ideal S100x128 .f32) (w : FVec Ideal S128x128 .f32) (t : Fin 100) (l : Fin 128) :
    Host.dotGeneral (F := Ideal) (φ₁ := .f32) (φ₂ := .f32) dot_S100x128_S128x128_S100x128_1_0_0_1_n_n none x w (ix2 t l) = ∑ k : Fin 128, x (ix2 t k) * w (ix2 k l) := by
  simp only [Host.dotGeneral]
  rw [Ideal.dotGeneral_apply, ← Equiv.sum_comp (ValueIdx.contrEquiv1 dot_S100x128_S128x128_S100x128_1_0_0_1_n_n 128 rfl rfl).symm]
  refine Finset.sum_congr rfl fun k _ => ?_
  have hk := ValueIdx.contrEquiv1_symm_val dot_S100x128_S128x128_S100x128_1_0_0_1_n_n 128 rfl rfl k
  have el : dot_S100x128_S128x128_S100x128_1_0_0_1_n_n.lhsIdx (ix2 t l) ((ValueIdx.contrEquiv1 dot_S100x128_S128x128_S100x128_1_0_0_1_n_n 128 rfl rfl).symm k) = ix2 t k := funext fun a => Fin.ext (by
    match a with
    | ⟨0, _⟩ => exact bond_lhs0 _ _
    | ⟨1, _⟩ => exact (bond_lhs1 _ _).trans hk)
  have er : dot_S100x128_S128x128_S100x128_1_0_0_1_n_n.rhsIdx (ix2 t l) ((ValueIdx.contrEquiv1 dot_S100x128_S128x128_S100x128_1_0_0_1_n_n 128 rfl rfl).symm k) = ix2 k l := funext fun a => Fin.ext (by
    match a with
    | ⟨0, _⟩ => exact (bond_rhs0 _ _).trans hk
    | ⟨1, _⟩ => exact bond_rhs1 _ _)
  rw [el, er]

/-- The three stretches of host operations that make the bond table, each from ANY contents W. -/
theorem v26_of (W : Valuation τ sig (Elt Ideal)) : StableHlo.after hostOps1 W (Proc.devRef .tc main_v26) =
    Host.dotGeneral (F := Ideal) (φ₁ := .f32) (φ₂ := .f32) dot_S100x128_S128x128_S100x128_1_0_0_1_n_n none (W main_arg9 : FVec Ideal S100x128 .f32)
      (extractStridedSlice S128x128 ![258, 0] (W main_arg10 : FVec Ideal S386x128 .f32) Facts₀.slices_S386x128_S128x128_258_0 : FVec Ideal S128x128 .f32) := by
  after_results

theorem c_of (W : Valuation τ sig (Elt Ideal)) : StableHlo.after hostOps1 W (Proc.devRef .tc main_c) = constantI S_ 32 0#32 := by
  after_results

theorem v27_of (W : Valuation τ sig (Elt Ideal)) : StableHlo.after hostOps1_1 W (Proc.devRef .tc main_v27) =
    pad S128x128 ![0, 0] ![28, 0] ![0, 0] (W main_v26) (sitofp (F := Ideal) .f32 (W main_c))
      Facts₀.pads_S100x128_S128x128_0280_000 Facts₀.h_S_ := by
  after_results_simp
  simp only [↓ofBuf_toBuf]
  simp only [TRef.toBuf, TRef.ofBuf, cast_eq]

theorem v28_of (W : Valuation τ sig (Elt Ideal)) : StableHlo.after hostOps1_2 W (Proc.devRef .tc main_v28) =
    truncf (F := Ideal) .bf16 (W main_v27 : FVec Ideal S128x128 .f32) Facts₀.bitsLt_bf16_f32 := by
  after_results

/-- The bond table at region 1's entry, over the launch contents: the bond embedding times rows 258..385 of the first
    layer's weights, padded below with 28 rows of the padding value, narrowed to the kernel's element type. -/
theorem v28_eq : V8 m outs c main_v28 =
    truncf (F := Ideal) .bf16 (pad S128x128 ![0, 0] ![28, 0] ![0, 0]
      (Host.dotGeneral (F := Ideal) (φ₁ := .f32) (φ₂ := .f32) dot_S100x128_S128x128_S100x128_1_0_0_1_n_n none (V0 m c main_arg9 : FVec Ideal S100x128 .f32)
        (extractStridedSlice S128x128 ![258, 0] (V0 m c main_arg10 : FVec Ideal S386x128 .f32) Facts₀.slices_S386x128_S128x128_258_0 : FVec Ideal S128x128 .f32))
      (sitofp (F := Ideal) .f32 (constantI S_ 32 0#32)) Facts₀.pads_S100x128_S128x128_0280_000 Facts₀.h_S_ : FVec Ideal S128x128 .f32) Facts₀.bitsLt_bf16_f32 := by
  rw [← arg9_at5 m outs c, ← arg10_at5 m outs c]
  have e8 := v28_of (V7 m outs c)
  have e7 := v27_of (V6 m outs c)
  have e6 := v26_of (V5 m outs c)
  have e6c := c_of (V5 m outs c)
  exact e8.trans (by rw [show V7 m outs c main_v27 = _ from e7, show V6 m outs c main_v26 = _ from e6, show V6 m outs c main_c = _ from e6c])

/-- Row t < 100 of the bond table: the product's row t. -/
theorem v28_at (t : Fin 100) (l : Fin 128) :
    (V8 m outs c main_v28 : S128x128.Idx → EReal) (ix2 ⟨t.val, by omega⟩ l)
      = ∑ k : Fin 128, aBond m c t k * aW1 m c ⟨258 + k.val, by omega⟩ l := by
  unfold aBond aW1
  rw [v28_eq]
  rw [ValueIdx.truncf_apply]
  rw [pad_apply_of_inside ![0, 0] ![28, 0] ![0, 0] _ _ Facts₀.pads_S100x128_S128x128_0280_000 Facts₀.h_S_ (ix2 ⟨t.val, by omega⟩ l) (ix2 t l)
    (fun a => by match a with
      | ⟨0, _⟩ => show t.val = 0 + t.val * (0 + 1); omega
      | ⟨1, _⟩ => show l.val = 0 + l.val * (0 + 1); omega)]
  rw [dot_bond_apply]
  refine Finset.sum_congr (M := EReal) rfl fun k _ => ?_
  congr 1
  exact extractStridedSlice_apply ![258, 0] _ Facts₀.slices_S386x128_S128x128_258_0 (ix2 k l) (ix2 ⟨258 + k.val, by omega⟩ l)
    (fun a => match a with
      | ⟨0, _⟩ => by show 258 + k.val = 258 + k.val; rfl
      | ⟨1, _⟩ => by show l.val = 0 + l.val; omega)

end Host1

end Cert.KernelIdeal.Hand

end
-- ==== Proof.KI.Val1.lean ====
import proofs.«426145_j45973329936455_2_alg».proof.Proof.KI.Pay1
import proofs.«426145_j45973329936455_2_alg».proof.Proof.SpecLemmas
import proofs.«426145_j45973329936455_2_alg».proof.Proof.KI.Host1
import proofs.«426145_j45973329936455_2_alg».proof.Proof.KI.Host1b
import proofs.«426145_j45973329936455_2_alg».proof.Proof.KI.Final1

/-! The second kernel region's output, entry by entry, is the per-edge update of the argument arrays. A grid point reads
    one block of 4096 rows of the two endpoint feature arrays and of the packed edge array, and the whole of every
    weight array; the value it stores at a row is the row formula of the body's arithmetic over those blocks. Row by
    row the blocks hold the node features at the edge's two endpoints, the edge's attributes, coordinate difference
    and bond type, and the weights: the first layer's sum over the 386 input columns is cut at its seams (128 + 128
    + 2 + 128), the last part being the bond embedding's row of the edge's type against the weights' rows 258 to
    385, which is that row of the product the host formed beforehand; the one-hot row of the type picks it. The last
    block is cut at the array's end: only its rows inside the array are read. -/
set_option maxRecDepth 1092

noncomputable section

namespace Cert.KernelIdeal.Hand

open Cert.KernelIdeal Cert.KernelIdeal.Gen
open Idealize.ShloMosaic Idealize.ShloMosaic.TcCoe Idealize.ShloMosaic.ValueIdx Cert.Hand

/-! ## The stored row is the per-edge update -/

section Row

variable (x0 x1 : Vec Ideal S4096x128 .f32) (x2 : Vec Ideal S4096x6 .f32) (x3 x4 : Vec Ideal S128x128 .bf16)
  (x5 : Vec Ideal S2x128 .f32) (x6 : Vec Ideal S128x128 .bf16) (x7 : Vec Ideal S1x128 .f32)
  (x8 : Vec Ideal S128x128 .bf16) (x9 : Vec Ideal S1x128 .f32) (x10 : Vec Ideal S128x1 .bf16)
variable (h_a : Fin 50000 → Fin 128 → EReal) (row col : Fin 500000 → Fin 50000) (typ : Fin 500000 → Fin 100)
  (attr : Fin 500000 → Fin 2 → EReal) (cdiff : Fin 500000 → Fin 3 → EReal) (bond : Fin 100 → Fin 128 → EReal)
  (aW1 : Fin 386 → Fin 128 → EReal) (ab1 : Fin 128 → EReal) (aW2 : Fin 128 → Fin 128 → EReal) (ab2 : Fin 128 → EReal)
  (aW3 : Fin 128 → Fin 1 → EReal)

/-- When block row r holds edge e's data — both endpoints' features, the two attributes, the coordinate difference and the
    bond type as a number in the packed columns — and the weight blocks hold the first layer's weights cut at the seams
    of its input row, the bond table already multiplied into its part, the row the body stores is the per-edge update. -/
theorem row_eq_transAtom (r : Fin 4096) (e : Fin 500000) (tw : BitVec 32)
    (h0 : ∀ k : Fin 128, x0 (ix2 r k) = h_a (row e) k)
    (h1 : ∀ k : Fin 128, x1 (ix2 r k) = h_a (col e) k)
    (h2a0 : x2 (ix2 r (0 : Fin 6)) = attr e 0) (h2a1 : x2 (ix2 r (1 : Fin 6)) = attr e 1)
    (h2c : ∀ j : Fin 3, x2 (ix2 r ⟨2 + j.val, by have := j.isLt; omega⟩) = cdiff e j)
    (h2t : x2 (ix2 r (5 : Fin 6)) = ((tw.toInt : ℝ) : EReal)) (htw : tw.toNat = (typ e).val)
    (h3 : ∀ k l : Fin 128, x3 (ix2 k l) = aW1 ⟨k.val, by have := k.isLt; omega⟩ l)
    (h4 : ∀ k l : Fin 128, x4 (ix2 k l) = aW1 ⟨128 + k.val, by have := k.isLt; omega⟩ l)
    (h50 : ∀ l : Fin 128, x5 (ix2 (0 : Fin 2) l) = aW1 ⟨256, by omega⟩ l)
    (h51 : ∀ l : Fin 128, x5 (ix2 (1 : Fin 2) l) = aW1 ⟨257, by omega⟩ l)
    (h6 : ∀ (t : Fin 100) (l : Fin 128), x6 (ix2 ⟨t.val, by have := t.isLt; omega⟩ l)
      = ∑ k : Fin 128, bond t k * aW1 ⟨258 + k.val, by have := k.isLt; omega⟩ l)
    (h7 : ∀ l : Fin 128, x7 (ix2 (0 : Fin 1) l) = ab1 l)
    (h8 : ∀ l k : Fin 128, x8 (ix2 l k) = aW2 l k)
    (h9 : ∀ k : Fin 128, x9 (ix2 (0 : Fin 1) k) = ab2 k)
    (h10 : ∀ k : Fin 128, x10 (ix2 k (0 : Fin 1)) = aW3 k 0)
    (j : Fin 3) :
    P1 x0 x1 x2 x3 x4 x5 x6 x7 x8 x9 x10 (ix2 r j)
      = Spec.transAtom h_a row col typ attr cdiff bond aW1 ab1 aW2 ab2 aW3 e j := by
  have hE : eType x2 r = tw := by unfold eType; rw [h2t]; exact fptosi_sitofp tw
  have ht : (eType x2 r).toNat < 128 := by rw [hE, htw]; have := (typ e).isLt; omega
  have hz1 : ∀ l, eZ1 x0 x1 x2 x3 x4 x5 x6 x7 r l = Spec.z1A h_a row col typ attr bond aW1 ab1 e l := fun l => by
    rw [Spec.z1A_split]
    unfold eZ1
    rw [onehot_sum x2 x6 r l ht, h2a0, h2a1, h50, h51, h7]
    have hq : (⟨(eType x2 r).toNat, ht⟩ : Fin 128) = ⟨(typ e).val, by have := (typ e).isLt; omega⟩ := Fin.ext (by show (eType x2 r).toNat = (typ e).val; rw [hE, htw])
    rw [hq, h6 (typ e) l]
    simp only [h0, h1, h3, h4]
  have hz2 : ∀ k, eZ2 x0 x1 x2 x3 x4 x5 x6 x7 x8 x9 r k = Spec.z2A h_a row col typ attr bond aW1 ab1 aW2 ab2 e k := fun k => by
    unfold eZ2 Spec.z2A
    simp only [hz1, h8, h9]
  have hm : eM x0 x1 x2 x3 x4 x5 x6 x7 x8 x9 x10 r = Spec.mA h_a row col typ attr bond aW1 ab1 aW2 ab2 aW3 e := by
    unfold eM Spec.mA
    simp only [hz2, h10]
  rw [P1_apply, hm, h2c]
  rfl

end Row

/-! ## The second region's output array is the per-edge update -/

section Glue

variable (m : (ℓ : Loc nD τ sig) → Buf (Elt Ideal) ℓ) (outs : Outs (F := Ideal)) (c : Dev nD)

/-- The place of edge e's row inside its block of 4096 rows. -/
abbrev erow (e : Fin 500000) : Fin 4096 := ⟨e.val % 4096, Nat.mod_lt _ (by decide)⟩

/-- Edge e is row e % 4096 of the block of point e / 4096, -/
theorem edge_row (e : Fin 500000) (j : Fin 3) : (ptOf (ix2 e j)).val * 4096 + (erow e).val = e.val :=
  Nat.div_add_mod' e.val 4096
/-- which is a row of the array, -/
theorem edge_row_lt (e : Fin 500000) (j : Fin 3) : (ptOf (ix2 e j)).val * 4096 + (erow e).val < 500000 := by
  rw [edge_row]; exact e.isLt
/-- namely row e. -/
theorem edge_row_eq (e : Fin 500000) (j : Fin 3) :
    (⟨(ptOf (ix2 e j)).val * 4096 + (erow e).val, edge_row_lt e j⟩ : Fin 500000) = e := Fin.ext (edge_row e j)

attribute [local irreducible] blockOut1 G1 out1 in
/-- The second region's output array at edge e and axis j is the per-edge update of the argument arrays, when every
    endpoint index is below 50000 and every bond type below 100. -/
theorem val1
    (hidx : ∀ i, ((m ((c : Thread nD τ).loc main_arg2) : S2x500000.Idx → BitVec 32) i).toNat < 50000)
    (htyp : ∀ i, ((m ((c : Thread nD τ).loc main_arg3) : S500000.Idx → BitVec 32) i).toNat < 100)
    (e : Fin 500000) (j : Fin 3) :
    G1 (fun c b => V8 m outs c b) c (ix2 e j)
      = Spec.transAtom (fun i k => (m ((c : Thread nD τ).loc main_arg0) : S50000x128.Idx → EReal) (ix2 i k))
          (fun e => ⟨((m ((c : Thread nD τ).loc main_arg2) : S2x500000.Idx → BitVec 32) (ix2 (0 : Fin 2) e)).toNat, hidx _⟩)
          (fun e => ⟨((m ((c : Thread nD τ).loc main_arg2) : S2x500000.Idx → BitVec 32) (ix2 (1 : Fin 2) e)).toNat, hidx _⟩)
          (fun e => ⟨((m ((c : Thread nD τ).loc main_arg3) : S500000.Idx → BitVec 32) (ix1 e)).toNat, htyp _⟩)
          (fun i k => (m ((c : Thread nD τ).loc main_arg4) : S500000x2.Idx → EReal) (ix2 i k))
          (fun i k => (m ((c : Thread nD τ).loc main_arg5) : S500000x3.Idx → EReal) (ix2 i k))
          (fun i k => (m ((c : Thread nD τ).loc main_arg9) : S100x128.Idx → EReal) (ix2 i k))
          (fun i k => (m ((c : Thread nD τ).loc main_arg10) : S386x128.Idx → EReal) (ix2 i k))
          (fun k => (m ((c : Thread nD τ).loc main_arg11) : S128.Idx → EReal) (ix1 k))
          (fun i k => (m ((c : Thread nD τ).loc main_arg12) : S128x128.Idx → EReal) (ix2 i k))
          (fun k => (m ((c : Thread nD τ).loc main_arg13) : S128.Idx → EReal) (ix1 k))
          (fun i k => (m ((c : Thread nD τ).loc main_arg14) : S128x1.Idx → EReal) (ix2 i k)) e j := by
  rw [G1_apply]
  show blockOut1 (fun c b => V8 m outs c b) c (ptOf (ix2 e j)) (ix2 (erow e) j) = _
  unfold blockOut1
  rw [out1_eq_pay]
  refine row_eq_transAtom (in1_0 (fun c b => V8 m outs c b) c (ptOf (ix2 e j))) (in1_1 (fun c b => V8 m outs c b) c (ptOf (ix2 e j)))
    (in1_2 (fun c b => V8 m outs c b) c (ptOf (ix2 e j))) (iblk1 (fun c b => V8 m outs c b) c 3 (ptOf (ix2 e j)))
    (iblk1 (fun c b => V8 m outs c b) c 4 (ptOf (ix2 e j))) (iblk1 (fun c b => V8 m outs c b) c 5 (ptOf (ix2 e j)))
    (iblk1 (fun c b => V8 m outs c b) c 6 (ptOf (ix2 e j))) (iblk1 (fun c b => V8 m outs c b) c 7 (ptOf (ix2 e j)))
    (iblk1 (fun c b => V8 m outs c b) c 8 (ptOf (ix2 e j))) (iblk1 (fun c b => V8 m outs c b) c 9 (ptOf (ix2 e j)))
    (iblk1 (fun c b => V8 m outs c b) c 10 (ptOf (ix2 e j))) _ _ _ _ _ _ _ _ _ _ _ _
    (erow e) e ((m ((c : Thread nD τ).loc main_arg3) : S500000.Idx → BitVec 32) (ix1 e))
    ?h0 ?h1 ?h2a0 ?h2a1 ?h2c ?h2t ?htw ?h3 ?h4 ?h50 ?h51 ?h6 ?h7 ?h8 ?h9 ?h10 j
  case htw => rfl
  case h0 =>
    intro k
    rw [in1_0_apply (fun c b => V8 m outs c b) c (ptOf (ix2 e j)) (erow e) k (edge_row_lt e j), edge_row_eq e j]
    exact v4_at m outs c hidx e k
  case h1 =>
    intro k
    rw [in1_1_apply (fun c b => V8 m outs c b) c (ptOf (ix2 e j)) (erow e) k (edge_row_lt e j), edge_row_eq e j]
    exact v5_at m outs c hidx e k
  case h2a0 =>
    rw [in1_2_apply (fun c b => V8 m outs c b) c (ptOf (ix2 e j)) (erow e) 0 (edge_row_lt e j), edge_row_eq e j]
    exact v35_attr m outs c e 0
  case h2a1 =>
    rw [in1_2_apply (fun c b => V8 m outs c b) c (ptOf (ix2 e j)) (erow e) 1 (edge_row_lt e j), edge_row_eq e j]
    exact v35_attr m outs c e 1
  case h2c =>
    intro j'
    rw [in1_2_apply (fun c b => V8 m outs c b) c (ptOf (ix2 e j)) (erow e) _ (edge_row_lt e j), edge_row_eq e j]
    exact v35_cdiff m outs c e j'
  case h2t =>
    rw [in1_2_apply (fun c b => V8 m outs c b) c (ptOf (ix2 e j)) (erow e) 5 (edge_row_lt e j), edge_row_eq e j]
    exact v35_type m outs c e
  case h3 => intro k l; rw [iblk1_3_eq]; exact v29_at m outs c k l
  case h4 => intro k l; rw [iblk1_4_eq]; exact v30_at m outs c k l
  case h50 => intro l; rw [iblk1_5_eq]; exact v22_at m outs c 0 l
  case h51 => intro l; rw [iblk1_5_eq]; exact v22_at m outs c 1 l
  case h6 => intro t l; rw [iblk1_6_eq]; exact v28_at m outs c t l
  case h7 => intro l; rw [iblk1_7_eq]; exact v24_at m outs c 0 l
  case h8 => intro l k; rw [iblk1_8_eq]; exact congrFun (v31_eq m outs c) (ix2 l k)
  case h9 => intro k; rw [iblk1_9_eq]; exact v25_at m outs c 0 k
  case h10 => intro k; rw [iblk1_10_eq]; exact congrFun (v32_eq m outs c) (ix2 k 0)

end Glue

end Cert.KernelIdeal.Hand
-- ==== Proof.KI.Tail.lean ====
/-
  The last stretch of host operations of the kernel program, read as one function. After the second kernel
  region the program adds up the per-edge updates by source node (a scatter-add into zeros at the edge list's
  first row), divides by one hundred, adds the node coordinates and adds the per-node update the first region left.
  The result array after the run is that function of: the node coordinates as launched, the edge list's first row as
  launched, what the second region leaves in its output array and what the first region leaves in its output array.
-/
import proofs.«426145_j45973329936455_2_alg».proof.Proof.Gen.KernelIdeal.Regions
import Idealize.ShloMosaic.Lib.StableHlo.Run
import Idealize.ShloMosaic.PureOps.Ideal
import Idealize.ShloMosaic.Lib.ValueIdx
import Idealize.ShloMosaic.Lib.ValueLayout

set_option maxRecDepth 1092

noncomputable section

namespace Cert.KernelIdeal.Hand

open Cert.KernelIdeal Cert.KernelIdeal.Gen
open Idealize.ShloMosaic Idealize.ShloMosaic.TcCoe Idealize.SL.Sem Idealize.ShloMosaic.StableHlo
  Idealize.ShloMosaic.ValueIdx

/-- The edge list's first row (the source node of each edge) as a vector: row 0 of the 2 × 500000 array,
    cut out and flattened. -/
def rowOf (a2 : IVec S2x500000 32) : IVec S500000 32 :=
  shapeCast S500000 (extractStridedSlice S1x500000 ![0, 0] a2 Facts₀.slices_S2x500000_S1x500000_0_0)
    Facts₀.shapeCasts_S1x500000_S500000

/-- Entry e of the first row is entry (0, e) of the edge list. -/
theorem rowOf_apply (a2 : IVec S2x500000 32) (e : Fin 500000) : rowOf a2 (ix1 e) = a2 (ix2 0 e) := by
  unfold rowOf
  rw [shapeCast_1a_a_apply]
  exact slice2_axis0_apply 0 a2 _ (0 : Fin 1) e (0 : Fin 2) rfl

/-- The tail: the node coordinates, plus the per-edge updates added up by source node (from zero) and divided by
    one hundred, plus the per-node update. -/
def tailK (x_a : FVec Ideal S50000x3 .f32) (row : IVec S500000 32) (ta : FVec Ideal S500000x3 .f32)
    (tf : FVec Ideal S50000x3 .f32) : FVec Ideal S50000x3 .f32 :=
  addf (F := Ideal) (addf (F := Ideal) x_a
    (Host.divf (F := Ideal)
      (Host.scatterAdd (F := Ideal) scatter_S50000x3_S500000x1_S500000x3_1_0_0_1
        (broadcastInDim S50000x3 ![] Facts₀.bcast_S_S50000x3 (constant (F := Ideal) S_ .f32 0x00000000#32))
        (broadcastInDim S500000x1 ![0] Facts₀.bcast_S500000_S500000x1_0 row) ta)
      (broadcastInDim S50000x3 ![] Facts₀.bcast_S_S50000x3 (constant (F := Ideal) S_ .f32 0x42C80000#32)))) tf

variable (m : (ℓ : Loc nD τ sig) → Buf (Elt Ideal) ℓ) (outs : Outs (F := Ideal))

/-- After the first four host operations the row vector's buffer holds the launched edge list's first row. -/
theorem V1_v1 (c : Dev nD) : V1 m c main_v1 = rowOf (m ((c.tc : Thread nD τ).loc main_arg2)) := by
  show StableHlo.after hostOps0 (fun b => m (c, b)) (Proc.devRef .tc main_v1) = _
  after_results
  rfl

/-- No later item before the last stretch writes the row vector's buffer. -/
theorem V9_v1 (c : Dev nD) : V9 m outs c main_v1 = rowOf (m ((c.tc : Thread nD τ).loc main_arg2)) :=
  (V9_of m outs c main_v1 (by decide)).trans <| (V8_of m outs c main_v1 (by decide)).trans <|
  (V7_of m outs c main_v1 (by decide)).trans <| (V6_of m outs c main_v1 (by decide)).trans <|
  (V5_of m outs c main_v1 (by decide)).trans <| (V4_of m c main_v1 (by decide)).trans <|
  (V3_of m c main_v1 (by decide)).trans <| (V2_of m c main_v1 (by decide)).trans <| V1_v1 m c

/-- No item before the last stretch writes the node coordinates. -/
theorem V9_arg1 (c : Dev nD) : V9 m outs c main_arg1 = m ((c.tc : Thread nD τ).loc main_arg1) :=
  (V10_of m outs c main_arg1 (by decide)).symm.trans (V10_main_arg1 m outs c)

/-- The second region's output array holds what that region leaves there. -/
theorem V9_v36 (c : Dev nD) : V9 m outs c main_v36 = outs 9 main_v36 c :=
  Function.update_self ..

/-- The first region's output array holds what that region leaves there: no later item before the last
    stretch writes it. -/
theorem V9_v19 (c : Dev nD) : V9 m outs c main_v19 = outs 5 main_v19 c :=
  (V9_of m outs c main_v19 (by decide)).trans <| (V8_of m outs c main_v19 (by decide)).trans <|
  (V7_of m outs c main_v19 (by decide)).trans <| (V6_of m outs c main_v19 (by decide)).trans <|
  Function.update_self ..

/-- THE RESULT: after the run's last stretch the result array is the tail of the launched node coordinates, the
    launched edge list's first row, and what the two regions leave in their output arrays. -/
theorem result_eq (c : Dev nD) :
    V10 m outs c main_v43
      = tailK (m ((c.tc : Thread nD τ).loc main_arg1)) (rowOf (m ((c.tc : Thread nD τ).loc main_arg2)))
          (outs 9 main_v36 c) (outs 5 main_v19 c) := by
  have e1 := V9_arg1 m outs c
  have e2 := V9_v1 m outs c
  have e3 := V9_v36 m outs c
  have e4 := V9_v19 m outs c
  show StableHlo.after hostOps2 (V9 m outs c) (Proc.devRef .tc main_v43) = _
  generalize V9 m outs c = W at e1 e2 e3 e4 ⊢
  after_results_simp
  rw [e1, e2, e3, e4]
  unfold tailK
  with_reducible rfl

end Cert.KernelIdeal.Hand

end
-- ==== Proof.RefRun.lean ====
import proofs.«426145_j45973329936455_2_alg».proof.Defs
import proofs.«426145_j45973329936455_2_alg».proof.Proof.Gen.Pre_finite_inputs
import proofs.«426145_j45973329936455_2_alg».proof.Proof.Gen.ReferenceIdeal.Run
import proofs.«426145_j45973329936455_2_alg».proof.Proof.Gen.ReferenceIdeal.Read
import proofs.«426145_j45973329936455_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.StableHlo.Predicate

/-! The reference program read as mathematics. Its run ends with the result array at one function of the
    twenty argument arrays (`refResult`), the arguments unchanged. That function is a fixed tail — the node
    coordinates plus a hundredth of the per-edge updates summed by source node plus the per-node update —
    applied to two sub-results, and each sub-result, entry by entry, is the specification's closed form
    (`Cert.Hand.Spec.transFrag`, `Cert.Hand.Spec.transAtom`) of the curried argument arrays. -/

noncomputable section

namespace Cert.ReferenceIdeal.Hand

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.StableHlo.Predicate Cert.Hand

/-! ## The run -/

/-- The reference terminates on every input with its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result as a function of its twenty argument arrays: the last stage of the program. -/
def refResult (a0 : (⟨S50000x128, .f32⟩ : BufTy).Contents (Elt Ideal)) (a1 : (⟨S50000x3, .f32⟩ : BufTy).Contents (Elt Ideal)) (a2 : (⟨S2x500000, .i32⟩ : BufTy).Contents (Elt Ideal)) (a3 : (⟨S500000, .i32⟩ : BufTy).Contents (Elt Ideal)) (a4 : (⟨S500000x2, .f32⟩ : BufTy).Contents (Elt Ideal)) (a5 : (⟨S500000x3, .f32⟩ : BufTy).Contents (Elt Ideal)) (a6 : (⟨S2000x128, .f32⟩ : BufTy).Contents (Elt Ideal)) (a7 : (⟨S2000x3, .f32⟩ : BufTy).Contents (Elt Ideal)) (a8 : (⟨S50000x2000, .f32⟩ : BufTy).Contents (Elt Ideal)) (a9 : (⟨S100x128, .f32⟩ : BufTy).Contents (Elt Ideal)) (a10 : (⟨S386x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x1, .f32⟩ : BufTy).Contents (Elt Ideal)) (a15 : (⟨S258x128, .f32⟩ : BufTy).Contents (Elt Ideal)) (a16 : (⟨S128, .f32⟩ : BufTy).Contents (Elt Ideal)) (a17 : (⟨S128x128, .f32⟩ : BufTy).Contents (Elt Ideal)) (a18 : (⟨S128, .f32⟩ : BufTy).Contents (Elt Ideal)) (a19 : (⟨S128x1, .f32⟩ : BufTy).Contents (Elt Ideal)) :
    (⟨S50000x3, .f32⟩ : BufTy).Contents (Elt Ideal) :=
  val_main_v78 (F := Ideal) a0 a1 a2 a3 a4 a5 a6 a7 a8 a9 a10 a11 a12 a13 a14 a15 a16 a17 a18 a19

/-- Every weakly fair execution of the reference ends with the result array at `refResult` of the arguments'
    launch contents and the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c).1.trans (val_main_v78_eq (F := Ideal) m c), (h c).2⟩)
    (Cert.ReferenceIdeal.Value.run (F := Ideal) m ρ)

/-! ## The tail: what the result is of the two sub-results -/

/-- The edge list's source row as a vector of node numbers. -/
def rowOf (a2 : (⟨S2x500000, .i32⟩ : BufTy).Contents (Elt Ideal)) : (⟨S500000, .i32⟩ : BufTy).Contents (Elt Ideal) :=
  val_main_v1 (F := Ideal) a2

/-- The per-edge update, a 500000 × 3 array. -/
def TA (a0 : (⟨S50000x128, .f32⟩ : BufTy).Contents (Elt Ideal)) (a2 : (⟨S2x500000, .i32⟩ : BufTy).Contents (Elt Ideal)) (a3 : (⟨S500000, .i32⟩ : BufTy).Contents (Elt Ideal)) (a4 : (⟨S500000x2, .f32⟩ : BufTy).Contents (Elt Ideal)) (a5 : (⟨S500000x3, .f32⟩ : BufTy).Contents (Elt Ideal)) (a9 : (⟨S100x128, .f32⟩ : BufTy).Contents (Elt Ideal)) (a10 : (⟨S386x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x1, .f32⟩ : BufTy).Contents (Elt Ideal)) :
    (⟨S500000x3, .f32⟩ : BufTy).Contents (Elt Ideal) :=
  val_main_v66 (F := Ideal) a0 a2 a3 a4 a5 a9 a10 a11 a12 a13 a14

/-- The per-node update, a 50000 × 3 array. -/
def TF (a0 : (⟨S50000x128, .f32⟩ : BufTy).Contents (Elt Ideal)) (a1 : (⟨S50000x3, .f32⟩ : BufTy).Contents (Elt Ideal)) (a6 : (⟨S2000x128, .f32⟩ : BufTy).Contents (Elt Ideal)) (a7 : (⟨S2000x3, .f32⟩ : BufTy).Contents (Elt Ideal)) (a8 : (⟨S50000x2000, .f32⟩ : BufTy).Contents (Elt Ideal)) (a15 : (⟨S258x128, .f32⟩ : BufTy).Contents (Elt Ideal)) (a16 : (⟨S128, .f32⟩ : BufTy).Contents (Elt Ideal)) (a17 : (⟨S128x128, .f32⟩ : BufTy).Contents (Elt Ideal)) (a18 : (⟨S128, .f32⟩ : BufTy).Contents (Elt Ideal)) (a19 : (⟨S128x1, .f32⟩ : BufTy).Contents (Elt Ideal)) :
    (⟨S50000x3, .f32⟩ : BufTy).Contents (Elt Ideal) :=
  val_main_v71 (F := Ideal) a0 a1 a6 a7 a8 a15 a16 a17 a18 a19

/-- The tail: the node coordinates, plus the per-edge updates added up by source node (from zero) and divided by
    one hundred, plus the per-node update. -/
def tailFn (x_a : FVec Ideal S50000x3 .f32) (row : IVec S500000 32) (ta : FVec Ideal S500000x3 .f32)
    (tf : FVec Ideal S50000x3 .f32) : FVec Ideal S50000x3 .f32 :=
  addf (F := Ideal) (addf (F := Ideal) x_a
    (Host.divf (F := Ideal)
      (Host.scatterAdd (F := Ideal) scatter_S50000x3_S500000x1_S500000x3_1_0_0_1
        (broadcastInDim S50000x3 ![] bcast_S_S50000x3 (constant (F := Ideal) S_ .f32 0x00000000#32))
        (broadcastInDim S500000x1 ![0] bcast_S500000_S500000x1_0 row) ta)
      (broadcastInDim S50000x3 ![] bcast_S_S50000x3 (constant (F := Ideal) S_ .f32 0x42C80000#32)))) tf

/-- The result is the tail of the node coordinates, the source row and the two sub-results. -/
theorem refResult_eq (a0 : (⟨S50000x128, .f32⟩ : BufTy).Contents (Elt Ideal)) (a1 : (⟨S50000x3, .f32⟩ : BufTy).Contents (Elt Ideal)) (a2 : (⟨S2x500000, .i32⟩ : BufTy).Contents (Elt Ideal)) (a3 : (⟨S500000, .i32⟩ : BufTy).Contents (Elt Ideal)) (a4 : (⟨S500000x2, .f32⟩ : BufTy).Contents (Elt Ideal)) (a5 : (⟨S500000x3, .f32⟩ : BufTy).Contents (Elt Ideal)) (a6 : (⟨S2000x128, .f32⟩ : BufTy).Contents (Elt Ideal)) (a7 : (⟨S2000x3, .f32⟩ : BufTy).Contents (Elt Ideal)) (a8 : (⟨S50000x2000, .f32⟩ : BufTy).Contents (Elt Ideal)) (a9 : (⟨S100x128, .f32⟩ : BufTy).Contents (Elt Ideal)) (a10 : (⟨S386x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x1, .f32⟩ : BufTy).Contents (Elt Ideal)) (a15 : (⟨S258x128, .f32⟩ : BufTy).Contents (Elt Ideal)) (a16 : (⟨S128, .f32⟩ : BufTy).Contents (Elt Ideal)) (a17 : (⟨S128x128, .f32⟩ : BufTy).Contents (Elt Ideal)) (a18 : (⟨S128, .f32⟩ : BufTy).Contents (Elt Ideal)) (a19 : (⟨S128x1, .f32⟩ : BufTy).Contents (Elt Ideal)) :
    refResult a0 a1 a2 a3 a4 a5 a6 a7 a8 a9 a10 a11 a12 a13 a14 a15 a16 a17 a18 a19
      = tailFn a1 (rowOf a2) (TA a0 a2 a3 a4 a5 a9 a10 a11 a12 a13 a14) (TF a0 a1 a6 a7 a8 a15 a16 a17 a18 a19) := by
  unfold refResult tailFn rowOf TA TF val_main_v78 val_main_v77 val_main_v76 val_main_v75 val_main_v74 val_main_v73
    val_main_v72 val_main_cst_9 val_main_cst_10
  rfl

/-! ## Curried views, constants, the smooth gate -/

/-- A rank-2 array curried by row and column. -/
abbrev cur2 {n m : Nat} (a : (⟨2, ![n, m]⟩ : Shape).Idx → EReal) : Fin n → Fin m → EReal := fun i k => a (ix2 i k)
/-- A rank-1 array as a function of its position. -/
abbrev cur1 {n : Nat} (a : (⟨1, ![n]⟩ : Shape).Idx → EReal) : Fin n → EReal := fun k => a (ix1 k)

/-- The word 0x3F800000 denotes the real number one: sign 0, exponent field 127 (the bias), fraction 0. -/
theorem ofBits_one_f32 : Ideal.ofBits .f32 0x3F800000#32 = 1 := by
  simp [Ideal.ofBits, Ideal.ieee]
  rw [← EReal.coe_mul]
  norm_num

/-! ## The per-node update, entry by entry -/

section Frag

variable (a0 : (⟨S50000x128, .f32⟩ : BufTy).Contents (Elt Ideal)) (a1 : (⟨S50000x3, .f32⟩ : BufTy).Contents (Elt Ideal)) (a6 : (⟨S2000x128, .f32⟩ : BufTy).Contents (Elt Ideal)) (a7 : (⟨S2000x3, .f32⟩ : BufTy).Contents (Elt Ideal)) (a8 : (⟨S50000x2000, .f32⟩ : BufTy).Contents (Elt Ideal)) (a15 : (⟨S258x128, .f32⟩ : BufTy).Contents (Elt Ideal)) (a16 : (⟨S128, .f32⟩ : BufTy).Contents (Elt Ideal)) (a17 : (⟨S128x128, .f32⟩ : BufTy).Contents (Elt Ideal)) (a18 : (⟨S128, .f32⟩ : BufTy).Contents (Elt Ideal)) (a19 : (⟨S128x1, .f32⟩ : BufTy).Contents (Elt Ideal))

/-- Row i of the assignment matrix against column j of the fragment coordinates. -/
theorem bmX_read (i : Fin 50000) (j : Fin 3) :
    val_main_v11 (F := Ideal) a7 a8 (ix2 i j) = Spec.bmX (cur2 a7) (cur2 a8) i j := by
  rw [val_main_v11_apply]
  unfold Spec.bmX
  refine Finset.sum_congr rfl fun k _ => ?_
  rw [show lidx_main_v11 (ix2 i j) k = ix2 i k from eq_ix2 _, show ridx_main_v11 (ix2 i j) k = ix2 k j from eq_ix2 _]

/-- The node's coordinate minus its fragments' weighted coordinate. -/
theorem cd0_read (i : Fin 50000) (j : Fin 3) :
    val_main_v12 (F := Ideal) a1 a7 a8 (ix2 i j) = Spec.cd0 (cur2 a1) (cur2 a7) (cur2 a8) i j := by
  rw [val_main_v12_apply, bmX_read]
  rfl

/-- Its squared length: the sum from zero of the three squares. -/
theorem radial_read (i : Fin 50000) :
    val_main_v14 (F := Ideal) a1 a7 a8 (ix1 i) = Spec.radial (cur2 a1) (cur2 a7) (cur2 a8) i := by
  rw [val_main_v14_apply, val_main_cst_apply, Ideal.ofBits_def, Ideal.ofBits_zero_f32, zero_add]
  unfold Spec.radial
  refine Finset.sum_congr rfl fun k _ => ?_
  rw [show idx_main_v14 (ix1 i) k = ix2 i k from eq_ix2 _, val_main_v13_apply, cd0_read]
  rfl

/-- The same, kept as a one-column array. -/
theorem radial_col_read (i : Fin 50000) (z : Fin 1) :
    val_main_v15 (F := Ideal) a1 a7 a8 (ix2 i z) = Spec.radial (cur2 a1) (cur2 a7) (cur2 a8) i := by
  rw [val_main_v15_apply, show idx_main_v15 (ix2 i z) = ix1 i from eq_ix1 _, radial_read]

/-- The difference divided by its length plus one. -/
theorem cdn_read (i : Fin 50000) (j : Fin 3) :
    val_main_v22 (F := Ideal) a1 a7 a8 (ix2 i j) = Spec.cdn (cur2 a1) (cur2 a7) (cur2 a8) i j := by
  rw [val_main_v22_apply, cd0_read, val_main_v21_apply, show idx_main_v21 (ix2 i j) = ix2 i (0 : Fin 1) from eq_ix2 _,
    val_main_v20_apply, val_main_v18_apply, val_main_v17_apply, radial_col_read, val_main_v16_apply,
    val_main_cst_1_apply, val_main_v19_apply, val_main_cst_2_apply]
  rfl

/-- Row i of the assignment matrix against column k of the fragment features. -/
theorem bmH_read (i : Fin 50000) (k : Fin 128) :
    val_main_v38 (F := Ideal) a6 a8 (ix2 i k) = Spec.bmH (cur2 a6) (cur2 a8) i k := by
  rw [val_main_v38_apply]
  unfold Spec.bmH
  refine Finset.sum_congr rfl fun q _ => ?_
  rw [show lidx_main_v38 (ix2 i k) q = ix2 i q from eq_ix2 _, show ridx_main_v38 (ix2 i k) q = ix2 q k from eq_ix2 _]

/-- The perceptron's input row: the four arrays laid side by side, read in the piece that holds column q. -/
theorem inpF_read (i : Fin 50000) (q : Fin 258) :
    val_main_v39 (F := Ideal) a0 a1 a6 a7 a8 (ix2 i q) = Spec.inpF (cur2 a0) (cur2 a1) (cur2 a6) (cur2 a7) (cur2 a8) i q := by
  unfold val_main_v39 Spec.inpF
  by_cases h1 : q.val < 128
  · rw [dif_pos h1]
    exact concatenate_apply_piece (1 : Fin 2) _ _ (ix2 i q) 0 (by show (0 : Nat) < 4; decide) S50000x128 a0 rfl rfl 0 rfl
      (ix2 i ⟨q.val, h1⟩) (fun b => match b with | ⟨0, _⟩ => fun _ => rfl | ⟨1, _⟩ => fun h => absurd rfl h)
      (Nat.zero_add _)
  · rw [dif_neg h1]
    by_cases h2 : q.val < 256
    · rw [dif_pos h2]
      refine (concatenate_apply_piece (1 : Fin 2) _ _ (ix2 i q) 1 (by show (1 : Nat) < 4; decide) S50000x128 _ rfl rfl 128 rfl
        (ix2 i ⟨q.val - 128, by omega⟩) (fun b => match b with | ⟨0, _⟩ => fun _ => rfl | ⟨1, _⟩ => fun h => absurd rfl h)
        (by show 128 + (q.val - 128) = q.val; omega)).trans ?_
      exact bmH_read a6 a8 i _
    · rw [dif_neg h2]
      by_cases h3 : q.val < 257
      · refine (concatenate_apply_piece (1 : Fin 2) _ _ (ix2 i q) 2 (by show (2 : Nat) < 4; decide) S50000x1 _ rfl rfl 256 rfl
          (ix2 i (0 : Fin 1)) (fun b => match b with | ⟨0, _⟩ => fun _ => rfl | ⟨1, _⟩ => fun h => absurd rfl h)
          (by show 256 + 0 = q.val; omega)).trans ?_
        exact radial_col_read a1 a7 a8 i _
      · refine (concatenate_apply_piece (1 : Fin 2) _ _ (ix2 i q) 3 (by show (3 : Nat) < 4; decide) S50000x1 _ rfl rfl 257 rfl
          (ix2 i (0 : Fin 1)) (fun b => match b with | ⟨0, _⟩ => fun _ => rfl | ⟨1, _⟩ => fun h => absurd rfl h)
          (by show 257 + 0 = q.val; have := q.isLt; omega)).trans ?_
        exact radial_col_read a1 a7 a8 i _

/-- The first layer before its gate. -/
theorem z1F_read (i : Fin 50000) (l : Fin 128) :
    val_main_v54 (F := Ideal) a0 a1 a6 a7 a8 a15 a16 (ix2 i l) = Spec.z1F (cur2 a0) (cur2 a1) (cur2 a6) (cur2 a7) (cur2 a8) (cur2 a15) (cur1 a16) i l := by
  rw [val_main_v54_apply, val_main_v51_apply, val_main_v53_apply,
    show idx_main_v53 (ix2 i l) = ix2 (0 : Fin 1) l from eq_ix2 _, val_main_v52_apply,
    show idx_main_v52 (ix2 (0 : Fin 1) l) = ix1 l from eq_ix1 _, Ideal.addf_def]
  unfold Spec.z1F
  refine congrArg (· + _) (Finset.sum_congr rfl fun q _ => ?_)
  rw [show lidx_main_v51 (ix2 i l) q = ix2 i q from eq_ix2 _, show ridx_main_v51 (ix2 i l) q = ix2 q l from eq_ix2 _,
    inpF_read]

/-- The first layer's gate, as the program spells it, is the smooth gate. -/
theorem gate1F_read (y : S50000x128.Idx) :
    val_main_v55 (F := Ideal) a0 a1 a6 a7 a8 a15 a16 y
      = Spec.silu (val_main_v54 (F := Ideal) a0 a1 a6 a7 a8 a15 a16 y) := by
  rw [val_main_v55_apply, val_main_call2_v5_apply, val_main_call2_v4_apply, val_main_call2_cst_0_apply,
    val_main_call2_v3_apply, val_main_call2_v2_apply, val_main_call2_cst_apply, val_main_call2_v1_apply,
    val_main_call2_v0_apply]
  simp only [Spec.silu, Ideal.mulf_def, Ideal.hostDivf_def, Ideal.addf_def, Ideal.hostUnary_exp_def, Ideal.hostNegf_def,
    Ideal.negf_def, Ideal.ofBits_def, ofBits_one_f32]

/-- The second layer before its gate. -/
theorem z2F_read (i : Fin 50000) (k : Fin 128) :
    val_main_v59 (F := Ideal) a0 a1 a6 a7 a8 a15 a16 a17 a18 (ix2 i k)
      = Spec.z2F (cur2 a0) (cur2 a1) (cur2 a6) (cur2 a7) (cur2 a8) (cur2 a15) (cur1 a16) (cur2 a17) (cur1 a18) i k := by
  rw [val_main_v59_apply, val_main_v56_apply, val_main_v58_apply,
    show idx_main_v58 (ix2 i k) = ix2 (0 : Fin 1) k from eq_ix2 _, val_main_v57_apply,
    show idx_main_v57 (ix2 (0 : Fin 1) k) = ix1 k from eq_ix1 _, Ideal.addf_def]
  unfold Spec.z2F
  refine congrArg (· + _) (Finset.sum_congr rfl fun l _ => ?_)
  rw [show lidx_main_v56 (ix2 i k) l = ix2 i l from eq_ix2 _, show ridx_main_v56 (ix2 i k) l = ix2 l k from eq_ix2 _,
    gate1F_read, z1F_read]

/-- The second layer's gate is the smooth gate. -/
theorem gate2F_read (y : S50000x128.Idx) :
    val_main_v60 (F := Ideal) a0 a1 a6 a7 a8 a15 a16 a17 a18 y
      = Spec.silu (val_main_v59 (F := Ideal) a0 a1 a6 a7 a8 a15 a16 a17 a18 y) := by
  rw [val_main_v60_apply, val_main_call3_v5_apply, val_main_call3_v4_apply, val_main_call3_cst_0_apply,
    val_main_call3_v3_apply, val_main_call3_v2_apply, val_main_call3_cst_apply, val_main_call3_v1_apply,
    val_main_call3_v0_apply]
  simp only [Spec.silu, Ideal.mulf_def, Ideal.hostDivf_def, Ideal.addf_def, Ideal.hostUnary_exp_def, Ideal.hostNegf_def,
    Ideal.negf_def, Ideal.ofBits_def, ofBits_one_f32]

/-- The perceptron's one output. -/
theorem mF_read (i : Fin 50000) :
    val_main_v61 (F := Ideal) a0 a1 a6 a7 a8 a15 a16 a17 a18 a19 (ix2 i (0 : Fin 1))
      = Spec.mF (cur2 a0) (cur2 a1) (cur2 a6) (cur2 a7) (cur2 a8) (cur2 a15) (cur1 a16) (cur2 a17) (cur1 a18) (cur2 a19) i := by
  rw [val_main_v61_apply]
  unfold Spec.mF
  refine Finset.sum_congr rfl fun k _ => ?_
  rw [show lidx_main_v61 (ix2 i (0 : Fin 1)) k = ix2 i k from eq_ix2 _,
    show ridx_main_v61 (ix2 i (0 : Fin 1)) k = ix2 k (0 : Fin 1) from eq_ix2 _, gate2F_read, z2F_read]

/-- THE PER-NODE UPDATE at row i, column j is the specification's closed form of the curried arguments. -/
theorem transFrag_read (i : Fin 50000) (j : Fin 3) :
    TF a0 a1 a6 a7 a8 a15 a16 a17 a18 a19 (ix2 i j)
      = Spec.transFrag (cur2 a0) (cur2 a1) (cur2 a6) (cur2 a7) (cur2 a8) (cur2 a15) (cur1 a16) (cur2 a17) (cur1 a18) (cur2 a19) i j := by
  unfold TF
  rw [val_main_v71_apply, val_main_v69_apply, cdn_read, val_main_v68_apply,
    show idx_main_v68 (ix2 i j) = ix2 i (0 : Fin 1) from eq_ix2 _, val_main_v67_apply, mF_read, val_main_v70_apply,
    val_main_cst_8_apply]
  rfl

end Frag

/-! ## Taking rows of a table by a column of node numbers -/

section Rows

variable {α : Type}

/-- The dimension numbers of a row take: a table `[N, C]`, one start index per result row (a column `[E, 1]`),
    the table's first axis collapsed and indexed, whole rows of `C` entries copied. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row take at `(e, k)`: the table's entry `k` of the row named by start index `e`, read signed and clamped
    into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowsDims N E C wf).start (ix2 e k) idx 0 + (rowsDims N E C wf).batchCoord (ix2 e k) 0
      + (rowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e k) idx 1 + (rowsDims N E C wf).batchCoord (ix2 e k) 1
      + (rowsDims N E C wf).offCoord (ix2 e k) 1 = k.val
    rw [GatherDims.batchCoord_eq_zero _ _ _ List.not_mem_nil]
    unfold GatherDims.start
    rw [dif_neg (show (1 : Fin 2) ∉ (rowsDims N E C wf).startIndexMap from (by decide : (1 : Fin 2) ∉ ([0] : List (Fin 2))))]
    unfold GatherDims.offCoord
    rw [dif_pos (show (1 : Fin 2) ∈ (rowsDims N E C wf).sKept from
      (GatherDims.mem_sKept _ _).mpr ⟨(by decide : (1 : Fin 2) ∉ ([0] : List (Fin 2))), List.not_mem_nil⟩)]
    show 0 + 0 + k.val = k.val
    omega

end Rows

/-! ## Node numbers in range: the wrap of a negative number does nothing, and the take's clamp keeps the number -/

/-- A non-negative word is its own wrap-around (`x < 0 ? x + n : x`). -/
theorem wrap_id (x n : BitVec 32) (hx : x.toNat < 2 ^ 31) :
    Scalar.select (IntOp.cmpi .slt x 0#32) (IntOp.addi x n) x = x := by
  unfold Scalar.select
  refine if_neg fun h => ?_
  have h' := (slt_iff_toNat hx (by decide)).mp h
  exact absurd h' (by simp)

/-- A word below `N` read signed and clamped into `[0, N − 1]` is the word. -/
theorem clamp_id (x : BitVec 32) (N : Nat) (hN : N ≤ 2 ^ 31) (hx : x.toNat < N) :
    min x.toInt.toNat (N - 1) = x.toNat := by
  rw [toInt_eq_toNat_of_lt (by omega), Int.toNat_natCast]
  omega

/-! ## The per-edge update, entry by entry -/

section Atom

variable (a0 : (⟨S50000x128, .f32⟩ : BufTy).Contents (Elt Ideal)) (a2 : (⟨S2x500000, .i32⟩ : BufTy).Contents (Elt Ideal)) (a3 : (⟨S500000, .i32⟩ : BufTy).Contents (Elt Ideal)) (a4 : (⟨S500000x2, .f32⟩ : BufTy).Contents (Elt Ideal)) (a5 : (⟨S500000x3, .f32⟩ : BufTy).Contents (Elt Ideal)) (a9 : (⟨S100x128, .f32⟩ : BufTy).Contents (Elt Ideal)) (a10 : (⟨S386x128, .f32⟩ : BufTy).Contents (Elt Ideal)) (a11 : (⟨S128, .f32⟩ : BufTy).Contents (Elt Ideal)) (a12 : (⟨S128x128, .f32⟩ : BufTy).Contents (Elt Ideal)) (a13 : (⟨S128, .f32⟩ : BufTy).Contents (Elt Ideal)) (a14 : (⟨S128x1, .f32⟩ : BufTy).Contents (Elt Ideal))

/-- The edge's source node as a node number, from the range hypothesis. -/
abbrev rowFin (hidx : ∀ i, (a2 i).toNat < 50000) (e : Fin 500000) : Fin 50000 := ⟨(a2 (ix2 (0 : Fin 2) e)).toNat, hidx _⟩
/-- The edge's target node as a node number. -/
abbrev colFin (hidx : ∀ i, (a2 i).toNat < 50000) (e : Fin 500000) : Fin 50000 := ⟨(a2 (ix2 (1 : Fin 2) e)).toNat, hidx _⟩
/-- The edge's bond type as a row number of the embedding table. -/
abbrev typFin (htyp : ∀ i, (a3 i).toNat < 100) (e : Fin 500000) : Fin 100 := ⟨(a3 (ix1 e)).toNat, htyp _⟩

/-- The source row of the edge list, read at edge e. -/
theorem src_read (e : Fin 500000) : val_main_v1 (F := Ideal) a2 (ix1 e) = a2 (ix2 (0 : Fin 2) e) := by
  rw [val_main_v1_apply,
    show idx_main_v1 (ix1 e) = ix2 (0 : Fin 1) e from
      (eq_ix2 _).trans (congrArg (ix2 (0 : Fin 1)) (Fin.ext (Nat.mod_eq_of_lt e.isLt))),
    val_main_v0_apply, show idx_main_v0 (ix2 (0 : Fin 1) e) = ix2 (0 : Fin 2) e from eq_ix2 _]

theorem rowOf_read (e : Fin 500000) : rowOf a2 (ix1 e) = a2 (ix2 (0 : Fin 2) e) := src_read a2 e

/-- The target row of the edge list, read at edge e. -/
theorem dst_read (e : Fin 500000) : val_main_v3 (F := Ideal) a2 (ix1 e) = a2 (ix2 (1 : Fin 2) e) := by
  rw [val_main_v3_apply,
    show idx_main_v3 (ix1 e) = ix2 (0 : Fin 1) e from
      (eq_ix2 _).trans (congrArg (ix2 (0 : Fin 1)) (Fin.ext (Nat.mod_eq_of_lt e.isLt))),
    val_main_v2_apply, show idx_main_v2 (ix2 (0 : Fin 1) e) = ix2 (1 : Fin 2) e from eq_ix2 _]

/-- In range, the wrapped source numbers are the source numbers. -/
theorem src_wrap_read (hidx : ∀ i, (a2 i).toNat < 50000) (e : Fin 500000) :
    val_main_v28 (F := Ideal) a2 (ix2 e (0 : Fin 1)) = a2 (ix2 (0 : Fin 2) e) := by
  rw [val_main_v28_apply, show idx_main_v28 (ix2 e (0 : Fin 1)) = ix1 e from eq_ix1 _, val_main_v27_apply,
    val_main_v24_apply, val_main_v26_apply, val_main_v23_apply, val_main_c_3_apply, val_main_v25_apply,
    val_main_c_4_apply, src_read]
  exact wrap_id _ _ (by have := hidx (ix2 (0 : Fin 2) e); omega)

/-- In range, the wrapped target numbers are the target numbers. -/
theorem dst_wrap_read (hidx : ∀ i, (a2 i).toNat < 50000) (e : Fin 500000) :
    val_main_v35 (F := Ideal) a2 (ix2 e (0 : Fin 1)) = a2 (ix2 (1 : Fin 2) e) := by
  rw [val_main_v35_apply, show idx_main_v35 (ix2 e (0 : Fin 1)) = ix1 e from eq_ix1 _, val_main_v34_apply,
    val_main_v31_apply, val_main_v33_apply, val_main_v30_apply, val_main_c_5_apply, val_main_v32_apply,
    val_main_c_6_apply, dst_read]
  exact wrap_id _ _ (by have := hidx (ix2 (1 : Fin 2) e); omega)

/-- In range, the wrapped bond types are the bond types. -/
theorem typ_wrap_read (htyp : ∀ i, (a3 i).toNat < 100) (e : Fin 500000) :
    val_main_v9 (F := Ideal) a3 (ix2 e (0 : Fin 1)) = a3 (ix1 e) := by
  rw [val_main_v9_apply, show idx_main_v9 (ix2 e (0 : Fin 1)) = ix1 e from eq_ix1 _, val_main_v8_apply,
    val_main_v5_apply, val_main_v7_apply, val_main_v4_apply, val_main_c_apply, val_main_v6_apply,
    val_main_c_0_apply]
  exact wrap_id _ _ (by have := htyp (ix1 e); omega)

/-- The source endpoint's features: the node-feature table's row `row e`. -/
theorem hrow_read (hidx : ∀ i, (a2 i).toNat < 50000) (e : Fin 500000) (k : Fin 128) :
    val_main_v29 (F := Ideal) a0 a2 (ix2 e k) = a0 (ix2 (rowFin a2 hidx e) k) := by
  unfold val_main_v29
  refine (gather_rows_apply (N := 50000) (E := 500000) (C := 128) (by decide) _ a0 _ e k).trans ?_
  refine congrArg a0 (congrArg (fun r => ix2 r k) (Fin.ext ?_))
  show min (val_main_v28 (F := Ideal) a2 (ix2 e (0 : Fin 1))).toInt.toNat (50000 - 1) = _
  rw [src_wrap_read a2 hidx]
  exact clamp_id _ 50000 (by decide) (hidx _)

/-- The target endpoint's features: the node-feature table's row `col e`. -/
theorem hcol_read (hidx : ∀ i, (a2 i).toNat < 50000) (e : Fin 500000) (k : Fin 128) :
    val_main_v36 (F := Ideal) a0 a2 (ix2 e k) = a0 (ix2 (colFin a2 hidx e) k) := by
  unfold val_main_v36
  refine (gather_rows_apply (N := 50000) (E := 500000) (C := 128) (by decide) _ a0 _ e k).trans ?_
  refine congrArg a0 (congrArg (fun r => ix2 r k) (Fin.ext ?_))
  show min (val_main_v35 (F := Ideal) a2 (ix2 e (0 : Fin 1))).toInt.toNat (50000 - 1) = _
  rw [dst_wrap_read a2 hidx]
  exact clamp_id _ 50000 (by decide) (hidx _)

/-- The bond embedding: the table's row `typ e`. -/
theorem bond_read (htyp : ∀ i, (a3 i).toNat < 100) (e : Fin 500000) (k : Fin 128) :
    val_main_v10 (F := Ideal) a3 a9 (ix2 e k) = a9 (ix2 (typFin a3 htyp e) k) := by
  unfold val_main_v10
  refine (gather_rows_apply (N := 100) (E := 500000) (C := 128) (by decide) _ a9 _ e k).trans ?_
  refine congrArg a9 (congrArg (fun r => ix2 r k) (Fin.ext ?_))
  show min (val_main_v9 (F := Ideal) a3 (ix2 e (0 : Fin 1))).toInt.toNat (100 - 1) = _
  rw [typ_wrap_read a3 htyp]
  exact clamp_id _ 100 (by decide) (htyp _)

/-- The perceptron's input row of an edge: the four arrays laid side by side, read in the piece that holds column q. -/
theorem inpA_read (hidx : ∀ i, (a2 i).toNat < 50000) (htyp : ∀ i, (a3 i).toNat < 100) (e : Fin 500000) (q : Fin 386) :
    val_main_v37 (F := Ideal) a0 a2 a3 a4 a9 (ix2 e q) = Spec.inpA (cur2 a0) (rowFin a2 hidx) (colFin a2 hidx) (typFin a3 htyp) (cur2 a4) (cur2 a9) e q := by
  unfold val_main_v37 Spec.inpA
  by_cases h1 : q.val < 128
  · rw [dif_pos h1]
    refine ((concatenate_apply_piece (1 : Fin 2) _ _ (ix2 e q) 0 (by show (0 : Nat) < 4; decide) S500000x128 _ rfl rfl 0 rfl
        (ix2 e ⟨q.val, h1⟩) (fun b => match b with | ⟨0, _⟩ => fun _ => rfl | ⟨1, _⟩ => fun h => absurd rfl h)
        (Nat.zero_add _))).trans ?_
    exact hrow_read a0 a2 hidx e _
  · rw [dif_neg h1]
    by_cases h2 : q.val < 256
    · rw [dif_pos h2]
      refine ((concatenate_apply_piece (1 : Fin 2) _ _ (ix2 e q) 1 (by show (1 : Nat) < 4; decide) S500000x128 _ rfl rfl 128 rfl
        (ix2 e ⟨q.val - 128, by omega⟩) (fun b => match b with | ⟨0, _⟩ => fun _ => rfl | ⟨1, _⟩ => fun h => absurd rfl h)
        (by show 128 + (q.val - 128) = q.val; omega))).trans ?_
      exact hcol_read a0 a2 hidx e _
    · rw [dif_neg h2]
      by_cases h3 : q.val < 258
      · rw [dif_pos h3]
        exact (concatenate_apply_piece (1 : Fin 2) _ _ (ix2 e q) 2 (by show (2 : Nat) < 4; decide) S500000x2 _ rfl rfl 256 rfl
        (ix2 e ⟨q.val - 256, by omega⟩) (fun b => match b with | ⟨0, _⟩ => fun _ => rfl | ⟨1, _⟩ => fun h => absurd rfl h)
        (by show 256 + (q.val - 256) = q.val; omega))
      · rw [dif_neg h3]
        refine ((concatenate_apply_piece (1 : Fin 2) _ _ (ix2 e q) 3 (by show (3 : Nat) < 4; decide) S500000x128 _ rfl rfl 258 rfl
        (ix2 e ⟨q.val - 258, by have := q.isLt; omega⟩) (fun b => match b with | ⟨0, _⟩ => fun _ => rfl | ⟨1, _⟩ => fun h => absurd rfl h)
        (by show 258 + (q.val - 258) = q.val; omega))).trans ?_
        exact bond_read a3 a9 htyp e _

/-- The first layer before its gate. -/
theorem z1A_read (hidx : ∀ i, (a2 i).toNat < 50000) (htyp : ∀ i, (a3 i).toNat < 100) (e : Fin 500000) (l : Fin 128) :
    val_main_v43 (F := Ideal) a0 a2 a3 a4 a9 a10 a11 (ix2 e l) = Spec.z1A (cur2 a0) (rowFin a2 hidx) (colFin a2 hidx) (typFin a3 htyp) (cur2 a4) (cur2 a9) (cur2 a10) (cur1 a11) e l := by
  rw [val_main_v43_apply, val_main_v40_apply, val_main_v42_apply,
    show idx_main_v42 (ix2 e l) = ix2 (0 : Fin 1) l from eq_ix2 _, val_main_v41_apply,
    show idx_main_v41 (ix2 (0 : Fin 1) l) = ix1 l from eq_ix1 _, Ideal.addf_def]
  unfold Spec.z1A
  refine congrArg (· + _) (Finset.sum_congr rfl fun q _ => ?_)
  rw [show lidx_main_v40 (ix2 e l) q = ix2 e q from eq_ix2 _, show ridx_main_v40 (ix2 e l) q = ix2 q l from eq_ix2 _,
    inpA_read a0 a2 a3 a4 a9 hidx htyp]

/-- The first layer's gate, as the program spells it, is the smooth gate. -/
theorem gate1A_read (y : S500000x128.Idx) :
    val_main_v44 (F := Ideal) a0 a2 a3 a4 a9 a10 a11 y = Spec.silu (val_main_v43 (F := Ideal) a0 a2 a3 a4 a9 a10 a11 y) := by
  rw [val_main_v44_apply, val_main_call0_v5_apply, val_main_call0_v4_apply, val_main_call0_cst_0_apply,
    val_main_call0_v3_apply, val_main_call0_v2_apply, val_main_call0_cst_apply, val_main_call0_v1_apply,
    val_main_call0_v0_apply]
  simp only [Spec.silu, Ideal.mulf_def, Ideal.hostDivf_def, Ideal.addf_def, Ideal.hostUnary_exp_def, Ideal.hostNegf_def,
    Ideal.negf_def, Ideal.ofBits_def, ofBits_one_f32]

/-- The second layer before its gate. -/
theorem z2A_read (hidx : ∀ i, (a2 i).toNat < 50000) (htyp : ∀ i, (a3 i).toNat < 100) (e : Fin 500000) (k : Fin 128) :
    val_main_v48 (F := Ideal) a0 a2 a3 a4 a9 a10 a11 a12 a13 (ix2 e k)
      = Spec.z2A (cur2 a0) (rowFin a2 hidx) (colFin a2 hidx) (typFin a3 htyp) (cur2 a4) (cur2 a9) (cur2 a10) (cur1 a11) (cur2 a12) (cur1 a13) e k := by
  rw [val_main_v48_apply, val_main_v45_apply, val_main_v47_apply,
    show idx_main_v47 (ix2 e k) = ix2 (0 : Fin 1) k from eq_ix2 _, val_main_v46_apply,
    show idx_main_v46 (ix2 (0 : Fin 1) k) = ix1 k from eq_ix1 _, Ideal.addf_def]
  unfold Spec.z2A
  refine congrArg (· + _) (Finset.sum_congr rfl fun l _ => ?_)
  rw [show lidx_main_v45 (ix2 e k) l = ix2 e l from eq_ix2 _, show ridx_main_v45 (ix2 e k) l = ix2 l k from eq_ix2 _,
    gate1A_read, z1A_read a0 a2 a3 a4 a9 a10 a11 hidx htyp]

/-- The second layer's gate is the smooth gate. -/
theorem gate2A_read (y : S500000x128.Idx) :
    val_main_v49 (F := Ideal) a0 a2 a3 a4 a9 a10 a11 a12 a13 y = Spec.silu (val_main_v48 (F := Ideal) a0 a2 a3 a4 a9 a10 a11 a12 a13 y) := by
  rw [val_main_v49_apply, val_main_call1_v5_apply, val_main_call1_v4_apply, val_main_call1_cst_0_apply,
    val_main_call1_v3_apply, val_main_call1_v2_apply, val_main_call1_cst_apply, val_main_call1_v1_apply,
    val_main_call1_v0_apply]
  simp only [Spec.silu, Ideal.mulf_def, Ideal.hostDivf_def, Ideal.addf_def, Ideal.hostUnary_exp_def, Ideal.hostNegf_def,
    Ideal.negf_def, Ideal.ofBits_def, ofBits_one_f32]

/-- The perceptron's one output. -/
theorem mA_read (hidx : ∀ i, (a2 i).toNat < 50000) (htyp : ∀ i, (a3 i).toNat < 100) (e : Fin 500000) :
    val_main_v50 (F := Ideal) a0 a2 a3 a4 a9 a10 a11 a12 a13 a14 (ix2 e (0 : Fin 1))
      = Spec.mA (cur2 a0) (rowFin a2 hidx) (colFin a2 hidx) (typFin a3 htyp) (cur2 a4) (cur2 a9) (cur2 a10) (cur1 a11) (cur2 a12) (cur1 a13) (cur2 a14) e := by
  rw [val_main_v50_apply]
  unfold Spec.mA
  refine Finset.sum_congr rfl fun k _ => ?_
  rw [show lidx_main_v50 (ix2 e (0 : Fin 1)) k = ix2 e k from eq_ix2 _,
    show ridx_main_v50 (ix2 e (0 : Fin 1)) k = ix2 k (0 : Fin 1) from eq_ix2 _, gate2A_read,
    z2A_read a0 a2 a3 a4 a9 a10 a11 a12 a13 hidx htyp]

/-- THE PER-EDGE UPDATE at edge e, column j is the specification's closed form of the curried arguments, the edge's
    endpoints and bond type read off the index arrays as numbers in range. -/
theorem transAtom_read (hidx : ∀ i, (a2 i).toNat < 50000) (htyp : ∀ i, (a3 i).toNat < 100) (e : Fin 500000) (j : Fin 3) :
    TA a0 a2 a3 a4 a5 a9 a10 a11 a12 a13 a14 (ix2 e j)
      = Spec.transAtom (cur2 a0) (rowFin a2 hidx) (colFin a2 hidx) (typFin a3 htyp) (cur2 a4) (cur2 a5) (cur2 a9)
          (cur2 a10) (cur1 a11) (cur2 a12) (cur1 a13) (cur2 a14) e j := by
  unfold TA
  rw [val_main_v66_apply, val_main_v64_apply, val_main_v63_apply,
    show idx_main_v63 (ix2 e j) = ix2 e (0 : Fin 1) from eq_ix2 _, val_main_v62_apply,
    mA_read a0 a2 a3 a4 a9 a10 a11 a12 a13 a14 hidx htyp, val_main_v65_apply, val_main_cst_7_apply]
  rfl

end Atom

end Cert.ReferenceIdeal.Hand

end
-- ==== Proof.TailEq.lean ====
/-
  The kernel program's tail and the reference program's tail are one function. Each program prints its own copies of
  the array shapes, of the scatter's dimension record and of the side facts; the shapes are the same literals, the
  two records have the same fields, and the side facts are propositions, so the two compositions are the same term.
  Likewise the two programs' row vectors (row 0 of the edge list, cut out and flattened).
-/
import proofs.«426145_j45973329936455_2_alg».proof.Proof.KI.Tail
import proofs.«426145_j45973329936455_2_alg».proof.Proof.RefRun

noncomputable section

namespace Cert.Hand.TailEq

open Idealize.ShloMosaic

/-- The two programs' scatter records are the same record. -/
theorem scatter_eq :
    Cert.KernelIdeal.scatter_S50000x3_S500000x1_S500000x3_1_0_0_1
      = Cert.ReferenceIdeal.scatter_S50000x3_S500000x1_S500000x3_1_0_0_1 := rfl

/-- The kernel program's tail is the reference program's tail. -/
theorem tail_eq_ref (x : FVec Ideal Cert.KernelIdeal.S50000x3 .f32) (r : IVec Cert.KernelIdeal.S500000 32)
    (ta : FVec Ideal Cert.KernelIdeal.S500000x3 .f32) (tf : FVec Ideal Cert.KernelIdeal.S50000x3 .f32) :
    Cert.KernelIdeal.Hand.tailK x r ta tf = Cert.ReferenceIdeal.Hand.tailFn x r ta tf := by
  unfold Cert.KernelIdeal.Hand.tailK Cert.ReferenceIdeal.Hand.tailFn
  rw [scatter_eq]

/-- The kernel program's row vector is the reference program's. -/
theorem rowOf_eq_ref (a2 : IVec Cert.KernelIdeal.S2x500000 32) :
    Cert.KernelIdeal.Hand.rowOf a2 = Cert.ReferenceIdeal.Hand.rowOf a2 := by
  unfold Cert.KernelIdeal.Hand.rowOf Cert.ReferenceIdeal.Hand.rowOf Cert.ReferenceIdeal.Read.val_main_v1
    Cert.ReferenceIdeal.Read.val_main_v0
  with_reducible rfl

end Cert.Hand.TailEq

end
-- ==== Proof.Glue.lean ====
/-
  The two programs' results joined. The reference program's result is its tail applied to the node coordinates, the
  edge list's first row, and its two sub-results (the per-edge and the per-node update); the kernel program's result is
  the same tail applied to the same coordinates and row and to what its two kernel regions leave in their output
  arrays. So, from memories that agree on the twenty arguments, the two results are equal as soon as each region's
  output array is, entry by entry, the specification's closed form of the arguments: the reference's sub-results are
  those closed forms entry by entry as well.
-/
import proofs.«426145_j45973329936455_2_alg».proof.Proof.TailEq
import proofs.«426145_j45973329936455_2_alg».proof.Proof.KI.Tail
import proofs.«426145_j45973329936455_2_alg».proof.Proof.RefRun
import proofs.«426145_j45973329936455_2_alg».proof.Proof.Spec

noncomputable section

namespace Cert.Hand.Glue

open Idealize.ShloMosaic Idealize.ShloMosaic.TcCoe Idealize.SL.Sem Idealize.ShloMosaic.ValueIdx

/-- THE TWO RESULTS ARE EQUAL: from memories agreeing on the arguments, with both index arrays in range, if the first
    region leaves the per-node update's closed form in its output array and the second region the per-edge update's,
    then the reference's result is what the kernel program's result array holds after its last host stretch. -/
theorem glue (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (outs : Cert.KernelIdeal.Gen.Outs (F := Ideal)) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (hidx : ∀ i, ((m ((c.tc : Thread Cert.KernelIdeal.nD Cert.KernelIdeal.τ).loc Cert.KernelIdeal.main_arg2)) i).toNat < 50000)
    (htyp : ∀ i, ((m ((c.tc : Thread Cert.KernelIdeal.nD Cert.KernelIdeal.τ).loc Cert.KernelIdeal.main_arg3)) i).toNat < 100)
    (hTF : ∀ (i : Fin 50000) (j : Fin 3), outs 5 Cert.KernelIdeal.main_v19 c (ix2 i j)
        = Cert.Hand.Spec.transFrag (fun i k => (m ((c.tc : Thread Cert.KernelIdeal.nD Cert.KernelIdeal.τ).loc Cert.KernelIdeal.main_arg0)) (ix2 i k)) (fun i k => (m ((c.tc : Thread Cert.KernelIdeal.nD Cert.KernelIdeal.τ).loc Cert.KernelIdeal.main_arg1)) (ix2 i k)) (fun i k => (m ((c.tc : Thread Cert.KernelIdeal.nD Cert.KernelIdeal.τ).loc Cert.KernelIdeal.main_arg6)) (ix2 i k)) (fun i k => (m ((c.tc : Thread Cert.KernelIdeal.nD Cert.KernelIdeal.τ).loc Cert.KernelIdeal.main_arg7)) (ix2 i k)) (fun i k => (m ((c.tc : Thread Cert.KernelIdeal.nD Cert.KernelIdeal.τ).loc Cert.KernelIdeal.main_arg8)) (ix2 i k))
          (fun i k => (m ((c.tc : Thread Cert.KernelIdeal.nD Cert.KernelIdeal.τ).loc Cert.KernelIdeal.main_arg15)) (ix2 i k)) (fun k => (m ((c.tc : Thread Cert.KernelIdeal.nD Cert.KernelIdeal.τ).loc Cert.KernelIdeal.main_arg16)) (ix1 k)) (fun i k => (m ((c.tc : Thread Cert.KernelIdeal.nD Cert.KernelIdeal.τ).loc Cert.KernelIdeal.main_arg17)) (ix2 i k)) (fun k => (m ((c.tc : Thread Cert.KernelIdeal.nD Cert.KernelIdeal.τ).loc Cert.KernelIdeal.main_arg18)) (ix1 k)) (fun i k => (m ((c.tc : Thread Cert.KernelIdeal.nD Cert.KernelIdeal.τ).loc Cert.KernelIdeal.main_arg19)) (ix2 i k)) i j)
    (hTA : ∀ (e : Fin 500000) (j : Fin 3), outs 9 Cert.KernelIdeal.main_v36 c (ix2 e j)
        = Cert.Hand.Spec.transAtom (fun i k => (m ((c.tc : Thread Cert.KernelIdeal.nD Cert.KernelIdeal.τ).loc Cert.KernelIdeal.main_arg0)) (ix2 i k))
          (fun e => ⟨((m ((c.tc : Thread Cert.KernelIdeal.nD Cert.KernelIdeal.τ).loc Cert.KernelIdeal.main_arg2)) (ix2 (0 : Fin 2) e)).toNat, hidx _⟩)
          (fun e => ⟨((m ((c.tc : Thread Cert.KernelIdeal.nD Cert.KernelIdeal.τ).loc Cert.KernelIdeal.main_arg2)) (ix2 (1 : Fin 2) e)).toNat, hidx _⟩)
          (fun e => ⟨((m ((c.tc : Thread Cert.KernelIdeal.nD Cert.KernelIdeal.τ).loc Cert.KernelIdeal.main_arg3)) (ix1 e)).toNat, htyp _⟩)
          (fun i k => (m ((c.tc : Thread Cert.KernelIdeal.nD Cert.KernelIdeal.τ).loc Cert.KernelIdeal.main_arg4)) (ix2 i k)) (fun i k => (m ((c.tc : Thread Cert.KernelIdeal.nD Cert.KernelIdeal.τ).loc Cert.KernelIdeal.main_arg5)) (ix2 i k)) (fun i k => (m ((c.tc : Thread Cert.KernelIdeal.nD Cert.KernelIdeal.τ).loc Cert.KernelIdeal.main_arg9)) (ix2 i k)) (fun i k => (m ((c.tc : Thread Cert.KernelIdeal.nD Cert.KernelIdeal.τ).loc Cert.KernelIdeal.main_arg10)) (ix2 i k))
          (fun k => (m ((c.tc : Thread Cert.KernelIdeal.nD Cert.KernelIdeal.τ).loc Cert.KernelIdeal.main_arg11)) (ix1 k)) (fun i k => (m ((c.tc : Thread Cert.KernelIdeal.nD Cert.KernelIdeal.τ).loc Cert.KernelIdeal.main_arg12)) (ix2 i k)) (fun k => (m ((c.tc : Thread Cert.KernelIdeal.nD Cert.KernelIdeal.τ).loc Cert.KernelIdeal.main_arg13)) (ix1 k)) (fun i k => (m ((c.tc : Thread Cert.KernelIdeal.nD Cert.KernelIdeal.τ).loc Cert.KernelIdeal.main_arg14)) (ix2 i k)) e j) :
    Cert.ReferenceIdeal.Hand.refResult (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18))
        (m' ((c.tc : Thread Cert.ReferenceIdeal.nD Cert.ReferenceIdeal.τ).loc Cert.ReferenceIdeal.main_arg19))
      = Cert.KernelIdeal.Gen.V10 m outs c Cert.KernelIdeal.main_v43 := by
  obtain ⟨h0, h1, h2, h3, h4, h5, h6, h7, h8, h9, h10, h11, h12, h13, h14, h15, h16, h17, h18, h19⟩ := hagree
  rw [h0, h1, h2, h3, h4, h5, h6, h7, h8, h9, h10, h11, h12, h13, h14, h15, h16, h17, h18, h19, Cert.ReferenceIdeal.Hand.refResult_eq, Cert.KernelIdeal.Hand.result_eq m outs c,
    Cert.Hand.TailEq.tail_eq_ref, Cert.Hand.TailEq.rowOf_eq_ref]
  have eTA : Cert.ReferenceIdeal.Hand.TA (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = outs 9 Cert.KernelIdeal.main_v36 c := by
    funext i
    obtain ⟨p, q, rfl⟩ : ∃ (p : Fin 500000) (q : Fin 3), i = ix2 p q := ⟨i 0, i 1, eq_ix2 i⟩
    rw [Cert.ReferenceIdeal.Hand.transAtom_read _ _ _ _ _ _ _ _ _ _ _ hidx htyp p q]
    exact (hTA p q).symm
  have eTF : Cert.ReferenceIdeal.Hand.TF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))
      = outs 5 Cert.KernelIdeal.main_v19 c := by
    funext i
    obtain ⟨p, q, rfl⟩ : ∃ (p : Fin 50000) (q : Fin 3), i = ix2 p q := ⟨i 0, i 1, eq_ix2 i⟩
    rw [Cert.ReferenceIdeal.Hand.transFrag_read _ _ _ _ _ _ _ _ _ _ p q]
    exact (hTF p q).symm
  rw [eTA, eTF]

end Cert.Hand.Glue

end
-- ==== Proof.PreDecode.lean ====
/-
  The precondition, decoded. The printed predicate is one chain of 22 conjuncts, each a conjunction over all
  entries of one array: for each of the eighteen float inputs x, |x| < +∞ at every entry (|x| = max x (-x) in the
  extended reals, and the pattern 0x7F800000 denotes +∞), and for the two integer inputs, 0 ≤ a2 < 50000 and
  0 ≤ a3 < 100 at every entry, compared signed. A conjunction over all entries that holds, holds at each entry; an
  extended real x with max x (-x) < +∞ is neither +∞ nor -∞, hence a real; a 32-bit word in [0, n) signed reads the same
  unsigned, so it is below n unsigned as well.
-/
import proofs.«426145_j45973329936455_2_alg».proof.Pre_finite_inputs
import proofs.«426145_j45973329936455_2_alg».proof.Proof.Gen.Pre_finite_inputs
import Idealize.ShloMosaic.PureOps.Ideal
import Idealize.ShloMosaic.Lib.ReduceAll
import Idealize.ShloMosaic.Lib.ValueIdx

noncomputable section

namespace Cert.Hand.Pre

open Idealize.ShloMosaic
open Cert.Pre_finite_inputs

/-- The rank-0 shape has one index. -/
instance subsingleton_S_ : Subsingleton S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- An extended real x with max x (-x) < +∞ is a real: +∞ and -∞ both have max x (-x) = +∞. -/
theorem real_of_abs_lt (x : Ideal .f32)
    (h : FloatOps.cmpf (F := Ideal) (φ := .f32) .olt (FloatOps.hostAbsf x) (FloatOps.ofBits .f32 0x7F800000#32) = 1#1) :
    ∃ r : ℝ, x = (r : EReal) := by
  change BitVec.ofBool (decide (max x (-x) < Ideal.ofBits .f32 0x7F800000#32)) = 1#1 at h
  rw [ofBits_inf] at h
  induction x using EReal.rec with
  | bot => simp at h
  | coe r => exact ⟨r, rfl⟩
  | top => simp at h

/-- "|x| < +∞ at every entry" that holds gives a real at every entry. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (h : Host.reduce IntOp.andi (cmpf .olt (Host.absf x) (broadcastInDim s ![] hb (constant S_ .f32 0x7F800000#32)))
      init hr hu j = 1#1) :
    ∀ i, ∃ r : ℝ, x i = (r : EReal) := fun i =>
  real_of_abs_lt (x i) (Host.reduce_andi_all _ init hr hu j h i)

/-- "c ≤ x at every entry", signed, that holds gives c ≤ x at every entry. -/
theorem all_sge {s : Shape} {axes : List (Fin s.rank)} (c : BitVec 32) (x : IVec s 32)
    (hb : S_.BroadcastsInDim s (![] : Fin 0 → Fin s.rank)) (hr : s.ReducesTo axes S_) (hu : 0 < S_.numel)
    (init : IVec S_ 1) (j : S_.Idx)
    (h : Host.reduce IntOp.andi (cmpi .sge x (broadcastInDim s ![] hb (constantI S_ 32 c))) init hr hu j = 1#1) :
    ∀ i, c.toInt ≤ (x i).toInt := fun i => by
  have e : IntOp.cmpi .sge (x i) c = 1#1 := Host.reduce_andi_all _ init hr hu j h i
  exact IntOp.cmpi_sge.1 e

/-- "x < c at every entry", signed, that holds gives x < c at every entry. -/
theorem all_slt {s : Shape} {axes : List (Fin s.rank)} (c : BitVec 32) (x : IVec s 32)
    (hb : S_.BroadcastsInDim s (![] : Fin 0 → Fin s.rank)) (hr : s.ReducesTo axes S_) (hu : 0 < S_.numel)
    (init : IVec S_ 1) (j : S_.Idx)
    (h : Host.reduce IntOp.andi (cmpi .slt x (broadcastInDim s ![] hb (constantI S_ 32 c))) init hr hu j = 1#1) :
    ∀ i, (x i).toInt < c.toInt := fun i => by
  have e : IntOp.cmpi .slt (x i) c = 1#1 := Host.reduce_andi_all _ init hr hu j h i
  exact IntOp.cmpi_slt.1 e

/-- A 32-bit word in [0, n) read signed is below n read unsigned. -/
theorem toNat_lt_of_toInt (w : BitVec 32) (n : Nat) (h0 : 0 ≤ w.toInt) (h1 : w.toInt < n) : w.toNat < n := by
  have e := BitVec.toInt_eq_toNat_cond w
  have hw := w.isLt
  split at e <;> omega

/-- What the precondition says, entry by entry. -/
structure Decoded (a0 : FVec Ideal S50000x128 .f32) (a1 : FVec Ideal S50000x3 .f32) (a2 : IVec S2x500000 32) (a3 : IVec S500000 32) (a4 : FVec Ideal S500000x2 .f32) (a5 : FVec Ideal S500000x3 .f32) (a6 : FVec Ideal S2000x128 .f32) (a7 : FVec Ideal S2000x3 .f32) (a8 : FVec Ideal S50000x2000 .f32) (a9 : FVec Ideal S100x128 .f32) (a10 : FVec Ideal S386x128 .f32) (a11 : FVec Ideal S128 .f32) (a12 : FVec Ideal S128x128 .f32) (a13 : FVec Ideal S128 .f32) (a14 : FVec Ideal S128x1 .f32) (a15 : FVec Ideal S258x128 .f32) (a16 : FVec Ideal S128 .f32) (a17 : FVec Ideal S128x128 .f32) (a18 : FVec Ideal S128 .f32) (a19 : FVec Ideal S128x1 .f32) : Prop where
  /-- every entry of input 0 is a real number -/
  fin0 : ∀ i, ∃ r : ℝ, a0 i = (r : EReal)
  /-- every entry of input 1 is a real number -/
  fin1 : ∀ i, ∃ r : ℝ, a1 i = (r : EReal)
  /-- every entry of input 4 is a real number -/
  fin4 : ∀ i, ∃ r : ℝ, a4 i = (r : EReal)
  /-- every entry of input 5 is a real number -/
  fin5 : ∀ i, ∃ r : ℝ, a5 i = (r : EReal)
  /-- every entry of input 6 is a real number -/
  fin6 : ∀ i, ∃ r : ℝ, a6 i = (r : EReal)
  /-- every entry of input 7 is a real number -/
  fin7 : ∀ i, ∃ r : ℝ, a7 i = (r : EReal)
  /-- every entry of input 8 is a real number -/
  fin8 : ∀ i, ∃ r : ℝ, a8 i = (r : EReal)
  /-- every entry of input 9 is a real number -/
  fin9 : ∀ i, ∃ r : ℝ, a9 i = (r : EReal)
  /-- every entry of input 10 is a real number -/
  fin10 : ∀ i, ∃ r : ℝ, a10 i = (r : EReal)
  /-- every entry of input 11 is a real number -/
  fin11 : ∀ i, ∃ r : ℝ, a11 i = (r : EReal)
  /-- every entry of input 12 is a real number -/
  fin12 : ∀ i, ∃ r : ℝ, a12 i = (r : EReal)
  /-- every entry of input 13 is a real number -/
  fin13 : ∀ i, ∃ r : ℝ, a13 i = (r : EReal)
  /-- every entry of input 14 is a real number -/
  fin14 : ∀ i, ∃ r : ℝ, a14 i = (r : EReal)
  /-- every entry of input 15 is a real number -/
  fin15 : ∀ i, ∃ r : ℝ, a15 i = (r : EReal)
  /-- every entry of input 16 is a real number -/
  fin16 : ∀ i, ∃ r : ℝ, a16 i = (r : EReal)
  /-- every entry of input 17 is a real number -/
  fin17 : ∀ i, ∃ r : ℝ, a17 i = (r : EReal)
  /-- every entry of input 18 is a real number -/
  fin18 : ∀ i, ∃ r : ℝ, a18 i = (r : EReal)
  /-- every entry of input 19 is a real number -/
  fin19 : ∀ i, ∃ r : ℝ, a19 i = (r : EReal)
  /-- every entry of input 2 is in [0, 50000), read signed -/
  idx_range : ∀ i, 0 ≤ (a2 i).toInt ∧ (a2 i).toInt < 50000
  /-- every entry of input 3 is in [0, 100), read signed -/
  type_range : ∀ i, 0 ≤ (a3 i).toInt ∧ (a3 i).toInt < 100
  /-- every entry of input 2 is below 50000, read unsigned -/
  idx_lt : ∀ i, (a2 i).toNat < 50000
  /-- every entry of input 3 is below 100, read unsigned -/
  type_lt : ∀ i, (a3 i).toNat < 100

variable [Facts]

/-- THE PRECONDITION DECODED: the printed predicate holding gives every float entry real and both integer
    inputs in range. -/
theorem decode (a0 : FVec Ideal S50000x128 .f32) (a1 : FVec Ideal S50000x3 .f32) (a2 : IVec S2x500000 32) (a3 : IVec S500000 32) (a4 : FVec Ideal S500000x2 .f32) (a5 : FVec Ideal S500000x3 .f32) (a6 : FVec Ideal S2000x128 .f32) (a7 : FVec Ideal S2000x3 .f32) (a8 : FVec Ideal S50000x2000 .f32) (a9 : FVec Ideal S100x128 .f32) (a10 : FVec Ideal S386x128 .f32) (a11 : FVec Ideal S128 .f32) (a12 : FVec Ideal S128x128 .f32) (a13 : FVec Ideal S128 .f32) (a14 : FVec Ideal S128x1 .f32) (a15 : FVec Ideal S258x128 .f32) (a16 : FVec Ideal S128 .f32) (a17 : FVec Ideal S128x128 .f32) (a18 : FVec Ideal S128 .f32) (a19 : FVec Ideal S128x1 .f32)
    (h : fn (F := Ideal) a0 a1 a2 a3 a4 a5 a6 a7 a8 a9 a10 a11 a12 a13 a14 a15 a16 a17 a18 a19 = (fun _ => 1#1)) :
    Decoded a0 a1 a2 a3 a4 a5 a6 a7 a8 a9 a10 a11 a12 a13 a14 a15 a16 a17 a18 a19 := by
  have e := congrFun h ValueIdx.ix0
  dsimp only [fn, fn_part1, fn_part2, fn_part3, fn_part4, fn_part5, fn_part6] at e
  simp only [andi, IntOp.andi_eq_one] at e
  obtain ⟨⟨⟨⟨⟨⟨⟨⟨⟨⟨⟨⟨⟨⟨⟨⟨⟨⟨⟨⟨⟨h0, h1⟩, h4⟩, h5⟩, h6⟩, h7⟩, h8⟩, h9⟩, h10⟩, h11⟩, h12⟩, h13⟩, h14⟩, h15⟩, h16⟩, h17⟩, h18⟩, h19⟩, i0⟩, i1⟩, t0⟩, t1⟩ := e
  have z0 : (0#32 : BitVec 32).toInt = 0 := by decide
  have z1 : (50000#32 : BitVec 32).toInt = 50000 := by decide
  have z2 : (100#32 : BitVec 32).toInt = 100 := by decide
  have r2 : ∀ i, 0 ≤ (a2 i).toInt ∧ (a2 i).toInt < 50000 := fun i =>
    ⟨z0 ▸ all_sge _ a2 _ _ _ _ _ i0 i, z1 ▸ all_slt _ a2 _ _ _ _ _ i1 i⟩
  have r3 : ∀ i, 0 ≤ (a3 i).toInt ∧ (a3 i).toInt < 100 := fun i =>
    ⟨z0 ▸ all_sge _ a3 _ _ _ _ _ t0 i, z2 ▸ all_slt _ a3 _ _ _ _ _ t1 i⟩
  exact {
    fin0 := all_real a0 _ _ _ _ _ h0
    fin1 := all_real a1 _ _ _ _ _ h1
    fin4 := all_real a4 _ _ _ _ _ h4
    fin5 := all_real a5 _ _ _ _ _ h5
    fin6 := all_real a6 _ _ _ _ _ h6
    fin7 := all_real a7 _ _ _ _ _ h7
    fin8 := all_real a8 _ _ _ _ _ h8
    fin9 := all_real a9 _ _ _ _ _ h9
    fin10 := all_real a10 _ _ _ _ _ h10
    fin11 := all_real a11 _ _ _ _ _ h11
    fin12 := all_real a12 _ _ _ _ _ h12
    fin13 := all_real a13 _ _ _ _ _ h13
    fin14 := all_real a14 _ _ _ _ _ h14
    fin15 := all_real a15 _ _ _ _ _ h15
    fin16 := all_real a16 _ _ _ _ _ h16
    fin17 := all_real a17 _ _ _ _ _ h17
    fin18 := all_real a18 _ _ _ _ _ h18
    fin19 := all_real a19 _ _ _ _ _ h19
    idx_range := r2
    type_range := r3
    idx_lt := fun i => toNat_lt_of_toInt _ 50000 (r2 i).1 (by exact_mod_cast (r2 i).2)
    type_lt := fun i => toNat_lt_of_toInt _ 100 (r3 i).1 (by exact_mod_cast (r3 i).2) }

end Cert.Hand.Pre

end
-- ==== Proof.Assemble.lean ====
import proofs.«426145_j45973329936455_2_alg».proof.Defs
import proofs.«426145_j45973329936455_2_alg».proof.Proof.Gen.Kernel
import proofs.«426145_j45973329936455_2_alg».proof.Proof.Gen.KernelIdeal
import proofs.«426145_j45973329936455_2_alg».proof.Proof.Gen.ReferenceIdeal
import proofs.«426145_j45973329936455_2_alg».proof.Proof.Gen.Pre_finite_inputs
import proofs.«426145_j45973329936455_2_alg».proof.Proof.K.FrameBits
import proofs.«426145_j45973329936455_2_alg».proof.Proof.KI.ClosedIdeal
import proofs.«426145_j45973329936455_2_alg».proof.Proof.KI.Final0
import proofs.«426145_j45973329936455_2_alg».proof.Proof.KI.Val0
import proofs.«426145_j45973329936455_2_alg».proof.Proof.KI.Final1
import proofs.«426145_j45973329936455_2_alg».proof.Proof.KI.Val1
import proofs.«426145_j45973329936455_2_alg».proof.Proof.Glue
import proofs.«426145_j45973329936455_2_alg».proof.Proof.PreDecode
import proofs.«426145_j45973329936455_2_alg».proof.Proof.RefRun

/-! The five claims. Both programs compute, per node, the node's coordinates plus a hundredth of the per-edge updates
    summed over the edges leaving the node plus the per-node update. The kernel program computes the two updates in
    two pipelined regions, block of rows by block of rows, and the reference computes them as whole arrays; entry by
    entry both are the specification's closed forms of the argument arrays (the per-node update needs the
    coordinates, the assignment matrix and the first layer's weights to be real numbers, which the precondition
    gives, because the kernel multiplies the squared length by the sum of its two weights where the reference adds
    two products; the per-edge update needs the edge endpoints and bond types in range, which the precondition
    gives too). The same tail follows in both programs, so the results are equal. Each program's run also leaves
    its arguments as launched: the three frame claims. The idealized kernel is the kernel's own text, so there is
    nothing to preserve. -/

noncomputable section

namespace Cert.Proof

open Idealize.ShloMosaic Idealize.ShloMosaic.TcCoe Idealize.SL.Sem Idealize.ShloMosaic.ValueIdx

/-- The kernel program, at the machine's words, terminates with its arguments as launched. -/
theorem frame_k : Cert.frame_Kernel := fun m ρ _ => Cert.Kernel.Hand.frame_kernel m ρ

/-- The kernel program, at the extended reals, terminates with its arguments as launched: its run, the result dropped. -/
theorem frame_ki : Cert.frame_KernelIdeal := fun m ρ _ =>
  (θ_run Cert.KernelIdeal.defs _ _).mono (fun _ h c => (h c).2) (Cert.KernelIdeal.Hand.kernel_run_ideal m ρ)

/-- The reference terminates with its arguments as launched. -/
theorem frame_ri : Cert.frame_ReferenceIdeal := Cert.ReferenceIdeal.Hand.frame_ri

/-- Nothing was rewritten between the kernel program and its idealization. -/
theorem preserves : Cert.preserves_Kernel_KernelIdeal := trivial

/-- From memories that agree on the arguments and satisfy the precondition, both programs run and end with equal
    results: the kernel program's result array holds its last host stretch applied to what the two regions leave,
    the regions leave the two updates' closed forms, and the reference's result is the same tail of the same closed
    forms. -/
theorem algebraic : Cert.algebraic_KernelIdeal_ReferenceIdeal := by
  intro m ρ m' ρ' hpre hagree
  refine ⟨fun c => KernelIdeal.Gen.V10 m (KernelIdeal.Hand.outsK m) c KernelIdeal.main_v43,
    KernelIdeal.Hand.kernel_run_ideal m ρ, ?_⟩
  refine (θ_run ReferenceIdeal.defs _ _).mono (fun _ h c => ⟨(h c).1.trans ?_, (h c).2⟩)
    (ReferenceIdeal.Hand.run_ref m' ρ')
  have D := Cert.Hand.Pre.decode _ _ _ _ _ _ _ _ _ _ _ _ _ _ _ _ _ _ _ _ (hpre c)
  exact Cert.Hand.Glue.glue m m' (KernelIdeal.Hand.outsK m) c (hagree c) D.idx_lt D.type_lt
    (fun i j => by
      rw [KernelIdeal.Hand.outsK_v19, KernelIdeal.Hand.final0]
      exact KernelIdeal.Hand.val0 m c D.fin1 D.fin7 D.fin8 D.fin15 i j)
    (fun e j => by
      rw [KernelIdeal.Hand.outsK_v36, KernelIdeal.Hand.final1]
      exact KernelIdeal.Hand.val1 m (KernelIdeal.Hand.outsK m) c D.idx_lt D.type_lt e j)

end Cert.Proof

end
-- ==== Proof.lean ====
/- The certificate's claim, assembled: the kernel program and the reference both terminate with their arguments as
   launched, and at the extended reals, from memories that agree on the arguments and satisfy the precondition (every
   float entry a real number, every edge endpoint a node number, every bond type a row of the embedding table), they
   end with equal results: per node, the node's coordinates plus a hundredth of the per-edge updates summed over the
   edges leaving the node plus the per-node update. The witnesses of the programs' stated facts come first. -/
import proofs.«426145_j45973329936455_2_alg».proof.Defs
import proofs.«426145_j45973329936455_2_alg».proof.Proof.Gen.Kernel
import proofs.«426145_j45973329936455_2_alg».proof.Proof.Gen.KernelIdeal
import proofs.«426145_j45973329936455_2_alg».proof.Proof.Gen.ReferenceIdeal
import proofs.«426145_j45973329936455_2_alg».proof.Proof.Gen.Pre_finite_inputs
import proofs.«426145_j45973329936455_2_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
